-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x16x112x112 : Shape := ⟨5, ![8, 32, 16, 112, 112]⟩
abbrev S8x16x32x112x112 : Shape := ⟨5, ![8, 16, 32, 112, 112]⟩
abbrev S_ : Shape := ⟨0, ![]⟩
abbrev S8x32x112x112 : Shape := ⟨4, ![8, 32, 112, 112]⟩
abbrev S8x16 : Shape := ⟨2, ![8, 16]⟩
abbrev S8 : Shape := ⟨1, ![8]⟩

class Facts : Prop where
  transposes_S8x32x16x112x112_S8x16x32x112x112_0_2_1_3_4 : S8x32x16x112x112.Transposes [0, 2, 1, 3, 4] S8x16x32x112x112
  reducesTo_S8x32x16x112x112_S8x32x112x112_d2 : S8x32x16x112x112.ReducesTo [2] S8x32x112x112
  h_S_ : 0 < S_.numel
  bcast_S_S8x32x112x112 : S_.BroadcastsInDim S8x32x112x112 (![] : Fin 0 → Fin S8x32x112x112.rank)
  bcast_S_S8x32x16x112x112 : S_.BroadcastsInDim S8x32x16x112x112 (![] : Fin 0 → Fin S8x32x16x112x112.rank)
  reducesTo_S8x32x16x112x112_S_d0_1_2_3_4 : S8x32x16x112x112.ReducesTo [0, 1, 2, 3, 4] S_
  reducesTo_S8x16x32x112x112_S8x16_d2_3_4 : S8x16x32x112x112.ReducesTo [2, 3, 4] S8x16
  reducesTo_S8x16_S_d0_1 : S8x16.ReducesTo [0, 1] S_
  reducesTo_S8x32x112x112_S8_d1_2_3 : S8x32x112x112.ReducesTo [1, 2, 3] S8
  reducesTo_S8_S_d0 : S8.ReducesTo [0] S_

variable [Facts]

def fn_part1 {F : FTy → Type} [FloatOps F] (main_v12 : IVec S_ 1) (main_v13 : FVec F S8 .f32) (main_v14 : FVec F S8 .f32) : IVec S_ 1 :=
  let main_v15 : IVec S8 1 := cmpf .olt main_v13 main_v14
  let main_c_7 : IVec S_ 1 := constantI S_ 1 1#1
  let main_v16 : IVec S_ 1 := (fun x v => Host.reduce IntOp.andi x v reducesTo_S8_S_d0 h_S_) main_v15 main_c_7
  let main_v17 : IVec S_ 1 := andi main_v12 main_v16
  main_v17

def fn {F : FTy → Type} [FloatOps F] (main_arg0 : FVec F S8x32x16x112x112 .f32) : IVec S_ 1 :=
  let main_v0 : FVec F S8x16x32x112x112 .f32 := (transpose S8x16x32x112x112 [0, 2, 1, 3, 4] · transposes_S8x32x16x112x112_S8x16x32x112x112_0_2_1_3_4) main_arg0
  let main_cst : FVec F S_ .f32 := constant S_ .f32 0x00000000#32
  let main_v1 : FVec F S8x32x112x112 .f32 := (fun x v => Host.reduceAdd x v reducesTo_S8x32x16x112x112_S8x32x112x112_d2 h_S_) main_arg0 main_cst
  let main_cst_0 : FVec F S_ .f32 := constant S_ .f32 0x41800000#32
  let main_v2 : FVec F S8x32x112x112 .f32 := broadcastInDim S8x32x112x112 ![] bcast_S_S8x32x112x112 main_cst_0
  let main_v3 : FVec F S8x32x112x112 .f32 := Host.divf main_v1 main_v2
  let main_v4 : FVec F S8x32x16x112x112 .f32 := Host.absf main_arg0
  let main_cst_1 : FVec F S_ .f32 := constant S_ .f32 0x7F800000#32
  let main_v5 : FVec F S8x32x16x112x112 .f32 := broadcastInDim S8x32x16x112x112 ![] bcast_S_S8x32x16x112x112 main_cst_1
  let main_v6 : IVec S8x32x16x112x112 1 := cmpf .olt main_v4 main_v5
  let main_c : IVec S_ 1 := constantI S_ 1 1#1
  let main_v7 : IVec S_ 1 := (fun x v => Host.reduce IntOp.andi x v reducesTo_S8x32x16x112x112_S_d0_1_2_3_4 h_S_) main_v6 main_c
  let main_cst_2 : FVec F S_ .f32 := constant S_ .f32 0x7F800000#32
  let main_v8 : FVec F S8x16 .f32 := (fun x v => Host.reduce FloatOps.minimumf x v reducesTo_S8x16x32x112x112_S8x16_d2_3_4 h_S_) main_v0 main_cst_2
  let main_cst_3 : FVec F S_ .f32 := constant S_ .f32 0xFF800000#32
  let main_v9 : FVec F S8x16 .f32 := (fun x v => Host.reduce FloatOps.maximumf x v reducesTo_S8x16x32x112x112_S8x16_d2_3_4 h_S_) main_v0 main_cst_3
  let main_v10 : IVec S8x16 1 := cmpf .olt main_v8 main_v9
  let main_c_4 : IVec S_ 1 := constantI S_ 1 1#1
  let main_v11 : IVec S_ 1 := (fun x v => Host.reduce IntOp.andi x v reducesTo_S8x16_S_d0_1 h_S_) main_v10 main_c_4
  let main_v12 : IVec S_ 1 := andi main_v7 main_v11
  let main_cst_5 : FVec F S_ .f32 := constant S_ .f32 0x7F800000#32
  let main_v13 : FVec F S8 .f32 := (fun x v => Host.reduce FloatOps.minimumf x v reducesTo_S8x32x112x112_S8_d1_2_3 h_S_) main_v3 main_cst_5
  let main_cst_6 : FVec F S_ .f32 := constant S_ .f32 0xFF800000#32
  let main_v14 : FVec F S8 .f32 := (fun x v => Host.reduce FloatOps.maximumf x v reducesTo_S8x32x112x112_S8_d1_2_3 h_S_) main_v3 main_cst_6
  fn_part1 (F := F) main_v12 main_v13 main_v14
-- ==== Kernel.lean ====
abbrev S8x32x16x112x112 : Shape := ⟨5, ![8, 32, 16, 112, 112]⟩
abbrev S8x32x112x112 : Shape := ⟨4, ![8, 32, 112, 112]⟩
abbrev S8x1x16 : Shape := ⟨3, ![8, 1, 16]⟩
abbrev S1x8x16x112x112 : Shape := ⟨5, ![1, 8, 16, 112, 112]⟩
abbrev S1x8x112x112 : Shape := ⟨4, ![1, 8, 112, 112]⟩
abbrev S1x1x16 : Shape := ⟨3, ![1, 1, 16]⟩
abbrev S1x16 : Shape := ⟨2, ![1, 16]⟩
abbrev S8x16x112x112 : Shape := ⟨4, ![8, 16, 112, 112]⟩
abbrev S8x112x112 : Shape := ⟨3, ![8, 112, 112]⟩
abbrev S8x16x112 : Shape := ⟨3, ![8, 16, 112]⟩
abbrev S8x16 : Shape := ⟨2, ![8, 16]⟩
abbrev S16 : Shape := ⟨1, ![16]⟩
abbrev S8x1x112x112 : Shape := ⟨4, ![8, 1, 112, 112]⟩
abbrev S_ : Shape := ⟨0, ![]⟩
abbrev S8 : Shape := ⟨1, ![8]⟩
abbrev S8x1 : Shape := ⟨2, ![8, 1]⟩
abbrev S8x1x1x1 : Shape := ⟨4, ![8, 1, 1, 1]⟩
abbrev S1x16x1x1 : Shape := ⟨4, ![1, 16, 1, 1]⟩

abbrev nBuf : Space → Nat
  | .hbm => 111
  | .vmem => 30
  | .smem => 0
  | _ => 0

abbrev bufTy : (tb : Table) → Fin (tcTables nBuf tb) → BufTy
  | .hbm, ⟨0, _⟩ => ⟨S8x32x16x112x112, .f32⟩
  | .hbm, ⟨1, _⟩ => ⟨S8x32x112x112, .f32⟩
  | .hbm, ⟨2, _⟩ => ⟨S8x1x16, .f32⟩
  | .hbm, ⟨3, _⟩ => ⟨S8x1x16, .f32⟩
  | .hbm, ⟨4, _⟩ => ⟨S8x1x16, .f32⟩
  | .hbm, ⟨5, _⟩ => ⟨S8x1x16, .f32⟩
  | .hbm, ⟨6, _⟩ => ⟨S8x1x16, .f32⟩
  | .hbm, ⟨7, _⟩ => ⟨S8x16, .f32⟩
  | .hbm, ⟨8, _⟩ => ⟨S8x16, .f32⟩
  | .hbm, ⟨9, _⟩ => ⟨S8x16, .f32⟩
  | .hbm, ⟨10, _⟩ => ⟨S8x16, .f32⟩
  | .hbm, ⟨11, _⟩ => ⟨S8x16, .f32⟩
  | .hbm, ⟨12, _⟩ => ⟨S_, .f32⟩
  | .hbm, ⟨13, _⟩ => ⟨S8x16, .f32⟩
  | .hbm, ⟨14, _⟩ => ⟨S8x16, .f32⟩
  | .hbm, ⟨15, _⟩ => ⟨S_, .f32⟩
  | .hbm, ⟨16, _⟩ => ⟨S8x16, .f32⟩
  | .hbm, ⟨17, _⟩ => ⟨S8x16, .f32⟩
  | .hbm, ⟨18, _⟩ => ⟨S8x16, .f32⟩
  | .hbm, ⟨19, _⟩ => ⟨S8x16, .f32⟩
  | .hbm, ⟨20, _⟩ => ⟨S_, .f32⟩
  | .hbm, ⟨21, _⟩ => ⟨S8x16, .f32⟩
  | .hbm, ⟨22, _⟩ => ⟨S8x16, .f32⟩
  | .hbm, ⟨23, _⟩ => ⟨S8x16, .f32⟩
  | .hbm, ⟨24, _⟩ => ⟨S_, .f32⟩
  | .hbm, ⟨25, _⟩ => ⟨S8, .f32⟩
  | .hbm, ⟨26, _⟩ => ⟨S8x32x112x112, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8x16, .f32⟩
  | .hbm, ⟨47, _⟩ => ⟨S8x16, .f32⟩
  | .hbm, ⟨48, _⟩ => ⟨S8x1, .f32⟩
  | .hbm, ⟨49, _⟩ => ⟨S8x16, .f32⟩
  | .hbm, ⟨50, _⟩ => ⟨S8x16, .f32⟩
  | .hbm, ⟨51, _⟩ => ⟨S8x16, .f32⟩
  | .hbm, ⟨52, _⟩ => ⟨S_, .f32⟩
  | .hbm, ⟨53, _⟩ => ⟨S8x16, .f32⟩
  | .hbm, ⟨54, _⟩ => ⟨S8x16, .f32⟩
  | .hbm, ⟨55, _⟩ => ⟨S8x1, .f32⟩
  | .hbm, ⟨56, _⟩ => ⟨S8x16, .f32⟩
  | .hbm, ⟨57, _⟩ => ⟨S8x16, .f32⟩
  | .hbm, ⟨58, _⟩ => ⟨S8x16, .f32⟩
  | .hbm, ⟨59, _⟩ => ⟨S_, .f32⟩
  | .hbm, ⟨60, _⟩ => ⟨S8x16, .f32⟩
  | .hbm, ⟨61, _⟩ => ⟨S8x16, .f32⟩
  | .hbm, ⟨62, _⟩ => ⟨S8x16, .f32⟩
  | .hbm, ⟨63, _⟩ => ⟨S8x16, .f32⟩
  | .hbm, ⟨64, _⟩ => ⟨S8x16, .f32⟩
  | .hbm, ⟨65, _⟩ => ⟨S8x16, .f32⟩
  | .hbm, ⟨66, _⟩ => ⟨S8x16, .f32⟩
  | .hbm, ⟨67, _⟩ => ⟨S_, .f32⟩
  | .hbm, ⟨68, _⟩ => ⟨S8x16, .f32⟩
  | .hbm, ⟨69, _⟩ => ⟨S8x16, .f32⟩
  | .hbm, ⟨70, _⟩ => ⟨S8x16, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S8, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S8, .f32⟩
  | .hbm, ⟨83, _⟩ => ⟨S8x1x1x1, .f32⟩
  | .hbm, ⟨84, _⟩ => ⟨S8x32x112x112, .f32⟩
  | .hbm, ⟨85, _⟩ => ⟨S8x32x112x112, .f32⟩
  | .hbm, ⟨86, _⟩ => ⟨S8x1x1x1, .f32⟩
  | .hbm, ⟨87, _⟩ => ⟨S8x32x112x112, .f32⟩
  | .hbm, ⟨88, _⟩ => ⟨S8x32x112x112, .f32⟩
  | .hbm, ⟨89, _⟩ => ⟨S8x1x16, .f32⟩
  | .hbm, ⟨90, _⟩ => ⟨S8x1x16, .f32⟩
  | .hbm, ⟨91, _⟩ => ⟨S8x1x16, .f32⟩
  | .hbm, ⟨92, _⟩ => ⟨S8x16, .f32⟩
  | .hbm, ⟨93, _⟩ => ⟨S_, .f32⟩
  | .hbm, ⟨94, _⟩ => ⟨S8x16, .f32⟩
  | .hbm, ⟨95, _⟩ => ⟨S8x16, .f32⟩
  | .hbm, ⟨96, _⟩ => ⟨S_, .f32⟩
  | .hbm, ⟨97, _⟩ => ⟨S8x16, .f32⟩
  | .hbm, ⟨98, _⟩ => ⟨S8x16, .f32⟩
  | .hbm, ⟨99, _⟩ => ⟨S8x16, .f32⟩
  | .hbm, ⟨100, _⟩ => ⟨S_, .f32⟩
  | .hbm, ⟨101, _⟩ => ⟨S8x16, .f32⟩
  | .hbm, ⟨102, _⟩ => ⟨S8x16, .f32⟩
  | .hbm, ⟨103, _⟩ => ⟨S_, .f32⟩
  | .hbm, ⟨104, _⟩ => ⟨S8, .f32⟩
  | .hbm, ⟨105, _⟩ => ⟨S8x1, .f32⟩
  | .hbm, ⟨106, _⟩ => ⟨S8x16, .f32⟩
  | .hbm, ⟨107, _⟩ => ⟨S8x16, .f32⟩
  | .hbm, ⟨108, _⟩ => ⟨S8x16, .f32⟩
  | .hbm, ⟨109, _⟩ => ⟨S8x1x16, .f32⟩
  | .hbm, ⟨110, _⟩ => ⟨S8x32x16x112x112, .f32⟩
  | .local _ .vmem, ⟨0, _⟩ => ⟨S1x8x16x112x112, .f32⟩
  | .local _ .vmem, ⟨1, _⟩ => ⟨S1x8x16x112x112, .f32⟩
  | .local _ .vmem, ⟨2, _⟩ => ⟨S1x8x112x112, .f32⟩
  | .local _ .vmem, ⟨3, _⟩ => ⟨S1x8x112x112, .f32⟩
  | .local _ .vmem, ⟨4, _⟩ => ⟨S1x1x16, .f32⟩
  | .local _ .vmem, ⟨5, _⟩ => ⟨S1x1x16, .f32⟩
  | .local _ .vmem, ⟨6, _⟩ => ⟨S1x1x16, .f32⟩
  | .local _ .vmem, ⟨7, _⟩ => ⟨S1x1x16, .f32⟩
  | .local _ .vmem, ⟨8, _⟩ => ⟨S1x1x16, .f32⟩
  | .local _ .vmem, ⟨9, _⟩ => ⟨S1x1x16, .f32⟩
  | .local _ .vmem, ⟨10, _⟩ => ⟨S1x1x16, .f32⟩
  | .local _ .vmem, ⟨11, _⟩ => ⟨S1x1x16, .f32⟩
  | .local _ .vmem, ⟨12, _⟩ => ⟨S1x1x16, .f32⟩
  | .local _ .vmem, ⟨13, _⟩ => ⟨S1x1x16, .f32⟩
  | .local _ .vmem, ⟨14, _⟩ => ⟨S1x8x16x112x112, .f32⟩
  | .local _ .vmem, ⟨15, _⟩ => ⟨S1x8x16x112x112, .f32⟩
  | .local _ .vmem, ⟨16, _⟩ => ⟨S1x8x112x112, .f32⟩
  | .local _ .vmem, ⟨17, _⟩ => ⟨S1x8x112x112, .f32⟩
  | .local _ .vmem, ⟨18, _⟩ => ⟨S1x1x16, .f32⟩
  | .local _ .vmem, ⟨19, _⟩ => ⟨S1x1x16, .f32⟩
  | .local _ .vmem, ⟨20, _⟩ => ⟨S1x1x16, .f32⟩
  | .local _ .vmem, ⟨21, _⟩ => ⟨S1x1x16, .f32⟩
  | .local _ .vmem, ⟨22, _⟩ => ⟨S1x1x16, .f32⟩
  | .local _ .vmem, ⟨23, _⟩ => ⟨S1x1x16, .f32⟩
  | .local _ .vmem, ⟨24, _⟩ => ⟨S1x8x16x112x112, .f32⟩
  | .local _ .vmem, ⟨25, _⟩ => ⟨S1x8x16x112x112, .f32⟩
  | .local _ .vmem, ⟨26, _⟩ => ⟨S1x1x16, .f32⟩
  | .local _ .vmem, ⟨27, _⟩ => ⟨S1x1x16, .f32⟩
  | .local _ .vmem, ⟨28, _⟩ => ⟨S1x8x16x112x112, .f32⟩
  | .local _ .vmem, ⟨29, _⟩ => ⟨S1x8x16x112x112, .f32⟩
  | _, _ => ⟨S8x32x16x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_17 : Ref sig .tc := ⟨.hbm, 100, rfl⟩
abbrev main_v76 : Ref sig .tc := ⟨.hbm, 101, rfl⟩
abbrev main_v77 : Ref sig .tc := ⟨.hbm, 102, rfl⟩
abbrev main_cst_18 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x16x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 4], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x16x112x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x112x112 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def cc2_transform_0 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage2_0 : Fin 2 → Memref sig .tc .vmem S1x8x16x112x112 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x8x16x112x112 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  shapeCasts_S1x16_S1x1x16 : S1x16.ShapeCasts S1x1x16
  inb_S1x8x16x112x112_S1x8x16x112x112_0_0_0_0_0 : ∀ a, (![0, 0, 0, 0, 0] : Fin 5 → Nat) a + S1x8x16x112x112.size a ≤ S1x8x16x112x112.size a
  h_S1x8x16x112x112 : 0 < S1x8x16x112x112.numel
  shapeCasts_S1x8x16x112x112_S8x16x112x112 : S1x8x16x112x112.ShapeCasts S8x16x112x112
  reduces_S8x16x112x112_S8x112x112 : S8x16x112x112.Reduces [1] S8x112x112
  inb_S1x8x112x112_S1x8x112x112_0_0_0_0 : ∀ a, (![0, 0, 0, 0] : Fin 4 → Nat) a + S1x8x112x112.size a ≤ S1x8x112x112.size a
  h_S1x8x112x112 : 0 < S1x8x112x112.numel
  shapeCasts_S1x8x112x112_S8x112x112 : S1x8x112x112.ShapeCasts S8x112x112
  shapeCasts_S8x112x112_S1x8x112x112 : S8x112x112.ShapeCasts S1x8x112x112
  reduces_S8x16x112x112_S8x16x112 : S8x16x112x112.Reduces [3] S8x16x112
  reduces_S8x16x112_S8x16 : S8x16x112.Reduces [2] S8x16
  reduces_S8x16_S16 : S8x16.Reduces [0] S16
  shapeCasts_S8x112x112_S8x1x112x112 : S8x112x112.ShapeCasts S8x1x112x112
  broadcasts_S8x1x112x112_S8x16x112x112 : S8x1x112x112.Broadcasts S8x16x112x112
  shapeCasts_S16_S1x16 : S16.ShapeCasts S1x16
  shapeCasts_S8x1x16_S8x16 : S8x1x16.ShapeCasts S8x16
  bcast_S_S8x16 : S_.BroadcastsInDim S8x16 (![] : Fin 0 → Fin S8x16.rank)
  reducesTo_S8x32x112x112_S8_d1_2_3 : S8x32x112x112.ReducesTo [1, 2, 3] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x16_0_1 : S8x1.BroadcastsInDim S8x16 (![0, 1] : Fin 2 → Fin S8x16.rank)
  bcast_S8_S8x1x1x1_0 : S8.BroadcastsInDim S8x1x1x1 (![0] : Fin 1 → Fin S8x1x1x1.rank)
  bcast_S8x1x1x1_S8x32x112x112_0_1_2_3 : S8x1x1x1.BroadcastsInDim S8x32x112x112 (![0, 1, 2, 3] : Fin 4 → Fin S8x32x112x112.rank)
  shapeCasts_S8x16_S8x1x16 : S8x16.ShapeCasts S8x1x16
  shapeCasts_S1x16_S16 : S1x16.ShapeCasts S16
  shapeCasts_S16_S1x16x1x1 : S16.ShapeCasts S1x16x1x1
  broadcasts_S1x16x1x1_S8x16x112x112 : S1x16x1x1.Broadcasts S8x16x112x112
  reducesTo_S8x16_S8_d1 : S8x16.ReducesTo [1] S8
  shapeCasts_S8x16x112x112_S1x8x16x112x112 : S8x16x112x112.ShapeCasts S1x8x16x112x112
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x16x112x112.size a ≤ S8x32x16x112x112.size a
  hwx0_0 : ∀ i : grid0.Coords, EltTy.bits .f32 = 32 ∨ (Rect.block (s := S8x32x16x112x112) S1x8x16x112x112.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x112x112.size a ≤ S8x32x112x112.size a
  hwx0_1 : ∀ i : grid0.Coords, EltTy.bits .f32 = 32 ∨ (Rect.block (s := S8x32x112x112) S1x8x112x112.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16.size a ≤ S8x1x16.size a
  hwx0_2 : ∀ i : grid0.Coords, EltTy.bits .f32 = 32 ∨ (Rect.block (s := S8x1x16) S1x1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16.size a ≤ S8x1x16.size a
  hwx0_3 : ∀ i : grid0.Coords, EltTy.bits .f32 = 32 ∨ (Rect.block (s := S8x1x16) S1x1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x16.size a ≤ S8x1x16.size a
  hwx0_4 : ∀ i : grid0.Coords, EltTy.bits .f32 = 32 ∨ (Rect.block (s := S8x1x16) S1x1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x16.size a ≤ S8x1x16.size a
  hwx0_5 : ∀ i : grid0.Coords, EltTy.bits .f32 = 32 ∨ (Rect.block (s := S8x1x16) S1x1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x16.size a ≤ S8x1x16.size a
  hwx0_6 : ∀ i : grid0.Coords, EltTy.bits .f32 = 32 ∨ (Rect.block (s := S8x1x16) S1x1x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x16x112x112.size a ≤ S8x32x16x112x112.size a
  hwx1_0 : ∀ i : grid1.Coords, EltTy.bits .f32 = 32 ∨ (Rect.block (s := S8x32x16x112x112) S1x8x16x112x112.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x112x112.size a ≤ S8x32x112x112.size a
  hwx1_1 : ∀ i : grid1.Coords, EltTy.bits .f32 = 32 ∨ (Rect.block (s := S8x32x112x112) S1x8x112x112.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x16.size a ≤ S8x1x16.size a
  hwx1_2 : ∀ i : grid1.Coords, EltTy.bits .f32 = 32 ∨ (Rect.block (s := S8x1x16) S1x1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x16.size a ≤ S8x1x16.size a
  hwx1_3 : ∀ i : grid1.Coords, EltTy.bits .f32 = 32 ∨ (Rect.block (s := S8x1x16) S1x1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x16.size a ≤ S8x1x16.size a
  hwx1_4 : ∀ i : grid1.Coords, EltTy.bits .f32 = 32 ∨ (Rect.block (s := S8x1x16) S1x1x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x16x112x112.size a ≤ S8x32x16x112x112.size a
  hwx2_0 : ∀ i : grid2.Coords, EltTy.bits .f32 = 32 ∨ (Rect.block (s := S8x32x16x112x112) S1x8x16x112x112.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x16.size a ≤ S8x1x16.size a
  hwx2_1 : ∀ i : grid2.Coords, EltTy.bits .f32 = 32 ∨ (Rect.block (s := S8x1x16) S1x1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8x16x112x112.size a ≤ S8x32x16x112x112.size a
  hwx2_2 : ∀ i : grid2.Coords, EltTy.bits .f32 = 32 ∨ (Rect.block (s := S8x32x16x112x112) S1x8x16x112x112.size (cc2_transform_2 i) (hinb2_2 i)).WholeWords (EltTy.packing .f32)

variable [Facts₀]

abbrev win0_0 : Pipeline.Window sig grid0 :=
  Pipeline.Window.ofSpec (Memref.whole main_arg0) S1x8x16x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x8x112x112.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S1x1x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S1x1x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_5) S1x1x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x8x16x112x112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S1x8x112x112.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x1x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v68) S1x1x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x1x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S1x8x16x112x112.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S1x1x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x8x16x112x112.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x32x16x112x112 : Shape := ⟨5, ![8, 32, 16, 112, 112]⟩
abbrev S_ : Shape := ⟨0, ![]⟩
abbrev S8x32x112x112 : Shape := ⟨4, ![8, 32, 112, 112]⟩
abbrev S8x16x32x112x112 : Shape := ⟨5, ![8, 16, 32, 112, 112]⟩
abbrev S8x16 : Shape := ⟨2, ![8, 16]⟩
abbrev S8x16x1x1x1 : Shape := ⟨5, ![8, 16, 1, 1, 1]⟩
abbrev S8 : Shape := ⟨1, ![8]⟩
abbrev S8x1x1x1 : Shape := ⟨4, ![8, 1, 1, 1]⟩
abbrev S8x1x32x112x112 : Shape := ⟨5, ![8, 1, 32, 112, 112]⟩
abbrev S8x1 : Shape := ⟨2, ![8, 1]⟩
abbrev S8x1x16x1x1 : Shape := ⟨5, ![8, 1, 16, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S8x32x16x112x112, .f32⟩
  | .hbm, ⟨1, _⟩ => ⟨S_, .f32⟩
  | .hbm, ⟨2, _⟩ => ⟨S8x32x112x112, .f32⟩
  | .hbm, ⟨3, _⟩ => ⟨S_, .f32⟩
  | .hbm, ⟨4, _⟩ => ⟨S8x32x112x112, .f32⟩
  | .hbm, ⟨5, _⟩ => ⟨S8x32x112x112, .f32⟩
  | .hbm, ⟨6, _⟩ => ⟨S8x16x32x112x112, .f32⟩
  | .hbm, ⟨7, _⟩ => ⟨S_, .f32⟩
  | .hbm, ⟨8, _⟩ => ⟨S8x16, .f32⟩
  | .hbm, ⟨9, _⟩ => ⟨S8x16x1x1x1, .f32⟩
  | .hbm, ⟨10, _⟩ => ⟨S_, .f32⟩
  | .hbm, ⟨11, _⟩ => ⟨S8x16x1x1x1, .f32⟩
  | .hbm, ⟨12, _⟩ => ⟨S8x16x1x1x1, .f32⟩
  | .hbm, ⟨13, _⟩ => ⟨S8x16x32x112x112, .f32⟩
  | .hbm, ⟨14, _⟩ => ⟨S8x16x32x112x112, .f32⟩
  | .hbm, ⟨15, _⟩ => ⟨S8x16x32x112x112, .f32⟩
  | .hbm, ⟨16, _⟩ => ⟨S_, .f32⟩
  | .hbm, ⟨17, _⟩ => ⟨S8x16, .f32⟩
  | .hbm, ⟨18, _⟩ => ⟨S8x16x1x1x1, .f32⟩
  | .hbm, ⟨19, _⟩ => ⟨S_, .f32⟩
  | .hbm, ⟨20, _⟩ => ⟨S8x16x1x1x1, .f32⟩
  | .hbm, ⟨21, _⟩ => ⟨S8x16x1x1x1, .f32⟩
  | .hbm, ⟨22, _⟩ => ⟨S8x16x1x1x1, .f32⟩
  | .hbm, ⟨23, _⟩ => ⟨S8x16x32x112x112, .f32⟩
  | .hbm, ⟨24, _⟩ => ⟨S8x16x32x112x112, .f32⟩
  | .hbm, ⟨25, _⟩ => ⟨S8x16x32x112x112, .f32⟩
  | .hbm, ⟨26, _⟩ => ⟨S8x16x32x112x112, .f32⟩
  | .hbm, ⟨27, _⟩ => ⟨S_, .f32⟩
  | .hbm, ⟨28, _⟩ => ⟨S8, .f32⟩
  | .hbm, ⟨29, _⟩ => ⟨S8x1x1x1, .f32⟩
  | .hbm, ⟨30, _⟩ => ⟨S_, .f32⟩
  | .hbm, ⟨31, _⟩ => ⟨S8x1x1x1, .f32⟩
  | .hbm, ⟨32, _⟩ => ⟨S8x1x1x1, .f32⟩
  | .hbm, ⟨33, _⟩ => ⟨S8x32x112x112, .f32⟩
  | .hbm, ⟨34, _⟩ => ⟨S8x32x112x112, .f32⟩
  | .hbm, ⟨35, _⟩ => ⟨S8x32x112x112, .f32⟩
  | .hbm, ⟨36, _⟩ => ⟨S_, .f32⟩
  | .hbm, ⟨37, _⟩ => ⟨S8, .f32⟩
  | .hbm, ⟨38, _⟩ => ⟨S8x1x1x1, .f32⟩
  | .hbm, ⟨39, _⟩ => ⟨S_, .f32⟩
  | .hbm, ⟨40, _⟩ => ⟨S8x1x1x1, .f32⟩
  | .hbm, ⟨41, _⟩ => ⟨S8x1x1x1, .f32⟩
  | .hbm, ⟨42, _⟩ => ⟨S8x1x1x1, .f32⟩
  | .hbm, ⟨43, _⟩ => ⟨S8x32x112x112, .f32⟩
  | .hbm, ⟨44, _⟩ => ⟨S8x32x112x112, .f32⟩
  | .hbm, ⟨45, _⟩ => ⟨S8x32x112x112, .f32⟩
  | .hbm, ⟨46, _⟩ => ⟨S8x32x112x112, .f32⟩
  | .hbm, ⟨47, _⟩ => ⟨S8x32x112x112, .f32⟩
  | .hbm, ⟨48, _⟩ => ⟨S_, .f32⟩
  | .hbm, ⟨49, _⟩ => ⟨S8, .f32⟩
  | .hbm, ⟨50, _⟩ => ⟨S8x1x32x112x112, .f32⟩
  | .hbm, ⟨51, _⟩ => ⟨S8x16x32x112x112, .f32⟩
  | .hbm, ⟨52, _⟩ => ⟨S8x16x32x112x112, .f32⟩
  | .hbm, ⟨53, _⟩ => ⟨S_, .f32⟩
  | .hbm, ⟨54, _⟩ => ⟨S8x16, .f32⟩
  | .hbm, ⟨55, _⟩ => ⟨S8x16x32x112x112, .f32⟩
  | .hbm, ⟨56, _⟩ => ⟨S_, .f32⟩
  | .hbm, ⟨57, _⟩ => ⟨S8x16, .f32⟩
  | .hbm, ⟨58, _⟩ => ⟨S8x1, .f32⟩
  | .hbm, ⟨59, _⟩ => ⟨S8x16, .f32⟩
  | .hbm, ⟨60, _⟩ => ⟨S8x16, .f32⟩
  | .hbm, ⟨61, _⟩ => ⟨S8x16, .f32⟩
  | .hbm, ⟨62, _⟩ => ⟨S8x16, .f32⟩
  | .hbm, ⟨63, _⟩ => ⟨S_, .f32⟩
  | .hbm, ⟨64, _⟩ => ⟨S8x16, .f32⟩
  | .hbm, ⟨65, _⟩ => ⟨S8x16x1x1x1, .f32⟩
  | .hbm, ⟨66, _⟩ => ⟨S_, .f32⟩
  | .hbm, ⟨67, _⟩ => ⟨S8x16, .f32⟩
  | .hbm, ⟨68, _⟩ => ⟨S8x16x1x1x1, .f32⟩
  | .hbm, ⟨69, _⟩ => ⟨S8x16x32x112x112, .f32⟩
  | .hbm, ⟨70, _⟩ => ⟨S8x16x32x112x112, .f32⟩
  | .hbm, ⟨71, _⟩ => ⟨S8x16x1x1x1, .f32⟩
  | .hbm, ⟨72, _⟩ => ⟨S8x16x32x112x112, .f32⟩
  | .hbm, ⟨73, _⟩ => ⟨S8x16x32x112x112, .f32⟩
  | .hbm, ⟨74, _⟩ => ⟨S_, .f32⟩
  | .hbm, ⟨75, _⟩ => ⟨S8x16, .f32⟩
  | .hbm, ⟨76, _⟩ => ⟨S8x16x1x1x1, .f32⟩
  | .hbm, ⟨77, _⟩ => ⟨S8x16x32x112x112, .f32⟩
  | .hbm, ⟨78, _⟩ => ⟨S8x16x32x112x112, .f32⟩
  | .hbm, ⟨79, _⟩ => ⟨S_, .f32⟩
  | .hbm, ⟨80, _⟩ => ⟨S8, .f32⟩
  | .hbm, ⟨81, _⟩ => ⟨S8x1x1x1, .f32⟩
  | .hbm, ⟨82, _⟩ => ⟨S_, .f32⟩
  | .hbm, ⟨83, _⟩ => ⟨S8, .f32⟩
  | .hbm, ⟨84, _⟩ => ⟨S8x1x1x1, .f32⟩
  | .hbm, ⟨85, _⟩ => ⟨S8x32x112x112, .f32⟩
  | .hbm, ⟨86, _⟩ => ⟨S8x32x112x112, .f32⟩
  | .hbm, ⟨87, _⟩ => ⟨S8x1x1x1, .f32⟩
  | .hbm, ⟨88, _⟩ => ⟨S8x32x112x112, .f32⟩
  | .hbm, ⟨89, _⟩ => ⟨S8x32x112x112, .f32⟩
  | .hbm, ⟨90, _⟩ => ⟨S_, .f32⟩
  | .hbm, ⟨91, _⟩ => ⟨S8, .f32⟩
  | .hbm, ⟨92, _⟩ => ⟨S8x1x1x1, .f32⟩
  | .hbm, ⟨93, _⟩ => ⟨S8x32x112x112, .f32⟩
  | .hbm, ⟨94, _⟩ => ⟨S8x32x112x112, .f32⟩
  | .hbm, ⟨95, _⟩ => ⟨S8x1x32x112x112, .f32⟩
  | .hbm, ⟨96, _⟩ => ⟨S8x16x32x112x112, .f32⟩
  | .hbm, ⟨97, _⟩ => ⟨S8x16x32x112x112, .f32⟩
  | .hbm, ⟨98, _⟩ => ⟨S_, .f32⟩
  | .hbm, ⟨99, _⟩ => ⟨S8x16, .f32⟩
  | .hbm, ⟨100, _⟩ => ⟨S_, .f32⟩
  | .hbm, ⟨101, _⟩ => ⟨S8x16, .f32⟩
  | .hbm, ⟨102, _⟩ => ⟨S8x16, .f32⟩
  | .hbm, ⟨103, _⟩ => ⟨S_, .f32⟩
  | .hbm, ⟨104, _⟩ => ⟨S8x16, .f32⟩
  | .hbm, ⟨105, _⟩ => ⟨S8x16, .f32⟩
  | .hbm, ⟨106, _⟩ => ⟨S8x16, .f32⟩
  | .hbm, ⟨107, _⟩ => ⟨S_, .f32⟩
  | .hbm, ⟨108, _⟩ => ⟨S8x16, .f32⟩
  | .hbm, ⟨109, _⟩ => ⟨S8x16, .f32⟩
  | .hbm, ⟨110, _⟩ => ⟨S_, .f32⟩
  | .hbm, ⟨111, _⟩ => ⟨S8, .f32⟩
  | .hbm, ⟨112, _⟩ => ⟨S8x1, .f32⟩
  | .hbm, ⟨113, _⟩ => ⟨S8x16, .f32⟩
  | .hbm, ⟨114, _⟩ => ⟨S8x16, .f32⟩
  | .hbm, ⟨115, _⟩ => ⟨S8x16, .f32⟩
  | .hbm, ⟨116, _⟩ => ⟨S8x1x16x1x1, .f32⟩
  | .hbm, ⟨117, _⟩ => ⟨S8x32x16x112x112, .f32⟩
  | .hbm, ⟨118, _⟩ => ⟨S8x32x16x112x112, .f32⟩
  | _, _ => ⟨S8x32x16x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_9 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_10 : Ref sig .tc := ⟨.hbm, 53, rfl⟩
abbrev main_v41 : Ref sig .tc := ⟨.hbm, 54, rfl⟩
abbrev main_v42 : Ref sig .tc := ⟨.hbm, 55, rfl⟩
abbrev main_cst_11 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_12 : Ref sig .tc := ⟨.hbm, 63, rfl⟩
abbrev main_v49 : Ref sig .tc := ⟨.hbm, 64, rfl⟩
abbrev main_v50 : Ref sig .tc := ⟨.hbm, 65, rfl⟩
abbrev main_cst_13 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_14 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_15 : Ref sig .tc := ⟨.hbm, 79, rfl⟩
abbrev main_v62 : Ref sig .tc := ⟨.hbm, 80, rfl⟩
abbrev main_v63 : Ref sig .tc := ⟨.hbm, 81, rfl⟩
abbrev main_cst_16 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_17 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_18 : Ref sig .tc := ⟨.hbm, 98, rfl⟩
abbrev main_v78 : Ref sig .tc := ⟨.hbm, 99, rfl⟩
abbrev main_cst_19 : Ref sig .tc := ⟨.hbm, 100, rfl⟩
abbrev main_v79 : Ref sig .tc := ⟨.hbm, 101, rfl⟩
abbrev main_v80 : Ref sig .tc := ⟨.hbm, 102, rfl⟩
abbrev main_cst_20 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_21 : Ref sig .tc := ⟨.hbm, 107, rfl⟩
abbrev main_v84 : Ref sig .tc := ⟨.hbm, 108, rfl⟩
abbrev main_v85 : Ref sig .tc := ⟨.hbm, 109, rfl⟩
abbrev main_cst_22 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩

abbrev nD : Nat := 1
abbrev τ : Topo := Topo.v7x

variable {F : FTy → Type} [FloatOps F]

class Facts₀ : Prop where
  reducesTo_S8x32x16x112x112_S8x32x112x112_d2 : S8x32x16x112x112.ReducesTo [2] S8x32x112x112
  h_S_ : 0 < S_.numel
  bcast_S_S8x32x112x112 : S_.BroadcastsInDim S8x32x112x112 (![] : Fin 0 → Fin S8x32x112x112.rank)
  transposes_S8x32x16x112x112_S8x16x32x112x112_0_2_1_3_4 : S8x32x16x112x112.Transposes [0, 2, 1, 3, 4] S8x16x32x112x112
  reducesTo_S8x16x32x112x112_S8x16_d2_3_4 : S8x16x32x112x112.ReducesTo [2, 3, 4] S8x16
  bcast_S8x16_S8x16x1x1x1_0_1 : S8x16.BroadcastsInDim S8x16x1x1x1 (![0, 1] : Fin 2 → Fin S8x16x1x1x1.rank)
  bcast_S_S8x16x1x1x1 : S_.BroadcastsInDim S8x16x1x1x1 (![] : Fin 0 → Fin S8x16x1x1x1.rank)
  bcast_S8x16x1x1x1_S8x16x32x112x112_0_1_2_3_4 : S8x16x1x1x1.BroadcastsInDim S8x16x32x112x112 (![0, 1, 2, 3, 4] : Fin 5 → Fin S8x16x32x112x112.rank)
  reducesTo_S8x32x112x112_S8_d1_2_3 : S8x32x112x112.ReducesTo [1, 2, 3] S8
  bcast_S8_S8x1x1x1_0 : S8.BroadcastsInDim S8x1x1x1 (![0] : Fin 1 → Fin S8x1x1x1.rank)
  bcast_S_S8x1x1x1 : S_.BroadcastsInDim S8x1x1x1 (![] : Fin 0 → Fin S8x1x1x1.rank)
  bcast_S8x1x1x1_S8x32x112x112_0_1_2_3 : S8x1x1x1.BroadcastsInDim S8x32x112x112 (![0, 1, 2, 3] : Fin 4 → Fin S8x32x112x112.rank)
  bcast_S8x32x112x112_S8x1x32x112x112_0_2_3_4 : S8x32x112x112.BroadcastsInDim S8x1x32x112x112 (![0, 2, 3, 4] : Fin 4 → Fin S8x1x32x112x112.rank)
  bcast_S8x1x32x112x112_S8x16x32x112x112_0_1_2_3_4 : S8x1x32x112x112.BroadcastsInDim S8x16x32x112x112 (![0, 1, 2, 3, 4] : Fin 5 → Fin S8x16x32x112x112.rank)
  bcast_S8_S8x1_0 : S8.BroadcastsInDim S8x1 (![0] : Fin 1 → Fin S8x1.rank)
  bcast_S8x1_S8x16_0_1 : S8x1.BroadcastsInDim S8x16 (![0, 1] : Fin 2 → Fin S8x16.rank)
  bcast_S_S8x16 : S_.BroadcastsInDim S8x16 (![] : Fin 0 → Fin S8x16.rank)
  reducesTo_S8x16_S8_d1 : S8x16.ReducesTo [1] S8
  bcast_S8x16_S8x1x16x1x1_0_2 : S8x16.BroadcastsInDim S8x1x16x1x1 (![0, 2] : Fin 2 → Fin S8x1x16x1x1.rank)
  bcast_S8x1x16x1x1_S8x32x16x112x112_0_1_2_3_4 : S8x1x16x1x1.BroadcastsInDim S8x32x16x112x112 (![0, 1, 2, 3, 4] : Fin 5 → Fin S8x32x16x112x112.rank)

variable [Facts₀]

class Facts : Prop extends Facts₀ where

variable [Facts]
-- ==== Proof.KChain.lean ====
/-
  The kernel program's buffers at the boundaries of its five segments (region, host stretch, region, host stretch,
  region): which of them a segment leaves as it found them. The argument array is read by every region and written
  by none, and no host operation writes it, so at every boundary it holds the launch contents; the CC array, made by
  the first host stretch, is not an array of the second region and so crosses it unchanged.
-/
import proofs.«171658_j72688026517959_1_alg».proof.Proof.Gen.KernelIdeal.Frame

set_option maxRecDepth 16384

noncomputable section

namespace Cert.KernelIdeal.KVal

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The argument array at the first region's exit. -/
theorem W1_arg (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The argument array after the first host stretch. -/
theorem W2_arg (c : Dev nD) : W2 m ρ c (Proc.devRef .tc main_arg0) = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg m ρ c)

/-- The argument array at the second region's exit. -/
theorem W3_arg (c : Dev nD) : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (W2_arg m ρ c)

/-- The argument array after the second host stretch. -/
theorem W4_arg (c : Dev nD) : W4 m ρ c (Proc.devRef .tc main_arg0) = m ((c : Thread nD τ).loc main_arg0) :=
  (StableHlo.after_of_forall_not_mem (b := Proc.devRef .tc main_arg0) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg m ρ c)

/-- The CC array crosses the second region unchanged: it is none of that region's arrays. -/
theorem W3_cc (c : Dev nD) : W3 m ρ c (Proc.devRef .tc main_v40) = W2 m ρ c (Proc.devRef .tc main_v40) :=
  W3_of_ne m ρ c main_v40 (by decide)

end Cert.KernelIdeal.KVal

end
-- ==== Proof.Spec.lean ====
/-
  The mathematics of the CC / SIM saliency reweighting, over the real numbers.

  The input is an array X[b, c, t, h, w] (8 × 32 × 16 × 112 × 112). For a batch entry b and a time step t the FRAME is
  the map (c, h, w) ↦ X[b, c, t, h, w] over the N = 32 · 112 · 112 = 401408 pixels of a frame, and the TARGET MAP of
  b is the mean of its 16 frames. Each frame f is compared with the target map g twice:

  * CC: the correlation of the two maps standardised with the unbiased standard deviation. One program standardises
    both maps and divides the sum of products by the root of the product of the sums of squares (`ccRef`); the
    other uses that a standardised map has sum of squares N - 1 and computes the covariance form (`ccKer`), with the
    variance from the sum of squares (`stdKer`) instead of the centred sum (`stdRef`).
  * SIM: both maps are brought to [0, 1] by their minimum and maximum and then normalised to sum 1; the score is the
    sum of the pointwise minimum. One program does the two divisions (`normRef`); the other precomputes one scale
    and one shift per map (`normKer`), the normaliser being linear in the sum of the map.

  All of these agree as soon as no map is constant (`NonConst`): then every divisor is a non-zero real number.
-/
import Mathlib.Analysis.SpecialFunctions.Pow.Real
import Mathlib.Data.EReal.Inv

noncomputable section

namespace Cert.Weighting

open Finset

/-- The pixels of one frame: channel, row, column. -/
abbrev Pix := Fin 32 × Fin 112 × Fin 112

/-- The number of pixels of a frame, 32 · 112 · 112. -/
def N : ℝ := 401408
/-- The unbiased variance's divisor, N - 1. -/
def N1 : ℝ := 401407

section OneMap

variable {K : Type} [Fintype K]

/-- The mean of a map over the frame (the divisor is the frame's size `N`). -/
def mean (f : K → ℝ) : ℝ := (∑ k, f k) / N

/-- The unbiased standard deviation from the centred sum of squares. -/
def stdRef (f : K → ℝ) : ℝ := Real.sqrt ((∑ k, (f k - mean f) * (f k - mean f)) / N1)

/-- The unbiased standard deviation from the raw sum of squares: ∑ f² - N · mean² over N - 1. -/
def stdKer (f : K → ℝ) : ℝ := Real.sqrt (((∑ k, f k * f k) - N * mean f * mean f) / N1)

/-- A map standardised: centred and divided by its standard deviation. -/
def zRef (f : K → ℝ) (k : K) : ℝ := (f k - mean f) / stdRef f

/-- CC as the normalised inner product of the two standardised maps. -/
def ccRef (f g : K → ℝ) : ℝ :=
  (∑ k, zRef f k * zRef g k) / Real.sqrt ((∑ k, zRef f k * zRef f k) * (∑ k, zRef g k * zRef g k))

/-- CC in covariance form: (∑ f g - N · mean f · mean g) / ((N - 1) · std f · std g). -/
def ccKer (f g : K → ℝ) : ℝ := ((∑ k, f k * g k) - N * mean f * mean g) / (N1 * stdKer f * stdKer g)

variable [Nonempty K]

/-- The least value of a map. -/
def lo (f : K → ℝ) : ℝ := univ.inf' univ_nonempty f
/-- The greatest value of a map. -/
def hi (f : K → ℝ) : ℝ := univ.sup' univ_nonempty f

/-- A map brought to [0, 1] by its extremes. -/
def unit01 (f : K → ℝ) (k : K) : ℝ := (f k - lo f) / (hi f - lo f)

/-- A map normalised to sum 1 by two divisions: to [0, 1], then by the sum of that. -/
def normRef (f : K → ℝ) (k : K) : ℝ := unit01 f k / ∑ j, unit01 f j

/-- The sum of the [0, 1] map, from the sum of the map itself: (∑ f - N · lo) / (hi - lo). -/
def sumn (f : K → ℝ) : ℝ := ((∑ j, f j) - N * lo f) / (hi f - lo f)
/-- The one scale of the normalised map: 1 / ((hi - lo) · sumn). -/
def scale (f : K → ℝ) : ℝ := 1 / ((hi f - lo f) * sumn f)
/-- The one shift of the normalised map: lo · scale. -/
def shift (f : K → ℝ) : ℝ := lo f * scale f
/-- A map normalised to sum 1 by one multiplication and one subtraction. -/
def normKer (f : K → ℝ) (k : K) : ℝ := f k * scale f - shift f

/-- SIM of two maps, each normalised by `normRef`. -/
def simRef (f g : K → ℝ) : ℝ := ∑ k, min (normRef f k) (normRef g k)
/-- SIM of two maps, each normalised by `normKer`. -/
def simKer (f g : K → ℝ) : ℝ := ∑ k, min (normKer f k) (normKer g k)

/-- A map that takes two different values. -/
def NonConst (f : K → ℝ) : Prop := ∃ k k', f k ≠ f k'

end OneMap

/-- The input array over the reals. -/
abbrev Arr := Fin 8 → Fin 32 → Fin 16 → Fin 112 → Fin 112 → ℝ

/-- The frame of batch entry `b` at time `t`. -/
def frame (X : Arr) (b : Fin 8) (t : Fin 16) : Pix → ℝ := fun p => X b p.1 t p.2.1 p.2.2

/-- The target map of batch entry `b`: the mean of its 16 frames. -/
def gmap (X : Arr) (b : Fin 8) : Pix → ℝ := fun p => (∑ t, X b p.1 t p.2.1 p.2.2) / 16

/-- No frame and no target map is constant: the domain on which every divisor of the computation is non-zero. -/
def NonDeg (X : Arr) : Prop := (∀ b t, NonConst (frame X b t)) ∧ ∀ b, NonConst (gmap X b)

end Cert.Weighting

end
-- ==== Proof.SpecLaws.lean ====
/-
  The laws that join the two forms of CC and of SIM, over the real numbers, for maps on any finite set of
  `N` = 401408 points, and the facts that keep every divisor away from zero when no map is constant.
-/
import Mathlib.Algebra.BigOperators.Field
import proofs.«171658_j72688026517959_1_alg».proof.Proof.Spec

noncomputable section

namespace Cert.Weighting

open Finset

theorem N_pos : (0 : ℝ) < N := by unfold N; norm_num
theorem N_ne : N ≠ 0 := ne_of_gt N_pos
theorem N1_pos : (0 : ℝ) < N1 := by unfold N1; norm_num
theorem N1_ne : N1 ≠ 0 := ne_of_gt N1_pos
theorem N1_eq : N1 = N - 1 := by unfold N N1; norm_num

/-- A frame has `N` pixels. -/
theorem card_pix : (Fintype.card Pix : ℝ) = N := by
  have h : Fintype.card Pix = 401408 := by
    simp [Fintype.card_prod, Fintype.card_fin]
  rw [h]; unfold N; norm_num

section OneMap

variable {K : Type} [Fintype K] (hK : (Fintype.card K : ℝ) = N)
-- every law of this section takes the size of the frame first, whether or not its proof counts the points
include hK

/-! ## Variance and standard deviation -/

/-- The sum of a map is `N` times its mean. -/
theorem sum_eq_N_mul_mean (f : K → ℝ) : (∑ k, f k) = N * mean f := by
  have h := N_ne
  unfold mean
  field_simp

/-- The covariance identity: ∑ (f - mean f)(g - mean g) = ∑ f g - N · mean f · mean g. -/
theorem cov_eq (f g : K → ℝ) :
    ∑ k, (f k - mean f) * (g k - mean g) = (∑ k, f k * g k) - N * mean f * mean g := by
  have hterm : ∀ k, (f k - mean f) * (g k - mean g)
      = f k * g k - mean g * f k - mean f * g k + mean f * mean g := by
    intro k; ring
  -- the cross terms are multiples of the two sums, the constant term is counted once for each point
  simp only [hterm, Finset.sum_add_distrib, Finset.sum_sub_distrib, ← Finset.mul_sum, Finset.sum_const,
    Finset.card_univ, nsmul_eq_mul]
  rw [hK, sum_eq_N_mul_mean hK f, sum_eq_N_mul_mean hK g]
  ring

/-- The raw form of the centred sum of squares: ∑ f² - N · mean² = ∑ (f - mean)². -/
theorem var_ker_eq (f : K → ℝ) :
    (∑ k, f k * f k) - N * mean f * mean f = ∑ k, (f k - mean f) * (f k - mean f) :=
  (cov_eq hK f f).symm

theorem var_ref_nonneg (f : K → ℝ) : 0 ≤ (∑ k, (f k - mean f) * (f k - mean f)) / N1 :=
  div_nonneg (Finset.sum_nonneg (fun k _ => mul_self_nonneg (f k - mean f))) N1_pos.le

theorem var_ker_nonneg (f : K → ℝ) : 0 ≤ ((∑ k, f k * f k) - N * mean f * mean f) / N1 := by
  rw [var_ker_eq hK]; exact var_ref_nonneg hK f

theorem stdKer_eq_stdRef (f : K → ℝ) : stdKer f = stdRef f := by
  unfold stdKer stdRef; rw [var_ker_eq hK]

/-- A map that is not constant differs from its mean somewhere, so its centred sum of squares is positive. -/
theorem centred_sq_pos {f : K → ℝ} (hf : NonConst f) : 0 < ∑ k, (f k - mean f) * (f k - mean f) := by
  obtain ⟨k, k', hkk⟩ := hf
  have hj : ∃ j, f j ≠ mean f := by
    by_contra h
    have h' : ∀ j, f j = mean f := fun j => by
      by_contra hne
      exact h ⟨j, hne⟩
    exact hkk ((h' k).trans (h' k').symm)
  obtain ⟨j, hj⟩ := hj
  apply Finset.sum_pos'
  · intro i _; exact mul_self_nonneg _
  · exact ⟨j, Finset.mem_univ j, mul_self_pos.2 (sub_ne_zero.2 hj)⟩

theorem stdRef_pos {f : K → ℝ} (hf : NonConst f) : 0 < stdRef f :=
  Real.sqrt_pos.2 (div_pos (centred_sq_pos hK hf) N1_pos)

theorem stdRef_ne {f : K → ℝ} (hf : NonConst f) : stdRef f ≠ 0 := (stdRef_pos hK hf).ne'

theorem stdKer_ne {f : K → ℝ} (hf : NonConst f) : stdKer f ≠ 0 := by
  rw [stdKer_eq_stdRef hK]; exact stdRef_ne hK hf

/-! ## CC -/

/-- A standardised map has sum of squares N - 1. -/
theorem sum_zRef_sq {f : K → ℝ} (hf : NonConst f) : ∑ k, zRef f k * zRef f k = N1 := by
  have hQ := (centred_sq_pos hK hf).ne'
  have hN1 := N1_ne
  -- the square of the standard deviation is the centred sum of squares over N - 1
  have hσ : stdRef f * stdRef f = (∑ k, (f k - mean f) * (f k - mean f)) / N1 := by
    unfold stdRef; exact Real.mul_self_sqrt (var_ref_nonneg hK f)
  have hterm : ∀ k, zRef f k * zRef f k = (f k - mean f) * (f k - mean f) / (stdRef f * stdRef f) := by
    intro k; unfold zRef; rw [div_mul_div_comm]
  simp only [hterm]
  rw [← Finset.sum_div, hσ]
  -- Q / (Q / (N - 1)) = N - 1 for the non-zero centred sum of squares Q
  generalize (∑ k, (f k - mean f) * (f k - mean f)) = Q at hQ ⊢
  field_simp

theorem ccRef_radicand_nonneg (f g : K → ℝ) :
    0 ≤ (∑ k, zRef f k * zRef f k) * (∑ k, zRef g k * zRef g k) :=
  mul_nonneg (Finset.sum_nonneg (fun k _ => mul_self_nonneg (zRef f k)))
    (Finset.sum_nonneg (fun k _ => mul_self_nonneg (zRef g k)))

theorem ccRef_den_ne {f g : K → ℝ} (hf : NonConst f) (hg : NonConst g) :
    Real.sqrt ((∑ k, zRef f k * zRef f k) * (∑ k, zRef g k * zRef g k)) ≠ 0 := by
  rw [sum_zRef_sq hK hf, sum_zRef_sq hK hg, Real.sqrt_mul_self N1_pos.le]
  exact N1_ne

theorem ccKer_den_ne {f g : K → ℝ} (hf : NonConst f) (hg : NonConst g) : N1 * stdKer f * stdKer g ≠ 0 :=
  mul_ne_zero (mul_ne_zero N1_ne (stdKer_ne hK hf)) (stdKer_ne hK hg)

/-- The covariance form of CC is the normalised inner product of the standardised maps. -/
theorem ccKer_eq_ccRef {f g : K → ℝ} (hf : NonConst f) (hg : NonConst g) : ccKer f g = ccRef f g := by
  have hσf := stdRef_ne hK hf
  have hσg := stdRef_ne hK hg
  have hN1 := N1_ne
  -- the inner product of the standardised maps is the covariance sum over the two standard deviations
  have hnum : ∑ k, zRef f k * zRef g k
      = ((∑ k, f k * g k) - N * mean f * mean g) / (stdRef f * stdRef g) := by
    have hterm : ∀ k, zRef f k * zRef g k = (f k - mean f) * (g k - mean g) / (stdRef f * stdRef g) := by
      intro k; unfold zRef; rw [div_mul_div_comm]
    simp only [hterm]
    rw [← Finset.sum_div, cov_eq hK]
  -- both sums of squares are N - 1, so the root of their product is N - 1
  unfold ccKer ccRef
  rw [hnum, sum_zRef_sq hK hf, sum_zRef_sq hK hg, Real.sqrt_mul_self N1_pos.le, stdKer_eq_stdRef hK f,
    stdKer_eq_stdRef hK g]
  field_simp

/-! ## SIM -/

variable [Nonempty K]

theorem lo_le (f : K → ℝ) (k : K) : lo f ≤ f k := by
  unfold lo; exact Finset.inf'_le f (Finset.mem_univ k)
theorem le_hi (f : K → ℝ) (k : K) : f k ≤ hi f := by
  unfold hi; exact Finset.le_sup' f (Finset.mem_univ k)

theorem lo_lt_hi {f : K → ℝ} (hf : NonConst f) : lo f < hi f := by
  obtain ⟨k, k', h⟩ := hf
  rcases lt_or_gt_of_ne h with h1 | h1
  · exact lt_of_le_of_lt (lo_le hK f k) (lt_of_lt_of_le h1 (le_hi hK f k'))
  · exact lt_of_le_of_lt (lo_le hK f k') (lt_of_lt_of_le h1 (le_hi hK f k))

theorem hi_sub_lo_ne {f : K → ℝ} (hf : NonConst f) : hi f - lo f ≠ 0 :=
  sub_ne_zero.2 (lo_lt_hi hK hf).ne'

/-- Two values of a map whose least value is below its greatest differ. -/
theorem nonConst_of_lo_lt_hi {f : K → ℝ} (h : lo f < hi f) : NonConst f := by
  -- the least and the greatest value are both taken
  obtain ⟨a, _, ha⟩ := Finset.exists_mem_eq_inf' (univ_nonempty (α := K)) f
  obtain ⟨b, _, hb⟩ := Finset.exists_mem_eq_sup' (univ_nonempty (α := K)) f
  have ha' : lo f = f a := ha
  have hb' : hi f = f b := hb
  refine ⟨a, b, fun hab => ?_⟩
  rw [ha', hb', hab] at h
  exact lt_irrefl _ h

/-- The sum of the [0, 1] map is linear in the sum of the map. -/
theorem sum_unit01 {f : K → ℝ} (hf : NonConst f) : ∑ j, unit01 f j = sumn f := by
  unfold unit01 sumn
  rw [← Finset.sum_div, Finset.sum_sub_distrib, Finset.sum_const, Finset.card_univ, nsmul_eq_mul, hK]

theorem sumn_pos {f : K → ℝ} (hf : NonConst f) : 0 < sumn f := by
  have hd : 0 < hi f - lo f := sub_pos.2 (lo_lt_hi hK hf)
  rw [← sum_unit01 hK hf]
  -- every term is non-negative, and the term where the greatest value is taken is 1
  obtain ⟨b, _, hb⟩ := Finset.exists_mem_eq_sup' (univ_nonempty (α := K)) f
  have hb' : f b = hi f := hb.symm
  apply Finset.sum_pos'
  · intro j _
    show 0 ≤ (f j - lo f) / (hi f - lo f)
    exact div_nonneg (sub_nonneg.2 (lo_le hK f j)) hd.le
  · refine ⟨b, Finset.mem_univ b, ?_⟩
    show 0 < (f b - lo f) / (hi f - lo f)
    rw [hb']; exact div_pos hd hd

theorem sum_unit01_ne {f : K → ℝ} (hf : NonConst f) : ∑ j, unit01 f j ≠ 0 := by
  rw [sum_unit01 hK hf]; exact (sumn_pos hK hf).ne'

theorem scale_den_ne {f : K → ℝ} (hf : NonConst f) : (hi f - lo f) * sumn f ≠ 0 :=
  mul_ne_zero (hi_sub_lo_ne hK hf) (sumn_pos hK hf).ne'

/-- One scale and one shift normalise a map as the two divisions do. -/
theorem normKer_eq_normRef {f : K → ℝ} (hf : NonConst f) (k : K) : normKer f k = normRef f k := by
  have h1 := hi_sub_lo_ne hK hf
  have h2 := (sumn_pos hK hf).ne'
  unfold normKer normRef shift scale
  rw [sum_unit01 hK hf]
  unfold unit01
  field_simp

theorem simKer_eq_simRef {f g : K → ℝ} (hf : NonConst f) (hg : NonConst g) : simKer f g = simRef f g := by
  unfold simKer simRef
  exact Finset.sum_congr rfl (fun k _ => by rw [normKer_eq_normRef hK hf, normKer_eq_normRef hK hg])

end OneMap

end Cert.Weighting

end
-- ==== Proof.LibFibre.lean ====
/-
  General reading lemmas at the extended reals, for programs whose arrays hold real numbers.

  * arithmetic on real entries stays real: a quotient by a non-zero real, a square root of a non-negative real, a
    finite sum, and the f32 patterns of the few integers and infinities the programs carry;
  * a host reduction over the three pixel axes of a [8, 16, 32, 112, 112] array (frames) or of a [8, 32, 112, 112]
    array (one map per batch entry), read at a result index, is the sum, the least or the greatest value over the
    pixels (channel, row, column) of that frame or map.
-/
import Idealize.ShloMosaic.PureOps.Ideal.Laws
import Idealize.ShloMosaic.PureOps.Reduce
import Idealize.ShloMosaic.Lib.ValueIdx

noncomputable section

namespace Cert.Weighting.Fibre

open Idealize.ShloMosaic Idealize.ShloMosaic.ValueIdx Finset

/-- The pixels of one frame: channel, row, column. -/
abbrev Px := Fin 32 × Fin 112 × Fin 112

abbrev ST : Shape := ⟨5, ![8, 16, 32, 112, 112]⟩
abbrev SG : Shape := ⟨4, ![8, 32, 112, 112]⟩
abbrev S2 : Shape := ⟨2, ![8, 16]⟩
abbrev S1 : Shape := ⟨1, ![8]⟩
abbrev S0 : Shape := ⟨0, ![]⟩

/-! ## Real arithmetic inside the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real divided by a non-zero real. -/
theorem div_coe (x y : ℝ) (hy : y ≠ 0) : Ideal.div (x : EReal) (y : EReal) = ((x / y : ℝ) : EReal) := by
  rw [Ideal.div_coe hy, ← EReal.coe_mul, mul_one_div]

/-- The square root of a non-negative real. -/
theorem sqrt_coe (r : ℝ) (hr : 0 ≤ r) : Ideal.sqrt (r : EReal) = ((Real.sqrt r : ℝ) : EReal) := by
  rw [Ideal.sqrt_coe, if_neg (not_lt.mpr hr)]

/-- The least of finitely many reals, folded inside the extended reals from the top element: the fold never leaves
    the reals after its first step, and on the reals the two minima agree. -/
theorem fold_min_coe {ι : Type} (s : Finset ι) (hs : s.Nonempty) (f : ι → ℝ) :
    s.fold (FloatOps.minimumf (F := Ideal) (φ := .f32)) (⊤ : EReal) (fun i => ((f i : ℝ) : EReal))
      = ((s.inf' hs f : ℝ) : EReal) := by
  induction hs using Finset.Nonempty.cons_induction with
  | singleton a =>
    rw [Finset.fold_singleton, Finset.inf'_singleton]
    exact min_top_right _
  | cons a s ha hs ih =>
    rw [Finset.fold_cons, ih, Finset.inf'_cons hs]
    exact (EReal.coe_strictMono.monotone.map_min).symm

/-- The greatest of finitely many reals, folded inside the extended reals from the bottom element. -/
theorem fold_max_coe {ι : Type} (s : Finset ι) (hs : s.Nonempty) (f : ι → ℝ) :
    s.fold (FloatOps.maximumf (F := Ideal) (φ := .f32)) (⊥ : EReal) (fun i => ((f i : ℝ) : EReal))
      = ((s.sup' hs f : ℝ) : EReal) := by
  induction hs using Finset.Nonempty.cons_induction with
  | singleton a =>
    rw [Finset.fold_singleton, Finset.sup'_singleton]
    exact max_bot_right _
  | cons a s ha hs ih =>
    rw [Finset.fold_cons, ih, Finset.sup'_cons hs]
    exact (EReal.coe_strictMono.monotone.map_max).symm

/-! ## The f32 patterns the programs carry

  A normal pattern with exponent field E and fraction field T denotes (2^23 + T) · 2^(E − 127 − 23):
  0x3F800000 has E = 127, T = 0: one; 0x41800000 has E = 131, T = 0: 2^4; 0x48C40000 has E = 145 and
  2^23 + T = 12845056 = 401408 · 2^5; 0x48C3FFE0 has E = 145 and 2^23 + T = 12845024 = 401407 · 2^5. The all-ones
  exponent with a zero fraction is the infinity of the sign bit. -/

theorem ofBits_one : Ideal.ofBits .f32 0x3F800000#32 = ((1 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_401408 : Ideal.ofBits .f32 0x48C40000#32 = ((401408 : ℝ) : EReal) := by
  simp [Ideal.ofBits, Ideal.ieee, -EReal.coe_mul]; norm_num
theorem ofBits_401407 : Ideal.ofBits .f32 0x48C3FFE0#32 = ((401407 : ℝ) : EReal) := by
  simp [Ideal.ofBits, Ideal.ieee, -EReal.coe_mul]; norm_num
theorem ofBits_inf : Ideal.ofBits .f32 0x7F800000#32 = (⊤ : EReal) := by
  simp [Ideal.ofBits, Ideal.ieee]
theorem ofBits_neg_inf : Ideal.ofBits .f32 0xFF800000#32 = (⊥ : EReal) := by
  simp [Ideal.ofBits, Ideal.ieee]

/-- The one index of the scalar shape. -/
theorem first_S0 (hu : 0 < S0.numel) : Shape.Idx.first hu = ix0 := funext fun a => a.elim0

/-! ## Reductions over the pixels of a frame: [8, 16, 32, 112, 112] over axes 2, 3, 4 -/

/-- The index of pixel `p` of frame (b, t). -/
def embT (b : Fin 8) (t : Fin 16) (p : Px) : ST.Idx := ix5 b t p.1 p.2.1 p.2.2

/-- Distinct pixels of a frame have distinct indices: the last three coordinates are the pixel's. -/
theorem embT_injective (b : Fin 8) (t : Fin 16) : Function.Injective (embT b t) := by
  intro p q hpq
  exact Prod.ext (congrFun hpq 2) (Prod.ext (congrFun hpq 3) (congrFun hpq 4))

/-- The indices that reduce to (b, t) are those whose first two coordinates are b and t, that is the indices of
    the pixels of frame (b, t). -/
theorem filter_frames (h : ST.ReducesTo [2, 3, 4] S2) (b : Fin 8) (t : Fin 16) :
    (univ.filter fun i : ST.Idx => h.drop i = ix2 b t) = univ.image (embT b t) := by
  ext i
  simp only [mem_filter, mem_univ, true_and, mem_image]
  constructor
  · intro hi
    have h0 : (i 0 : Nat) = b := by rw [← h.drop_apply_val_of_eq i 0 0, hi]
    have h1 : (i 1 : Nat) = t := by rw [← h.drop_apply_val_of_eq i 1 1, hi]
    have hb : b = i 0 := Fin.ext h0.symm
    have ht : t = i 1 := Fin.ext h1.symm
    subst hb ht
    exact ⟨(i 2, i 3, i 4), (eq_ix5 i).symm⟩
  · rintro ⟨p, rfl⟩
    funext a
    apply Fin.ext
    match a with
    | ⟨0, _⟩ => exact h.drop_apply_val_of_eq _ 0 0
    | ⟨1, _⟩ => exact h.drop_apply_val_of_eq _ 1 1

section Frames
variable (h : ST.ReducesTo [2, 3, 4] S2) (hu : 0 < S0.numel) (y : FVec Ideal ST .f32) (init : S0.Idx → Ideal .f32)
  (f : Fin 8 → Fin 16 → Px → ℝ) (hy : ∀ b t (p : Px), y (ix5 b t p.1 p.2.1 p.2.2) = ((f b t p : ℝ) : EReal))
include hy

theorem reduceAdd_frames (h0 : init ix0 = 0) (b : Fin 8) (t : Fin 16) :
    Host.reduceAdd (F := Ideal) y init h hu (ix2 b t) = ((∑ p, f b t p : ℝ) : EReal) := by
  show Ideal.hostReduceAdd h y (init (Shape.Idx.first hu)) (ix2 b t) = _
  rw [first_S0 hu, h0, Ideal.hostReduceAdd, zero_add, filter_frames h b t,
    Finset.sum_image (fun p _ q _ hpq => embT_injective b t hpq), coe_sum]
  exact Finset.sum_congr rfl fun p _ => hy b t p

theorem reduceMin_frames (h0 : init ix0 = ⊤) (b : Fin 8) (t : Fin 16) :
    Host.reduce (FloatOps.minimumf (F := Ideal) (φ := .f32)) y init h hu (ix2 b t)
      = ((univ.inf' univ_nonempty (f b t) : ℝ) : EReal) := by
  refine (Host.reduce_eq_fold _ y init h hu (ix2 b t)).trans ?_
  rw [first_S0 hu, h0, filter_frames h b t, Finset.fold_image (fun p _ q _ hpq => embT_injective b t hpq)]
  exact (Finset.fold_congr fun p _ => hy b t p).trans (fold_min_coe univ univ_nonempty (f b t))

theorem reduceMax_frames (h0 : init ix0 = ⊥) (b : Fin 8) (t : Fin 16) :
    Host.reduce (FloatOps.maximumf (F := Ideal) (φ := .f32)) y init h hu (ix2 b t)
      = ((univ.sup' univ_nonempty (f b t) : ℝ) : EReal) := by
  refine (Host.reduce_eq_fold _ y init h hu (ix2 b t)).trans ?_
  rw [first_S0 hu, h0, filter_frames h b t, Finset.fold_image (fun p _ q _ hpq => embT_injective b t hpq)]
  exact (Finset.fold_congr fun p _ => hy b t p).trans (fold_max_coe univ univ_nonempty (f b t))

end Frames

/-! ## Reductions over the pixels of a map: [8, 32, 112, 112] over axes 1, 2, 3 -/

/-- The index of pixel `p` of the map of batch entry b. -/
def embG (b : Fin 8) (p : Px) : SG.Idx := ix4 b p.1 p.2.1 p.2.2

/-- Distinct pixels of a map have distinct indices. -/
theorem embG_injective (b : Fin 8) : Function.Injective (embG b) := by
  intro p q hpq
  exact Prod.ext (congrFun hpq 1) (Prod.ext (congrFun hpq 2) (congrFun hpq 3))

/-- The indices that reduce to b are those whose first coordinate is b: the indices of the pixels of b's map. -/
theorem filter_maps (h : SG.ReducesTo [1, 2, 3] S1) (b : Fin 8) :
    (univ.filter fun i : SG.Idx => h.drop i = ix1 b) = univ.image (embG b) := by
  ext i
  simp only [mem_filter, mem_univ, true_and, mem_image]
  constructor
  · intro hi
    have h0 : (i 0 : Nat) = b := by rw [← h.drop_apply_val_of_eq i 0 0, hi]
    have hb : b = i 0 := Fin.ext h0.symm
    subst hb
    exact ⟨(i 1, i 2, i 3), (eq_ix4 i).symm⟩
  · rintro ⟨p, rfl⟩
    funext a
    apply Fin.ext
    match a with
    | ⟨0, _⟩ => exact h.drop_apply_val_of_eq _ 0 0

section Maps
variable (h : SG.ReducesTo [1, 2, 3] S1) (hu : 0 < S0.numel) (y : FVec Ideal SG .f32) (init : S0.Idx → Ideal .f32)
  (g : Fin 8 → Px → ℝ) (hy : ∀ b (p : Px), y (ix4 b p.1 p.2.1 p.2.2) = ((g b p : ℝ) : EReal))
include hy

theorem reduceAdd_maps (h0 : init ix0 = 0) (b : Fin 8) :
    Host.reduceAdd (F := Ideal) y init h hu (ix1 b) = ((∑ p, g b p : ℝ) : EReal) := by
  show Ideal.hostReduceAdd h y (init (Shape.Idx.first hu)) (ix1 b) = _
  rw [first_S0 hu, h0, Ideal.hostReduceAdd, zero_add, filter_maps h b,
    Finset.sum_image (fun p _ q _ hpq => embG_injective b hpq), coe_sum]
  exact Finset.sum_congr rfl fun p _ => hy b p

theorem reduceMin_maps (h0 : init ix0 = ⊤) (b : Fin 8) :
    Host.reduce (FloatOps.minimumf (F := Ideal) (φ := .f32)) y init h hu (ix1 b)
      = ((univ.inf' univ_nonempty (g b) : ℝ) : EReal) := by
  refine (Host.reduce_eq_fold _ y init h hu (ix1 b)).trans ?_
  rw [first_S0 hu, h0, filter_maps h b, Finset.fold_image (fun p _ q _ hpq => embG_injective b hpq)]
  exact (Finset.fold_congr fun p _ => hy b p).trans (fold_min_coe univ univ_nonempty (g b))

theorem reduceMax_maps (h0 : init ix0 = ⊥) (b : Fin 8) :
    Host.reduce (FloatOps.maximumf (F := Ideal) (φ := .f32)) y init h hu (ix1 b)
      = ((univ.sup' univ_nonempty (g b) : ℝ) : EReal) := by
  refine (Host.reduce_eq_fold _ y init h hu (ix1 b)).trans ?_
  rw [first_S0 hu, h0, filter_maps h b, Finset.fold_image (fun p _ q _ hpq => embG_injective b hpq)]
  exact (Finset.fold_congr fun p _ => hy b p).trans (fold_max_coe univ univ_nonempty (g b))

end Maps

end Cert.Weighting.Fibre

end
-- ==== Proof.KHost1A.lean ====
/-
  The kernel program's first host stretch, part A: the stretch written once as terms of the first region's six
  arrays (one definition per stage, in the order of the printed operations), the proof that the stretch leaves
  exactly those terms in the four arrays the second region reads, and the layout operations (reshape, broadcast of a
  constant, broadcast of a per-batch value) read at an index.
-/
import proofs.«171658_j72688026517959_1_alg».proof.Proof.Gen.KernelIdeal.Launch
import proofs.«171658_j72688026517959_1_alg».proof.Proof.Spec
import proofs.«171658_j72688026517959_1_alg».proof.Proof.SpecLaws
import proofs.«171658_j72688026517959_1_alg».proof.Proof.LibFibre
import Idealize.ShloMosaic.Lib.StableHlo.Run
import Idealize.ShloMosaic.Lib.ValueIdx
import Idealize.ShloMosaic.Lib.Pipeline.Value
import Idealize.ShloMosaic.PureOps.Ideal.Laws

set_option maxRecDepth 65536

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.ValueIdx

/-! ## The stretch as one term per stage

The host stretch between the first and the second region, written once as functions of the six arrays the
first region leaves: `g` (the target maps, [8, 32, 112, 112]) and `a1 … a5` (per frame: the sum, the sum of squares,
the sum of products with the target map, the least and the greatest value, each [8, 1, 16]). -/

section Stages

abbrev A4 := FVec Ideal S8x32x112x112 .f32
abbrev A3 := FVec Ideal S8x1x16 .f32
abbrev A2 := FVec Ideal S8x16 .f32
abbrev A1 := FVec Ideal S8 .f32

/-- A per-frame array [8, 1, 16] read as [8, 16]. -/
def rs (a : A3) : A2 := shapeCast S8x16 a shapeCasts_S8x1x16_S8x16
/-- A per-frame array [8, 16] read as [8, 1, 16]. -/
def unrs (y : A2) : A3 := shapeCast S8x1x16 y shapeCasts_S8x16_S8x1x16
/-- A scalar constant over the frames. -/
def c16 (k : BitVec 32) : A2 := broadcastInDim S8x16 ![] bcast_S_S8x16 (constant (F := Ideal) S_ .f32 k)
/-- A scalar constant over the batch. -/
def c8 (k : BitVec 32) : A1 := broadcastInDim S8 ![] bcast_S_S8 (constant (F := Ideal) S_ .f32 k)
/-- A per-batch value repeated over the 16 frames of the batch entry. -/
def up (x : A1) : A2 := broadcastInDim S8x16 ![0, 1] bcast_S8x1_S8x16_0_1 (broadcastInDim S8x1 ![0] bcast_S8_S8x1_0 x)
/-- A per-batch value repeated over the pixels of the batch entry's map. -/
def up4 (x : A1) : A4 :=
  broadcastInDim S8x32x112x112 ![0, 1, 2, 3] bcast_S8x1x1x1_S8x32x112x112_0_1_2_3 (broadcastInDim S8x1x1x1 ![0] bcast_S8_S8x1x1x1_0 x)

variable (g : A4) (a1 a2 a3 a4 a5 : A3)

/-- The mean of each frame. -/
def fMean : A2 := Host.divf (F := Ideal) (rs a1) (c16 0x48C40000#32)
/-- The unbiased variance of each frame, from the raw sum of squares. -/
def fVar : A2 :=
  Host.divf (F := Ideal) (subf (rs a2) (mulf (mulf (c16 0x48C40000#32) (fMean a1)) (fMean a1))) (c16 0x48C3FFE0#32)
/-- The standard deviation of each frame. -/
def fStd : A2 := Host.sqrt (F := Ideal) (fVar a1 a2)

/-- The sum of each target map. -/
def gSum : A1 := Host.reduceAdd (F := Ideal) g (constant (F := Ideal) S_ .f32 0x00000000#32) reducesTo_S8x32x112x112_S8_d1_2_3 h_S_
/-- The sum of squares of each target map. -/
def gSq : A1 :=
  Host.reduceAdd (F := Ideal) (mulf g g) (constant (F := Ideal) S_ .f32 0x00000000#32) reducesTo_S8x32x112x112_S8_d1_2_3 h_S_
/-- The least value of each target map. -/
def gMin : A1 :=
  Host.reduce (FloatOps.minimumf (F := Ideal) (φ := .f32)) g (constant (F := Ideal) S_ .f32 0x7F800000#32) reducesTo_S8x32x112x112_S8_d1_2_3 h_S_
/-- The greatest value of each target map. -/
def gMax : A1 :=
  Host.reduce (FloatOps.maximumf (F := Ideal) (φ := .f32)) g (constant (F := Ideal) S_ .f32 0xFF800000#32) reducesTo_S8x32x112x112_S8_d1_2_3 h_S_
/-- The mean of each target map. -/
def gMean : A1 := Host.divf (F := Ideal) (gSum g) (c8 0x48C40000#32)
/-- The unbiased variance of each target map. -/
def gVar : A1 :=
  Host.divf (F := Ideal) (subf (gSq g) (mulf (mulf (c8 0x48C40000#32) (gMean g)) (gMean g))) (c8 0x48C3FFE0#32)
/-- The standard deviation of each target map. -/
def gStd : A1 := Host.sqrt (F := Ideal) (gVar g)

/-- The covariance sum: the sum of products less N times the two means. -/
def ccNum : A2 := subf (rs a3) (mulf (mulf (c16 0x48C40000#32) (fMean a1)) (up (gMean g)))
/-- N - 1 times the two standard deviations. -/
def ccDen : A2 := mulf (mulf (c16 0x48C3FFE0#32) (fStd a1 a2)) (up (gStd g))
/-- CC in covariance form. -/
def cc : A2 := Host.divf (F := Ideal) (ccNum g a1 a3) (ccDen g a1 a2)

/-- The sum of each frame brought to [0, 1]. -/
def fSumn : A2 := Host.divf (F := Ideal) (subf (rs a1) (mulf (c16 0x48C40000#32) (rs a4))) (subf (rs a5) (rs a4))
/-- The one scale of each frame. -/
def fScale : A2 := Host.divf (F := Ideal) (c16 0x3F800000#32) (mulf (subf (rs a5) (rs a4)) (fSumn a1 a4 a5))
/-- The one shift of each frame. -/
def fShift : A2 := mulf (rs a4) (fScale a1 a4 a5)

/-- The sum of each target map brought to [0, 1]. -/
def gSumn : A1 := Host.divf (F := Ideal) (subf (gSum g) (mulf (c8 0x48C40000#32) (gMin g))) (subf (gMax g) (gMin g))
/-- The one scale of each target map. -/
def gScale : A1 := Host.divf (F := Ideal) (c8 0x3F800000#32) (mulf (subf (gMax g) (gMin g)) (gSumn g))
/-- The one shift of each target map. -/
def gShift : A1 := mulf (gMin g) (gScale g)
/-- Each target map normalised to sum 1 by one multiplication and one subtraction. -/
def gNorm : A4 := subf (mulf g (up4 (gScale g))) (up4 (gShift g))

end Stages

/-! ## The stretch's results are those terms of the first region's arrays -/

section After

variable (W : Valuation τ sig (Elt Ideal))

set_option maxHeartbeats 4000000 in
theorem after_v40 :
    (StableHlo.after hostOps1 W (Proc.devRef .tc main_v40) : A2) =
      cc (W (Proc.devRef .tc main_v0_0)) (W (Proc.devRef .tc main_v0_1)) (W (Proc.devRef .tc main_v0_2)) (W (Proc.devRef .tc main_v0_3)) := by
  after_results_simp
  rfl

set_option maxHeartbeats 4000000 in
theorem after_v66 :
    (StableHlo.after hostOps1 W (Proc.devRef .tc main_v66) : A4) = gNorm (W (Proc.devRef .tc main_v0_0)) := by
  after_results_simp
  rfl

set_option maxHeartbeats 4000000 in
theorem after_v67 :
    (StableHlo.after hostOps1 W (Proc.devRef .tc main_v67) : A3) =
      unrs (fScale (W (Proc.devRef .tc main_v0_1)) (W (Proc.devRef .tc main_v0_4)) (W (Proc.devRef .tc main_v0_5))) := by
  after_results_simp
  rfl

set_option maxHeartbeats 4000000 in
theorem after_v68 :
    (StableHlo.after hostOps1 W (Proc.devRef .tc main_v68) : A3) =
      unrs (fShift (W (Proc.devRef .tc main_v0_1)) (W (Proc.devRef .tc main_v0_4)) (W (Proc.devRef .tc main_v0_5))) := by
  after_results_simp
  rfl

end After

/-! ## The layout operations read at an index -/

section Index

theorem rs_apply (a : A3) (b : Fin 8) (t : Fin 16) : rs a (ix2 b t) = a (ix3 b (0 : Fin 1) t) := by
  unfold rs
  exact shapeCast_apply a shapeCasts_S8x1x16_S8x16 _ _ (by
    rw [Shape.rowMajor_val_three, Shape.rowMajor_val_two]
    show (b.val * 1 + 0) * 16 + t.val = b.val * 16 + t.val
    omega)

theorem unrs_apply (y : A2) (b : Fin 8) (u : Fin 1) (t : Fin 16) : unrs y (ix3 b u t) = y (ix2 b t) := by
  unfold unrs
  exact shapeCast_apply y shapeCasts_S8x16_S8x1x16 _ _ (by
    have hu : u.val = 0 := by omega
    rw [Shape.rowMajor_val_three, Shape.rowMajor_val_two]
    show b.val * 16 + t.val = (b.val * 1 + u.val) * 16 + t.val
    omega)

theorem c16_apply (k : BitVec 32) (i : S8x16.Idx) : c16 k i = Ideal.ofBits .f32 k := by
  unfold c16
  exact broadcastInDim_apply _ bcast_S_S8x16 (constant (F := Ideal) S_ .f32 k) i (fun a => a.elim0) (fun a => a.elim0)

theorem c8_apply (k : BitVec 32) (i : S8.Idx) : c8 k i = Ideal.ofBits .f32 k := by
  unfold c8
  exact broadcastInDim_apply _ bcast_S_S8 (constant (F := Ideal) S_ .f32 k) i (fun a => a.elim0) (fun a => a.elim0)

theorem up_apply (x : A1) (b : Fin 8) (t : Fin 16) : up x (ix2 b t) = x (ix1 b) := by
  unfold up
  refine (broadcastInDim_apply _ bcast_S8x1_S8x16_0_1 _ (ix2 b t) (ix2 b (0 : Fin 1)) (fun a => match a with
    | ⟨0, _⟩ => by show b.val = if (8 : Nat) = 1 then 0 else b.val; rw [if_neg (by decide)]
    | ⟨1, _⟩ => by show (0 : Nat) = if (1 : Nat) = 1 then 0 else t.val; rw [if_pos rfl])).trans ?_
  exact broadcastInDim_apply _ bcast_S8_S8x1_0 x (ix2 b (0 : Fin 1)) (ix1 b) (fun a => match a with
    | ⟨0, _⟩ => by show b.val = if (8 : Nat) = 1 then 0 else b.val; rw [if_neg (by decide)])

theorem up4_apply (x : A1) (b : Fin 8) (c : Fin 32) (h w : Fin 112) : up4 x (ix4 b c h w) = x (ix1 b) := by
  unfold up4
  refine (broadcastInDim_apply _ bcast_S8x1x1x1_S8x32x112x112_0_1_2_3 _ (ix4 b c h w)
    (ix4 b (0 : Fin 1) (0 : Fin 1) (0 : Fin 1)) (fun a => match a with
    | ⟨0, _⟩ => by show b.val = if (8 : Nat) = 1 then 0 else b.val; rw [if_neg (by decide)]
    | ⟨1, _⟩ => by show (0 : Nat) = if (1 : Nat) = 1 then 0 else c.val; rw [if_pos rfl]
    | ⟨2, _⟩ => by show (0 : Nat) = if (1 : Nat) = 1 then 0 else h.val; rw [if_pos rfl]
    | ⟨3, _⟩ => by show (0 : Nat) = if (1 : Nat) = 1 then 0 else w.val; rw [if_pos rfl])).trans ?_
  exact broadcastInDim_apply _ bcast_S8_S8x1x1x1_0 x (ix4 b (0 : Fin 1) (0 : Fin 1) (0 : Fin 1)) (ix1 b) (fun a => match a with
    | ⟨0, _⟩ => by show b.val = if (8 : Nat) = 1 then 0 else b.val; rw [if_neg (by decide)])

end Index

end Cert.KernelIdeal.KVal
end
-- ==== Proof.KHost1.lean ====
/-
  The kernel program's first host stretch, CC: from the first region's arrays in real form (the target maps; per frame
  the sum, the sum of squares and the sum of products with the target map) each stage of the stretch up to CC holds the
  real number the specification names: the means, the unbiased variances from the raw sums of squares, their roots, the
  covariance sum, the product of N - 1 and the two standard deviations, and their quotient, CC in covariance form.
-/
import proofs.«171658_j72688026517959_1_alg».proof.Proof.KHost1A
import proofs.«171658_j72688026517959_1_alg».proof.Proof.Gen.KernelIdeal.Launch
import proofs.«171658_j72688026517959_1_alg».proof.Proof.Spec
import proofs.«171658_j72688026517959_1_alg».proof.Proof.SpecLaws
import proofs.«171658_j72688026517959_1_alg».proof.Proof.LibFibre
import Idealize.ShloMosaic.Lib.StableHlo.Run
import Idealize.ShloMosaic.Lib.ValueIdx
import Idealize.ShloMosaic.Lib.Pipeline.Value
import Idealize.ShloMosaic.PureOps.Ideal.Laws

set_option maxRecDepth 65536

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.ValueIdx

namespace H1

/-! ## Each stage holds the real number the specification names -/

section Real

open Cert.Weighting

variable (X : Arr) (hX : NonDeg X)
variable (g : A4) (a1 a2 a3 a4 a5 : A3)

theorem N_lit_ne : (401408 : ℝ) ≠ 0 := by norm_num
theorem N1_lit_ne : (401407 : ℝ) ≠ 0 := by norm_num
theorem zero_init : constant (F := Ideal) S_ .f32 0x00000000#32 ix0 = 0 := Ideal.ofBits_zero_f32
theorem top_init : constant (F := Ideal) S_ .f32 0x7F800000#32 ix0 = ⊤ := Fibre.ofBits_inf
theorem bot_init : constant (F := Ideal) S_ .f32 0xFF800000#32 ix0 = ⊥ := Fibre.ofBits_neg_inf

/-! ### The frames' mean and standard deviation -/

section Frames
variable (h1 : ∀ b t, a1 (ix3 b (0 : Fin 1) t) = ((∑ p : Pix, frame X b t p : ℝ) : EReal))
variable (h2 : ∀ b t, a2 (ix3 b (0 : Fin 1) t) = ((∑ p : Pix, frame X b t p * frame X b t p : ℝ) : EReal))

include h1 in
theorem fMean_real (b : Fin 8) (t : Fin 16) : fMean a1 (ix2 b t) = ((mean (frame X b t) : ℝ) : EReal) := by
  show Ideal.div (rs a1 (ix2 b t)) (c16 _ (ix2 b t)) = _
  rw [rs_apply, c16_apply, h1, Fibre.ofBits_401408, Fibre.div_coe _ _ N_lit_ne]
  rfl

include h1 h2 in
theorem fVar_real (b : Fin 8) (t : Fin 16) :
    fVar a1 a2 (ix2 b t)
      = ((((∑ p : Pix, frame X b t p * frame X b t p) - N * mean (frame X b t) * mean (frame X b t)) / N1 : ℝ) : EReal) := by
  show Ideal.div (rs a2 (ix2 b t) - c16 _ (ix2 b t) * fMean a1 (ix2 b t) * fMean a1 (ix2 b t)) (c16 _ (ix2 b t)) = _
  rw [rs_apply, c16_apply, c16_apply, fMean_real X a1 h1, h2, Fibre.ofBits_401408, Fibre.ofBits_401407,
    ← EReal.coe_mul, ← EReal.coe_mul, ← EReal.coe_sub, Fibre.div_coe _ _ N1_lit_ne]
  rfl

include h1 h2 in
theorem fStd_real (b : Fin 8) (t : Fin 16) : fStd a1 a2 (ix2 b t) = ((stdKer (frame X b t) : ℝ) : EReal) := by
  show Ideal.sqrt (fVar a1 a2 (ix2 b t)) = _
  rw [fVar_real X a1 a2 h1 h2, Fibre.sqrt_coe _ (var_ker_nonneg card_pix (frame X b t))]
  rfl

end Frames

/-! ### The target maps' sums, extremes, mean and standard deviation -/

section Maps
variable (h0 : ∀ b c h w, g (ix4 b c h w) = ((gmap X b (c, h, w) : ℝ) : EReal))
include h0

theorem gSum_real (b : Fin 8) : gSum g (ix1 b) = ((∑ p : Pix, gmap X b p : ℝ) : EReal) := by
  unfold gSum
  exact Fibre.reduceAdd_maps reducesTo_S8x32x112x112_S8_d1_2_3 h_S_ g (constant (F := Ideal) S_ .f32 0x00000000#32)
    (fun b p => gmap X b p) (fun b p => h0 b p.1 p.2.1 p.2.2) zero_init b

theorem gSq_real (b : Fin 8) : gSq g (ix1 b) = ((∑ p : Pix, gmap X b p * gmap X b p : ℝ) : EReal) := by
  unfold gSq
  exact Fibre.reduceAdd_maps reducesTo_S8x32x112x112_S8_d1_2_3 h_S_ (mulf g g) (constant (F := Ideal) S_ .f32 0x00000000#32)
    (fun b p => gmap X b p * gmap X b p)
    (fun b p => by
      show g (ix4 b p.1 p.2.1 p.2.2) * g (ix4 b p.1 p.2.1 p.2.2) = _
      rw [h0, ← EReal.coe_mul])
    zero_init b

theorem gMin_real (b : Fin 8) : gMin g (ix1 b) = ((lo (gmap X b) : ℝ) : EReal) := by
  unfold gMin
  exact Fibre.reduceMin_maps reducesTo_S8x32x112x112_S8_d1_2_3 h_S_ g (constant (F := Ideal) S_ .f32 0x7F800000#32)
    (fun b p => gmap X b p) (fun b p => h0 b p.1 p.2.1 p.2.2) top_init b

theorem gMax_real (b : Fin 8) : gMax g (ix1 b) = ((hi (gmap X b) : ℝ) : EReal) := by
  unfold gMax
  exact Fibre.reduceMax_maps reducesTo_S8x32x112x112_S8_d1_2_3 h_S_ g (constant (F := Ideal) S_ .f32 0xFF800000#32)
    (fun b p => gmap X b p) (fun b p => h0 b p.1 p.2.1 p.2.2) bot_init b

theorem gMean_real (b : Fin 8) : gMean g (ix1 b) = ((mean (gmap X b) : ℝ) : EReal) := by
  show Ideal.div (gSum g (ix1 b)) (c8 _ (ix1 b)) = _
  rw [c8_apply, gSum_real X g h0, Fibre.ofBits_401408, Fibre.div_coe _ _ N_lit_ne]
  rfl

theorem gVar_real (b : Fin 8) :
    gVar g (ix1 b)
      = ((((∑ p : Pix, gmap X b p * gmap X b p) - N * mean (gmap X b) * mean (gmap X b)) / N1 : ℝ) : EReal) := by
  show Ideal.div (gSq g (ix1 b) - c8 _ (ix1 b) * gMean g (ix1 b) * gMean g (ix1 b)) (c8 _ (ix1 b)) = _
  rw [c8_apply, c8_apply, gMean_real X g h0, gSq_real X g h0, Fibre.ofBits_401408, Fibre.ofBits_401407,
    ← EReal.coe_mul, ← EReal.coe_mul, ← EReal.coe_sub, Fibre.div_coe _ _ N1_lit_ne]
  rfl

theorem gStd_real (b : Fin 8) : gStd g (ix1 b) = ((stdKer (gmap X b) : ℝ) : EReal) := by
  show Ideal.sqrt (gVar g (ix1 b)) = _
  rw [gVar_real X g h0, Fibre.sqrt_coe _ (var_ker_nonneg card_pix (gmap X b))]
  rfl

end Maps

/-! ### CC -/

section CC
variable (h0 : ∀ b c h w, g (ix4 b c h w) = ((gmap X b (c, h, w) : ℝ) : EReal))
variable (h1 : ∀ b t, a1 (ix3 b (0 : Fin 1) t) = ((∑ p : Pix, frame X b t p : ℝ) : EReal))
variable (h2 : ∀ b t, a2 (ix3 b (0 : Fin 1) t) = ((∑ p : Pix, frame X b t p * frame X b t p : ℝ) : EReal))
variable (h3 : ∀ b t, a3 (ix3 b (0 : Fin 1) t) = ((∑ p : Pix, frame X b t p * gmap X b p : ℝ) : EReal))

include h0 h1 h3 in
theorem ccNum_real (b : Fin 8) (t : Fin 16) :
    ccNum g a1 a3 (ix2 b t)
      = (((∑ p : Pix, frame X b t p * gmap X b p) - N * mean (frame X b t) * mean (gmap X b) : ℝ) : EReal) := by
  show rs a3 (ix2 b t) - c16 _ (ix2 b t) * fMean a1 (ix2 b t) * up (gMean g) (ix2 b t) = _
  rw [rs_apply, c16_apply, up_apply, fMean_real X a1 h1, gMean_real X g h0, h3, Fibre.ofBits_401408,
    ← EReal.coe_mul, ← EReal.coe_mul, ← EReal.coe_sub]
  rfl

include h0 h1 h2 in
theorem ccDen_real (b : Fin 8) (t : Fin 16) :
    ccDen g a1 a2 (ix2 b t) = ((N1 * stdKer (frame X b t) * stdKer (gmap X b) : ℝ) : EReal) := by
  show c16 _ (ix2 b t) * fStd a1 a2 (ix2 b t) * up (gStd g) (ix2 b t) = _
  rw [c16_apply, up_apply, fStd_real X a1 a2 h1 h2, gStd_real X g h0, Fibre.ofBits_401407,
    ← EReal.coe_mul, ← EReal.coe_mul]
  rfl

include hX h0 h1 h2 h3 in
theorem cc_real (b : Fin 8) (t : Fin 16) : cc g a1 a2 a3 (ix2 b t) = ((ccKer (frame X b t) (gmap X b) : ℝ) : EReal) := by
  show Ideal.div (ccNum g a1 a3 (ix2 b t)) (ccDen g a1 a2 (ix2 b t)) = _
  rw [ccNum_real X g a1 a3 h0 h1 h3, ccDen_real X g a1 a2 h0 h1 h2,
    Fibre.div_coe _ _ (ccKer_den_ne card_pix (hX.1 b t) (hX.2 b))]
  rfl

end CC

end Real

end H1

/-! ## CC after the stretch, in real form -/

section Host1

open Cert.Weighting

variable (W : Valuation τ sig (Elt Ideal)) (X : Arr) (hX : NonDeg X)
variable (h0 : ∀ b c h w, (W (Proc.devRef .tc main_v0_0) : S8x32x112x112.Idx → EReal) (ix4 b c h w)
    = ((gmap X b (c, h, w) : ℝ) : EReal))
variable (h1 : ∀ b t, (W (Proc.devRef .tc main_v0_1) : S8x1x16.Idx → EReal) (ix3 b (0 : Fin 1) t)
    = ((∑ p : Pix, frame X b t p : ℝ) : EReal))
variable (h2 : ∀ b t, (W (Proc.devRef .tc main_v0_2) : S8x1x16.Idx → EReal) (ix3 b (0 : Fin 1) t)
    = ((∑ p : Pix, frame X b t p * frame X b t p : ℝ) : EReal))
variable (h3 : ∀ b t, (W (Proc.devRef .tc main_v0_3) : S8x1x16.Idx → EReal) (ix3 b (0 : Fin 1) t)
    = ((∑ p : Pix, frame X b t p * gmap X b p : ℝ) : EReal))

include hX h0 h1 h2 h3 in
/-- After the stretch the [8, 16] array of CC holds, at (b, t), CC in covariance form of frame (b, t) and the target
    map of b. -/
theorem host1_cc (b : Fin 8) (t : Fin 16) :
    (StableHlo.after hostOps1 W (Proc.devRef .tc main_v40) : S8x16.Idx → EReal) (ix2 b t)
      = ((ccKer (frame X b t) (gmap X b) : ℝ) : EReal) :=
  (congrFun (after_v40 W) (ix2 b t)).trans
    (H1.cc_real X hX (W (Proc.devRef .tc main_v0_0)) (W (Proc.devRef .tc main_v0_1)) (W (Proc.devRef .tc main_v0_2))
      (W (Proc.devRef .tc main_v0_3)) h0 h1 h2 h3 b t)

end Host1

end Cert.KernelIdeal.KVal
end
-- ==== Proof.KHost1G.lean ====
/-
  The kernel program's first host stretch, the target maps normalised: from the first region's array of target maps in
  real form the stretch leaves each map normalised to sum 1 by one multiplication and one subtraction. The sum, the
  least and the greatest value of each map are the host reductions over its pixels; the sum of the [0, 1] map, the one
  scale and the one shift are arithmetic on those three, proved once for any three per-batch arrays that hold the sum
  and the extremes of a non-constant map and then read at the reductions.
-/
import proofs.«171658_j72688026517959_1_alg».proof.Proof.KHost1A
import proofs.«171658_j72688026517959_1_alg».proof.Proof.Gen.KernelIdeal.Launch
import proofs.«171658_j72688026517959_1_alg».proof.Proof.Spec
import proofs.«171658_j72688026517959_1_alg».proof.Proof.SpecLaws
import proofs.«171658_j72688026517959_1_alg».proof.Proof.LibFibre
import Idealize.ShloMosaic.Lib.StableHlo.Run
import Idealize.ShloMosaic.Lib.ValueIdx
import Idealize.ShloMosaic.Lib.Pipeline.Value
import Idealize.ShloMosaic.PureOps.Ideal.Laws

set_option maxRecDepth 65536

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.ValueIdx

namespace H1G

section Real

open Cert.Weighting

theorem N_lit_ne : (401408 : ℝ) ≠ 0 := by norm_num
theorem zero_init : constant (F := Ideal) S_ .f32 0x00000000#32 ix0 = 0 := Ideal.ofBits_zero_f32
theorem top_init : constant (F := Ideal) S_ .f32 0x7F800000#32 ix0 = ⊤ := Fibre.ofBits_inf
theorem bot_init : constant (F := Ideal) S_ .f32 0xFF800000#32 ix0 = ⊥ := Fibre.ofBits_neg_inf

/-! ## The arithmetic on the sum and the extremes of one map, for any three per-batch arrays -/

/-- The sum of the [0, 1] map from the map's sum and extremes. -/
def sumnT (S mn mx : A1) : A1 := Host.divf (F := Ideal) (subf S (mulf (c8 0x48C40000#32) mn)) (subf mx mn)
/-- The one scale, 1 / ((hi - lo) · the sum of the [0, 1] map). -/
def scaleT (S mn mx : A1) : A1 := Host.divf (F := Ideal) (c8 0x3F800000#32) (mulf (subf mx mn) (sumnT S mn mx))
/-- The one shift, lo · scale. -/
def shiftT (S mn mx : A1) : A1 := mulf mn (scaleT S mn mx)
/-- The map times its scale less its shift. -/
def normT (g : A4) (sc sh : A1) : A4 := subf (mulf g (up4 sc)) (up4 sh)

section Gen
variable (f : Pix → ℝ) (hf : NonConst f) (S mn mx : A1) (b : Fin 8)
variable (hS : S (ix1 b) = ((∑ p : Pix, f p : ℝ) : EReal)) (hmn : mn (ix1 b) = ((lo f : ℝ) : EReal))
  (hmx : mx (ix1 b) = ((hi f : ℝ) : EReal))
include hf hS hmn hmx

theorem sumnT_real : sumnT S mn mx (ix1 b) = ((sumn f : ℝ) : EReal) := by
  show Ideal.div (S (ix1 b) - c8 _ (ix1 b) * mn (ix1 b)) (mx (ix1 b) - mn (ix1 b)) = _
  rw [c8_apply, hS, hmn, hmx, Fibre.ofBits_401408, ← EReal.coe_mul, ← EReal.coe_sub, ← EReal.coe_sub,
    Fibre.div_coe _ _ (hi_sub_lo_ne card_pix hf)]
  rfl

theorem scaleT_real : scaleT S mn mx (ix1 b) = ((scale f : ℝ) : EReal) := by
  show Ideal.div (c8 _ (ix1 b)) ((mx (ix1 b) - mn (ix1 b)) * sumnT S mn mx (ix1 b)) = _
  rw [c8_apply, sumnT_real f hf S mn mx b hS hmn hmx, hmn, hmx, Fibre.ofBits_one, ← EReal.coe_sub, ← EReal.coe_mul,
    Fibre.div_coe _ _ (scale_den_ne card_pix hf)]
  rfl

theorem shiftT_real : shiftT S mn mx (ix1 b) = ((shift f : ℝ) : EReal) := by
  show mn (ix1 b) * scaleT S mn mx (ix1 b) = _
  rw [scaleT_real f hf S mn mx b hS hmn hmx, hmn, ← EReal.coe_mul]
  rfl

end Gen

section GenNorm
variable (f : Pix → ℝ) (g : A4) (sc sh : A1) (b : Fin 8) (c : Fin 32) (h w : Fin 112)
variable (hg : g (ix4 b c h w) = ((f (c, h, w) : ℝ) : EReal)) (hsc : sc (ix1 b) = ((scale f : ℝ) : EReal))
  (hsh : sh (ix1 b) = ((shift f : ℝ) : EReal))
include hg hsc hsh

theorem normT_real : normT g sc sh (ix4 b c h w) = ((normKer f (c, h, w) : ℝ) : EReal) := by
  show g (ix4 b c h w) * up4 sc (ix4 b c h w) - up4 sh (ix4 b c h w) = _
  rw [up4_apply, up4_apply, hg, hsc, hsh, ← EReal.coe_mul, ← EReal.coe_sub]
  rfl

end GenNorm

/-! ## The stretch's stages are that arithmetic on the three reductions -/

theorem gScale_eq (g : A4) : gScale g = scaleT (gSum g) (gMin g) (gMax g) := rfl
theorem gShift_eq (g : A4) : gShift g = shiftT (gSum g) (gMin g) (gMax g) := rfl
theorem gNorm_eq (g : A4) : gNorm g = normT g (gScale g) (gShift g) := rfl

/-! ## The reductions over the pixels of each target map -/

section Maps
variable (X : Arr) (hX : NonDeg X) (g : A4)
variable (h0 : ∀ b c h w, g (ix4 b c h w) = ((gmap X b (c, h, w) : ℝ) : EReal))
include h0

theorem gSum_real (b : Fin 8) : gSum g (ix1 b) = ((∑ p : Pix, gmap X b p : ℝ) : EReal) := by
  unfold gSum
  exact Fibre.reduceAdd_maps reducesTo_S8x32x112x112_S8_d1_2_3 h_S_ g (constant (F := Ideal) S_ .f32 0x00000000#32)
    (fun b p => gmap X b p) (fun b p => h0 b p.1 p.2.1 p.2.2) zero_init b

theorem gMin_real (b : Fin 8) : gMin g (ix1 b) = ((lo (gmap X b) : ℝ) : EReal) := by
  unfold gMin
  exact Fibre.reduceMin_maps reducesTo_S8x32x112x112_S8_d1_2_3 h_S_ g (constant (F := Ideal) S_ .f32 0x7F800000#32)
    (fun b p => gmap X b p) (fun b p => h0 b p.1 p.2.1 p.2.2) top_init b

theorem gMax_real (b : Fin 8) : gMax g (ix1 b) = ((hi (gmap X b) : ℝ) : EReal) := by
  unfold gMax
  exact Fibre.reduceMax_maps reducesTo_S8x32x112x112_S8_d1_2_3 h_S_ g (constant (F := Ideal) S_ .f32 0xFF800000#32)
    (fun b p => gmap X b p) (fun b p => h0 b p.1 p.2.1 p.2.2) bot_init b

include hX

theorem gScale_real (b : Fin 8) : gScale g (ix1 b) = ((scale (gmap X b) : ℝ) : EReal) :=
  (congrFun (gScale_eq g) (ix1 b)).trans
    (scaleT_real (gmap X b) (hX.2 b) (gSum g) (gMin g) (gMax g) b (gSum_real X g h0 b) (gMin_real X g h0 b) (gMax_real X g h0 b))

theorem gShift_real (b : Fin 8) : gShift g (ix1 b) = ((shift (gmap X b) : ℝ) : EReal) :=
  (congrFun (gShift_eq g) (ix1 b)).trans
    (shiftT_real (gmap X b) (hX.2 b) (gSum g) (gMin g) (gMax g) b (gSum_real X g h0 b) (gMin_real X g h0 b) (gMax_real X g h0 b))

theorem gNorm_real (b : Fin 8) (c : Fin 32) (h w : Fin 112) :
    gNorm g (ix4 b c h w) = ((normKer (gmap X b) (c, h, w) : ℝ) : EReal) :=
  (congrFun (gNorm_eq g) (ix4 b c h w)).trans
    (normT_real (gmap X b) g (gScale g) (gShift g) b c h w (h0 b c h w) (gScale_real X hX g h0 b) (gShift_real X hX g h0 b))

end Maps

end Real

end H1G

/-! ## The target maps normalised after the stretch, in real form -/

section Host1

open Cert.Weighting

variable (W : Valuation τ sig (Elt Ideal)) (X : Arr) (hX : NonDeg X)
variable (h0 : ∀ b c h w, (W (Proc.devRef .tc main_v0_0) : S8x32x112x112.Idx → EReal) (ix4 b c h w)
    = ((gmap X b (c, h, w) : ℝ) : EReal))
include hX h0

/-- After the stretch the [8, 32, 112, 112] array holds, at (b, c, h, w), the target map of b normalised to sum 1,
    at pixel (c, h, w). -/
theorem host1_gn (b : Fin 8) (c : Fin 32) (h w : Fin 112) :
    (StableHlo.after hostOps1 W (Proc.devRef .tc main_v66) : S8x32x112x112.Idx → EReal) (ix4 b c h w)
      = ((normKer (gmap X b) (c, h, w) : ℝ) : EReal) :=
  (congrFun (after_v66 W) (ix4 b c h w)).trans (H1G.gNorm_real X hX (W (Proc.devRef .tc main_v0_0)) h0 b c h w)

end Host1

end Cert.KernelIdeal.KVal
end
-- ==== Proof.KHost1F.lean ====
/-
  The kernel program's first host stretch, the frames' normalisers: from the first region's per-frame arrays in real
  form (the sum, the least and the greatest value of each frame) the stretch leaves, per frame, the sum of the frame
  brought to [0, 1] (linear in the sum of the frame), the one scale 1 / ((hi - lo) · that sum) and the one shift
  lo · scale, the last two reshaped to [8, 1, 16] for the second region.
-/
import proofs.«171658_j72688026517959_1_alg».proof.Proof.KHost1A
import proofs.«171658_j72688026517959_1_alg».proof.Proof.Gen.KernelIdeal.Launch
import proofs.«171658_j72688026517959_1_alg».proof.Proof.Spec
import proofs.«171658_j72688026517959_1_alg».proof.Proof.SpecLaws
import proofs.«171658_j72688026517959_1_alg».proof.Proof.LibFibre
import Idealize.ShloMosaic.Lib.StableHlo.Run
import Idealize.ShloMosaic.Lib.ValueIdx
import Idealize.ShloMosaic.Lib.Pipeline.Value
import Idealize.ShloMosaic.PureOps.Ideal.Laws

set_option maxRecDepth 65536

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.ValueIdx

namespace H1F

section Real

open Cert.Weighting

variable (X : Arr) (hX : NonDeg X)
variable (a1 a4 a5 : A3)

/-! ## Each stage holds the real number the specification names -/

section FrameNorm
variable (h1 : ∀ b t, a1 (ix3 b (0 : Fin 1) t) = ((∑ p : Pix, frame X b t p : ℝ) : EReal))
variable (h4 : ∀ b t, a4 (ix3 b (0 : Fin 1) t) = ((lo (frame X b t) : ℝ) : EReal))
variable (h5 : ∀ b t, a5 (ix3 b (0 : Fin 1) t) = ((hi (frame X b t) : ℝ) : EReal))
include hX h1 h4 h5

theorem fSumn_real (b : Fin 8) (t : Fin 16) : fSumn a1 a4 a5 (ix2 b t) = ((sumn (frame X b t) : ℝ) : EReal) := by
  show Ideal.div (rs a1 (ix2 b t) - c16 _ (ix2 b t) * rs a4 (ix2 b t)) (rs a5 (ix2 b t) - rs a4 (ix2 b t)) = _
  simp only [rs_apply, c16_apply]
  rw [h1, h4, h5, Fibre.ofBits_401408, ← EReal.coe_mul, ← EReal.coe_sub, ← EReal.coe_sub,
    Fibre.div_coe _ _ (hi_sub_lo_ne card_pix (hX.1 b t))]
  rfl

theorem fScale_real (b : Fin 8) (t : Fin 16) : fScale a1 a4 a5 (ix2 b t) = ((scale (frame X b t) : ℝ) : EReal) := by
  show Ideal.div (c16 _ (ix2 b t)) ((rs a5 (ix2 b t) - rs a4 (ix2 b t)) * fSumn a1 a4 a5 (ix2 b t)) = _
  simp only [rs_apply, c16_apply]
  rw [fSumn_real X hX a1 a4 a5 h1 h4 h5, h4, h5, Fibre.ofBits_one, ← EReal.coe_sub, ← EReal.coe_mul,
    Fibre.div_coe _ _ (scale_den_ne card_pix (hX.1 b t))]
  rfl

theorem fShift_real (b : Fin 8) (t : Fin 16) : fShift a1 a4 a5 (ix2 b t) = ((shift (frame X b t) : ℝ) : EReal) := by
  show rs a4 (ix2 b t) * fScale a1 a4 a5 (ix2 b t) = _
  rw [rs_apply, fScale_real X hX a1 a4 a5 h1 h4 h5, h4, ← EReal.coe_mul]
  rfl

end FrameNorm

end Real

end H1F

/-! ## The frames' scale and shift after the stretch, in real form -/

section Host1

open Cert.Weighting

variable (W : Valuation τ sig (Elt Ideal)) (X : Arr) (hX : NonDeg X)
variable (h1 : ∀ b t, (W (Proc.devRef .tc main_v0_1) : S8x1x16.Idx → EReal) (ix3 b (0 : Fin 1) t)
    = ((∑ p : Pix, frame X b t p : ℝ) : EReal))
variable (h4 : ∀ b t, (W (Proc.devRef .tc main_v0_4) : S8x1x16.Idx → EReal) (ix3 b (0 : Fin 1) t)
    = ((lo (frame X b t) : ℝ) : EReal))
variable (h5 : ∀ b t, (W (Proc.devRef .tc main_v0_5) : S8x1x16.Idx → EReal) (ix3 b (0 : Fin 1) t)
    = ((hi (frame X b t) : ℝ) : EReal))
include hX h1 h4 h5

/-- After the stretch the [8, 1, 16] array of scales holds, at (b, 0, t), the one scale of frame (b, t). -/
theorem host1_scale (b : Fin 8) (t : Fin 16) :
    (StableHlo.after hostOps1 W (Proc.devRef .tc main_v67) : S8x1x16.Idx → EReal) (ix3 b (0 : Fin 1) t)
      = ((scale (frame X b t) : ℝ) : EReal) :=
  (congrFun (after_v67 W) (ix3 b (0 : Fin 1) t)).trans
    ((unrs_apply (fScale (W (Proc.devRef .tc main_v0_1)) (W (Proc.devRef .tc main_v0_4)) (W (Proc.devRef .tc main_v0_5)))
        b (0 : Fin 1) t).trans
      (H1F.fScale_real X hX (W (Proc.devRef .tc main_v0_1)) (W (Proc.devRef .tc main_v0_4)) (W (Proc.devRef .tc main_v0_5))
        h1 h4 h5 b t))

/-- After the stretch the [8, 1, 16] array of shifts holds, at (b, 0, t), the one shift of frame (b, t). -/
theorem host1_shift (b : Fin 8) (t : Fin 16) :
    (StableHlo.after hostOps1 W (Proc.devRef .tc main_v68) : S8x1x16.Idx → EReal) (ix3 b (0 : Fin 1) t)
      = ((shift (frame X b t) : ℝ) : EReal) :=
  (congrFun (after_v68 W) (ix3 b (0 : Fin 1) t)).trans
    ((unrs_apply (fShift (W (Proc.devRef .tc main_v0_1)) (W (Proc.devRef .tc main_v0_4)) (W (Proc.devRef .tc main_v0_5)))
        b (0 : Fin 1) t).trans
      (H1F.fShift_real X hX (W (Proc.devRef .tc main_v0_1)) (W (Proc.devRef .tc main_v0_4)) (W (Proc.devRef .tc main_v0_5))
        h1 h4 h5 b t))

end Host1

end Cert.KernelIdeal.KVal
end
-- ==== Proof.Tail.lean ====
/-
  The last stretch both programs share: from the two scores CC and SIM (one number per batch entry and time step) to
  the weight. score = 0.3 · CC + 0.7 · SIM (the two factors are the f32 numbers nearest 0.3 and 0.7, the same words
  in both programs), s = 1 − score, and the weight is exp (s / max over the time steps of s). It is stated once, as a
  function of the two score arrays, so that neither program's copy is ever opened: equal scores give equal weights,
  whatever the quotient does where the maximum is zero.
-/
import Idealize.ShloMosaic.PureOps.Ideal
import Idealize.ShloMosaic.PureOps.Contract

noncomputable section

namespace Cert.Weighting

open Idealize.ShloMosaic

abbrev T2 : Shape := ⟨2, ![8, 16]⟩
abbrev T11 : Shape := ⟨2, ![8, 1]⟩
abbrev T1 : Shape := ⟨1, ![8]⟩
abbrev T0 : Shape := ⟨0, ![]⟩

/-- The weight array from the two score arrays. -/
def tailW (hb0 : T0.BroadcastsInDim T2 (![] : Fin 0 → Fin T2.rank)) (hr : T2.ReducesTo [1] T1) (hu : 0 < T0.numel)
    (hb1 : T1.BroadcastsInDim T11 ![0]) (hb2 : T11.BroadcastsInDim T2 ![0, 1])
    (cc sim : FVec Ideal T2 .f32) : FVec Ideal T2 .f32 :=
  let score : FVec Ideal T2 .f32 :=
    addf (mulf (broadcastInDim T2 ![] hb0 (constant (F := Ideal) T0 .f32 0x3E99999A#32)) cc)
      (mulf (broadcastInDim T2 ![] hb0 (constant (F := Ideal) T0 .f32 0x3F333333#32)) sim)
  let s : FVec Ideal T2 .f32 := subf (broadcastInDim T2 ![] hb0 (constant (F := Ideal) T0 .f32 0x3F800000#32)) score
  let top : FVec Ideal T1 .f32 :=
    Host.reduce (FloatOps.maximumf (F := Ideal) (φ := .f32)) s (constant (F := Ideal) T0 .f32 0xFF800000#32) hr hu
  Host.exp (Host.divf s (broadcastInDim T2 ![0, 1] hb2 (broadcastInDim T11 ![0] hb1 top)))

end Cert.Weighting

end
-- ==== Proof.KHost2.lean ====
/-
  The kernel program's second host stretch: from the CC array and the second region's SIM array to the weight array
  the third region multiplies by. It is the shared tail function of the two score arrays, between two reshapes
  ([8, 1, 16] to [8, 16] on the way in, back on the way out).
-/
import proofs.«171658_j72688026517959_1_alg».proof.Proof.Gen.KernelIdeal.Launch
import proofs.«171658_j72688026517959_1_alg».proof.Proof.Tail
import Idealize.ShloMosaic.Lib.StableHlo.Run

noncomputable section

namespace Cert.KernelIdeal.KVal

open Cert.KernelIdeal Cert.KernelIdeal.Gen Idealize.ShloMosaic Idealize.ShloMosaic.TcCoe Idealize.ShloMosaic.StableHlo

set_option maxHeartbeats 4000000 in
/-- After the second host stretch the weight buffer holds the tail function of the CC buffer and of the SIM buffer
    (reshaped to [8, 16]), reshaped to [8, 1, 16]. -/
theorem host2 (W : Valuation τ sig (Elt Ideal)) :
    StableHlo.after (hostOps2 (F := Ideal)) W (Proc.devRef .tc main_v83)
      = shapeCast S8x1x16
          (Cert.Weighting.tailW bcast_S_S8x16 reducesTo_S8x16_S8_d1 h_S_ bcast_S8_S8x1_0 bcast_S8x1_S8x16_0_1
            (W (Proc.devRef .tc main_v40))
            (shapeCast S8x16 (W (Proc.devRef .tc main_v69)) shapeCasts_S8x1x16_S8x16))
          shapeCasts_S8x16_S8x1x16 := by
  after_results_simp <;> rfl

end Cert.KernelIdeal.KVal

end
-- ==== Proof.K0Pieces.lean ====
/-
  The first region's body, case by case: what each control case leaves in each of its six output blocks, as the
  arithmetic of the body applied to the input block (and, where a block is carried, to what the point before left).

  At a point where the accumulators are reset (case A) each accumulator block is first set to its neutral value
  (0 for the three sums, +∞ for the minimum, -∞ for the maximum) and then updated with the input block's
  contribution; at every other point (case B) it is updated from what it held. The target-map block is written whole
  from the input block in both cases.
-/
import proofs.«171658_j72688026517959_1_alg».proof.Proof.Gen.KernelIdeal.Frame
import Idealize.ShloMosaic.Lib.Pipeline.Value
import Idealize.ShloMosaic.Lib.Tactic

noncomputable section

namespace Cert.KernelIdeal.KVal

open Idealize.ShloMosaic Idealize.ShloMosaic.TcCoe Idealize.SL.Sem Idealize.ShloMosaic.Tactic
open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

section A
variable (c : Dev nD) (i : grid0.Coords)
  (a2 : Memref sig .tc .vmem S1x8x16x112x112 .f32) (h2 : a2.IsWhole)
  (a3 : Memref sig .tc .vmem S1x8x112x112 .f32) (h3 : a3.IsWhole)
  (a4 : Memref sig .tc .vmem S1x1x16 .f32) (h4 : a4.IsWhole)
  (a5 : Memref sig .tc .vmem S1x1x16 .f32) (h5 : a5.IsWhole)
  (a6 : Memref sig .tc .vmem S1x1x16 .f32) (h6 : a6.IsWhole)
  (a7 : Memref sig .tc .vmem S1x1x16 .f32) (h7 : a7.IsWhole)
  (a8 : Memref sig .tc .vmem S1x1x16 .f32) (h8 : a8.IsWhole)
  (hc : cond0_0 i) (x : Vec F S1x8x16x112x112 .f32)

/-- Case A, the target-map block: the body's one store, of the input block's mean over time. -/
theorem outA_1 : out0_A_1 c i a2 h2 a3 h3 a4 h4 a5 h5 a6 h6 a7 h7 a8 h8 hc x = k0_pay9 x := by
  unfold out0_A_1
  rw [View.read_writes_eq_canon _ _ _ (cover0_A_1 c i a2 h2 a3 h3 a4 h4 a5 h5 a6 h6 a7 h7 a8 h8 hc x)]
  unfold kernelRun0_A
  dsimp only
  sl_unfold_words
  rw [View.canon_unit_zero hz4]
  simp only [View.readAt_eq_ld, h2.read_unread, View.ld_unit_zero (S := S1x8x16x112x112) hz5]

/-- Case A, the block of sums: the block is first set to its neutral value, read back, and updated with the input block's contribution. -/
theorem outA_2 : out0_A_2 c i a2 h2 a3 h3 a4 h4 a5 h5 a6 h6 a7 h7 a8 h8 hc x = k0_pay16 (k0_pay10 x) k0_pay2 := by
  unfold out0_A_2
  rw [View.read_writes_eq_canon _ _ _ (cover0_A_2 c i a2 h2 a3 h3 a4 h4 a5 h5 a6 h6 a7 h7 a8 h8 hc x)]
  unfold kernelRun0_A
  dsimp only
  sl_unfold_words
  rw [View.canon_cons_unit_zero (S := S1x1x16) hz3, View.readCov_unit_zero (S := S1x1x16) _ hz3]
  simp only [View.readAt_eq_ld, h2.read_unread, View.ld_unit_zero (S := S1x8x16x112x112) hz5]

/-- Case A, the block of sums of squares: the block is first set to its neutral value, read back, and updated with the input block's contribution. -/
theorem outA_3 : out0_A_3 c i a2 h2 a3 h3 a4 h4 a5 h5 a6 h6 a7 h7 a8 h8 hc x = k0_pay17 (k0_pay11 x) k0_pay3 := by
  unfold out0_A_3
  rw [View.read_writes_eq_canon _ _ _ (cover0_A_3 c i a2 h2 a3 h3 a4 h4 a5 h5 a6 h6 a7 h7 a8 h8 hc x)]
  unfold kernelRun0_A
  dsimp only
  sl_unfold_words
  rw [View.canon_cons_unit_zero (S := S1x1x16) hz3, View.readCov_unit_zero (S := S1x1x16) _ hz3]
  simp only [View.readAt_eq_ld, h2.read_unread, View.ld_unit_zero (S := S1x8x16x112x112) hz5]

/-- Case A, the block of sums of products with the target map: the block is first set to its neutral value, read back, and updated with the input block's contribution. -/
theorem outA_4 : out0_A_4 c i a2 h2 a3 h3 a4 h4 a5 h5 a6 h6 a7 h7 a8 h8 hc x = k0_pay18 (k0_pay12 x) k0_pay4 := by
  unfold out0_A_4
  rw [View.read_writes_eq_canon _ _ _ (cover0_A_4 c i a2 h2 a3 h3 a4 h4 a5 h5 a6 h6 a7 h7 a8 h8 hc x)]
  unfold kernelRun0_A
  dsimp only
  sl_unfold_words
  rw [View.canon_cons_unit_zero (S := S1x1x16) hz3, View.readCov_unit_zero (S := S1x1x16) _ hz3]
  simp only [View.readAt_eq_ld, h2.read_unread, View.ld_unit_zero (S := S1x8x16x112x112) hz5]

/-- Case A, the block of minima: the block is first set to its neutral value, read back, and updated with the input block's contribution. -/
theorem outA_5 : out0_A_5 c i a2 h2 a3 h3 a4 h4 a5 h5 a6 h6 a7 h7 a8 h8 hc x = k0_pay19 (k0_pay13 x) k0_pay5 := by
  unfold out0_A_5
  rw [View.read_writes_eq_canon _ _ _ (cover0_A_5 c i a2 h2 a3 h3 a4 h4 a5 h5 a6 h6 a7 h7 a8 h8 hc x)]
  unfold kernelRun0_A
  dsimp only
  sl_unfold_words
  rw [View.canon_cons_unit_zero (S := S1x1x16) hz3, View.readCov_unit_zero (S := S1x1x16) _ hz3]
  simp only [View.readAt_eq_ld, h2.read_unread, View.ld_unit_zero (S := S1x8x16x112x112) hz5]

/-- Case A, the block of maxima: the block is first set to its neutral value, read back, and updated with the input block's contribution. -/
theorem outA_6 : out0_A_6 c i a2 h2 a3 h3 a4 h4 a5 h5 a6 h6 a7 h7 a8 h8 hc x = k0_pay1 (k0_pay15 (k0_pay14 x)) k0_pay6 := by
  unfold out0_A_6
  rw [View.read_writes_eq_canon _ _ _ (cover0_A_6 c i a2 h2 a3 h3 a4 h4 a5 h5 a6 h6 a7 h7 a8 h8 hc x)]
  unfold kernelRun0_A
  dsimp only
  sl_unfold_words
  rw [View.canon_cons_unit_zero (S := S1x1x16) hz3, View.readCov_unit_zero (S := S1x1x16) _ hz3]
  simp only [View.readAt_eq_ld, h2.read_unread, View.ld_unit_zero (S := S1x8x16x112x112) hz5]

end A

section B
variable (c : Dev nD) (i : grid0.Coords)
  (a2 : Memref sig .tc .vmem S1x8x16x112x112 .f32) (h2 : a2.IsWhole)
  (a3 : Memref sig .tc .vmem S1x8x112x112 .f32) (h3 : a3.IsWhole)
  (a4 : Memref sig .tc .vmem S1x1x16 .f32) (h4 : a4.IsWhole)
  (a5 : Memref sig .tc .vmem S1x1x16 .f32) (h5 : a5.IsWhole)
  (a6 : Memref sig .tc .vmem S1x1x16 .f32) (h6 : a6.IsWhole)
  (a7 : Memref sig .tc .vmem S1x1x16 .f32) (h7 : a7.IsWhole)
  (a8 : Memref sig .tc .vmem S1x1x16 .f32) (h8 : a8.IsWhole)
  (hc : ¬cond0_0 i) (x : Vec F S1x8x16x112x112 .f32)
  (xo2 xo3 xo4 xo5 xo6 : Vec F S1x1x16 .f32)

/-- Case B, the target-map block: the same one store as in case A. -/
theorem outB_1 : out0_B_1 c i a2 h2 a3 h3 a4 h4 a5 h5 a6 h6 a7 h7 a8 h8 hc x xo2 xo3 xo4 xo5 xo6 = k0_pay9 x := by
  unfold out0_B_1
  rw [View.read_writes_eq_canon _ _ _ (cover0_B_1 c i a2 h2 a3 h3 a4 h4 a5 h5 a6 h6 a7 h7 a8 h8 hc x xo2 xo3 xo4 xo5 xo6)]
  unfold kernelRun0_B
  dsimp only
  sl_unfold_words
  rw [View.canon_unit_zero hz4]
  simp only [View.readAt_eq_ld, h2.read_unread, View.ld_unit_zero (S := S1x8x16x112x112) hz5]

/-- Case B, the block of sums: the block the point before left, updated with the input block's contribution. -/
theorem outB_2 : out0_B_2 c i a2 h2 a3 h3 a4 h4 a5 h5 a6 h6 a7 h7 a8 h8 hc x xo2 xo3 xo4 xo5 xo6 = k0_pay16 (k0_pay10 x) xo2 := by
  unfold out0_B_2
  rw [View.read_writes_eq_canon _ _ _ (cover0_B_2 c i a2 h2 a3 h3 a4 h4 a5 h5 a6 h6 a7 h7 a8 h8 hc x xo2 xo3 xo4 xo5 xo6)]
  unfold kernelRun0_B
  dsimp only
  sl_unfold_words
  rw [View.canon_unit_zero hz3]
  simp only [View.readAt_eq_ld, h2.read_unread, h4.read_unread, View.ld_unit_zero (S := S1x8x16x112x112) hz5, View.ld_unit_zero (S := S1x1x16) hz3]

/-- Case B, the block of sums of squares: the block the point before left, updated with the input block's contribution. -/
theorem outB_3 : out0_B_3 c i a2 h2 a3 h3 a4 h4 a5 h5 a6 h6 a7 h7 a8 h8 hc x xo2 xo3 xo4 xo5 xo6 = k0_pay17 (k0_pay11 x) xo3 := by
  unfold out0_B_3
  rw [View.read_writes_eq_canon _ _ _ (cover0_B_3 c i a2 h2 a3 h3 a4 h4 a5 h5 a6 h6 a7 h7 a8 h8 hc x xo2 xo3 xo4 xo5 xo6)]
  unfold kernelRun0_B
  dsimp only
  sl_unfold_words
  rw [View.canon_unit_zero hz3]
  simp only [View.readAt_eq_ld, h2.read_unread, h5.read_unread, View.ld_unit_zero (S := S1x8x16x112x112) hz5, View.ld_unit_zero (S := S1x1x16) hz3]

/-- Case B, the block of sums of products with the target map: the block the point before left, updated with the input block's contribution. -/
theorem outB_4 : out0_B_4 c i a2 h2 a3 h3 a4 h4 a5 h5 a6 h6 a7 h7 a8 h8 hc x xo2 xo3 xo4 xo5 xo6 = k0_pay18 (k0_pay12 x) xo4 := by
  unfold out0_B_4
  rw [View.read_writes_eq_canon _ _ _ (cover0_B_4 c i a2 h2 a3 h3 a4 h4 a5 h5 a6 h6 a7 h7 a8 h8 hc x xo2 xo3 xo4 xo5 xo6)]
  unfold kernelRun0_B
  dsimp only
  sl_unfold_words
  rw [View.canon_unit_zero hz3]
  simp only [View.readAt_eq_ld, h2.read_unread, h6.read_unread, View.ld_unit_zero (S := S1x8x16x112x112) hz5, View.ld_unit_zero (S := S1x1x16) hz3]

/-- Case B, the block of minima: the block the point before left, updated with the input block's contribution. -/
theorem outB_5 : out0_B_5 c i a2 h2 a3 h3 a4 h4 a5 h5 a6 h6 a7 h7 a8 h8 hc x xo2 xo3 xo4 xo5 xo6 = k0_pay19 (k0_pay13 x) xo5 := by
  unfold out0_B_5
  rw [View.read_writes_eq_canon _ _ _ (cover0_B_5 c i a2 h2 a3 h3 a4 h4 a5 h5 a6 h6 a7 h7 a8 h8 hc x xo2 xo3 xo4 xo5 xo6)]
  unfold kernelRun0_B
  dsimp only
  sl_unfold_words
  rw [View.canon_unit_zero hz3]
  simp only [View.readAt_eq_ld, h2.read_unread, h7.read_unread, View.ld_unit_zero (S := S1x8x16x112x112) hz5, View.ld_unit_zero (S := S1x1x16) hz3]

/-- Case B, the block of maxima: the block the point before left, updated with the input block's contribution. -/
theorem outB_6 : out0_B_6 c i a2 h2 a3 h3 a4 h4 a5 h5 a6 h6 a7 h7 a8 h8 hc x xo2 xo3 xo4 xo5 xo6 = k0_pay1 (k0_pay15 (k0_pay14 x)) xo6 := by
  unfold out0_B_6
  rw [View.read_writes_eq_canon _ _ _ (cover0_B_6 c i a2 h2 a3 h3 a4 h4 a5 h5 a6 h6 a7 h7 a8 h8 hc x xo2 xo3 xo4 xo5 xo6)]
  unfold kernelRun0_B
  dsimp only
  sl_unfold_words
  rw [View.canon_unit_zero hz3]
  simp only [View.readAt_eq_ld, h2.read_unread, h8.read_unread, View.ld_unit_zero (S := S1x8x16x112x112) hz5, View.ld_unit_zero (S := S1x1x16) hz3]

end B

end Cert.KernelIdeal.KVal

end
-- ==== Proof.K0Pay.lean ====
/-
  The arithmetic of the first region's body, read at an index, at the extended reals.

  The block is one batch entry: 8 channels, 16 time steps, 112 rows, 112 columns. When its entries are the real numbers
  B c t h w, the body computes

  * the mean over the 16 time steps at each pixel (channel, row, column): (∑ t, B c t h w) / 16;
  * for each time step t, over the pixels q = (c, h, w) of the block: the sum of B, the sum of B², the sum of
    B · (mean over time), the least and the greatest value of B;

  and it adds each of the three sums to, and takes the least and the greatest with, the running value of its time
  step. Each sum over the pixels is taken one axis at a time (columns, then rows, then channels): three nested finite
  sums, which are one sum over the triples; each least value is three nested folds of min from +∞, which is the least
  value over the triples, and likewise the greatest.
-/
import proofs.«171658_j72688026517959_1_alg».proof.Proof.Gen.KernelIdeal.Skeleton
import proofs.«171658_j72688026517959_1_alg».proof.Proof.LibFibre
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.KPay

open Idealize.ShloMosaic Idealize.ShloMosaic.ValueIdx Finset Cert.KernelIdeal

/-- The pixels of a block: channel, row, column. -/
abbrev Bx := Fin 8 × Fin 112 × Fin 112

/-! ## Layout operations read at an index -/

section Layout
variable {α : Type}

/-- A [1, a, b, c, d] array cast to [a, b, c, d] reads, at (i, j, k, l), the operand at (0, i, j, k, l). -/
theorem shapeCast_1abcd_abcd_apply {a b c d : ℕ} (x : (⟨5, ![1, a, b, c, d]⟩ : Shape).Idx → α)
    (h : (⟨5, ![1, a, b, c, d]⟩ : Shape).ShapeCasts ⟨4, ![a, b, c, d]⟩) (i : Fin a) (j : Fin b) (k : Fin c) (l : Fin d) :
    shapeCast ⟨4, ![a, b, c, d]⟩ x h (ix4 i j k l) = x (ix5 (0 : Fin 1) i j k l) :=
  shapeCast_apply x h _ _ (by
    rw [Shape.rowMajor_val_five, Shape.rowMajor_val_four]
    show (((0 * a + i.val) * b + j.val) * c + k.val) * d + l.val = ((i.val * b + j.val) * c + k.val) * d + l.val
    rw [Nat.zero_mul, Nat.zero_add])

/-- An [a, b, c] array cast to [a, 1, b, c] reads, at (i, u, j, k), the operand at (i, j, k). -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_four, Shape.rowMajor_val_three]
    show (i.val * b + j.val) * c + k.val = ((i.val * 1 + u.val) * b + j.val) * c + k.val
    rw [hu, Nat.mul_one, Nat.add_zero])

/-- An [8, 1, 112, 112] array repeated 16 times along its unit axis reads, at (i, t, j, k), the operand at (i, 0, j, k). -/
theorem broadcastTo_time_apply (v : (⟨4, ![8, 1, 112, 112]⟩ : Shape).Idx → α)
    (h : (⟨4, ![8, 1, 112, 112]⟩ : Shape).Broadcasts ⟨4, ![8, 16, 112, 112]⟩) (i : Fin 8) (t : Fin 16) (j k : Fin 112) :
    broadcastTo ⟨4, ![8, 16, 112, 112]⟩ v h (ix4 i t j k) = v (ix4 i (0 : Fin 1) j k) := by
  refine broadcastTo_apply v h (ix4 i t j k) (ix4 i (0 : Fin 1) j k) fun ax => ?_
  match ax with
  | ⟨0, _⟩ => rfl
  | ⟨1, _⟩ => rfl
  | ⟨2, _⟩ => rfl
  | ⟨3, _⟩ => rfl

end Layout

/-! ## One-axis reductions of the block, read at an index -/

section Stages

/-- The index over (c, h, w) with time coordinate t inserted on axis 1. -/
theorem lift_axis1 (h : S8x16x112x112.Reduces [1] S8x112x112) (c : Fin 8) (t : Fin 16) (y x : Fin 112) :
    h.lift (ix3 c y x) t = ix4 c t y x := by
  funext a
  match a with
  | ⟨0, _⟩ => exact Fin.ext rfl
  | ⟨1, _⟩ => exact Fin.ext rfl
  | ⟨2, _⟩ => exact Fin.ext rfl
  | ⟨3, _⟩ => exact Fin.ext rfl

theorem lift_axis3 (h : S8x16x112x112.Reduces [3] S8x16x112) (c : Fin 8) (t : Fin 16) (y x : Fin 112) :
    h.lift (ix3 c t y) x = ix4 c t y x := by
  funext a
  match a with
  | ⟨0, _⟩ => exact Fin.ext rfl
  | ⟨1, _⟩ => exact Fin.ext rfl
  | ⟨2, _⟩ => exact Fin.ext rfl
  | ⟨3, _⟩ => exact Fin.ext rfl

theorem lift_axis2 (h : S8x16x112.Reduces [2] S8x16) (c : Fin 8) (t : Fin 16) (y : Fin 112) :
    h.lift (ix2 c t) y = ix3 c t y := by
  funext a
  match a with
  | ⟨0, _⟩ => exact Fin.ext rfl
  | ⟨1, _⟩ => exact Fin.ext rfl
  | ⟨2, _⟩ => exact Fin.ext rfl

theorem lift_axis0 (h : S8x16.Reduces [0] S16) (c : Fin 8) (t : Fin 16) :
    h.lift (ix1 t) c = ix2 c t := by
  funext a
  match a with
  | ⟨0, _⟩ => exact Fin.ext rfl
  | ⟨1, _⟩ => exact Fin.ext rfl

variable (hφ : FKind.Formats .f32)

/-- The sum over the time axis at a pixel. -/
theorem add_axis1 (src : FVec Ideal S8x16x112x112 .f32) (h : S8x16x112x112.Reduces [1] S8x112x112)
    (hacc : (0x00000000#32 : BitVec 32) = FKind.add.neutral .f32 hφ) (c : Fin 8) (y x : Fin 112) :
    multiReduction (F := Ideal) .add [1] S8x112x112 src 0x00000000#32 h hφ hacc (ix3 c y x)
      = ∑ t : Fin 16, src (ix4 c t y x) :=
  (Ideal.multiReduction_add_single src _ h hφ hacc _).trans
    (Finset.sum_congr rfl fun t _ => congrArg src (lift_axis1 h c t y x))

theorem add_axis3 (src : FVec Ideal S8x16x112x112 .f32) (h : S8x16x112x112.Reduces [3] S8x16x112)
    (hacc : (0x00000000#32 : BitVec 32) = FKind.add.neutral .f32 hφ) (c : Fin 8) (t : Fin 16) (y : Fin 112) :
    multiReduction (F := Ideal) .add [3] S8x16x112 src 0x00000000#32 h hφ hacc (ix3 c t y)
      = ∑ x : Fin 112, src (ix4 c t y x) :=
  (Ideal.multiReduction_add_single src _ h hφ hacc _).trans
    (Finset.sum_congr rfl fun x _ => congrArg src (lift_axis3 h c t y x))

theorem add_axis2 (src : FVec Ideal S8x16x112 .f32) (h : S8x16x112.Reduces [2] S8x16)
    (hacc : (0x00000000#32 : BitVec 32) = FKind.add.neutral .f32 hφ) (c : Fin 8) (t : Fin 16) :
    multiReduction (F := Ideal) .add [2] S8x16 src 0x00000000#32 h hφ hacc (ix2 c t)
      = ∑ y : Fin 112, src (ix3 c t y) :=
  (Ideal.multiReduction_add_single src _ h hφ hacc _).trans
    (Finset.sum_congr rfl fun y _ => congrArg src (lift_axis2 h c t y))

theorem add_axis0 (src : FVec Ideal S8x16 .f32) (h : S8x16.Reduces [0] S16)
    (hacc : (0x00000000#32 : BitVec 32) = FKind.add.neutral .f32 hφ) (t : Fin 16) :
    multiReduction (F := Ideal) .add [0] S16 src 0x00000000#32 h hφ hacc (ix1 t)
      = ∑ c : Fin 8, src (ix2 c t) :=
  (Ideal.multiReduction_add_single src _ h hφ hacc _).trans
    (Finset.sum_congr rfl fun c _ => congrArg src (lift_axis0 h c t))

/-- The three sums in turn (columns, rows, channels) at a time step. -/
theorem add_pixels (src : FVec Ideal S8x16x112x112 .f32) (h3 : S8x16x112x112.Reduces [3] S8x16x112)
    (h2 : S8x16x112.Reduces [2] S8x16) (h0 : S8x16.Reduces [0] S16)
    (hacc : (0x00000000#32 : BitVec 32) = FKind.add.neutral .f32 hφ) (t : Fin 16) :
    multiReduction (F := Ideal) .add [0] S16
        (multiReduction (F := Ideal) .add [2] S8x16
          (multiReduction (F := Ideal) .add [3] S8x16x112 src 0x00000000#32 h3 hφ hacc) 0x00000000#32 h2 hφ hacc)
        0x00000000#32 h0 hφ hacc (ix1 t)
      = ∑ c : Fin 8, ∑ y : Fin 112, ∑ x : Fin 112, src (ix4 c t y x) :=
  (add_axis0 hφ _ h0 hacc t).trans (Finset.sum_congr rfl fun c _ =>
    (add_axis2 hφ _ h2 hacc c t).trans (Finset.sum_congr rfl fun y _ => add_axis3 hφ src h3 hacc c t y))

end Stages

/-! ## Least and greatest values: folds of min from +∞ and of max from −∞ -/

section Extrema

/-- A fold of min from +∞ is the infimum. -/
theorem fold_min_top {ι : Type} (s : Finset ι) (g : ι → EReal) : s.fold min ⊤ g = s.inf g := by
  classical
  induction s using Finset.induction_on with
  | empty => simp
  | insert a s ha ih => rw [Finset.fold_insert ha, ih, Finset.inf_insert]

/-- A fold of max from −∞ is the supremum. -/
theorem fold_max_bot {ι : Type} (s : Finset ι) (g : ι → EReal) : s.fold max ⊥ g = s.sup g := by
  classical
  induction s using Finset.induction_on with
  | empty => simp
  | insert a s ha ih => rw [Finset.fold_insert ha, ih, Finset.sup_insert]

/-- The infimum of real numbers inside the extended reals is the least of them. -/
theorem inf_coe {ι : Type} [Fintype ι] [Nonempty ι] (f : ι → ℝ) :
    (Finset.univ : Finset ι).inf (fun q => ((f q : ℝ) : EReal))
      = ((Finset.univ.inf' Finset.univ_nonempty f : ℝ) : EReal) := by
  apply le_antisymm
  · obtain ⟨b, hb, hbe⟩ := Finset.exists_mem_eq_inf' Finset.univ_nonempty f
    rw [hbe]
    exact Finset.inf_le (f := fun q => ((f q : ℝ) : EReal)) hb
  · exact Finset.le_inf fun q _ => EReal.coe_le_coe_iff.2 (Finset.inf'_le f (Finset.mem_univ q))

/-- The supremum of real numbers inside the extended reals is the greatest of them. -/
theorem sup_coe {ι : Type} [Fintype ι] [Nonempty ι] (f : ι → ℝ) :
    (Finset.univ : Finset ι).sup (fun q => ((f q : ℝ) : EReal))
      = ((Finset.univ.sup' Finset.univ_nonempty f : ℝ) : EReal) := by
  apply le_antisymm
  · exact Finset.sup_le fun q _ => EReal.coe_le_coe_iff.2 (Finset.le_sup' f (Finset.mem_univ q))
  · obtain ⟨b, hb, hbe⟩ := Finset.exists_mem_eq_sup' Finset.univ_nonempty f
    rw [hbe]
    exact Finset.le_sup (f := fun q => ((f q : ℝ) : EReal)) hb

/-- An infimum over pairs is the infimum of the infima. -/
theorem inf_prod {β γ : Type} [Fintype β] [Fintype γ] (F : β × γ → EReal) :
    (Finset.univ : Finset (β × γ)).inf F = Finset.univ.inf fun b => Finset.univ.inf fun c => F (b, c) :=
  (congrArg (fun s => Finset.inf s F) Finset.univ_product_univ.symm).trans (Finset.inf_product_left _ _ F)

theorem sup_prod {β γ : Type} [Fintype β] [Fintype γ] (F : β × γ → EReal) :
    (Finset.univ : Finset (β × γ)).sup F = Finset.univ.sup fun b => Finset.univ.sup fun c => F (b, c) :=
  (congrArg (fun s => Finset.sup s F) Finset.univ_product_univ.symm).trans (Finset.sup_product_left _ _ F)

/-- The three infima in turn (channels, rows, columns) are the infimum over the pixels. -/
theorem inf_pixels (g : Fin 8 → Fin 112 → Fin 112 → EReal) :
    (Finset.univ.inf fun c => Finset.univ.inf fun y => Finset.univ.inf fun x => g c y x)
      = (Finset.univ : Finset Bx).inf fun q => g q.1 q.2.1 q.2.2 :=
  ((inf_prod (fun q : Bx => g q.1 q.2.1 q.2.2)).trans
    (congrArg (Finset.inf Finset.univ) (funext fun c => inf_prod (fun p : Fin 112 × Fin 112 => g c p.1 p.2)))).symm

theorem sup_pixels (g : Fin 8 → Fin 112 → Fin 112 → EReal) :
    (Finset.univ.sup fun c => Finset.univ.sup fun y => Finset.univ.sup fun x => g c y x)
      = (Finset.univ : Finset Bx).sup fun q => g q.1 q.2.1 q.2.2 :=
  ((sup_prod (fun q : Bx => g q.1 q.2.1 q.2.2)).trans
    (congrArg (Finset.sup Finset.univ) (funext fun c => sup_prod (fun p : Fin 112 × Fin 112 => g c p.1 p.2)))).symm

variable (hφ : FKind.Formats .f32)

/-- A least-value reduction over one axis: the fold of min from the accumulator's value over that axis's coordinates. -/
theorem minimumf_single {s t : Shape} {a : Fin s.rank} (src : FVec Ideal s .f32) (acc : BitVec 32)
    (h : s.Reduces [a] t) (hacc : acc = FKind.minimumf.neutral .f32 hφ) (j : t.Idx) :
    multiReduction (F := Ideal) .minimumf [a] t src acc h hφ hacc j
      = (Finset.univ : Finset (Fin (s.size a))).fold min (Ideal.ofBits .f32 acc) (src ∘ h.lift j) := by
  rw [multiReduction_minimumf_eq_fold]; exact h.fold_filter_drop_single _ _ src j

theorem min_axis3 (src : FVec Ideal S8x16x112x112 .f32) (h : S8x16x112x112.Reduces [3] S8x16x112)
    (hacc : (0x7F800000#32 : BitVec 32) = FKind.minimumf.neutral .f32 hφ) (c : Fin 8) (t : Fin 16) (y : Fin 112) :
    multiReduction (F := Ideal) .minimumf [3] S8x16x112 src 0x7F800000#32 h hφ hacc (ix3 c t y)
      = Finset.univ.inf fun x : Fin 112 => src (ix4 c t y x) := by
  refine (minimumf_single hφ src _ h hacc _).trans ?_
  rw [Cert.Weighting.Fibre.ofBits_inf]
  refine (fold_min_top _ _).trans ?_
  exact congrArg (Finset.inf Finset.univ) (funext fun x => congrArg src (lift_axis3 h c t y x))

theorem min_axis2 (src : FVec Ideal S8x16x112 .f32) (h : S8x16x112.Reduces [2] S8x16)
    (hacc : (0x7F800000#32 : BitVec 32) = FKind.minimumf.neutral .f32 hφ) (c : Fin 8) (t : Fin 16) :
    multiReduction (F := Ideal) .minimumf [2] S8x16 src 0x7F800000#32 h hφ hacc (ix2 c t)
      = Finset.univ.inf fun y : Fin 112 => src (ix3 c t y) := by
  refine (minimumf_single hφ src _ h hacc _).trans ?_
  rw [Cert.Weighting.Fibre.ofBits_inf]
  refine (fold_min_top _ _).trans ?_
  exact congrArg (Finset.inf Finset.univ) (funext fun y => congrArg src (lift_axis2 h c t y))

theorem min_axis0 (src : FVec Ideal S8x16 .f32) (h : S8x16.Reduces [0] S16)
    (hacc : (0x7F800000#32 : BitVec 32) = FKind.minimumf.neutral .f32 hφ) (t : Fin 16) :
    multiReduction (F := Ideal) .minimumf [0] S16 src 0x7F800000#32 h hφ hacc (ix1 t)
      = Finset.univ.inf fun c : Fin 8 => src (ix2 c t) := by
  refine (minimumf_single hφ src _ h hacc _).trans ?_
  rw [Cert.Weighting.Fibre.ofBits_inf]
  refine (fold_min_top _ _).trans ?_
  exact congrArg (Finset.inf Finset.univ) (funext fun c => congrArg src (lift_axis0 h c t))

theorem max_axis3 (src : FVec Ideal S8x16x112x112 .f32) (h : S8x16x112x112.Reduces [3] S8x16x112)
    (hacc : (0xFF800000#32 : BitVec 32) = FKind.maximumf.neutral .f32 hφ) (c : Fin 8) (t : Fin 16) (y : Fin 112) :
    multiReduction (F := Ideal) .maximumf [3] S8x16x112 src 0xFF800000#32 h hφ hacc (ix3 c t y)
      = Finset.univ.sup fun x : Fin 112 => src (ix4 c t y x) := by
  refine (Ideal.multiReduction_maximumf_single src _ h hφ hacc _).trans ?_
  rw [Ideal.ofBits_def, Cert.Weighting.Fibre.ofBits_neg_inf]
  refine (fold_max_bot _ _).trans ?_
  exact congrArg (Finset.sup Finset.univ) (funext fun x => congrArg src (lift_axis3 h c t y x))

theorem max_axis2 (src : FVec Ideal S8x16x112 .f32) (h : S8x16x112.Reduces [2] S8x16)
    (hacc : (0xFF800000#32 : BitVec 32) = FKind.maximumf.neutral .f32 hφ) (c : Fin 8) (t : Fin 16) :
    multiReduction (F := Ideal) .maximumf [2] S8x16 src 0xFF800000#32 h hφ hacc (ix2 c t)
      = Finset.univ.sup fun y : Fin 112 => src (ix3 c t y) := by
  refine (Ideal.multiReduction_maximumf_single src _ h hφ hacc _).trans ?_
  rw [Ideal.ofBits_def, Cert.Weighting.Fibre.ofBits_neg_inf]
  refine (fold_max_bot _ _).trans ?_
  exact congrArg (Finset.sup Finset.univ) (funext fun y => congrArg src (lift_axis2 h c t y))

theorem max_axis0 (src : FVec Ideal S8x16 .f32) (h : S8x16.Reduces [0] S16)
    (hacc : (0xFF800000#32 : BitVec 32) = FKind.maximumf.neutral .f32 hφ) (t : Fin 16) :
    multiReduction (F := Ideal) .maximumf [0] S16 src 0xFF800000#32 h hφ hacc (ix1 t)
      = Finset.univ.sup fun c : Fin 8 => src (ix2 c t) := by
  refine (Ideal.multiReduction_maximumf_single src _ h hφ hacc _).trans ?_
  rw [Ideal.ofBits_def, Cert.Weighting.Fibre.ofBits_neg_inf]
  refine (fold_max_bot _ _).trans ?_
  exact congrArg (Finset.sup Finset.univ) (funext fun c => congrArg src (lift_axis0 h c t))

/-- The three least-value reductions in turn at a time step: the infimum over the pixels. -/
theorem min_pixels (src : FVec Ideal S8x16x112x112 .f32) (h3 : S8x16x112x112.Reduces [3] S8x16x112)
    (h2 : S8x16x112.Reduces [2] S8x16) (h0 : S8x16.Reduces [0] S16)
    (hacc : (0x7F800000#32 : BitVec 32) = FKind.minimumf.neutral .f32 hφ) (t : Fin 16) :
    multiReduction (F := Ideal) .minimumf [0] S16
        (multiReduction (F := Ideal) .minimumf [2] S8x16
          (multiReduction (F := Ideal) .minimumf [3] S8x16x112 src 0x7F800000#32 h3 hφ hacc) 0x7F800000#32 h2 hφ hacc)
        0x7F800000#32 h0 hφ hacc (ix1 t)
      = (Finset.univ : Finset Bx).inf fun q => src (ix4 q.1 t q.2.1 q.2.2) :=
  ((min_axis0 hφ _ h0 hacc t).trans (congrArg (Finset.inf Finset.univ) (funext fun c =>
    (min_axis2 hφ _ h2 hacc c t).trans (congrArg (Finset.inf Finset.univ) (funext fun y =>
      min_axis3 hφ src h3 hacc c t y))))).trans (inf_pixels fun c y x => src (ix4 c t y x))

/-- The three greatest-value reductions in turn at a time step: the supremum over the pixels. -/
theorem max_pixels (src : FVec Ideal S8x16x112x112 .f32) (h3 : S8x16x112x112.Reduces [3] S8x16x112)
    (h2 : S8x16x112.Reduces [2] S8x16) (h0 : S8x16.Reduces [0] S16)
    (hacc : (0xFF800000#32 : BitVec 32) = FKind.maximumf.neutral .f32 hφ) (t : Fin 16) :
    multiReduction (F := Ideal) .maximumf [0] S16
        (multiReduction (F := Ideal) .maximumf [2] S8x16
          (multiReduction (F := Ideal) .maximumf [3] S8x16x112 src 0xFF800000#32 h3 hφ hacc) 0xFF800000#32 h2 hφ hacc)
        0xFF800000#32 h0 hφ hacc (ix1 t)
      = (Finset.univ : Finset Bx).sup fun q => src (ix4 q.1 t q.2.1 q.2.2) :=
  ((max_axis0 hφ _ h0 hacc t).trans (congrArg (Finset.sup Finset.univ) (funext fun c =>
    (max_axis2 hφ _ h2 hacc c t).trans (congrArg (Finset.sup Finset.univ) (funext fun y =>
      max_axis3 hφ src h3 hacc c t y))))).trans (sup_pixels fun c y x => src (ix4 c t y x))

end Extrema

/-! ## Sums of real numbers inside the extended reals -/

/-- Three nested sums of real entries are the real sum over the pixels. -/
theorem sum_real (f : Fin 8 → Fin 112 → Fin 112 → ℝ) (g : Fin 8 → Fin 112 → Fin 112 → EReal)
    (hg : ∀ c y x, g c y x = ((f c y x : ℝ) : EReal)) :
    ∑ c, ∑ y, ∑ x, g c y x = ((∑ q : Bx, f q.1 q.2.1 q.2.2 : ℝ) : EReal) := by
  rw [Fintype.sum_prod_type, Cert.Weighting.Fibre.coe_sum]
  refine Finset.sum_congr rfl fun c _ => ?_
  rw [Fintype.sum_prod_type, Cert.Weighting.Fibre.coe_sum]
  refine Finset.sum_congr rfl fun y _ => ?_
  rw [Cert.Weighting.Fibre.coe_sum]
  exact Finset.sum_congr rfl fun x _ => hg c y x

/-! ## The payloads of a block of real numbers -/

section Real
variable (v3 : Vec Ideal S1x8x16x112x112 .f32) (B : Fin 8 → Fin 16 → Fin 112 → Fin 112 → ℝ)
  (hv : ∀ c t h w, v3 (ix5 (0 : Fin 1) c t h w) = ((B c t h w : ℝ) : EReal))
include hv

/-- The block without its leading unit axis. -/
theorem pay7_val (c : Fin 8) (t : Fin 16) (h w : Fin 112) :
    Gen.k0_pay7 (F := Ideal) v3 (ix4 c t h w) = ((B c t h w : ℝ) : EReal) := by
  unfold Gen.k0_pay7
  exact (shapeCast_1abcd_abcd_apply v3 _ c t h w).trans (hv c t h w)

/-- The mean over the time steps at a pixel, before the unit axis is put back. -/
theorem pay8_val (c : Fin 8) (h w : Fin 112) :
    Gen.k0_pay8 (F := Ideal) v3 (ix3 c h w) = (((∑ t, B c t h w) / 16 : ℝ) : EReal) := by
  have e1 : multiReduction (F := Ideal) .add [1] S8x112x112 (Gen.k0_pay7 (F := Ideal) v3) 0x00000000#32
      Gen.reduces_S8x16x112x112_S8x112x112 (.inl rfl) rfl (ix3 c h w) = ((∑ t, B c t h w : ℝ) : EReal) := by
    refine (add_axis1 _ _ _ _ c h w).trans ?_
    rw [Cert.Weighting.Fibre.coe_sum]
    exact Finset.sum_congr rfl fun t _ => pay7_val v3 B hv c t h w
  unfold Gen.k0_pay8
  show Ideal.div (multiReduction (F := Ideal) .add [1] S8x112x112 (Gen.k0_pay7 (F := Ideal) v3) 0x00000000#32
      Gen.reduces_S8x16x112x112_S8x112x112 (.inl rfl) rfl (ix3 c h w)) (Ideal.ofBits .f32 0x41800000#32) = _
  rw [e1, Cert.Weighting.Fibre.ofBits_16]
  exact Cert.Weighting.Fibre.div_coe _ 16 (by norm_num)

/-- The mean over the time steps at a pixel. -/
theorem pay9_val (c : Fin 8) (h w : Fin 112) :
    Gen.k0_pay9 (F := Ideal) v3 (ix4 (0 : Fin 1) c h w) = (((∑ t, B c t h w) / 16 : ℝ) : EReal) := by
  unfold Gen.k0_pay9
  exact (shapeCast_abc_1abc_apply _ _ (0 : Fin 1) c h w).trans (pay8_val v3 B hv c h w)

/-- The sum over the block's pixels at a time step. -/
theorem pay10_val (t : Fin 16) :
    Gen.k0_pay10 (F := Ideal) v3 (ix1 t) = ((∑ q : Bx, B q.1 t q.2.1 q.2.2 : ℝ) : EReal) := by
  unfold Gen.k0_pay10
  refine (add_pixels _ _ _ _ _ _ t).trans ?_
  exact sum_real (fun c y x => B c t y x) (fun c y x => Gen.k0_pay7 (F := Ideal) v3 (ix4 c t y x))
    (fun c y x => pay7_val v3 B hv c t y x)

/-- The sum of squares over the block's pixels at a time step. -/
theorem pay11_val (t : Fin 16) :
    Gen.k0_pay11 (F := Ideal) v3 (ix1 t) = ((∑ q : Bx, B q.1 t q.2.1 q.2.2 * B q.1 t q.2.1 q.2.2 : ℝ) : EReal) := by
  unfold Gen.k0_pay11
  refine (add_pixels _ _ _ _ _ _ t).trans ?_
  refine sum_real (fun c y x => B c t y x * B c t y x)
    (fun c y x => mulf (Gen.k0_pay7 (F := Ideal) v3) (Gen.k0_pay7 (F := Ideal) v3) (ix4 c t y x)) (fun c y x => ?_)
  show Gen.k0_pay7 (F := Ideal) v3 (ix4 c t y x) * Gen.k0_pay7 (F := Ideal) v3 (ix4 c t y x) = _
  rw [pay7_val v3 B hv c t y x, EReal.coe_mul]

/-- The sum of the products with the mean over time, over the block's pixels at a time step. -/
theorem pay12_val (t : Fin 16) :
    Gen.k0_pay12 (F := Ideal) v3 (ix1 t)
      = ((∑ q : Bx, B q.1 t q.2.1 q.2.2 * ((∑ t', B q.1 t' q.2.1 q.2.2) / 16) : ℝ) : EReal) := by
  unfold Gen.k0_pay12
  refine (add_pixels _ _ _ _ _ _ t).trans ?_
  refine sum_real (fun c y x => B c t y x * ((∑ t', B c t' y x) / 16))
    (fun c y x => mulf (Gen.k0_pay7 (F := Ideal) v3)
      (broadcastTo S8x16x112x112 (shapeCast S8x1x112x112 (Gen.k0_pay8 (F := Ideal) v3)
        Gen.shapeCasts_S8x112x112_S8x1x112x112) Gen.broadcasts_S8x1x112x112_S8x16x112x112) (ix4 c t y x))
    (fun c y x => ?_)
  show Gen.k0_pay7 (F := Ideal) v3 (ix4 c t y x)
      * broadcastTo S8x16x112x112 (shapeCast S8x1x112x112 (Gen.k0_pay8 (F := Ideal) v3)
        Gen.shapeCasts_S8x112x112_S8x1x112x112) Gen.broadcasts_S8x1x112x112_S8x16x112x112 (ix4 c t y x) = _
  rw [pay7_val v3 B hv c t y x, broadcastTo_time_apply, shapeCast_abc_a1bc_apply, pay8_val v3 B hv c y x, EReal.coe_mul]

/-- The least value over the block's pixels at a time step. -/
theorem pay13_val (t : Fin 16) :
    Gen.k0_pay13 (F := Ideal) v3 (ix1 t)
      = ((Finset.univ.inf' Finset.univ_nonempty (fun q : Bx => B q.1 t q.2.1 q.2.2) : ℝ) : EReal) := by
  unfold Gen.k0_pay13
  refine (min_pixels _ _ _ _ _ _ t).trans ?_
  exact (congrArg (Finset.inf Finset.univ)
    (funext fun q : Bx => pay7_val v3 B hv q.1 t q.2.1 q.2.2)).trans (inf_coe fun q : Bx => B q.1 t q.2.1 q.2.2)

/-- The greatest value over the block's pixels at a time step. -/
theorem pay15_val (t : Fin 16) :
    Gen.k0_pay15 (F := Ideal) (Gen.k0_pay14 (F := Ideal) v3) (ix1 t)
      = ((Finset.univ.sup' Finset.univ_nonempty (fun q : Bx => B q.1 t q.2.1 q.2.2) : ℝ) : EReal) := by
  unfold Gen.k0_pay15 Gen.k0_pay14
  refine (max_pixels _ _ _ _ _ _ t).trans ?_
  exact (congrArg (Finset.sup Finset.univ)
    (funext fun q : Bx => pay7_val v3 B hv q.1 t q.2.1 q.2.2)).trans (sup_coe fun q : Bx => B q.1 t q.2.1 q.2.2)

end Real

/-! ## The running values: one step of each accumulation, and the starting values -/

section Acc
variable (t : Fin 16)

theorem pay16_apply (v13 : FVec Ideal S16 .f32) (v30 : Vec Ideal S1x1x16 .f32) :
    Gen.k0_pay16 (F := Ideal) v13 v30 (ix3 (0 : Fin 1) (0 : Fin 1) t)
      = v30 (ix3 (0 : Fin 1) (0 : Fin 1) t) + v13 (ix1 t) := by
  unfold Gen.k0_pay16
  refine (shapeCast_ab_1ab_apply _ _ (0 : Fin 1) (0 : Fin 1) t).trans ?_
  exact congrArg₂ (· + ·) (shapeCast_1ab_ab_apply v30 _ (0 : Fin 1) t) (shapeCast_a_1a_apply v13 _ (0 : Fin 1) t)

theorem pay17_apply (v17 : FVec Ideal S16 .f32) (v37 : Vec Ideal S1x1x16 .f32) :
    Gen.k0_pay17 (F := Ideal) v17 v37 (ix3 (0 : Fin 1) (0 : Fin 1) t)
      = v37 (ix3 (0 : Fin 1) (0 : Fin 1) t) + v17 (ix1 t) := by
  unfold Gen.k0_pay17
  refine (shapeCast_ab_1ab_apply _ _ (0 : Fin 1) (0 : Fin 1) t).trans ?_
  exact congrArg₂ (· + ·) (shapeCast_1ab_ab_apply v37 _ (0 : Fin 1) t) (shapeCast_a_1a_apply v17 _ (0 : Fin 1) t)

theorem pay18_apply (v23 : FVec Ideal S16 .f32) (v44 : Vec Ideal S1x1x16 .f32) :
    Gen.k0_pay18 (F := Ideal) v23 v44 (ix3 (0 : Fin 1) (0 : Fin 1) t)
      = v44 (ix3 (0 : Fin 1) (0 : Fin 1) t) + v23 (ix1 t) := by
  unfold Gen.k0_pay18
  refine (shapeCast_ab_1ab_apply _ _ (0 : Fin 1) (0 : Fin 1) t).trans ?_
  exact congrArg₂ (· + ·) (shapeCast_1ab_ab_apply v44 _ (0 : Fin 1) t) (shapeCast_a_1a_apply v23 _ (0 : Fin 1) t)

theorem pay19_apply (v26 : FVec Ideal S16 .f32) (v51 : Vec Ideal S1x1x16 .f32) :
    Gen.k0_pay19 (F := Ideal) v26 v51 (ix3 (0 : Fin 1) (0 : Fin 1) t)
      = min (v51 (ix3 (0 : Fin 1) (0 : Fin 1) t)) (v26 (ix1 t)) := by
  unfold Gen.k0_pay19
  refine (shapeCast_ab_1ab_apply _ _ (0 : Fin 1) (0 : Fin 1) t).trans ?_
  exact congrArg₂ min (shapeCast_1ab_ab_apply v51 _ (0 : Fin 1) t) (shapeCast_a_1a_apply v26 _ (0 : Fin 1) t)

theorem pay1_apply (v29 : FVec Ideal S16 .f32) (v58 : Vec Ideal S1x1x16 .f32) :
    Gen.k0_pay1 (F := Ideal) v29 v58 (ix3 (0 : Fin 1) (0 : Fin 1) t)
      = max (v58 (ix3 (0 : Fin 1) (0 : Fin 1) t)) (v29 (ix1 t)) := by
  unfold Gen.k0_pay1
  refine (shapeCast_ab_1ab_apply _ _ (0 : Fin 1) (0 : Fin 1) t).trans ?_
  exact congrArg₂ max (shapeCast_1ab_ab_apply v58 _ (0 : Fin 1) t) (shapeCast_a_1a_apply v29 _ (0 : Fin 1) t)

theorem pay2_apply : Gen.k0_pay2 (F := Ideal) (ix3 (0 : Fin 1) (0 : Fin 1) t) = (0 : EReal) := by
  unfold Gen.k0_pay2
  exact (shapeCast_ab_1ab_apply _ _ (0 : Fin 1) (0 : Fin 1) t).trans Ideal.ofBits_zero_f32

theorem pay3_apply : Gen.k0_pay3 (F := Ideal) (ix3 (0 : Fin 1) (0 : Fin 1) t) = (0 : EReal) := by
  unfold Gen.k0_pay3
  exact (shapeCast_ab_1ab_apply _ _ (0 : Fin 1) (0 : Fin 1) t).trans Ideal.ofBits_zero_f32

theorem pay4_apply : Gen.k0_pay4 (F := Ideal) (ix3 (0 : Fin 1) (0 : Fin 1) t) = (0 : EReal) := by
  unfold Gen.k0_pay4
  exact (shapeCast_ab_1ab_apply _ _ (0 : Fin 1) (0 : Fin 1) t).trans Ideal.ofBits_zero_f32

theorem pay5_apply : Gen.k0_pay5 (F := Ideal) (ix3 (0 : Fin 1) (0 : Fin 1) t) = (⊤ : EReal) := by
  unfold Gen.k0_pay5
  exact (shapeCast_ab_1ab_apply _ _ (0 : Fin 1) (0 : Fin 1) t).trans Cert.Weighting.Fibre.ofBits_inf

theorem pay6_apply : Gen.k0_pay6 (F := Ideal) (ix3 (0 : Fin 1) (0 : Fin 1) t) = (⊥ : EReal) := by
  unfold Gen.k0_pay6
  exact (shapeCast_ab_1ab_apply _ _ (0 : Fin 1) (0 : Fin 1) t).trans Cert.Weighting.Fibre.ofBits_neg_inf

end Acc

end Cert.KernelIdeal.KPay

end
-- ==== Proof.K0Xm.lean ====
/-
  The target map after the first region.

  The region runs over the 32 points (b, g): batch entry b (8 of them) and channel group g (4 groups of 8 channels);
  point number 4 · b + g. At each point it loads the block x[b, 8g .. 8g + 7, all 16 time steps, all rows, all columns]
  and stores, whole, the block of the target map at (b, 8g .. 8g + 7, all rows, all columns): at each pixel the sum of
  the 16 time steps divided by 16. The store is the same in both control cases of the body, so what a point leaves in
  this block does not depend on the point before. Each block of the target map is written by exactly one point and
  the 32 blocks tile the array, so after the region the array holds, at (b, c, h, w), the mean over time of
  x[b, c, ·, h, w]: the target map of batch entry b at pixel (c, h, w).
-/
import proofs.«171658_j72688026517959_1_alg».proof.Proof.K0Pieces
import proofs.«171658_j72688026517959_1_alg».proof.Proof.K0Pay
import proofs.«171658_j72688026517959_1_alg».proof.Proof.Spec
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

namespace Xm

variable (V : (c : Dev nD) → (b : Ref sig .tc) → Buf (Elt Ideal) ((c : Thread nD τ).loc b))

/-- The region's input array x, as the region finds it: a function of the five coordinates. -/
abbrev xarr (c : Dev nD) : S8x32x16x112x112.Idx → EReal := V c (Pipeline.arrRef spec0 0)

/-- The input block of point t. -/
abbrev xblk (c : Dev nD) (t : Fin cfg0.N) : Vec Ideal S1x8x16x112x112 .f32 := iblk0 V c 0 t

/-- Channel 8 · g + k: the k-th channel of channel group g. -/
abbrev chan (g : Fin 4) (k : Fin 8) : Fin 32 := ⟨8 * g.val + k.val, by omega⟩

/-- What the target-map array ends holding: at (b, c, h, w) the target map of batch entry b at pixel (c, h, w). -/
abbrev G (X : Cert.Weighting.Arr) : S8x32x112x112.Idx → EReal :=
  fun i => ((Cert.Weighting.gmap X (i 0) (i 1, i 2, i 3) : ℝ) : EReal)

/-- What point t leaves in the target-map block: the mean over time of its input block, in either control case. -/
theorem after_eq (c : Dev nD) (t : Fin cfg0.N) : (outsAt0 V c t.val t.isLt).1 = k0_pay9 (xblk V c t) := by
  have hlt : t.val - 1 < cfg0.N := Nat.lt_of_le_of_lt (Nat.sub_le _ _) t.isLt
  by_cases h0 : t.val % 4 = 0
  · rw [outsAt0_A V c t h0]
    dsimp only
    exact outA_1 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) ((hcond0_0 t).mpr h0) (iblk0 V c 0 t)
  · rw [outsAt0_B V c t h0]
    dsimp only
    exact outB_1 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (fun h => h0 ((hcond0_0 t).mp h)) (iblk0 V c 0 t)
      (outsAt0 V c (t.val - 1) hlt).2.1 (outsAt0 V c (t.val - 1) hlt).2.2.1 (outsAt0 V c (t.val - 1) hlt).2.2.2.1
      (outsAt0 V c (t.val - 1) hlt).2.2.2.2.1 (outsAt0 V c (t.val - 1) hlt).2.2.2.2.2

/-- The mean over time of a block whose entries are those of x at batch entry b and channel group g, read at a pixel
    of the block, is the target map of b at that pixel. -/
theorem pay_at (X : Cert.Weighting.Arr) (b : Fin 8) (g : Fin 4) (x0 : Vec Ideal S1x8x16x112x112 .f32)
    (hx0 : ∀ k s h w, x0 (ix5 (0 : Fin 1) k s h w) = ((X b (chan g k) s h w : ℝ) : EReal)) (k : Fin 8) (h w : Fin 112) :
    k0_pay9 (F := Ideal) x0 (ix4 (0 : Fin 1) k h w) = G X (ix4 b (chan g k) h w) :=
  KPay.pay9_val x0 (fun k s h w => X b (chan g k) s h w) hx0 k h w

/-- The index maps over the 32 points: point t has batch entry t / 4 and channel group t % 4, and both the input block
    and the target-map block sit at block index (t / 4, t % 4) and zero on the whole axes. -/
theorem idx_facts : ∀ t : Fin cfg0.N,
    win0_0.index t (0 : Fin 5) = t.val / 4
    ∧ win0_0.index t (1 : Fin 5) = t.val % 4
    ∧ win0_0.index t (2 : Fin 5) = 0
    ∧ win0_0.index t (3 : Fin 5) = 0
    ∧ win0_0.index t (4 : Fin 5) = 0
    ∧ win0_1.index t (0 : Fin 4) = t.val / 4
    ∧ win0_1.index t (1 : Fin 4) = t.val % 4
    ∧ win0_1.index t (2 : Fin 4) = 0
    ∧ win0_1.index t (3 : Fin 4) = 0 :=
  (by decide +kernel : ∀ t : Fin grid0.N, _)

theorem N32 : cfg0.N = 32 := N_0

/-- The batch entry of point t. -/
abbrev bat (t : Fin cfg0.N) : Fin 8 := ⟨t.val / 4, by have := t.isLt; have := N32; omega⟩
/-- The channel group of point t. -/
abbrev grp (t : Fin cfg0.N) : Fin 4 := ⟨t.val % 4, by omega⟩

/-- Where the input block of point t sits in x: entry (k, s, h, w) of the block is x at (t / 4, 8 (t % 4) + k, s, h, w). -/
theorem emb_in (t : Fin cfg0.N) (k : Fin 8) (s : Fin 16) (h w : Fin 112) :
    (((cfg0.win 0).blk t).view.emb (ix5 (0 : Fin 1) k s h w) : S8x32x16x112x112.Idx) = ix5 (bat t) (chan (grp t) k) s h w := by
  obtain ⟨e0, e1, e2, e3, e4, f0, f1, f2, f3⟩ := idx_facts t
  funext a; apply Fin.ext
  match a with
  | ⟨0, _⟩ => show win0_0.index t (0 : Fin 5) * 1 + 1 * 0 = t.val / 4; omega
  | ⟨1, _⟩ => show win0_0.index t (1 : Fin 5) * 8 + 1 * k.val = 8 * (t.val % 4) + k.val; omega
  | ⟨2, _⟩ => show win0_0.index t (2 : Fin 5) * 16 + 1 * s.val = s.val; omega
  | ⟨3, _⟩ => show win0_0.index t (3 : Fin 5) * 112 + 1 * h.val = h.val; omega
  | ⟨4, _⟩ => show win0_0.index t (4 : Fin 5) * 112 + 1 * w.val = w.val; omega

/-- Where the target-map block of point t sits in the array: entry (k, h, w) of the block is at (t / 4, 8 (t % 4) + k, h, w). -/
theorem emb_out (t : Fin cfg0.N) (k : Fin 8) (h w : Fin 112) :
    (((cfg0.win 1).blk t).view.emb (ix4 (0 : Fin 1) k h w) : S8x32x112x112.Idx) = ix4 (bat t) (chan (grp t) k) h w := by
  obtain ⟨e0, e1, e2, e3, e4, f0, f1, f2, f3⟩ := idx_facts t
  funext a; apply Fin.ext
  match a with
  | ⟨0, _⟩ => show win0_1.index t (0 : Fin 4) * 1 + 1 * 0 = t.val / 4; omega
  | ⟨1, _⟩ => show win0_1.index t (1 : Fin 4) * 8 + 1 * k.val = 8 * (t.val % 4) + k.val; omega
  | ⟨2, _⟩ => show win0_1.index t (2 : Fin 4) * 112 + 1 * h.val = h.val; omega
  | ⟨3, _⟩ => show win0_1.index t (3 : Fin 4) * 112 + 1 * w.val = w.val; omega

section Real
variable (c : Dev nD) (X : Cert.Weighting.Arr)
  (hx : ∀ b c' s h w, xarr V c (ix5 b c' s h w) = ((X b c' s h w : ℝ) : EReal))
include hx

/-- The input block of point t holds the real numbers x at its place. -/
theorem blk_val (t : Fin cfg0.N) (k : Fin 8) (s : Fin 16) (h w : Fin 112) :
    xblk V c t (ix5 (0 : Fin 1) k s h w) = ((X (bat t) (chan (grp t) k) s h w : ℝ) : EReal) := by
  show xarr V c (((cfg0.win 0).blk t).view.emb (ix5 (0 : Fin 1) k s h w)) = _
  exact (congrArg (xarr V c) (emb_in t k s h w)).trans (hx _ _ _ _ _)

/-- What point t writes back is block t of the target map. -/
theorem flushed_eq (t : Fin cfg0.N) :
    (dat0 V c).flushed 1 t = ((cfg0.win 1).blk t).view.read (Elt Ideal) (G X) := by
  show (cfg0.win 1).cut (grid0.coords t) ((dat0 V c).after 1 t) = _
  rw [after0_1, after_eq V c t]
  refine funext fun (j : S1x8x112x112.Idx) => ?_
  obtain ⟨u, k, h, w, rfl⟩ : ∃ u k h w, j = ix4 u k h w := ⟨j 0, j 1, j 2, j 3, eq_ix4 j⟩
  obtain rfl : u = 0 := Subsingleton.elim _ _
  show k0_pay9 (F := Ideal) (xblk V c t) (ix4 (0 : Fin 1) k h w) = G X (((cfg0.win 1).blk t).view.emb (ix4 (0 : Fin 1) k h w))
  refine (pay_at X (bat t) (grp t) (xblk V c t) (fun k s h w => blk_val V c X hx t k s h w) k h w).trans ?_
  exact (congrArg (G X) (emb_out t k h w)).symm

end Real

/-- An index of the array is in point t's block iff each coordinate is in the block's range on its axis. -/
theorem mem_blk (t : Fin cfg0.N) (i : S8x32x112x112.Idx) :
    i ∈ ((cfg0.win 1).blk t).view.set ↔ ∀ a : Fin 4, win0_1.index t a * S1x8x112x112.size a ≤ (i a).val
      ∧ (i a).val < win0_1.index t a * S1x8x112x112.size a + S1x8x112x112.size a := by
  show i ∈ ((View.whole main_v0_0).slice (win0_1.rect t)).set ↔ _
  rw [View.set_slice_whole, Rect.mem_set_unit]
  exact Iff.rfl

/-- The blocks cover the array: the index (b, c, h, w) is in the block of point 4 · b + c / 8. -/
theorem cover (i : S8x32x112x112.Idx) :
    ∃ t : Fin cfg0.N, (cfg0.win 1).flush t = true ∧ i ∈ ((cfg0.win 1).blk t).view.set := by
  have hi0 : (i 0).val < 8 := (i 0).isLt
  have hi1 : (i 1).val < 32 := (i 1).isLt
  have hi2 : (i 2).val < 112 := (i 2).isLt
  have hi3 : (i 3).val < 112 := (i 3).isLt
  have hN := N32
  obtain ⟨t, ht⟩ : ∃ t : Fin cfg0.N, t.val = 4 * (i 0).val + (i 1).val / 8 := ⟨⟨4 * (i 0).val + (i 1).val / 8, by omega⟩, rfl⟩
  obtain ⟨e0, e1, e2, e3, e4, f0, f1, f2, f3⟩ := idx_facts t
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 8 ≤ (i 1).val ∧ (i 1).val < win0_1.index t (1 : Fin 4) * 8 + 8; omega
  | ⟨2, _⟩ => show win0_1.index t (2 : Fin 4) * 112 ≤ (i 2).val ∧ (i 2).val < win0_1.index t (2 : Fin 4) * 112 + 112; omega
  | ⟨3, _⟩ => show win0_1.index t (3 : Fin 4) * 112 ≤ (i 3).val ∧ (i 3).val < win0_1.index t (3 : Fin 4) * 112 + 112; omega

/-- The target-map array after the region: the target map, everywhere. -/
theorem final (c : Dev nD) (X : Cert.Weighting.Arr)
    (hx : ∀ b c' s h w, xarr V c (ix5 b c' s h w) = ((X b c' s h w : ℝ) : EReal)) :
    (dat0 V c).arrAt 1 cfg0.N = G X :=
  (dat0 V c).arrAt_eq_of_cover 1 (G X) (fun t _ => flushed_eq V c X hx t) cover

end Xm

/-- The target-map array after the first region, entry by entry: when the region's input holds the real numbers X,
    the entry at (b, c, h, w) is the target map of batch entry b at pixel (c, h, w), the mean over time of X there. -/
theorem r0_xm (V : (c : Dev nD) → (b : Ref sig .tc) → Buf (Elt Ideal) ((c : Thread nD τ).loc b)) (c : Dev nD)
    (X : Cert.Weighting.Arr)
    (hx : ∀ b c' t h w, (V c (Pipeline.arrRef spec0 0) : S8x32x16x112x112.Idx → EReal) (ix5 b c' t h w)
      = ((X b c' t h w : ℝ) : EReal))
    (b : Fin 8) (c' : Fin 32) (h w : Fin 112) :
    (Gen.dat0 (F := Ideal) V c).arrAt 1 cfg0.N (ix4 b c' h w) = ((Cert.Weighting.gmap X b (c', h, w) : ℝ) : EReal) :=
  congrFun (Xm.final V c X hx) (ix4 b c' h w)

end Cert.KernelIdeal.KVal

end
-- ==== Proof.K0Sum.lean ====
/-
  One frame, cut into four chunks of eight channels.

  The first region visits a batch entry's 32 channels in four chunks of 8. For a time step t the sums, the least and
  the greatest value over the 32 · 112 · 112 pixels of a frame are the four chunks' sums added, and the least (greatest)
  of the four chunks' least (greatest) values: pixel (c, h, w) of the frame is pixel (c mod 8, h, w) of chunk c / 8.

  Here: a chunk's five per-time-step quantities over the reals (`cS`, `cSS`, `cCr`, `cMn`, `cMx`), what they
  accumulate to over the first k + 1 chunks (`aS`, …, `aMx`) with the two rewriting equations of each accumulation, and
  the totals over all four chunks as the frame's own quantities.
-/
import proofs.«171658_j72688026517959_1_alg».proof.Proof.Spec
import Mathlib.Algebra.BigOperators.Fin
import Mathlib.Algebra.BigOperators.Group.Finset.Basic
import Mathlib.Data.Fintype.BigOperators
import Mathlib.Data.Finset.Lattice.Fold
import Mathlib.Tactic.FinCases

noncomputable section

namespace Cert.Weighting.Chunk

open Finset Cert.Weighting

/-- The pixels of a chunk: channel within the chunk, row, column. -/
abbrev Bx := Fin 8 × Fin 112 × Fin 112

/-- Channel `c8` of chunk `j` is channel `8 j + c8` of the frame (taken modulo 32, so that it is defined for every `j`;
    only `j < 4` is ever used). -/
def chN (j : ℕ) (c8 : Fin 8) : Fin 32 := ⟨(8 * j + c8.val) % 32, Nat.mod_lt _ (by decide)⟩

theorem chN_val (j : ℕ) (hj : j < 4) (c8 : Fin 8) : (chN j c8).val = 8 * j + c8.val := by
  have := c8.isLt
  show (8 * j + c8.val) % 32 = _
  exact Nat.mod_eq_of_lt (by omega)

/-- The batch entry the grid's point `n` works on: the grid runs over batch entries, four chunks each. -/
def bN (n : ℕ) : Fin 8 := ⟨(n / 4) % 8, Nat.mod_lt _ (by decide)⟩

/-- Chunk `j` of batch entry `b`: an 8 × 16 × 112 × 112 block of the input. -/
def Blk (X : Arr) (b : Fin 8) (j : ℕ) : Fin 8 → Fin 16 → Fin 112 → Fin 112 → ℝ :=
  fun c8 t h w => X b (chN j c8) t h w

variable (X : Arr) (b : Fin 8) (t : Fin 16)

/-- A chunk's sum at time step `t`. -/
def cS (j : ℕ) : ℝ := ∑ q : Bx, Blk X b j q.1 t q.2.1 q.2.2
/-- A chunk's sum of squares. -/
def cSS (j : ℕ) : ℝ := ∑ q : Bx, Blk X b j q.1 t q.2.1 q.2.2 * Blk X b j q.1 t q.2.1 q.2.2
/-- A chunk's sum of products with its mean over time. -/
def cCr (j : ℕ) : ℝ := ∑ q : Bx, Blk X b j q.1 t q.2.1 q.2.2 * ((∑ t', Blk X b j q.1 t' q.2.1 q.2.2) / 16)
/-- A chunk's least value. -/
def cMn (j : ℕ) : ℝ := univ.inf' univ_nonempty fun q : Bx => Blk X b j q.1 t q.2.1 q.2.2
/-- A chunk's greatest value. -/
def cMx (j : ℕ) : ℝ := univ.sup' univ_nonempty fun q : Bx => Blk X b j q.1 t q.2.1 q.2.2

/-- The sums of the first `k + 1` chunks, added. -/
def aS (k : ℕ) : ℝ := ∑ j ∈ range (k + 1), cS X b t j
def aSS (k : ℕ) : ℝ := ∑ j ∈ range (k + 1), cSS X b t j
def aCr (k : ℕ) : ℝ := ∑ j ∈ range (k + 1), cCr X b t j
/-- The least of the first `k + 1` chunks' least values. -/
def aMn (k : ℕ) : ℝ := (range (k + 1)).inf' nonempty_range_add_one (cMn X b t)
/-- The greatest of the first `k + 1` chunks' greatest values. -/
def aMx (k : ℕ) : ℝ := (range (k + 1)).sup' nonempty_range_add_one (cMx X b t)

theorem aS_zero : aS X b t 0 = cS X b t 0 := by unfold aS; rw [zero_add, sum_range_one]
theorem aSS_zero : aSS X b t 0 = cSS X b t 0 := by unfold aSS; rw [zero_add, sum_range_one]
theorem aCr_zero : aCr X b t 0 = cCr X b t 0 := by unfold aCr; rw [zero_add, sum_range_one]
theorem aMn_zero : aMn X b t 0 = cMn X b t 0 := by
  unfold aMn
  refine le_antisymm (inf'_le _ (by simp)) (le_inf' _ _ fun j hj => ?_)
  have : j = 0 := by simpa using hj
  rw [this]
theorem aMx_zero : aMx X b t 0 = cMx X b t 0 := by
  unfold aMx
  refine le_antisymm (sup'_le _ _ fun j hj => ?_) (le_sup' _ (by simp))
  have : j = 0 := by simpa using hj
  rw [this]

theorem aS_succ (k : ℕ) : aS X b t (k + 1) = aS X b t k + cS X b t (k + 1) := by unfold aS; rw [sum_range_succ]
theorem aSS_succ (k : ℕ) : aSS X b t (k + 1) = aSS X b t k + cSS X b t (k + 1) := by unfold aSS; rw [sum_range_succ]
theorem aCr_succ (k : ℕ) : aCr X b t (k + 1) = aCr X b t k + cCr X b t (k + 1) := by unfold aCr; rw [sum_range_succ]
theorem aMn_succ (k : ℕ) : aMn X b t (k + 1) = min (aMn X b t k) (cMn X b t (k + 1)) := by
  unfold aMn
  refine le_antisymm (le_min (le_inf' _ _ fun j hj => inf'_le _ (by simp at hj ⊢; omega)) (inf'_le _ (by simp)))
    (le_inf' _ _ fun j hj => ?_)
  have hj' : j < k + 1 + 1 := by simpa using hj
  by_cases h : j = k + 1
  · rw [h]; exact min_le_right _ _
  · exact (min_le_left _ _).trans (inf'_le _ (by simp; omega))
theorem aMx_succ (k : ℕ) : aMx X b t (k + 1) = max (aMx X b t k) (cMx X b t (k + 1)) := by
  unfold aMx
  refine le_antisymm (sup'_le _ _ fun j hj => ?_)
    (max_le (sup'_le _ _ fun j hj => le_sup' _ (by simp at hj ⊢; omega)) (le_sup' _ (by simp)))
  have hj' : j < k + 1 + 1 := by simpa using hj
  by_cases h : j = k + 1
  · rw [h]; exact le_max_right _ _
  · exact (le_sup' (cMx X b t) (by simp; omega)).trans (le_max_left _ _)

/-! ## The four chunks are the frame -/

/-- Pixel `(c8, h, w)` of chunk `j` is pixel `(8 j + c8, h, w)` of the frame. -/
def chunkEquiv : Fin 4 × Bx ≃ Pix where
  toFun x := (⟨8 * x.1.val + x.2.1.val, by have := x.1.isLt; have := x.2.1.isLt; omega⟩, x.2.2.1, x.2.2.2)
  invFun p := (⟨p.1.val / 8, by have := p.1.isLt; omega⟩, ⟨p.1.val % 8, Nat.mod_lt _ (by decide)⟩, p.2.1, p.2.2)
  left_inv x := by
    obtain ⟨j, c8, h, w⟩ := x
    have := j.isLt; have := c8.isLt
    refine Prod.ext (Fin.ext ?_) (Prod.ext (Fin.ext ?_) rfl)
    · show (8 * j.val + c8.val) / 8 = j.val; omega
    · show (8 * j.val + c8.val) % 8 = c8.val; omega
  right_inv p := by
    obtain ⟨c, h, w⟩ := p
    refine Prod.ext (Fin.ext ?_) rfl
    show 8 * (c.val / 8) + c.val % 8 = c.val; omega

theorem chunkEquiv_fst (j : Fin 4) (q : Bx) : (chunkEquiv (j, q)).1 = chN j.val q.1 :=
  Fin.ext (chN_val j.val j.isLt q.1).symm

/-- A sum over the four chunks' pixels is the sum over the frame's pixels. -/
theorem sum_chunks (g : Pix → ℝ) :
    ∑ j ∈ range 4, ∑ q : Bx, g (chN j q.1, q.2.1, q.2.2) = ∑ p : Pix, g p := by
  rw [sum_range (fun j => ∑ q : Bx, g (chN j q.1, q.2.1, q.2.2)), ← Fintype.sum_prod_type']
  refine Fintype.sum_equiv chunkEquiv _ _ fun x => ?_
  obtain ⟨j, q⟩ := x
  show g (chN j.val q.1, q.2.1, q.2.2) = g (chunkEquiv (j, q))
  rw [← chunkEquiv_fst]; rfl

/-- The least of the four chunks' least values is the least value over the frame. -/
theorem inf_chunks (g : Pix → ℝ) :
    (range 4).inf' nonempty_range_add_one (fun j => univ.inf' univ_nonempty fun q : Bx => g (chN j q.1, q.2.1, q.2.2))
      = univ.inf' univ_nonempty g := by
  refine le_antisymm (le_inf' _ _ fun p _ => ?_) (le_inf' _ _ fun j hj => le_inf' _ _ fun q _ => ?_)
  · have hj : (chunkEquiv.symm p).1.val ∈ range 4 := mem_range.mpr (chunkEquiv.symm p).1.isLt
    refine (inf'_le _ hj).trans ((inf'_le _ (mem_univ (chunkEquiv.symm p).2)).trans (le_of_eq ?_))
    show g (chN (chunkEquiv.symm p).1.val (chunkEquiv.symm p).2.1, _, _) = g p
    rw [← chunkEquiv_fst]
    exact congrArg g (chunkEquiv.apply_symm_apply p)
  · have hj4 : j < 4 := mem_range.mp hj
    refine (inf'_le g (mem_univ (chunkEquiv (⟨j, hj4⟩, q)))).trans (le_of_eq ?_)
    rw [show chunkEquiv (⟨j, hj4⟩, q) = (chN j q.1, q.2.1, q.2.2) from
      Prod.ext (chunkEquiv_fst ⟨j, hj4⟩ q) rfl]

/-- The greatest of the four chunks' greatest values is the greatest value over the frame. -/
theorem sup_chunks (g : Pix → ℝ) :
    (range 4).sup' nonempty_range_add_one (fun j => univ.sup' univ_nonempty fun q : Bx => g (chN j q.1, q.2.1, q.2.2))
      = univ.sup' univ_nonempty g := by
  refine le_antisymm (sup'_le _ _ fun j hj => sup'_le _ _ fun q _ => ?_) (sup'_le _ _ fun p _ => ?_)
  · have hj4 : j < 4 := mem_range.mp hj
    refine (le_of_eq ?_).trans (le_sup' g (mem_univ (chunkEquiv (⟨j, hj4⟩, q))))
    rw [show chunkEquiv (⟨j, hj4⟩, q) = (chN j q.1, q.2.1, q.2.2) from
      Prod.ext (chunkEquiv_fst ⟨j, hj4⟩ q) rfl]
  · have hj : (chunkEquiv.symm p).1.val ∈ range 4 := mem_range.mpr (chunkEquiv.symm p).1.isLt
    refine (le_of_eq ?_).trans ((le_sup' _ (mem_univ (chunkEquiv.symm p).2)).trans
      (le_sup' (fun j => univ.sup' univ_nonempty fun q : Bx => g (chN j q.1, q.2.1, q.2.2)) hj))
    show g p = g (chN (chunkEquiv.symm p).1.val (chunkEquiv.symm p).2.1, _, _)
    rw [← chunkEquiv_fst]
    exact (congrArg g (chunkEquiv.apply_symm_apply p)).symm

/-- All four chunks' sums: the frame's sum. -/
theorem aS_total : aS X b t 3 = ∑ p : Pix, frame X b t p :=
  sum_chunks (fun p => frame X b t p)
/-- All four chunks' sums of squares: the frame's. -/
theorem aSS_total : aSS X b t 3 = ∑ p : Pix, frame X b t p * frame X b t p :=
  sum_chunks (fun p => frame X b t p * frame X b t p)
/-- All four chunks' sums of products with their means over time: the frame's sum of products with the target map. -/
theorem aCr_total : aCr X b t 3 = ∑ p : Pix, frame X b t p * gmap X b p :=
  sum_chunks (fun p => frame X b t p * gmap X b p)
/-- The least of the four chunks' least values: the frame's least value. -/
theorem aMn_total : aMn X b t 3 = lo (frame X b t) := inf_chunks (fun p => frame X b t p)
/-- The greatest of the four chunks' greatest values: the frame's greatest value. -/
theorem aMx_total : aMx X b t 3 = hi (frame X b t) := sup_chunks (fun p => frame X b t p)

end Cert.Weighting.Chunk

end
-- ==== Proof.K0Outs.lean ====
/-
  The first region, point by point: what each output block holds after the body at a point, as the body's arithmetic
  applied to the point's input block and, for the five carried blocks, to what the point before left; and where the
  point's input block sits in the input array.

  The grid's point n works on batch entry n / 4 and on the chunk n mod 4 of its channels: entry (0, c8, t, h, w) of
  the input block is entry (n / 4, 8 (n mod 4) + c8, t, h, w) of the array.
-/
import proofs.«171658_j72688026517959_1_alg».proof.Proof.K0Pieces
import proofs.«171658_j72688026517959_1_alg».proof.Proof.K0Sum
import Idealize.ShloMosaic.Lib.ValueIdx

noncomputable section

namespace Cert.KernelIdeal.KVal

open Idealize.ShloMosaic Idealize.ShloMosaic.TcCoe Idealize.SL.Sem Idealize.ShloMosaic.Tactic
open Idealize.ShloMosaic.ValueIdx
open Cert.KernelIdeal Cert.KernelIdeal.Gen Cert.Weighting.Chunk

variable {F : FTy → Type} [FloatOps F]
variable (V : (c : Dev nD) → (b : Ref sig .tc) → Buf (Elt F) ((c : Thread nD τ).loc b))

/-- The input array as the region finds it, by its literal type. -/
abbrev xarr (c : Dev nD) : Vec F S8x32x16x112x112 .f32 := V c (Pipeline.arrRef spec0 0)
/-- The input block at a point, by its literal type. -/
abbrev xblk (c : Dev nD) (t : Fin cfg0.N) : Vec F S1x8x16x112x112 .f32 := iblk0 V c 0 t
/-- What the outputs held after the point before. -/
abbrev prev (c : Dev nD) (t : Fin cfg0.N) :=
  outsAt0 V c (t.val - 1) (Nat.lt_of_le_of_lt (Nat.sub_le _ _) t.isLt)

/-- Output 1 (the target-map block) after any point: the mean over time of the point's block. -/
theorem outs1 (c : Dev nD) (t : Fin cfg0.N) : (outsAt0 V c t.val t.isLt).1 = k0_pay9 (xblk V c t) := by
  by_cases h0 : t.val % 4 = 0
  · rw [outsAt0_A V c t h0]
    dsimp only
    exact outA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t)
  · rw [outsAt0_B V c t h0]
    dsimp only
    exact outB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (prev V c t).2.1 (prev V c t).2.2.1 (prev V c t).2.2.2.1 (prev V c t).2.2.2.2.1 (prev V c t).2.2.2.2.2

/-- Output 2 after a point that resets: the neutral value updated with the point's block. -/
theorem outs2_A (c : Dev nD) (t : Fin cfg0.N) (h0 : t.val % 4 = 0) :
    (outsAt0 V c t.val t.isLt).2.1 = k0_pay16 (k0_pay10 (xblk V c t)) k0_pay2 := by
  rw [outsAt0_A V c t h0]
  dsimp only
  exact outA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t)

/-- Output 2 after any other point: what the point before left, updated with the point's block. -/
theorem outs2_B (c : Dev nD) (t : Fin cfg0.N) (h0 : ¬t.val % 4 = 0) :
    (outsAt0 V c t.val t.isLt).2.1 = k0_pay16 (k0_pay10 (xblk V c t)) (prev V c t).2.1 := by
  rw [outsAt0_B V c t h0]
  dsimp only
  exact outB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (prev V c t).2.1 (prev V c t).2.2.1 (prev V c t).2.2.2.1 (prev V c t).2.2.2.2.1 (prev V c t).2.2.2.2.2

/-- Output 3 after a point that resets: the neutral value updated with the point's block. -/
theorem outs3_A (c : Dev nD) (t : Fin cfg0.N) (h0 : t.val % 4 = 0) :
    (outsAt0 V c t.val t.isLt).2.2.1 = k0_pay17 (k0_pay11 (xblk V c t)) k0_pay3 := by
  rw [outsAt0_A V c t h0]
  dsimp only
  exact outA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t)

/-- Output 3 after any other point: what the point before left, updated with the point's block. -/
theorem outs3_B (c : Dev nD) (t : Fin cfg0.N) (h0 : ¬t.val % 4 = 0) :
    (outsAt0 V c t.val t.isLt).2.2.1 = k0_pay17 (k0_pay11 (xblk V c t)) (prev V c t).2.2.1 := by
  rw [outsAt0_B V c t h0]
  dsimp only
  exact outB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (prev V c t).2.1 (prev V c t).2.2.1 (prev V c t).2.2.2.1 (prev V c t).2.2.2.2.1 (prev V c t).2.2.2.2.2

/-- Output 4 after a point that resets: the neutral value updated with the point's block. -/
theorem outs4_A (c : Dev nD) (t : Fin cfg0.N) (h0 : t.val % 4 = 0) :
    (outsAt0 V c t.val t.isLt).2.2.2.1 = k0_pay18 (k0_pay12 (xblk V c t)) k0_pay4 := by
  rw [outsAt0_A V c t h0]
  dsimp only
  exact outA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t)

/-- Output 4 after any other point: what the point before left, updated with the point's block. -/
theorem outs4_B (c : Dev nD) (t : Fin cfg0.N) (h0 : ¬t.val % 4 = 0) :
    (outsAt0 V c t.val t.isLt).2.2.2.1 = k0_pay18 (k0_pay12 (xblk V c t)) (prev V c t).2.2.2.1 := by
  rw [outsAt0_B V c t h0]
  dsimp only
  exact outB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (prev V c t).2.1 (prev V c t).2.2.1 (prev V c t).2.2.2.1 (prev V c t).2.2.2.2.1 (prev V c t).2.2.2.2.2

/-- Output 5 after a point that resets: the neutral value updated with the point's block. -/
theorem outs5_A (c : Dev nD) (t : Fin cfg0.N) (h0 : t.val % 4 = 0) :
    (outsAt0 V c t.val t.isLt).2.2.2.2.1 = k0_pay19 (k0_pay13 (xblk V c t)) k0_pay5 := by
  rw [outsAt0_A V c t h0]
  dsimp only
  exact outA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t)

/-- Output 5 after any other point: what the point before left, updated with the point's block. -/
theorem outs5_B (c : Dev nD) (t : Fin cfg0.N) (h0 : ¬t.val % 4 = 0) :
    (outsAt0 V c t.val t.isLt).2.2.2.2.1 = k0_pay19 (k0_pay13 (xblk V c t)) (prev V c t).2.2.2.2.1 := by
  rw [outsAt0_B V c t h0]
  dsimp only
  exact outB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (prev V c t).2.1 (prev V c t).2.2.1 (prev V c t).2.2.2.1 (prev V c t).2.2.2.2.1 (prev V c t).2.2.2.2.2

/-- Output 6 after a point that resets: the neutral value updated with the point's block. -/
theorem outs6_A (c : Dev nD) (t : Fin cfg0.N) (h0 : t.val % 4 = 0) :
    (outsAt0 V c t.val t.isLt).2.2.2.2.2 = k0_pay1 (k0_pay15 (k0_pay14 (xblk V c t))) k0_pay6 := by
  rw [outsAt0_A V c t h0]
  dsimp only
  exact outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t)

/-- Output 6 after any other point: what the point before left, updated with the point's block. -/
theorem outs6_B (c : Dev nD) (t : Fin cfg0.N) (h0 : ¬t.val % 4 = 0) :
    (outsAt0 V c t.val t.isLt).2.2.2.2.2 = k0_pay1 (k0_pay15 (k0_pay14 (xblk V c t))) (prev V c t).2.2.2.2.2 := by
  rw [outsAt0_B V c t h0]
  dsimp only
  exact outB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (prev V c t).2.1 (prev V c t).2.2.1 (prev V c t).2.2.2.1 (prev V c t).2.2.2.2.1 (prev V c t).2.2.2.2.2

/-- Where the point's input block sits in the array: batch entry n / 4, channels 8 (n mod 4) … 8 (n mod 4) + 7. -/
theorem xblk_apply (c : Dev nD) (t : Fin cfg0.N) (c8 : Fin 8) (tt : Fin 16) (h w : Fin 112) :
    xblk V c t (ix5 (0 : Fin 1) c8 tt h w) = xarr V c (ix5 (bN t.val) (chN (t.val % 4) c8) tt h w) := by
  have hN : t.val < 32 := lt_of_lt_of_eq t.isLt (show cfg0.N = 32 from N_0)
  have hi : win0_0.index t 0 = t.val / 4 ∧ win0_0.index t 1 = t.val % 4 ∧ win0_0.index t 2 = 0
      ∧ win0_0.index t 3 = 0 ∧ win0_0.index t 4 = 0 :=
    (by decide +kernel : ∀ t : Fin grid0.N, win0_0.index t 0 = t.val / 4 ∧ win0_0.index t 1 = t.val % 4
      ∧ win0_0.index t 2 = 0 ∧ win0_0.index t 3 = 0 ∧ win0_0.index t 4 = 0) t
  have h8 := c8.isLt
  unfold xblk iblk0
  rw [View.read_apply]
  show xarr V c _ = xarr V c _
  congr 1
  funext a
  apply Fin.ext
  match a with
  | ⟨0, _⟩ => show win0_0.index t 0 * 1 + 1 * 0 = (t.val / 4) % 8; rw [hi.1]; omega
  | ⟨1, _⟩ => show win0_0.index t 1 * 8 + 1 * c8.val = (8 * (t.val % 4) + c8.val) % 32; rw [hi.2.1]; omega
  | ⟨2, _⟩ => show win0_0.index t 2 * 16 + 1 * tt.val = tt.val; rw [hi.2.2.1]; omega
  | ⟨3, _⟩ => show win0_0.index t 3 * 112 + 1 * h.val = h.val; rw [hi.2.2.2.1]; omega
  | ⟨4, _⟩ => show win0_0.index t 4 * 112 + 1 * w.val = w.val; rw [hi.2.2.2.2]; omega

end Cert.KernelIdeal.KVal

end
-- ==== Proof.K0Inv.lean ====
/-
  The three running sums of the first region, after every point of its grid.

  Point n of the grid works on chunk n mod 4 of batch entry n / 4. After it, the block of sums holds at time step t the
  sum over the chunks 0 … n mod 4 of that entry's frame at t; likewise the block of sums of squares, and the block of
  sums of products with the chunk's own mean over time. By induction on the point: a point that resets starts from 0,
  every other point adds its chunk's sum to what the point before left.
-/
import proofs.«171658_j72688026517959_1_alg».proof.Proof.K0Outs
import proofs.«171658_j72688026517959_1_alg».proof.Proof.K0Pay

noncomputable section

namespace Cert.KernelIdeal.KVal

open Idealize.ShloMosaic Idealize.ShloMosaic.TcCoe Idealize.SL.Sem
open Idealize.ShloMosaic.ValueIdx
open Cert.KernelIdeal Cert.KernelIdeal.Gen Cert.KernelIdeal.KPay Cert.Weighting Cert.Weighting.Chunk

variable (V : (c : Dev nD) → (b : Ref sig .tc) → Buf (Elt Ideal) ((c : Thread nD τ).loc b))
variable (c : Dev nD) (X : Arr)
variable (hx : ∀ b c' t h w, xarr V c (ix5 b c' t h w) = ((X b c' t h w : ℝ) : EReal))
include hx

/-- The point's input block holds the real numbers of its chunk. -/
theorem xblk_real (t : Fin cfg0.N) (c8 : Fin 8) (tt : Fin 16) (h w : Fin 112) :
    xblk V c t (ix5 (0 : Fin 1) c8 tt h w) = ((Blk X (bN t.val) (t.val % 4) c8 tt h w : ℝ) : EReal) :=
  (xblk_apply V c t c8 tt h w).trans (hx _ _ _ _ _)

/-! ## Output 2: the sums -/

/-- After a point that resets, the block holds the first chunk's value. -/
theorem inv2_A (n : ℕ) (hn : n < cfg0.N) (h0 : n % 4 = 0) (t : Fin 16) :
    (outsAt0 V c n hn).2.1 (ix3 (0 : Fin 1) (0 : Fin 1) t) = ((aS X (bN n) t (n % 4) : ℝ) : EReal) := by
  refine (congrFun (outs2_A V c ⟨n, hn⟩ h0) _).trans ?_
  refine (pay16_apply t _ _).trans ?_
  refine (congrArg₂ (fun a b : EReal => a + b) (pay2_apply t)
    (pay10_val (xblk V c ⟨n, hn⟩) (Blk X (bN n) (n % 4)) (xblk_real V c X hx ⟨n, hn⟩) t)).trans ?_
  rw [h0, aS_zero]
  exact zero_add _

/-- After every point the block holds the value accumulated over the chunks seen so far of the point's batch entry. -/
theorem inv2 : ∀ (n : ℕ) (hn : n < cfg0.N) (t : Fin 16),
    (outsAt0 V c n hn).2.1 (ix3 (0 : Fin 1) (0 : Fin 1) t) = ((aS X (bN n) t (n % 4) : ℝ) : EReal)
  | 0, hn, t => inv2_A V c X hx 0 hn rfl t
  | n + 1, hn, t => by
    by_cases h0 : (n + 1) % 4 = 0
    · exact inv2_A V c X hx (n + 1) hn h0 t
    · have ih := inv2 n (Nat.lt_of_succ_lt hn) t
      refine (congrFun (outs2_B V c ⟨n + 1, hn⟩ h0) _).trans ?_
      refine (pay16_apply t _ _).trans ?_
      refine (congrArg₂ (fun a b : EReal => a + b) ih
        (pay10_val (xblk V c ⟨n + 1, hn⟩) (Blk X (bN (n + 1)) ((n + 1) % 4)) (xblk_real V c X hx ⟨n + 1, hn⟩) t)).trans ?_
      have e1 : bN (n + 1) = bN n := Fin.ext (by show ((n + 1) / 4) % 8 = (n / 4) % 8; omega)
      have e2 : (n + 1) % 4 = n % 4 + 1 := by omega
      rw [e1, e2, aS_succ, EReal.coe_add]
      rfl

/-! ## Output 3: the sums of squares -/

/-- After a point that resets, the block holds the first chunk's value. -/
theorem inv3_A (n : ℕ) (hn : n < cfg0.N) (h0 : n % 4 = 0) (t : Fin 16) :
    (outsAt0 V c n hn).2.2.1 (ix3 (0 : Fin 1) (0 : Fin 1) t) = ((aSS X (bN n) t (n % 4) : ℝ) : EReal) := by
  refine (congrFun (outs3_A V c ⟨n, hn⟩ h0) _).trans ?_
  refine (pay17_apply t _ _).trans ?_
  refine (congrArg₂ (fun a b : EReal => a + b) (pay3_apply t)
    (pay11_val (xblk V c ⟨n, hn⟩) (Blk X (bN n) (n % 4)) (xblk_real V c X hx ⟨n, hn⟩) t)).trans ?_
  rw [h0, aSS_zero]
  exact zero_add _

/-- After every point the block holds the value accumulated over the chunks seen so far of the point's batch entry. -/
theorem inv3 : ∀ (n : ℕ) (hn : n < cfg0.N) (t : Fin 16),
    (outsAt0 V c n hn).2.2.1 (ix3 (0 : Fin 1) (0 : Fin 1) t) = ((aSS X (bN n) t (n % 4) : ℝ) : EReal)
  | 0, hn, t => inv3_A V c X hx 0 hn rfl t
  | n + 1, hn, t => by
    by_cases h0 : (n + 1) % 4 = 0
    · exact inv3_A V c X hx (n + 1) hn h0 t
    · have ih := inv3 n (Nat.lt_of_succ_lt hn) t
      refine (congrFun (outs3_B V c ⟨n + 1, hn⟩ h0) _).trans ?_
      refine (pay17_apply t _ _).trans ?_
      refine (congrArg₂ (fun a b : EReal => a + b) ih
        (pay11_val (xblk V c ⟨n + 1, hn⟩) (Blk X (bN (n + 1)) ((n + 1) % 4)) (xblk_real V c X hx ⟨n + 1, hn⟩) t)).trans ?_
      have e1 : bN (n + 1) = bN n := Fin.ext (by show ((n + 1) / 4) % 8 = (n / 4) % 8; omega)
      have e2 : (n + 1) % 4 = n % 4 + 1 := by omega
      rw [e1, e2, aSS_succ, EReal.coe_add]
      rfl

/-! ## Output 4: the sums of products with the mean over time -/

/-- After a point that resets, the block holds the first chunk's value. -/
theorem inv4_A (n : ℕ) (hn : n < cfg0.N) (h0 : n % 4 = 0) (t : Fin 16) :
    (outsAt0 V c n hn).2.2.2.1 (ix3 (0 : Fin 1) (0 : Fin 1) t) = ((aCr X (bN n) t (n % 4) : ℝ) : EReal) := by
  refine (congrFun (outs4_A V c ⟨n, hn⟩ h0) _).trans ?_
  refine (pay18_apply t _ _).trans ?_
  refine (congrArg₂ (fun a b : EReal => a + b) (pay4_apply t)
    (pay12_val (xblk V c ⟨n, hn⟩) (Blk X (bN n) (n % 4)) (xblk_real V c X hx ⟨n, hn⟩) t)).trans ?_
  rw [h0, aCr_zero]
  exact zero_add _

/-- After every point the block holds the value accumulated over the chunks seen so far of the point's batch entry. -/
theorem inv4 : ∀ (n : ℕ) (hn : n < cfg0.N) (t : Fin 16),
    (outsAt0 V c n hn).2.2.2.1 (ix3 (0 : Fin 1) (0 : Fin 1) t) = ((aCr X (bN n) t (n % 4) : ℝ) : EReal)
  | 0, hn, t => inv4_A V c X hx 0 hn rfl t
  | n + 1, hn, t => by
    by_cases h0 : (n + 1) % 4 = 0
    · exact inv4_A V c X hx (n + 1) hn h0 t
    · have ih := inv4 n (Nat.lt_of_succ_lt hn) t
      refine (congrFun (outs4_B V c ⟨n + 1, hn⟩ h0) _).trans ?_
      refine (pay18_apply t _ _).trans ?_
      refine (congrArg₂ (fun a b : EReal => a + b) ih
        (pay12_val (xblk V c ⟨n + 1, hn⟩) (Blk X (bN (n + 1)) ((n + 1) % 4)) (xblk_real V c X hx ⟨n + 1, hn⟩) t)).trans ?_
      have e1 : bN (n + 1) = bN n := Fin.ext (by show ((n + 1) / 4) % 8 = (n / 4) % 8; omega)
      have e2 : (n + 1) % 4 = n % 4 + 1 := by omega
      rw [e1, e2, aCr_succ, EReal.coe_add]
      rfl

end Cert.KernelIdeal.KVal

end
-- ==== Proof.K0Val.lean ====
/-
  What the first region leaves in its three arrays of sums.

  The block of sums of batch entry b is written back once, after the last of the entry's four chunks; by then it holds,
  at time step t, the sum over all four chunks, which is the sum over the frame. So the array of sums ends holding at
  (b, 0, t) the frame's sum ∑ f; the array of sums of squares ∑ f²; and the array of cross sums ∑ f · g, g the
  target map of b: each chunk's products are with the chunk's own mean over time, which is the target map there.
-/
import proofs.«171658_j72688026517959_1_alg».proof.Proof.K0Inv
import Idealize.ShloMosaic.Lib.Pipeline.Value

noncomputable section

namespace Cert.KernelIdeal.KVal

open Idealize.ShloMosaic Idealize.ShloMosaic.TcCoe Idealize.SL.Sem
open Idealize.ShloMosaic.ValueIdx
open Idealize.ShloMosaic.Pipeline (Dat)
open Cert.KernelIdeal Cert.KernelIdeal.Gen Cert.Weighting Cert.Weighting.Chunk

variable (V : (c : Dev nD) → (b : Ref sig .tc) → Buf (Elt Ideal) ((c : Thread nD τ).loc b))
variable (c : Dev nD) (X : Arr)
variable (hx : ∀ b c' t h w, (V c (Pipeline.arrRef spec0 0) : S8x32x16x112x112.Idx → EReal) (ix5 b c' t h w)
  = ((X b c' t h w : ℝ) : EReal))

/-! ## Output 2: The array of sums -/

/-- The array the region leaves: entry (b, 0, t) is the frame's value. -/
abbrev G2 : Vec Ideal S8x1x16 .f32 := fun i => ((∑ p : Pix, frame X (i 0) (i 2) p : ℝ) : EReal)

/-- The window's block at point n is the one row of batch entry n / 4 (decided over the grid). -/
theorem idx2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

include hx in
/-- What a point that writes back (the last chunk of its batch entry) writes: its row of that array. -/
theorem flushed2 (t : Fin cfg0.N) (hf : (cfg0.win 2).flush t = true) :
    (dat0 V c).flushed 2 t = ((cfg0.win 2).blk t).view.read (Elt Ideal) (G2 X) := by
  have hN : t.val < 32 := lt_of_lt_of_eq t.isLt (show cfg0.N = 32 from N_0)
  have h3 : t.val % 4 = 3 := (flush0_2 t).mp hf
  obtain ⟨e0, e1, e2⟩ := idx2 t
  have key : ∀ tt : Fin 16, (outsAt0 V c t.val t.isLt).2.1 (ix3 (0 : Fin 1) (0 : Fin 1) tt)
      = ((∑ p : Pix, frame X (bN t.val) tt p : ℝ) : EReal) :=
    fun tt => (inv2 V c X hx t.val t.isLt tt).trans (by rw [h3, aS_total])
  show (cfg0.win 2).cut (grid0.coords t) ((dat0 V c).after 2 t) = _
  rw [after0_2]
  funext j
  revert j
  show ∀ j : S1x1x16.Idx, (outsAt0 V c t.val t.isLt).2.1 j = G2 X (((cfg0.win 2).blk t).view.emb j)
  intro j
  have hj : j = ix3 (0 : Fin 1) (0 : Fin 1) (j 2) := by
    funext a
    match a with
    | ⟨0, _⟩ => exact Subsingleton.elim (α := Fin 1) _ _
    | ⟨1, _⟩ => exact Subsingleton.elim (α := Fin 1) _ _
    | ⟨2, _⟩ => rfl
  have a0 : ((cfg0.win 2).blk t).view.emb j 0 = bN t.val :=
    Fin.ext (by show win0_2.index t 0 * 1 + 1 * (j 0).val = (t.val / 4) % 8
                have : (j 0).val < 1 := (j 0).isLt
                rw [e0]; omega)
  have a2 : ((cfg0.win 2).blk t).view.emb j 2 = j 2 :=
    Fin.ext (by show win0_2.index t 2 * 16 + 1 * (j 2).val = (j 2).val
                rw [e2]; omega)
  show _ = ((∑ p : Pix, frame X (((cfg0.win 2).blk t).view.emb j 0) (((cfg0.win 2).blk t).view.emb j 2) p : ℝ) : EReal)
  rw [a0, a2]
  exact (congrArg (outsAt0 V c t.val t.isLt).2.1 hj).trans (key (j 2))

/-- Every entry of the array is in the block of the point that writes its batch entry back. -/
theorem cover2 (i : S8x1x16.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 16 := (i 2).isLt
  have hN : cfg0.N = 32 := N_0
  have ht : 4 * (i 0).val + 3 < cfg0.N := by omega
  obtain ⟨e0, e1, e2⟩ := idx2 ⟨4 * (i 0).val + 3, ht⟩
  have e0' : win0_2.index ⟨4 * (i 0).val + 3, ht⟩ 0 = (4 * (i 0).val + 3) / 4 := e0
  refine ⟨⟨4 * (i 0).val + 3, ht⟩, (flush0_2 _).mpr (by show (4 * (i 0).val + 3) % 4 = 3; omega), ?_⟩
  show i ∈ ((View.whole main_v0_1).slice (win0_2.rect ⟨4 * (i 0).val + 3, ht⟩)).set
  rw [View.set_slice_whole, Rect.mem_set_unit]
  intro a
  match a with
  | ⟨0, _⟩ =>
    show win0_2.index ⟨4 * (i 0).val + 3, ht⟩ 0 * 1 ≤ (i 0).val ∧ (i 0).val < win0_2.index ⟨4 * (i 0).val + 3, ht⟩ 0 * 1 + 1
    rw [e0']; omega
  | ⟨1, _⟩ =>
    show win0_2.index ⟨4 * (i 0).val + 3, ht⟩ 1 * 1 ≤ (i 1).val ∧ (i 1).val < win0_2.index ⟨4 * (i 0).val + 3, ht⟩ 1 * 1 + 1
    rw [e1]; omega
  | ⟨2, _⟩ =>
    show win0_2.index ⟨4 * (i 0).val + 3, ht⟩ 2 * 16 ≤ (i 2).val ∧ (i 2).val < win0_2.index ⟨4 * (i 0).val + 3, ht⟩ 2 * 16 + 16
    rw [e2]; omega

include hx in
/-- So the region leaves that array. -/
theorem final2 : (dat0 V c).arrAt 2 cfg0.N = G2 X :=
  (dat0 V c).arrAt_eq_of_cover 2 (G2 X) (flushed2 V c X hx) cover2

include hx in
/-- The array of sums, read at an entry. -/
theorem r0_sx (b : Fin 8) (t : Fin 16) :
    (Gen.dat0 (F := Ideal) V c).arrAt 2 cfg0.N (ix3 b (0 : Fin 1) t) = ((∑ p : Pix, frame X b t p : ℝ) : EReal) :=
  congrFun (final2 V c X hx) (ix3 b (0 : Fin 1) t)

/-! ## Output 3: The array of sums of squares -/

/-- The array the region leaves: entry (b, 0, t) is the frame's value. -/
abbrev G3 : Vec Ideal S8x1x16 .f32 := fun i => ((∑ p : Pix, frame X (i 0) (i 2) p * frame X (i 0) (i 2) p : ℝ) : EReal)

/-- The window's block at point n is the one row of batch entry n / 4 (decided over the grid). -/
theorem idx3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

include hx in
/-- What a point that writes back (the last chunk of its batch entry) writes: its row of that array. -/
theorem flushed3 (t : Fin cfg0.N) (hf : (cfg0.win 3).flush t = true) :
    (dat0 V c).flushed 3 t = ((cfg0.win 3).blk t).view.read (Elt Ideal) (G3 X) := by
  have hN : t.val < 32 := lt_of_lt_of_eq t.isLt (show cfg0.N = 32 from N_0)
  have h3 : t.val % 4 = 3 := (flush0_3 t).mp hf
  obtain ⟨e0, e1, e2⟩ := idx3 t
  have key : ∀ tt : Fin 16, (outsAt0 V c t.val t.isLt).2.2.1 (ix3 (0 : Fin 1) (0 : Fin 1) tt)
      = ((∑ p : Pix, frame X (bN t.val) tt p * frame X (bN t.val) tt p : ℝ) : EReal) :=
    fun tt => (inv3 V c X hx t.val t.isLt tt).trans (by rw [h3, aSS_total])
  show (cfg0.win 3).cut (grid0.coords t) ((dat0 V c).after 3 t) = _
  rw [after0_3]
  funext j
  revert j
  show ∀ j : S1x1x16.Idx, (outsAt0 V c t.val t.isLt).2.2.1 j = G3 X (((cfg0.win 3).blk t).view.emb j)
  intro j
  have hj : j = ix3 (0 : Fin 1) (0 : Fin 1) (j 2) := by
    funext a
    match a with
    | ⟨0, _⟩ => exact Subsingleton.elim (α := Fin 1) _ _
    | ⟨1, _⟩ => exact Subsingleton.elim (α := Fin 1) _ _
    | ⟨2, _⟩ => rfl
  have a0 : ((cfg0.win 3).blk t).view.emb j 0 = bN t.val :=
    Fin.ext (by show win0_3.index t 0 * 1 + 1 * (j 0).val = (t.val / 4) % 8
                have : (j 0).val < 1 := (j 0).isLt
                rw [e0]; omega)
  have a2 : ((cfg0.win 3).blk t).view.emb j 2 = j 2 :=
    Fin.ext (by show win0_3.index t 2 * 16 + 1 * (j 2).val = (j 2).val
                rw [e2]; omega)
  show _ = ((∑ p : Pix, frame X (((cfg0.win 3).blk t).view.emb j 0) (((cfg0.win 3).blk t).view.emb j 2) p * frame X (((cfg0.win 3).blk t).view.emb j 0) (((cfg0.win 3).blk t).view.emb j 2) p : ℝ) : EReal)
  rw [a0, a2]
  exact (congrArg (outsAt0 V c t.val t.isLt).2.2.1 hj).trans (key (j 2))

/-- Every entry of the array is in the block of the point that writes its batch entry back. -/
theorem cover3 (i : S8x1x16.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 16 := (i 2).isLt
  have hN : cfg0.N = 32 := N_0
  have ht : 4 * (i 0).val + 3 < cfg0.N := by omega
  obtain ⟨e0, e1, e2⟩ := idx3 ⟨4 * (i 0).val + 3, ht⟩
  have e0' : win0_3.index ⟨4 * (i 0).val + 3, ht⟩ 0 = (4 * (i 0).val + 3) / 4 := e0
  refine ⟨⟨4 * (i 0).val + 3, ht⟩, (flush0_3 _).mpr (by show (4 * (i 0).val + 3) % 4 = 3; omega), ?_⟩
  show i ∈ ((View.whole main_v0_2).slice (win0_3.rect ⟨4 * (i 0).val + 3, ht⟩)).set
  rw [View.set_slice_whole, Rect.mem_set_unit]
  intro a
  match a with
  | ⟨0, _⟩ =>
    show win0_3.index ⟨4 * (i 0).val + 3, ht⟩ 0 * 1 ≤ (i 0).val ∧ (i 0).val < win0_3.index ⟨4 * (i 0).val + 3, ht⟩ 0 * 1 + 1
    rw [e0']; omega
  | ⟨1, _⟩ =>
    show win0_3.index ⟨4 * (i 0).val + 3, ht⟩ 1 * 1 ≤ (i 1).val ∧ (i 1).val < win0_3.index ⟨4 * (i 0).val + 3, ht⟩ 1 * 1 + 1
    rw [e1]; omega
  | ⟨2, _⟩ =>
    show win0_3.index ⟨4 * (i 0).val + 3, ht⟩ 2 * 16 ≤ (i 2).val ∧ (i 2).val < win0_3.index ⟨4 * (i 0).val + 3, ht⟩ 2 * 16 + 16
    rw [e2]; omega

include hx in
/-- So the region leaves that array. -/
theorem final3 : (dat0 V c).arrAt 3 cfg0.N = G3 X :=
  (dat0 V c).arrAt_eq_of_cover 3 (G3 X) (flushed3 V c X hx) cover3

include hx in
/-- The array of sums of squares, read at an entry. -/
theorem r0_sxx (b : Fin 8) (t : Fin 16) :
    (Gen.dat0 (F := Ideal) V c).arrAt 3 cfg0.N (ix3 b (0 : Fin 1) t) = ((∑ p : Pix, frame X b t p * frame X b t p : ℝ) : EReal) :=
  congrFun (final3 V c X hx) (ix3 b (0 : Fin 1) t)

/-! ## Output 4: The array of cross sums -/

/-- The array the region leaves: entry (b, 0, t) is the frame's value. -/
abbrev G4 : Vec Ideal S8x1x16 .f32 := fun i => ((∑ p : Pix, frame X (i 0) (i 2) p * gmap X (i 0) p : ℝ) : EReal)

/-- The window's block at point n is the one row of batch entry n / 4 (decided over the grid). -/
theorem idx4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)

include hx in
/-- What a point that writes back (the last chunk of its batch entry) writes: its row of that array. -/
theorem flushed4 (t : Fin cfg0.N) (hf : (cfg0.win 4).flush t = true) :
    (dat0 V c).flushed 4 t = ((cfg0.win 4).blk t).view.read (Elt Ideal) (G4 X) := by
  have hN : t.val < 32 := lt_of_lt_of_eq t.isLt (show cfg0.N = 32 from N_0)
  have h3 : t.val % 4 = 3 := (flush0_4 t).mp hf
  obtain ⟨e0, e1, e2⟩ := idx4 t
  have key : ∀ tt : Fin 16, (outsAt0 V c t.val t.isLt).2.2.2.1 (ix3 (0 : Fin 1) (0 : Fin 1) tt)
      = ((∑ p : Pix, frame X (bN t.val) tt p * gmap X (bN t.val) p : ℝ) : EReal) :=
    fun tt => (inv4 V c X hx t.val t.isLt tt).trans (by rw [h3, aCr_total])
  show (cfg0.win 4).cut (grid0.coords t) ((dat0 V c).after 4 t) = _
  rw [after0_4]
  funext j
  revert j
  show ∀ j : S1x1x16.Idx, (outsAt0 V c t.val t.isLt).2.2.2.1 j = G4 X (((cfg0.win 4).blk t).view.emb j)
  intro j
  have hj : j = ix3 (0 : Fin 1) (0 : Fin 1) (j 2) := by
    funext a
    match a with
    | ⟨0, _⟩ => exact Subsingleton.elim (α := Fin 1) _ _
    | ⟨1, _⟩ => exact Subsingleton.elim (α := Fin 1) _ _
    | ⟨2, _⟩ => rfl
  have a0 : ((cfg0.win 4).blk t).view.emb j 0 = bN t.val :=
    Fin.ext (by show win0_4.index t 0 * 1 + 1 * (j 0).val = (t.val / 4) % 8
                have : (j 0).val < 1 := (j 0).isLt
                rw [e0]; omega)
  have a2 : ((cfg0.win 4).blk t).view.emb j 2 = j 2 :=
    Fin.ext (by show win0_4.index t 2 * 16 + 1 * (j 2).val = (j 2).val
                rw [e2]; omega)
  show _ = ((∑ p : Pix, frame X (((cfg0.win 4).blk t).view.emb j 0) (((cfg0.win 4).blk t).view.emb j 2) p * gmap X (((cfg0.win 4).blk t).view.emb j 0) p : ℝ) : EReal)
  rw [a0, a2]
  exact (congrArg (outsAt0 V c t.val t.isLt).2.2.2.1 hj).trans (key (j 2))

/-- Every entry of the array is in the block of the point that writes its batch entry back. -/
theorem cover4 (i : S8x1x16.Idx) :
    ∃ t : Fin cfg0.N, (cfg0.win 4).flush t = true ∧ i ∈ ((cfg0.win 4).blk t).view.set := by
  have h0 : (i 0).val < 8 := (i 0).isLt
  have h1 : (i 1).val < 1 := (i 1).isLt
  have h2 : (i 2).val < 16 := (i 2).isLt
  have hN : cfg0.N = 32 := N_0
  have ht : 4 * (i 0).val + 3 < cfg0.N := by omega
  obtain ⟨e0, e1, e2⟩ := idx4 ⟨4 * (i 0).val + 3, ht⟩
  have e0' : win0_4.index ⟨4 * (i 0).val + 3, ht⟩ 0 = (4 * (i 0).val + 3) / 4 := e0
  refine ⟨⟨4 * (i 0).val + 3, ht⟩, (flush0_4 _).mpr (by show (4 * (i 0).val + 3) % 4 = 3; omega), ?_⟩
  show i ∈ ((View.whole main_v0_3).slice (win0_4.rect ⟨4 * (i 0).val + 3, ht⟩)).set
  rw [View.set_slice_whole, Rect.mem_set_unit]
  intro a
  match a with
  | ⟨0, _⟩ =>
    show win0_4.index ⟨4 * (i 0).val + 3, ht⟩ 0 * 1 ≤ (i 0).val ∧ (i 0).val < win0_4.index ⟨4 * (i 0).val + 3, ht⟩ 0 * 1 + 1
    rw [e0']; omega
  | ⟨1, _⟩ =>
    show win0_4.index ⟨4 * (i 0).val + 3, ht⟩ 1 * 1 ≤ (i 1).val ∧ (i 1).val < win0_4.index ⟨4 * (i 0).val + 3, ht⟩ 1 * 1 + 1
    rw [e1]; omega
  | ⟨2, _⟩ =>
    show win0_4.index ⟨4 * (i 0).val + 3, ht⟩ 2 * 16 ≤ (i 2).val ∧ (i 2).val < win0_4.index ⟨4 * (i 0).val + 3, ht⟩ 2 * 16 + 16
    rw [e2]; omega

include hx in
/-- So the region leaves that array. -/
theorem final4 : (dat0 V c).arrAt 4 cfg0.N = G4 X :=
  (dat0 V c).arrAt_eq_of_cover 4 (G4 X) (flushed4 V c X hx) cover4

include hx in
/-- The array of cross sums, read at an entry. -/
theorem r0_cr (b : Fin 8) (t : Fin 16) :
    (Gen.dat0 (F := Ideal) V c).arrAt 4 cfg0.N (ix3 b (0 : Fin 1) t) = ((∑ p : Pix, frame X b t p * gmap X b p : ℝ) : EReal) :=
  congrFun (final4 V c X hx) (ix3 b (0 : Fin 1) t)

end Cert.KernelIdeal.KVal

end
-- ==== Proof.K0MinMaxA.lean ====
/-
  The first region's two extreme-value accumulators, point by point.

  The region visits each batch entry b at four consecutive points, one chunk of eight channels each. The block of
  minima (one value per time step) is set to +∞ at the first of the four points and at every point replaced by the
  least of what it held and the input block's least value; the block of maxima likewise from -∞ with the greatest.
  When the input holds the real numbers X, the input block at point n is chunk n mod 4 of batch entry n / 4, so after
  point n the two blocks hold, at time step t, the least and the greatest of X over the chunks 0 … n mod 4 of that
  batch entry: by induction on the point, a reset at the multiples of 4 and one more chunk elsewhere. After the fourth
  chunk these are the least and the greatest value of the whole frame (b, t).
-/
import proofs.«171658_j72688026517959_1_alg».proof.Proof.Gen.KernelIdeal.Frame
import proofs.«171658_j72688026517959_1_alg».proof.Proof.K0Pieces
import proofs.«171658_j72688026517959_1_alg».proof.Proof.K0Pay
import proofs.«171658_j72688026517959_1_alg».proof.Proof.K0Sum
import Idealize.ShloMosaic.Lib.Pipeline.Value
import Idealize.ShloMosaic.Lib.Tactic

set_option maxRecDepth 16384

noncomputable section

namespace Cert.KernelIdeal.KVal.MM

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.KVal Cert.Weighting Cert.Weighting.Chunk Finset

section
variable {F : FTy → Type} [FloatOps F]
variable (V : (c : Dev nD) → (b : Ref sig .tc) → Buf (Elt F) ((c : Thread nD τ).loc b))

/-- The input window's block index at point t: batch entry t / 4, chunk t mod 4, and 0 on the other axes — decided over the grid. -/
theorem mm_index0 : ∀ t : Fin cfg0.N, win0_0.index t 0 = t.val / 4 ∧ win0_0.index t 1 = t.val % 4 ∧ win0_0.index t 2 = 0
    ∧ win0_0.index t 3 = 0 ∧ win0_0.index t 4 = 0 :=
  (by decide +kernel : ∀ t : Fin grid0.N, win0_0.index t 0 = t.val / 4 ∧ win0_0.index t 1 = t.val % 4 ∧ win0_0.index t 2 = 0
    ∧ win0_0.index t 3 = 0 ∧ win0_0.index t 4 = 0)

/-- The input block at point t, read at (0, c8, tt, h, w), is the input array at (t / 4, 8 (t mod 4) + c8, tt, h, w):
    on each axis a block's coordinate is the block index times the block's size plus the coordinate inside the block. -/
theorem mm_iblk_apply (c : Dev nD) (t : Fin cfg0.N) (c8 : Fin 8) (tt : Fin 16) (h w : Fin 112) :
    (iblk0 V c 0 t : Vec F S1x8x16x112x112 .f32) (ix5 (0 : Fin 1) c8 tt h w)
      = (V c (Pipeline.arrRef spec0 0) : S8x32x16x112x112.Idx → Elt F .f32) (ix5 (bN t.val) (chN (t.val % 4) c8) tt h w) := by
  unfold iblk0
  rw [View.read_apply]
  show V c (Pipeline.arrRef spec0 0) _ = V c (Pipeline.arrRef spec0 0) _
  refine congrArg _ (funext fun a => Fin.ext ?_)
  obtain ⟨h0, h1, h2, h3, h4⟩ := mm_index0 t
  have hN : t.val < 32 := lt_of_lt_of_eq t.isLt (show cfg0.N = 32 from N_0)
  have hc8 := c8.isLt
  match a with
  | ⟨0, _⟩ => show win0_0.index t 0 * 1 + 1 * 0 = (t.val / 4) % 8; rw [h0]; omega
  | ⟨1, _⟩ => show win0_0.index t 1 * 8 + 1 * c8.val = (8 * (t.val % 4) + c8.val) % 32; rw [h1]; omega
  | ⟨2, _⟩ => show win0_0.index t 2 * 16 + 1 * tt.val = tt.val; rw [h2]; omega
  | ⟨3, _⟩ => show win0_0.index t 3 * 112 + 1 * h.val = h.val; rw [h3]; omega
  | ⟨4, _⟩ => show win0_0.index t 4 * 112 + 1 * w.val = w.val; rw [h4]; omega
end

/-! ## One point of the accumulation, at the extended reals -/

section Steps
variable (V : (c : Dev nD) → (b : Ref sig .tc) → Buf (Elt Ideal) ((c : Thread nD τ).loc b)) (c : Dev nD)

/-- At a point where the accumulators are reset, the block of minima is min(+∞, the input block's least value). -/
theorem mm_mn_A (t : Fin cfg0.N) (h0 : t.val % 4 = 0) (tt : Fin 16) :
    ((outsAt0 V c t.val t.isLt).2.2.2.2.1 : Vec Ideal S1x1x16 .f32) (ix3 (0 : Fin 1) (0 : Fin 1) tt)
      = min (⊤ : EReal) (k0_pay13 (F := Ideal) (iblk0 V c 0 t) (ix1 tt)) := by
  rw [outsAt0_A V c t h0]
  dsimp only
  rw [outA_5, KPay.pay19_apply, KPay.pay5_apply]

/-- At every other point it is min(what the point before left, the input block's least value). -/
theorem mm_mn_B (t : Fin cfg0.N) (h0 : ¬t.val % 4 = 0) (tt : Fin 16) :
    ((outsAt0 V c t.val t.isLt).2.2.2.2.1 : Vec Ideal S1x1x16 .f32) (ix3 (0 : Fin 1) (0 : Fin 1) tt)
      = min (((outsAt0 V c (t.val - 1) (Nat.lt_of_le_of_lt (Nat.sub_le _ _) t.isLt)).2.2.2.2.1 : Vec Ideal S1x1x16 .f32)
          (ix3 (0 : Fin 1) (0 : Fin 1) tt)) (k0_pay13 (F := Ideal) (iblk0 V c 0 t) (ix1 tt)) := by
  rw [outsAt0_B V c t h0]
  dsimp only
  rw [outB_5, KPay.pay19_apply]

/-- At a point where the accumulators are reset, the block of maxima is max(-∞, the input block's greatest value). -/
theorem mm_mx_A (t : Fin cfg0.N) (h0 : t.val % 4 = 0) (tt : Fin 16) :
    ((outsAt0 V c t.val t.isLt).2.2.2.2.2 : Vec Ideal S1x1x16 .f32) (ix3 (0 : Fin 1) (0 : Fin 1) tt)
      = max (⊥ : EReal) (k0_pay15 (F := Ideal) (k0_pay14 (F := Ideal) (iblk0 V c 0 t)) (ix1 tt)) := by
  rw [outsAt0_A V c t h0]
  dsimp only
  rw [outA_6, KPay.pay1_apply, KPay.pay6_apply]

/-- At every other point it is max(what the point before left, the input block's greatest value). -/
theorem mm_mx_B (t : Fin cfg0.N) (h0 : ¬t.val % 4 = 0) (tt : Fin 16) :
    ((outsAt0 V c t.val t.isLt).2.2.2.2.2 : Vec Ideal S1x1x16 .f32) (ix3 (0 : Fin 1) (0 : Fin 1) tt)
      = max (((outsAt0 V c (t.val - 1) (Nat.lt_of_le_of_lt (Nat.sub_le _ _) t.isLt)).2.2.2.2.2 : Vec Ideal S1x1x16 .f32)
          (ix3 (0 : Fin 1) (0 : Fin 1) tt)) (k0_pay15 (F := Ideal) (k0_pay14 (F := Ideal) (iblk0 V c 0 t)) (ix1 tt)) := by
  rw [outsAt0_B V c t h0]
  dsimp only
  rw [outB_6, KPay.pay1_apply]

end Steps

/-! ## The running values over a real input -/

section Real
variable (V : (c : Dev nD) → (b : Ref sig .tc) → Buf (Elt Ideal) ((c : Thread nD τ).loc b)) (c : Dev nD) (X : Arr)
  (hx : ∀ b c' t h w, (V c (Pipeline.arrRef spec0 0) : S8x32x16x112x112.Idx → EReal) (ix5 b c' t h w) = ((X b c' t h w : ℝ) : EReal))
include hx

/-- The input block at point t holds chunk t mod 4 of batch entry t / 4. -/
theorem mm_blk_real (t : Fin cfg0.N) (c8 : Fin 8) (tt : Fin 16) (h w : Fin 112) :
    (iblk0 V c 0 t : Vec Ideal S1x8x16x112x112 .f32) (ix5 (0 : Fin 1) c8 tt h w)
      = ((Blk X (bN t.val) (t.val % 4) c8 tt h w : ℝ) : EReal) :=
  (mm_iblk_apply V c t c8 tt h w).trans (hx _ _ _ _ _)

/-- So its least value at a time step is that chunk's least value, -/
theorem mm_pay13 (t : Fin cfg0.N) (tt : Fin 16) :
    k0_pay13 (F := Ideal) (iblk0 V c 0 t) (ix1 tt) = ((cMn X (bN t.val) tt (t.val % 4) : ℝ) : EReal) :=
  KPay.pay13_val (iblk0 V c 0 t) (Blk X (bN t.val) (t.val % 4)) (mm_blk_real V c X hx t) tt

/-- and its greatest value the chunk's greatest. -/
theorem mm_pay15 (t : Fin cfg0.N) (tt : Fin 16) :
    k0_pay15 (F := Ideal) (k0_pay14 (F := Ideal) (iblk0 V c 0 t)) (ix1 tt) = ((cMx X (bN t.val) tt (t.val % 4) : ℝ) : EReal) :=
  KPay.pay15_val (iblk0 V c 0 t) (Blk X (bN t.val) (t.val % 4)) (mm_blk_real V c X hx t) tt

/-- After point n the block of minima holds, at time step tt, the least of the least values of the chunks 0 … n mod 4
    of batch entry n / 4: by induction on the point, a reset at the multiples of 4 and one more chunk elsewhere. -/
theorem mm_outs_mn : ∀ (n : ℕ) (hn : n < cfg0.N) (tt : Fin 16),
    ((outsAt0 V c n hn).2.2.2.2.1 : Vec Ideal S1x1x16 .f32) (ix3 (0 : Fin 1) (0 : Fin 1) tt)
      = ((aMn X (bN n) tt (n % 4) : ℝ) : EReal)
  | 0, hn, tt => by
    refine (mm_mn_A V c ⟨0, hn⟩ rfl tt).trans ?_
    rw [mm_pay13 V c X hx ⟨0, hn⟩ tt, min_eq_right le_top]
    show ((cMn X (bN 0) tt 0 : ℝ) : EReal) = ((aMn X (bN 0) tt 0 : ℝ) : EReal)
    rw [aMn_zero]
  | n + 1, hn, tt => by
    by_cases h0 : (n + 1) % 4 = 0
    · refine (mm_mn_A V c ⟨n + 1, hn⟩ h0 tt).trans ?_
      rw [mm_pay13 V c X hx ⟨n + 1, hn⟩ tt, min_eq_right le_top]
      show ((cMn X (bN (n + 1)) tt ((n + 1) % 4) : ℝ) : EReal) = _
      rw [h0, aMn_zero]
    · refine (mm_mn_B V c ⟨n + 1, hn⟩ h0 tt).trans ?_
      rw [mm_pay13 V c X hx ⟨n + 1, hn⟩ tt]
      show min (((outsAt0 V c n (Nat.lt_of_succ_lt hn)).2.2.2.2.1 : Vec Ideal S1x1x16 .f32) (ix3 (0 : Fin 1) (0 : Fin 1) tt))
        ((cMn X (bN (n + 1)) tt ((n + 1) % 4) : ℝ) : EReal) = _
      rw [mm_outs_mn n (Nat.lt_of_succ_lt hn) tt]
      have hb : bN (n + 1) = bN n := Fin.ext (by show ((n + 1) / 4) % 8 = (n / 4) % 8; omega)
      have hm : (n + 1) % 4 = n % 4 + 1 := by omega
      rw [hb, hm, aMn_succ]
      exact (EReal.coe_strictMono.monotone.map_min).symm

/-- After point n the block of maxima holds the greatest of the greatest values of the chunks 0 … n mod 4. -/
theorem mm_outs_mx : ∀ (n : ℕ) (hn : n < cfg0.N) (tt : Fin 16),
    ((outsAt0 V c n hn).2.2.2.2.2 : Vec Ideal S1x1x16 .f32) (ix3 (0 : Fin 1) (0 : Fin 1) tt)
      = ((aMx X (bN n) tt (n % 4) : ℝ) : EReal)
  | 0, hn, tt => by
    refine (mm_mx_A V c ⟨0, hn⟩ rfl tt).trans ?_
    rw [mm_pay15 V c X hx ⟨0, hn⟩ tt, max_eq_right bot_le]
    show ((cMx X (bN 0) tt 0 : ℝ) : EReal) = ((aMx X (bN 0) tt 0 : ℝ) : EReal)
    rw [aMx_zero]
  | n + 1, hn, tt => by
    by_cases h0 : (n + 1) % 4 = 0
    · refine (mm_mx_A V c ⟨n + 1, hn⟩ h0 tt).trans ?_
      rw [mm_pay15 V c X hx ⟨n + 1, hn⟩ tt, max_eq_right bot_le]
      show ((cMx X (bN (n + 1)) tt ((n + 1) % 4) : ℝ) : EReal) = _
      rw [h0, aMx_zero]
    · refine (mm_mx_B V c ⟨n + 1, hn⟩ h0 tt).trans ?_
      rw [mm_pay15 V c X hx ⟨n + 1, hn⟩ tt]
      show max (((outsAt0 V c n (Nat.lt_of_succ_lt hn)).2.2.2.2.2 : Vec Ideal S1x1x16 .f32) (ix3 (0 : Fin 1) (0 : Fin 1) tt))
        ((cMx X (bN (n + 1)) tt ((n + 1) % 4) : ℝ) : EReal) = _
      rw [mm_outs_mx n (Nat.lt_of_succ_lt hn) tt]
      have hb : bN (n + 1) = bN n := Fin.ext (by show ((n + 1) / 4) % 8 = (n / 4) % 8; omega)
      have hm : (n + 1) % 4 = n % 4 + 1 := by omega
      rw [hb, hm, aMx_succ]
      exact (EReal.coe_strictMono.monotone.map_max).symm

/-- After the fourth chunk of batch entry b (point 4 b + 3) the block of minima holds the least value of each frame (b, t), -/
theorem mm_last_mn (b : Fin 8) (hn : 4 * b.val + 3 < cfg0.N) (tt : Fin 16) :
    ((outsAt0 V c (4 * b.val + 3) hn).2.2.2.2.1 : Vec Ideal S1x1x16 .f32) (ix3 (0 : Fin 1) (0 : Fin 1) tt)
      = ((lo (frame X b tt) : ℝ) : EReal) := by
  rw [mm_outs_mn V c X hx (4 * b.val + 3) hn tt]
  have hb : bN (4 * b.val + 3) = b := Fin.ext (by have := b.isLt; show ((4 * b.val + 3) / 4) % 8 = b.val; omega)
  have hm : (4 * b.val + 3) % 4 = 3 := by omega
  rw [hb, hm, aMn_total]

/-- and the block of maxima the greatest. -/
theorem mm_last_mx (b : Fin 8) (hn : 4 * b.val + 3 < cfg0.N) (tt : Fin 16) :
    ((outsAt0 V c (4 * b.val + 3) hn).2.2.2.2.2 : Vec Ideal S1x1x16 .f32) (ix3 (0 : Fin 1) (0 : Fin 1) tt)
      = ((hi (frame X b tt) : ℝ) : EReal) := by
  rw [mm_outs_mx V c X hx (4 * b.val + 3) hn tt]
  have hb : bN (4 * b.val + 3) = b := Fin.ext (by have := b.isLt; show ((4 * b.val + 3) / 4) % 8 = b.val; omega)
  have hm : (4 * b.val + 3) % 4 = 3 := by omega
  rw [hb, hm, aMx_total]

end Real

end Cert.KernelIdeal.KVal.MM

end
-- ==== Proof.K0MinMax.lean ====
/-
  The first region's two extreme-value outputs, as arrays.

  Each of the two output arrays [8, 1, 16] is written back one block (b, 0, ·) at a time, at the last of the four
  points of batch entry b, when the block holds the least (greatest) value over all four chunks: the least
  (greatest) value of the frame (b, t). Every index of the array lies in exactly the block its batch entry's last point
  writes back, so the arrays end holding lo (frame X b t) and hi (frame X b t) at (b, 0, t).
-/
import proofs.«171658_j72688026517959_1_alg».proof.Proof.K0MinMaxA

set_option maxRecDepth 16384

noncomputable section

namespace Cert.KernelIdeal.KVal.MM

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.KVal Cert.Weighting Cert.Weighting.Chunk Finset

/-- The two accumulator windows' block index at point t: batch entry t / 4, and 0 on the other axes — decided over the grid. -/
theorem mm_index5 : ∀ t : Fin cfg0.N, win0_5.index t 0 = t.val / 4 ∧ win0_5.index t 1 = 0 ∧ win0_5.index t 2 = 0 :=
  (by decide +kernel : ∀ t : Fin grid0.N, win0_5.index t 0 = t.val / 4 ∧ win0_5.index t 1 = 0 ∧ win0_5.index t 2 = 0)
theorem mm_index6 : ∀ t : Fin cfg0.N, win0_6.index t 0 = t.val / 4 ∧ win0_6.index t 1 = 0 ∧ win0_6.index t 2 = 0 :=
  (by decide +kernel : ∀ t : Fin grid0.N, win0_6.index t 0 = t.val / 4 ∧ win0_6.index t 1 = 0 ∧ win0_6.index t 2 = 0)

/-- The array of the frames' least values, -/
def loArr (X : Arr) : S8x1x16.Idx → EReal := fun i => ((lo (frame X (i 0) (i 2)) : ℝ) : EReal)
/-- and of their greatest. -/
def hiArr (X : Arr) : S8x1x16.Idx → EReal := fun i => ((hi (frame X (i 0) (i 2)) : ℝ) : EReal)

/-- An index of the array is in the block of point t iff each coordinate is in the block's range. -/
theorem mm_mem_blk5 (t : Fin cfg0.N) (i : S8x1x16.Idx) :
    i ∈ ((cfg0.win 5).blk t).view.set
      ↔ ∀ a : Fin 3, win0_5.index t a * S1x1x16.size a ≤ (i a).val ∧ (i a).val < win0_5.index t a * S1x1x16.size a + S1x1x16.size a := by
  show i ∈ ((View.whole main_v0_4).slice (win0_5.rect t)).set ↔ _
  rw [View.set_slice_whole, Rect.mem_set_unit]
  exact Iff.rfl

/-- Every index (b, 0, t) of the array is in the block the last point of b writes back. -/
theorem mm_cover5 (i : S8x1x16.Idx) : ∃ t : Fin cfg0.N, (cfg0.win 5).flush t = true ∧ i ∈ ((cfg0.win 5).blk t).view.set := by
  have hi0 : (i 0).val < 8 := (i 0).isLt
  have hi1 : (i 1).val < 1 := (i 1).isLt
  have hi2 : (i 2).val < 16 := (i 2).isLt
  have key : ∀ t : Fin cfg0.N, t.val = 4 * (i 0).val + 3 → i ∈ ((cfg0.win 5).blk t).view.set := by
    intro t ht
    obtain ⟨e0, e1, e2⟩ := mm_index5 t
    rw [mm_mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 1 ≤ (i 1).val ∧ (i 1).val < win0_5.index t (1 : Fin 3) * 1 + 1; omega
    | ⟨2, _⟩ => show win0_5.index t (2 : Fin 3) * 16 ≤ (i 2).val ∧ (i 2).val < win0_5.index t (2 : Fin 3) * 16 + 16; omega
  exact ⟨⟨4 * (i 0).val + 3, by rw [show cfg0.N = 32 from N_0]; omega⟩,
    (flush0_5 _).mpr (by show (4 * (i 0).val + 3) % 4 = 3; omega), key _ rfl⟩

/-- An index of the array is in the block of point t iff each coordinate is in the block's range. -/
theorem mm_mem_blk6 (t : Fin cfg0.N) (i : S8x1x16.Idx) :
    i ∈ ((cfg0.win 6).blk t).view.set
      ↔ ∀ a : Fin 3, win0_6.index t a * S1x1x16.size a ≤ (i a).val ∧ (i a).val < win0_6.index t a * S1x1x16.size a + S1x1x16.size a := by
  show i ∈ ((View.whole main_v0_5).slice (win0_6.rect t)).set ↔ _
  rw [View.set_slice_whole, Rect.mem_set_unit]
  exact Iff.rfl

/-- Every index (b, 0, t) of the array is in the block the last point of b writes back. -/
theorem mm_cover6 (i : S8x1x16.Idx) : ∃ t : Fin cfg0.N, (cfg0.win 6).flush t = true ∧ i ∈ ((cfg0.win 6).blk t).view.set := by
  have hi0 : (i 0).val < 8 := (i 0).isLt
  have hi1 : (i 1).val < 1 := (i 1).isLt
  have hi2 : (i 2).val < 16 := (i 2).isLt
  have key : ∀ t : Fin cfg0.N, t.val = 4 * (i 0).val + 3 → i ∈ ((cfg0.win 6).blk t).view.set := by
    intro t ht
    obtain ⟨e0, e1, e2⟩ := mm_index6 t
    rw [mm_mem_blk6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 1 ≤ (i 1).val ∧ (i 1).val < win0_6.index t (1 : Fin 3) * 1 + 1; omega
    | ⟨2, _⟩ => show win0_6.index t (2 : Fin 3) * 16 ≤ (i 2).val ∧ (i 2).val < win0_6.index t (2 : Fin 3) * 16 + 16; omega
  exact ⟨⟨4 * (i 0).val + 3, by rw [show cfg0.N = 32 from N_0]; omega⟩,
    (flush0_6 _).mpr (by show (4 * (i 0).val + 3) % 4 = 3; omega), key _ rfl⟩

section Real
variable (V : (c : Dev nD) → (b : Ref sig .tc) → Buf (Elt Ideal) ((c : Thread nD τ).loc b)) (c : Dev nD) (X : Arr)
  (hx : ∀ b c' t h w, (V c (Pipeline.arrRef spec0 0) : S8x32x16x112x112.Idx → EReal) (ix5 b c' t h w) = ((X b c' t h w : ℝ) : EReal))
include hx

/-- The last point of each batch entry writes back that entry's row. -/
theorem mm_flushed5 (t : Fin cfg0.N) (hf : (cfg0.win 5).flush t = true) :
    (dat0 V c).flushed 5 t = ((cfg0.win 5).blk t).view.read (Elt Ideal) (loArr X) := by
  have h3 : t.val % 4 = 3 := (flush0_5 t).mp hf
  have hN : t.val < 32 := lt_of_lt_of_eq t.isLt N_0
  obtain ⟨e0, e1, e2⟩ := mm_index5 t
  show (cfg0.win 5).cut (grid0.coords t) ((dat0 V c).after 5 t) = _
  rw [after0_5]
  funext y
  obtain ⟨u0, u1, tt, rfl⟩ : ∃ (u0 : Fin 1) (u1 : Fin 1) (tt : Fin 16), y = ix3 u0 u1 tt :=
    ⟨y 0, y 1, y 2, eq_ix3 (n0 := 1) (n1 := 1) (n2 := 16) y⟩
  obtain rfl : u0 = 0 := Subsingleton.elim _ _
  obtain rfl : u1 = 0 := Subsingleton.elim _ _
  have hR : ((cfg0.win 5).blk t).view.emb (ix3 (0 : Fin 1) (0 : Fin 1) tt)
      = (ix3 (⟨t.val / 4, by omega⟩ : Fin 8) (0 : Fin 1) tt : S8x1x16.Idx) := by
    funext a; apply Fin.ext
    match a with
    | ⟨0, _⟩ => show win0_5.index t (0 : Fin 3) * 1 + 1 * 0 = t.val / 4; omega
    | ⟨1, _⟩ => show win0_5.index t (1 : Fin 3) * 1 + 1 * 0 = 0; omega
    | ⟨2, _⟩ => show win0_5.index t (2 : Fin 3) * 16 + 1 * tt.val = tt.val; omega
  show ((outsAt0 V c t.val t.isLt).2.2.2.2.1 : Vec Ideal S1x1x16 .f32) (ix3 (0 : Fin 1) (0 : Fin 1) tt)
    = loArr X (((cfg0.win 5).blk t).view.emb (ix3 (0 : Fin 1) (0 : Fin 1) tt))
  rw [hR]
  refine (mm_outs_mn V c X hx t.val t.isLt tt).trans ?_
  have hb : bN t.val = (⟨t.val / 4, by omega⟩ : Fin 8) := Fin.ext (by show (t.val / 4) % 8 = t.val / 4; omega)
  rw [hb, h3, aMn_total]
  rfl

/-- The last point of each batch entry writes back that entry's row. -/
theorem mm_flushed6 (t : Fin cfg0.N) (hf : (cfg0.win 6).flush t = true) :
    (dat0 V c).flushed 6 t = ((cfg0.win 6).blk t).view.read (Elt Ideal) (hiArr X) := by
  have h3 : t.val % 4 = 3 := (flush0_6 t).mp hf
  have hN : t.val < 32 := lt_of_lt_of_eq t.isLt N_0
  obtain ⟨e0, e1, e2⟩ := mm_index6 t
  show (cfg0.win 6).cut (grid0.coords t) ((dat0 V c).after 6 t) = _
  rw [after0_6]
  funext y
  obtain ⟨u0, u1, tt, rfl⟩ : ∃ (u0 : Fin 1) (u1 : Fin 1) (tt : Fin 16), y = ix3 u0 u1 tt :=
    ⟨y 0, y 1, y 2, eq_ix3 (n0 := 1) (n1 := 1) (n2 := 16) y⟩
  obtain rfl : u0 = 0 := Subsingleton.elim _ _
  obtain rfl : u1 = 0 := Subsingleton.elim _ _
  have hR : ((cfg0.win 6).blk t).view.emb (ix3 (0 : Fin 1) (0 : Fin 1) tt)
      = (ix3 (⟨t.val / 4, by omega⟩ : Fin 8) (0 : Fin 1) tt : S8x1x16.Idx) := by
    funext a; apply Fin.ext
    match a with
    | ⟨0, _⟩ => show win0_6.index t (0 : Fin 3) * 1 + 1 * 0 = t.val / 4; omega
    | ⟨1, _⟩ => show win0_6.index t (1 : Fin 3) * 1 + 1 * 0 = 0; omega
    | ⟨2, _⟩ => show win0_6.index t (2 : Fin 3) * 16 + 1 * tt.val = tt.val; omega
  show ((outsAt0 V c t.val t.isLt).2.2.2.2.2 : Vec Ideal S1x1x16 .f32) (ix3 (0 : Fin 1) (0 : Fin 1) tt)
    = hiArr X (((cfg0.win 6).blk t).view.emb (ix3 (0 : Fin 1) (0 : Fin 1) tt))
  rw [hR]
  refine (mm_outs_mx V c X hx t.val t.isLt tt).trans ?_
  have hb : bN t.val = (⟨t.val / 4, by omega⟩ : Fin 8) := Fin.ext (by show (t.val / 4) % 8 = t.val / 4; omega)
  rw [hb, h3, aMx_total]
  rfl

end Real

end Cert.KernelIdeal.KVal.MM

namespace Cert.KernelIdeal.KVal

open Idealize.ShloMosaic Idealize.ShloMosaic.TcCoe Idealize.ShloMosaic.ValueIdx
open Idealize.SL Idealize.SL.Sem
open Cert.KernelIdeal Cert.KernelIdeal.Gen Cert.Weighting

section
variable (V : (c : Dev nD) → (b : Ref sig .tc) → Buf (Elt Ideal) ((c : Thread nD τ).loc b)) (c : Dev nD) (X : Arr)
  (hx : ∀ b c' t h w, (V c (Pipeline.arrRef spec0 0) : S8x32x16x112x112.Idx → EReal) (ix5 b c' t h w) = ((X b c' t h w : ℝ) : EReal))
include hx

/-- THE FIRST REGION'S OUTPUT OF MINIMA: at (b, 0, t) the least value of the frame (b, t). -/
theorem r0_mn (b : Fin 8) (t : Fin 16) :
    (Gen.dat0 (F := Ideal) V c).arrAt 5 cfg0.N (ix3 b (0 : Fin 1) t) = ((Cert.Weighting.lo (Cert.Weighting.frame X b t) : ℝ) : EReal) :=
  congrFun ((dat0 V c).arrAt_eq_of_cover 5 (MM.loArr X) (MM.mm_flushed5 V c X hx) MM.mm_cover5) (ix3 b (0 : Fin 1) t)

/-- THE FIRST REGION'S OUTPUT OF MAXIMA: at (b, 0, t) the greatest value of the frame (b, t). -/
theorem r0_mx (b : Fin 8) (t : Fin 16) :
    (Gen.dat0 (F := Ideal) V c).arrAt 6 cfg0.N (ix3 b (0 : Fin 1) t) = ((Cert.Weighting.hi (Cert.Weighting.frame X b t) : ℝ) : EReal) :=
  congrFun ((dat0 V c).arrAt_eq_of_cover 6 (MM.hiArr X) (MM.mm_flushed6 V c X hx) MM.mm_cover6) (ix3 b (0 : Fin 1) t)

end

end Cert.KernelIdeal.KVal

end
-- ==== Proof.K1Pay.lean ====
/-
  The arithmetic of the second region's body, read at one index over the extended reals.

  At a grid point the body holds a block of the input (eight channels, all sixteen time steps, every row and column), the
  matching eight channels of the normalised target map, one scale and one shift per time step, and the running score of
  each time step. It multiplies every pixel of time step t by the scale of t, subtracts the shift of t, takes the
  minimum with the target map at the same channel, row and column, and adds up over columns, then rows, then the eight
  channels; the total is added to the running score of t. So the new running score of t is

      old t + ∑ (c, h, w), min (x (c, t, h, w) · scale t − shift t) (g (c, h, w)).

  The reset writes the zero block, and the store adds a unit axis in front.
-/
import proofs.«171658_j72688026517959_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal.R1

open Idealize.ShloMosaic Idealize.ShloMosaic.ValueIdx
open Cert.KernelIdeal Cert.KernelIdeal.Gen

/-! ## Layout operations at coordinates -/

section Layout
variable {α : Type}

/-- A [1, 8, 16, 112, 112] block viewed without its unit axis reads (c, t, h, w) at (0, c, t, h, w). -/
theorem cast_drop5 (x : (⟨5, ![1, 8, 16, 112, 112]⟩ : Shape).Idx → α)
    (h : (⟨5, ![1, 8, 16, 112, 112]⟩ : Shape).ShapeCasts ⟨4, ![8, 16, 112, 112]⟩)
    (c : Fin 8) (t : Fin 16) (r : Fin 112) (w : Fin 112) :
    shapeCast ⟨4, ![8, 16, 112, 112]⟩ x h (ix4 c t r w) = x (ix5 (0 : Fin 1) c t r w) :=
  shapeCast_apply x h _ _ (by
    rw [Shape.rowMajor_val_five, Shape.rowMajor_val_four]
    show ((((0 * 8 + c.val) * 16 + t.val) * 112 + r.val) * 112 + w.val) = ((c.val * 16 + t.val) * 112 + r.val) * 112 + w.val
    rw [Nat.zero_mul, Nat.zero_add])

/-- A vector of sixteen entries viewed as [1, 16, 1, 1] reads (0, t, 0, 0) at t. -/
theorem cast_col (x : (⟨1, ![16]⟩ : Shape).Idx → α) (h : (⟨1, ![16]⟩ : Shape).ShapeCasts ⟨4, ![1, 16, 1, 1]⟩) (t : Fin 16) :
    shapeCast ⟨4, ![1, 16, 1, 1]⟩ x h (ix4 (0 : Fin 1) t (0 : Fin 1) (0 : Fin 1)) = x (ix1 t) :=
  shapeCast_apply x h _ _ (by
    rw [Shape.rowMajor_val_four, Shape.rowMajor_val_one]
    show t.val = ((0 * 16 + t.val) * 1 + 0) * 1 + 0
    omega)

/-- That column broadcast over channels, rows and columns reads, at (c, t, h, w), its entry t. -/
theorem bcast_col (x : (⟨4, ![1, 16, 1, 1]⟩ : Shape).Idx → α) (h : (⟨4, ![1, 16, 1, 1]⟩ : Shape).Broadcasts ⟨4, ![8, 16, 112, 112]⟩)
    (c : Fin 8) (t : Fin 16) (r : Fin 112) (w : Fin 112) :
    broadcastTo ⟨4, ![8, 16, 112, 112]⟩ x h (ix4 c t r w) = x (ix4 (0 : Fin 1) t (0 : Fin 1) (0 : Fin 1)) :=
  broadcastTo_apply x h _ _ fun a => match a with
    | ⟨0, _⟩ => rfl
    | ⟨1, _⟩ => rfl
    | ⟨2, _⟩ => rfl
    | ⟨3, _⟩ => rfl

/-- An [8, 112, 112] map viewed as [8, 1, 112, 112] reads (c, 0, h, w) at (c, h, w). -/
theorem cast_mid (x : (⟨3, ![8, 112, 112]⟩ : Shape).Idx → α) (h : (⟨3, ![8, 112, 112]⟩ : Shape).ShapeCasts ⟨4, ![8, 1, 112, 112]⟩)
    (c : Fin 8) (r : Fin 112) (w : Fin 112) :
    shapeCast ⟨4, ![8, 1, 112, 112]⟩ x h (ix4 c (0 : Fin 1) r w) = x (ix3 c r w) :=
  shapeCast_apply x h _ _ (by
    rw [Shape.rowMajor_val_four, Shape.rowMajor_val_three]
    show (c.val * 112 + r.val) * 112 + w.val = ((c.val * 1 + 0) * 112 + r.val) * 112 + w.val
    omega)

/-- That map broadcast over the time steps reads, at (c, t, h, w), its entry (c, 0, h, w). -/
theorem bcast_mid (x : (⟨4, ![8, 1, 112, 112]⟩ : Shape).Idx → α) (h : (⟨4, ![8, 1, 112, 112]⟩ : Shape).Broadcasts ⟨4, ![8, 16, 112, 112]⟩)
    (c : Fin 8) (t : Fin 16) (r : Fin 112) (w : Fin 112) :
    broadcastTo ⟨4, ![8, 16, 112, 112]⟩ x h (ix4 c t r w) = x (ix4 c (0 : Fin 1) r w) :=
  broadcastTo_apply x h _ _ fun a => match a with
    | ⟨0, _⟩ => rfl
    | ⟨1, _⟩ => rfl
    | ⟨2, _⟩ => rfl
    | ⟨3, _⟩ => rfl

end Layout

/-! ## The three sums: over columns, rows, channels -/

theorem lift_w (h : (⟨4, ![8, 16, 112, 112]⟩ : Shape).Reduces [3] ⟨3, ![8, 16, 112]⟩) (c : Fin 8) (t : Fin 16) (r : Fin 112) (w : Fin 112) :
    h.lift (ix3 c t r) w = ix4 c t r w :=
  funext fun a => Fin.ext (match a with | ⟨0, _⟩ => rfl | ⟨1, _⟩ => rfl | ⟨2, _⟩ => rfl | ⟨3, _⟩ => rfl)

theorem lift_r (h : (⟨3, ![8, 16, 112]⟩ : Shape).Reduces [2] ⟨2, ![8, 16]⟩) (c : Fin 8) (t : Fin 16) (r : Fin 112) :
    h.lift (ix2 c t) r = ix3 c t r :=
  funext fun a => Fin.ext (match a with | ⟨0, _⟩ => rfl | ⟨1, _⟩ => rfl | ⟨2, _⟩ => rfl)

theorem lift_c (h : (⟨2, ![8, 16]⟩ : Shape).Reduces [0] ⟨1, ![16]⟩) (c : Fin 8) (t : Fin 16) :
    h.lift (ix1 t) c = ix2 c t :=
  funext fun a => Fin.ext (match a with | ⟨0, _⟩ => rfl | ⟨1, _⟩ => rfl)

/-- The body's new running score of time step t. -/
theorem pay3_apply (v3 : Vec Ideal S1x8x16x112x112 .f32) (v5 : Vec Ideal S1x8x112x112 .f32) (v7 v10 v25 : Vec Ideal S1x1x16 .f32)
    (t : Fin 16) :
    k1_pay3 (F := Ideal) v3 v5 v7 v10 v25 (ix2 (0 : Fin 1) t)
      = v25 (ix3 (0 : Fin 1) (0 : Fin 1) t)
        + ∑ c : Fin 8, ∑ r : Fin 112, ∑ w : Fin 112,
            min (v3 (ix5 (0 : Fin 1) c t r w) * v7 (ix3 (0 : Fin 1) (0 : Fin 1) t) - v10 (ix3 (0 : Fin 1) (0 : Fin 1) t))
              (v5 (ix4 (0 : Fin 1) c r w)) := by
  unfold k1_pay3
  refine (addf_apply _ _ _).trans ?_
  refine congrArg₂ (· + ·) (shapeCast_1ab_ab_apply _ _ _ _) ?_
  refine (shapeCast_a_1a_apply _ _ _ _).trans ?_
  refine (Ideal.multiReduction_add_single _ _ _ _ _ _).trans ?_
  refine Finset.sum_congr rfl fun c _ => ?_
  refine (congrArg _ (lift_c _ c t)).trans ?_
  refine (Ideal.multiReduction_add_single _ _ _ _ _ _).trans ?_
  refine Finset.sum_congr rfl fun r _ => ?_
  refine (congrArg _ (lift_r _ c t r)).trans ?_
  refine (Ideal.multiReduction_add_single _ _ _ _ _ _).trans ?_
  refine Finset.sum_congr rfl fun w _ => ?_
  refine (congrArg _ (lift_w _ c t r w)).trans ?_
  refine (minimumf_apply _ _ _).trans ?_
  refine congrArg₂ min ?_ ?_
  · refine (subf_apply _ _ _).trans ?_
    refine congrArg₂ (· - ·) ?_ ?_
    · refine (mulf_apply _ _ _).trans ?_
      refine congrArg₂ (· * ·) (cast_drop5 _ _ _ _ _ _) ?_
      refine (bcast_col _ _ _ _ _ _).trans ?_
      refine (cast_col _ _ _).trans ?_
      refine (shapeCast_1a_a_apply _ _ _).trans ?_
      exact shapeCast_1ab_ab_apply _ _ _ _
    · refine (bcast_col _ _ _ _ _ _).trans ?_
      refine (cast_col _ _ _).trans ?_
      refine (shapeCast_1a_a_apply _ _ _).trans ?_
      exact shapeCast_1ab_ab_apply _ _ _ _
  · refine (bcast_mid _ _ _ _ _ _).trans ?_
    refine (cast_mid _ _ _ _ _).trans ?_
    exact shapeCast_1abc_abc_apply _ _ _ _ _

/-- The store's payload: the new running scores with a unit axis in front. -/
theorem pay1_apply (v : FVec Ideal S1x16 .f32) (t : Fin 16) :
    k1_pay1 (F := Ideal) v (ix3 (0 : Fin 1) (0 : Fin 1) t) = v (ix2 (0 : Fin 1) t) := by
  unfold k1_pay1
  exact shapeCast_ab_1ab_apply _ _ _ _ _

/-- The reset's payload is zero everywhere. -/
theorem pay2_apply (t : Fin 16) : k1_pay2 (F := Ideal) (ix3 (0 : Fin 1) (0 : Fin 1) t) = (0 : EReal) := by
  unfold k1_pay2
  refine (shapeCast_ab_1ab_apply _ _ _ _ _).trans ?_
  exact Ideal.ofBits_zero_f32

end Cert.KernelIdeal.KVal.R1

end
-- ==== Proof.K1Sum.lean ====
/-
  The second region's body over the real numbers, and the sum over a frame cut into four groups of eight channels.

  When the block of the input, the block of the target map, the scale, the shift and the running score hold real numbers,
  the body's new running score is a real number: the old one plus the block's sum of
  min (x · scale − shift) (g). The pixels of a frame are (channel, row, column) with 32 channels; a grid point sees the
  eight channels 8·ct … 8·ct + 7, so the sum over the frame is the sum over ct = 0 … 3 of the block sums.
-/
import proofs.«171658_j72688026517959_1_alg».proof.Proof.K1Pay
import proofs.«171658_j72688026517959_1_alg».proof.Proof.Spec
import proofs.«171658_j72688026517959_1_alg».proof.Proof.LibFibre
import Mathlib.Algebra.BigOperators.Fin
import Mathlib.Algebra.BigOperators.Intervals

noncomputable section

namespace Cert.Weighting.R1

open Finset

/-- Channel c8 of the ct-th group of eight channels. -/
def chan (ct : Fin 4) (c8 : Fin 8) : Fin 32 := ⟨8 * ct.val + c8.val, by have := ct.isLt; have := c8.isLt; omega⟩

/-- One pixel's term of the score: the minimum of the rescaled frame and the target map. -/
def simTerm (X : Arr) (G : Fin 8 → Pix → ℝ) (sc sh : Fin 8 → Fin 16 → ℝ) (b : Fin 8) (t : Fin 16) (p : Pix) : ℝ :=
  min (frame X b t p * sc b t - sh b t) (G b p)

/-- The sum of the terms over one group of eight channels. -/
def blockSum (X : Arr) (G : Fin 8 → Pix → ℝ) (sc sh : Fin 8 → Fin 16 → ℝ) (b : Fin 8) (t : Fin 16) (ct : Fin 4) : ℝ :=
  ∑ c8 : Fin 8, ∑ r : Fin 112, ∑ w : Fin 112, simTerm X G sc sh b t (chan ct c8, r, w)

/-- The same, the group named by a natural number (zero past the fourth group). -/
def blockSumN (X : Arr) (G : Fin 8 → Pix → ℝ) (sc sh : Fin 8 → Fin 16 → ℝ) (b : Fin 8) (t : Fin 16) (k : ℕ) : ℝ :=
  if h : k < 4 then blockSum X G sc sh b t ⟨k, h⟩ else 0

theorem blockSumN_of_lt (X : Arr) (G : Fin 8 → Pix → ℝ) (sc sh : Fin 8 → Fin 16 → ℝ) (b : Fin 8) (t : Fin 16) (ct : Fin 4) :
    blockSumN X G sc sh b t ct.val = blockSum X G sc sh b t ct := by
  unfold blockSumN; rw [dif_pos ct.isLt]

/-- A sum over the 32 channels is the sum over the four groups of the sums over their eight channels. -/
theorem sum_chan (f : Fin 32 → ℝ) : ∑ c : Fin 32, f c = ∑ ct : Fin 4, ∑ c8 : Fin 8, f (chan ct c8) := by
  rw [← Fintype.sum_prod_type']
  refine (Fintype.sum_equiv (finProdFinEquiv (m := 4) (n := 8)) (fun x => f (chan x.1 x.2)) f fun x => ?_).symm
  refine congrArg f (Fin.ext ?_)
  show 8 * x.1.val + x.2.val = x.2.val + 8 * x.1.val
  omega

/-- The four block sums make the sum over the frame. -/
theorem sum_blocks (X : Arr) (G : Fin 8 → Pix → ℝ) (sc sh : Fin 8 → Fin 16 → ℝ) (b : Fin 8) (t : Fin 16) :
    ∑ k ∈ range 4, blockSumN X G sc sh b t k = ∑ p : Pix, simTerm X G sc sh b t p := by
  rw [Finset.sum_range, Fintype.sum_prod_type, sum_chan]
  refine Finset.sum_congr rfl fun ct _ => ?_
  rw [blockSumN_of_lt]
  unfold blockSum
  refine Finset.sum_congr rfl fun c8 _ => ?_
  exact (Fintype.sum_prod_type fun y : Fin 112 × Fin 112 => simTerm X G sc sh b t (chan ct c8, y)).symm

end Cert.Weighting.R1

namespace Cert.KernelIdeal.KVal.R1

open Idealize.ShloMosaic Idealize.ShloMosaic.ValueIdx
open Cert.KernelIdeal Cert.KernelIdeal.Gen

/-- The minimum of two reals, inside the extended reals. -/
theorem coe_min (x y : ℝ) : ((min x y : ℝ) : EReal) = min (x : EReal) (y : EReal) :=
  EReal.coe_strictMono.monotone.map_min

/-- The block's sum of minima over real entries is a real number. -/
theorem blockTerm_coe (x0 : Vec Ideal S1x8x16x112x112 .f32) (x1 : Vec Ideal S1x8x112x112 .f32) (x2 x3 : Vec Ideal S1x1x16 .f32)
    (tt : Fin 16) (Xr Gr : Fin 8 → Fin 112 → Fin 112 → ℝ) (s h : ℝ)
    (hx0 : ∀ c8 r w, x0 (ix5 (0 : Fin 1) c8 tt r w) = ((Xr c8 r w : ℝ) : EReal))
    (hx1 : ∀ c8 r w, x1 (ix4 (0 : Fin 1) c8 r w) = ((Gr c8 r w : ℝ) : EReal))
    (hx2 : x2 (ix3 (0 : Fin 1) (0 : Fin 1) tt) = ((s : ℝ) : EReal)) (hx3 : x3 (ix3 (0 : Fin 1) (0 : Fin 1) tt) = ((h : ℝ) : EReal)) :
    (∑ c : Fin 8, ∑ r : Fin 112, ∑ w : Fin 112,
        min (x0 (ix5 (0 : Fin 1) c tt r w) * x2 (ix3 (0 : Fin 1) (0 : Fin 1) tt) - x3 (ix3 (0 : Fin 1) (0 : Fin 1) tt))
          (x1 (ix4 (0 : Fin 1) c r w)))
      = ((∑ c : Fin 8, ∑ r : Fin 112, ∑ w : Fin 112, min (Xr c r w * s - h) (Gr c r w) : ℝ) : EReal) := by
  rw [Cert.Weighting.Fibre.coe_sum]
  refine Finset.sum_congr rfl fun c _ => ?_
  rw [Cert.Weighting.Fibre.coe_sum]
  refine Finset.sum_congr rfl fun r _ => ?_
  rw [Cert.Weighting.Fibre.coe_sum]
  refine Finset.sum_congr rfl fun w _ => ?_
  rw [hx0, hx1, hx2, hx3, coe_min, EReal.coe_sub, EReal.coe_mul]

/-- At a point that resets: the new running score of time step tt is the block's sum. -/
theorem val_reset (x0 : Vec Ideal S1x8x16x112x112 .f32) (x1 : Vec Ideal S1x8x112x112 .f32) (x2 x3 : Vec Ideal S1x1x16 .f32)
    (tt : Fin 16) (Xr Gr : Fin 8 → Fin 112 → Fin 112 → ℝ) (s h : ℝ)
    (hx0 : ∀ c8 r w, x0 (ix5 (0 : Fin 1) c8 tt r w) = ((Xr c8 r w : ℝ) : EReal))
    (hx1 : ∀ c8 r w, x1 (ix4 (0 : Fin 1) c8 r w) = ((Gr c8 r w : ℝ) : EReal))
    (hx2 : x2 (ix3 (0 : Fin 1) (0 : Fin 1) tt) = ((s : ℝ) : EReal)) (hx3 : x3 (ix3 (0 : Fin 1) (0 : Fin 1) tt) = ((h : ℝ) : EReal)) :
    k1_pay1 (F := Ideal) (k1_pay3 (F := Ideal) x0 x1 x2 x3 (k1_pay2 (F := Ideal))) (ix3 (0 : Fin 1) (0 : Fin 1) tt)
      = ((∑ c : Fin 8, ∑ r : Fin 112, ∑ w : Fin 112, min (Xr c r w * s - h) (Gr c r w) : ℝ) : EReal) := by
  refine (pay1_apply _ tt).trans ?_
  refine (pay3_apply x0 x1 x2 x3 _ tt).trans ?_
  rw [pay2_apply, zero_add]
  exact blockTerm_coe x0 x1 x2 x3 tt Xr Gr s h hx0 hx1 hx2 hx3

/-- At a point that accumulates: the new running score is the old one plus the block's sum. -/
theorem val_step (x0 : Vec Ideal S1x8x16x112x112 .f32) (x1 : Vec Ideal S1x8x112x112 .f32) (x2 x3 xo : Vec Ideal S1x1x16 .f32)
    (tt : Fin 16) (Xr Gr : Fin 8 → Fin 112 → Fin 112 → ℝ) (s h a : ℝ)
    (hx0 : ∀ c8 r w, x0 (ix5 (0 : Fin 1) c8 tt r w) = ((Xr c8 r w : ℝ) : EReal))
    (hx1 : ∀ c8 r w, x1 (ix4 (0 : Fin 1) c8 r w) = ((Gr c8 r w : ℝ) : EReal))
    (hx2 : x2 (ix3 (0 : Fin 1) (0 : Fin 1) tt) = ((s : ℝ) : EReal)) (hx3 : x3 (ix3 (0 : Fin 1) (0 : Fin 1) tt) = ((h : ℝ) : EReal))
    (hxo : xo (ix3 (0 : Fin 1) (0 : Fin 1) tt) = ((a : ℝ) : EReal)) :
    k1_pay1 (F := Ideal) (k1_pay3 (F := Ideal) x0 x1 x2 x3 xo) (ix3 (0 : Fin 1) (0 : Fin 1) tt)
      = ((a + ∑ c : Fin 8, ∑ r : Fin 112, ∑ w : Fin 112, min (Xr c r w * s - h) (Gr c r w) : ℝ) : EReal) := by
  refine (pay1_apply _ tt).trans ?_
  refine (pay3_apply x0 x1 x2 x3 xo tt).trans ?_
  rw [hxo, EReal.coe_add]
  exact congrArg (fun z => (a : EReal) + z) (blockTerm_coe x0 x1 x2 x3 tt Xr Gr s h hx0 hx1 hx2 hx3)

end Cert.KernelIdeal.KVal.R1

end
-- ==== Proof.K1Val.lean ====
/-
  What the second region leaves in its output array, over the real numbers.

  The region runs over the grid (b, ct) ∈ 8 × 4, point 4·b + ct. At a point it sees the channels 8·ct … 8·ct + 7 of batch
  entry b: that block of the input (all sixteen time steps), the same channels of the normalised target map, and the
  scales and shifts of b's sixteen time steps. Its output block, the sixteen running scores of b, stays in place over the four
  points of one b: the first of them resets it to zero, every point adds its block's sum of
  min (x · scale − shift) (g), and the last writes it back. So when the four arrays hold real numbers, the output array
  ends holding, at (b, 0, t), the sum over all the pixels of the frame of min (frame · scale − shift) (target map).

  The steps: what each control case leaves in the staging buffer is the store's payload (the reset read back in the first
  case); a block's entry is the array's entry at block index × block size + the coordinate inside the block; the running
  score after a point is the partial sum over the groups of channels seen so far (induction on the point); the four groups
  make the frame; the last point of each b writes its block back and these blocks cover the output array.
-/
import proofs.«171658_j72688026517959_1_alg».proof.Proof.Gen.KernelIdeal.Frame
import proofs.«171658_j72688026517959_1_alg».proof.Proof.K1Pay
import proofs.«171658_j72688026517959_1_alg».proof.Proof.K1Sum
import proofs.«171658_j72688026517959_1_alg».proof.Proof.Spec
import Idealize.ShloMosaic.Lib.Pipeline.Value
import Idealize.ShloMosaic.Lib.Tactic

set_option maxRecDepth 16384

noncomputable section

namespace Cert.KernelIdeal.KVal.R1

open Idealize.ShloMosaic Idealize.ShloMosaic.TcCoe Idealize.ShloMosaic.ValueIdx Idealize.SL.Sem
open Idealize.ShloMosaic.Pipeline (Dat)
open Cert.KernelIdeal Cert.KernelIdeal.Gen
open Cert.Weighting.R1 (chan simTerm blockSum blockSumN)

/-! ## What each control case leaves in the staging buffer of the output -/

section Pieces
variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- A point that accumulates leaves the update of the running scores it found. -/
theorem out_B (c : Dev nD) (i : grid1.Coords) (a2 : Memref sig .tc .vmem S1x8x16x112x112 .f32) (h2 : a2.IsWhole)
    (a3 : Memref sig .tc .vmem S1x8x112x112 .f32) (h3 : a3.IsWhole) (a4 : Memref sig .tc .vmem S1x1x16 .f32) (h4 : a4.IsWhole)
    (a5 : Memref sig .tc .vmem S1x1x16 .f32) (h5 : a5.IsWhole) (a6 : Memref sig .tc .vmem S1x1x16 .f32) (h6 : a6.IsWhole)
    (hc : ¬cond1_0 i) (x0 : Vec F S1x8x16x112x112 .f32) (x1 : Vec F S1x8x112x112 .f32) (x2 x3 xo : Vec F S1x1x16 .f32) :
    out1_B_4 c i a2 h2 a3 h3 a4 h4 a5 h5 a6 h6 hc x0 x1 x2 x3 xo = k1_pay1 (k1_pay3 x0 x1 x2 x3 xo) := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero hz3]
  simp only [View.readAt_eq_ld, h2.read_unread, h3.read_unread, h4.read_unread, h5.read_unread, h6.read_unread,
    View.ld_unit_zero (S := S1x8x16x112x112) hz5, View.ld_unit_zero (S := S1x8x112x112) hz4, View.ld_unit_zero (S := S1x1x16) hz3]

/-- A point that resets leaves the update of the zero block. -/
theorem out_A (c : Dev nD) (i : grid1.Coords) (a2 : Memref sig .tc .vmem S1x8x16x112x112 .f32) (h2 : a2.IsWhole)
    (a3 : Memref sig .tc .vmem S1x8x112x112 .f32) (h3 : a3.IsWhole) (a4 : Memref sig .tc .vmem S1x1x16 .f32) (h4 : a4.IsWhole)
    (a5 : Memref sig .tc .vmem S1x1x16 .f32) (h5 : a5.IsWhole) (a6 : Memref sig .tc .vmem S1x1x16 .f32) (h6 : a6.IsWhole)
    (hc : cond1_0 i) (x0 : Vec F S1x8x16x112x112 .f32) (x1 : Vec F S1x8x112x112 .f32) (x2 x3 : Vec F S1x1x16 .f32) :
    out1_A_4 c i a2 h2 a3 h3 a4 h4 a5 h5 a6 h6 hc x0 x1 x2 x3 = k1_pay1 (k1_pay3 x0 x1 x2 x3 (k1_pay2 (F := F))) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x1x16) hz3, View.readCov_unit_zero (S := S1x1x16) _ hz3]
  simp only [View.readAt_eq_ld, h2.read_unread, h3.read_unread, h4.read_unread, h5.read_unread,
    View.ld_unit_zero (S := S1x8x16x112x112) hz5, View.ld_unit_zero (S := S1x8x112x112) hz4, View.ld_unit_zero (S := S1x1x16) hz3]

end Pieces

/-! ## The blocks of the four input arrays at a point -/

section Blocks
variable {F : FTy → Type} [FloatOps F]
variable (V : (c : Dev nD) → (b : Ref sig .tc) → Buf (Elt F) ((c : Thread nD τ).loc b))

/-- The block indices at point t: batch entry t / 4 on the first axis; for the input and the target map, group t % 4 on the channel axis. -/
theorem idx_facts : ∀ t : Fin cfg1.N,
    win1_0.index t (0 : Fin 5) = t.val / 4 ∧ win1_0.index t (1 : Fin 5) = t.val % 4 ∧ win1_0.index t (2 : Fin 5) = 0
    ∧ win1_0.index t (3 : Fin 5) = 0 ∧ win1_0.index t (4 : Fin 5) = 0
    ∧ win1_1.index t (0 : Fin 4) = t.val / 4 ∧ win1_1.index t (1 : Fin 4) = t.val % 4 ∧ win1_1.index t (2 : Fin 4) = 0
    ∧ win1_1.index t (3 : Fin 4) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = 0
    ∧ win1_4.index t (0 : Fin 3) = t.val / 4 ∧ win1_4.index t (1 : Fin 3) = 0 ∧ win1_4.index t (2 : Fin 3) = 0 :=
  (by decide +kernel : ∀ t : Fin grid1.N, _)

/-- The four input arrays as the region finds them, and their blocks at a point, at their literal types. -/
abbrev xarr (c : Dev nD) : Vec F S8x32x16x112x112 .f32 := V c (Pipeline.arrRef spec1 0)
abbrev garr (c : Dev nD) : Vec F S8x32x112x112 .f32 := V c (Pipeline.arrRef spec1 1)
abbrev scarr (c : Dev nD) : Vec F S8x1x16 .f32 := V c (Pipeline.arrRef spec1 2)
abbrev sharr (c : Dev nD) : Vec F S8x1x16 .f32 := V c (Pipeline.arrRef spec1 3)
abbrev xblk (c : Dev nD) (t : Fin cfg1.N) : Vec F S1x8x16x112x112 .f32 := iblk1 V c 0 t
abbrev gblk (c : Dev nD) (t : Fin cfg1.N) : Vec F S1x8x112x112 .f32 := iblk1 V c 1 t
abbrev scblk (c : Dev nD) (t : Fin cfg1.N) : Vec F S1x1x16 .f32 := iblk1 V c 2 t
abbrev shblk (c : Dev nD) (t : Fin cfg1.N) : Vec F S1x1x16 .f32 := iblk1 V c 3 t
/-- The running scores after the point n. -/
abbrev acc (c : Dev nD) (n : ℕ) (hn : n < cfg1.N) : Vec F S1x1x16 .f32 := outsAt1 V c n hn

/-- The input's block at point 4·b + ct holds the channels 8·ct … 8·ct + 7 of batch entry b. -/
theorem xblk_apply (c : Dev nD) (t : Fin cfg1.N) (b : Fin 8) (ct : Fin 4) (ht : t.val = 4 * b.val + ct.val)
    (c8 : Fin 8) (tt : Fin 16) (r : Fin 112) (w : Fin 112) :
    xblk V c t (ix5 (0 : Fin 1) c8 tt r w) = xarr V c (ix5 b (chan ct c8) tt r w) := by
  obtain ⟨e0, e1, e2, e3, e4, -⟩ := idx_facts t
  have hct := ct.isLt
  show iblk1 V c 0 t (ix5 (0 : Fin 1) c8 tt r w) = _
  unfold iblk1
  rw [View.read_apply]
  show V c (Pipeline.arrRef spec1 0) _ = V c (Pipeline.arrRef spec1 0) _
  congr 1
  funext a
  apply Fin.ext
  match a with
  | ⟨0, _⟩ => show win1_0.index t (0 : Fin 5) * 1 + 1 * 0 = b.val; omega
  | ⟨1, _⟩ => show win1_0.index t (1 : Fin 5) * 8 + 1 * c8.val = 8 * ct.val + c8.val; omega
  | ⟨2, _⟩ => show win1_0.index t (2 : Fin 5) * 16 + 1 * tt.val = tt.val; omega
  | ⟨3, _⟩ => show win1_0.index t (3 : Fin 5) * 112 + 1 * r.val = r.val; omega
  | ⟨4, _⟩ => show win1_0.index t (4 : Fin 5) * 112 + 1 * w.val = w.val; omega

/-- The target map's block at point 4·b + ct holds the same channels of b's map. -/
theorem gblk_apply (c : Dev nD) (t : Fin cfg1.N) (b : Fin 8) (ct : Fin 4) (ht : t.val = 4 * b.val + ct.val)
    (c8 : Fin 8) (r : Fin 112) (w : Fin 112) :
    gblk V c t (ix4 (0 : Fin 1) c8 r w) = garr V c (ix4 b (chan ct c8) r w) := by
  obtain ⟨-, -, -, -, -, e0, e1, e2, e3, -⟩ := idx_facts t
  have hct := ct.isLt
  show iblk1 V c 1 t (ix4 (0 : Fin 1) c8 r w) = _
  unfold iblk1
  rw [View.read_apply]
  show V c (Pipeline.arrRef spec1 1) _ = V c (Pipeline.arrRef spec1 1) _
  congr 1
  funext a
  apply Fin.ext
  match a with
  | ⟨0, _⟩ => show win1_1.index t (0 : Fin 4) * 1 + 1 * 0 = b.val; omega
  | ⟨1, _⟩ => show win1_1.index t (1 : Fin 4) * 8 + 1 * c8.val = 8 * ct.val + c8.val; omega
  | ⟨2, _⟩ => show win1_1.index t (2 : Fin 4) * 112 + 1 * r.val = r.val; omega
  | ⟨3, _⟩ => show win1_1.index t (3 : Fin 4) * 112 + 1 * w.val = w.val; omega

/-- The scales' block at point 4·b + ct is b's row. -/
theorem scblk_apply (c : Dev nD) (t : Fin cfg1.N) (b : Fin 8) (ct : Fin 4) (ht : t.val = 4 * b.val + ct.val) (tt : Fin 16) :
    scblk V c t (ix3 (0 : Fin 1) (0 : Fin 1) tt) = scarr V c (ix3 b (0 : Fin 1) tt) := by
  obtain ⟨-, -, -, -, -, -, -, -, -, e0, e1, e2, -⟩ := idx_facts t
  have hct := ct.isLt
  show iblk1 V c 2 t (ix3 (0 : Fin 1) (0 : Fin 1) tt) = _
  unfold iblk1
  rw [View.read_apply]
  show V c (Pipeline.arrRef spec1 2) _ = V c (Pipeline.arrRef spec1 2) _
  congr 1
  funext a
  apply Fin.ext
  match a with
  | ⟨0, _⟩ => show win1_2.index t (0 : Fin 3) * 1 + 1 * 0 = b.val; omega
  | ⟨1, _⟩ => show win1_2.index t (1 : Fin 3) * 1 + 1 * 0 = 0; omega
  | ⟨2, _⟩ => show win1_2.index t (2 : Fin 3) * 16 + 1 * tt.val = tt.val; omega

/-- The shifts' block at point 4·b + ct is b's row. -/
theorem shblk_apply (c : Dev nD) (t : Fin cfg1.N) (b : Fin 8) (ct : Fin 4) (ht : t.val = 4 * b.val + ct.val) (tt : Fin 16) :
    shblk V c t (ix3 (0 : Fin 1) (0 : Fin 1) tt) = sharr V c (ix3 b (0 : Fin 1) tt) := by
  obtain ⟨-, -, -, -, -, -, -, -, -, -, -, -, e0, e1, e2, -⟩ := idx_facts t
  have hct := ct.isLt
  show iblk1 V c 3 t (ix3 (0 : Fin 1) (0 : Fin 1) tt) = _
  unfold iblk1
  rw [View.read_apply]
  show V c (Pipeline.arrRef spec1 3) _ = V c (Pipeline.arrRef spec1 3) _
  congr 1
  funext a
  apply Fin.ext
  match a with
  | ⟨0, _⟩ => show win1_3.index t (0 : Fin 3) * 1 + 1 * 0 = b.val; omega
  | ⟨1, _⟩ => show win1_3.index t (1 : Fin 3) * 1 + 1 * 0 = 0; omega
  | ⟨2, _⟩ => show win1_3.index t (2 : Fin 3) * 16 + 1 * tt.val = tt.val; omega

end Blocks

/-! ## The blocks of the output array -/

section Cover

/-- An index of the output array is in the block of point t iff each coordinate is in the block's range. -/
theorem mem_blk (t : Fin cfg1.N) (i : S8x1x16.Idx) :
    i ∈ ((cfg1.win 4).blk t).view.set
      ↔ ∀ a : Fin 3, win1_4.index t a * S1x1x16.size a ≤ (i a).val ∧ (i a).val < win1_4.index t a * S1x1x16.size a + S1x1x16.size a := by
  show i ∈ ((View.whole main_v69).slice (win1_4.rect t)).set ↔ _
  rw [View.set_slice_whole, Rect.mem_set_unit]
  exact Iff.rfl

/-- Every index (b, 0, t) of the output array is in the block the last point of b writes back. -/
theorem cover (i : S8x1x16.Idx) : ∃ t : Fin cfg1.N, (cfg1.win 4).flush t = true ∧ i ∈ ((cfg1.win 4).blk t).view.set := by
  have hi0 : (i 0).val < 8 := (i 0).isLt
  have hi1 : (i 1).val < 1 := (i 1).isLt
  have hi2 : (i 2).val < 16 := (i 2).isLt
  have key : ∀ t : Fin cfg1.N, t.val = 4 * (i 0).val + 3 → i ∈ ((cfg1.win 4).blk t).view.set := by
    intro t ht
    obtain ⟨-, -, -, -, -, -, -, -, -, -, -, -, -, -, -, e0, e1, e2⟩ := idx_facts t
    rw [mem_blk]
    intro a
    match a with
    | ⟨0, _⟩ => show win1_4.index t (0 : Fin 3) * 1 ≤ (i 0).val ∧ (i 0).val < win1_4.index t (0 : Fin 3) * 1 + 1; omega
    | ⟨1, _⟩ => show win1_4.index t (1 : Fin 3) * 1 ≤ (i 1).val ∧ (i 1).val < win1_4.index t (1 : Fin 3) * 1 + 1; omega
    | ⟨2, _⟩ => show win1_4.index t (2 : Fin 3) * 16 ≤ (i 2).val ∧ (i 2).val < win1_4.index t (2 : Fin 3) * 16 + 16; omega
  exact ⟨⟨4 * (i 0).val + 3, by rw [show cfg1.N = 32 from N_1]; omega⟩,
    (flush1_4 _).mpr (by show (4 * (i 0).val + 3) % 4 = 3; omega), key _ rfl⟩

end Cover

/-! ## The running scores over the real numbers -/

section Scores
variable (X : Cert.Weighting.Arr) (G : Fin 8 → Cert.Weighting.Pix → ℝ) (sc sh : Fin 8 → Fin 16 → ℝ)

/-- The scores as an array: at (b, 0, t) the sum over the frame's pixels of min (frame · scale − shift) (target map). -/
def simArr : Vec Ideal S8x1x16 .f32 :=
  fun i => ((∑ p : Cert.Weighting.Pix, simTerm X G sc sh (i 0) (i 2) p : ℝ) : EReal)

end Scores

section AtIdeal
variable (V : (c : Dev nD) → (b : Ref sig .tc) → Buf (Elt Ideal) ((c : Thread nD τ).loc b)) (c : Dev nD)
variable (X : Cert.Weighting.Arr) (G : Fin 8 → Cert.Weighting.Pix → ℝ) (sc sh : Fin 8 → Fin 16 → ℝ)
variable (hx : ∀ b c' t h w, xarr V c (ix5 b c' t h w) = ((X b c' t h w : ℝ) : EReal))
  (hg : ∀ b c' h w, garr V c (ix4 b c' h w) = ((G b (c', h, w) : ℝ) : EReal))
  (hsc : ∀ b t, scarr V c (ix3 b (0 : Fin 1) t) = ((sc b t : ℝ) : EReal))
  (hsh : ∀ b t, sharr V c (ix3 b (0 : Fin 1) t) = ((sh b t : ℝ) : EReal))
include hx hg hsc hsh

/-- After a point that resets (the first group of channels of b) the running score is that group's sum. -/
theorem acc_A (t : Fin cfg1.N) (h0 : t.val % 4 = 0) (b : Fin 8) (hb : t.val = 4 * b.val + (0 : Fin 4).val) (tt : Fin 16) :
    acc V c t.val t.isLt (ix3 (0 : Fin 1) (0 : Fin 1) tt) = ((blockSum X G sc sh b tt 0 : ℝ) : EReal) := by
  show outsAt1 V c t.val t.isLt (ix3 (0 : Fin 1) (0 : Fin 1) tt) = _
  rw [outsAt1_A V c t h0]
  refine (congrFun (out_A (F := Ideal) c (grid1.coords t) (ms1_0 t) (hs1_0 t) (ms1_1 t) (hs1_1 t) (ms1_2 t) (hs1_2 t)
    (ms1_3 t) (hs1_3 t) (ms1_4 t) (hs1_4 t) ((hcond1_0 t).mpr h0) (xblk V c t) (gblk V c t) (scblk V c t) (shblk V c t))
    (ix3 (0 : Fin 1) (0 : Fin 1) tt)).trans ?_
  exact val_reset (xblk V c t) (gblk V c t) (scblk V c t) (shblk V c t) tt
    (fun c8 r w => X b (chan 0 c8) tt r w) (fun c8 r w => G b (chan 0 c8, r, w)) (sc b tt) (sh b tt)
    (fun c8 r w => (xblk_apply V c t b 0 hb c8 tt r w).trans (hx b (chan 0 c8) tt r w))
    (fun c8 r w => (gblk_apply V c t b 0 hb c8 r w).trans (hg b (chan 0 c8) r w))
    ((scblk_apply V c t b 0 hb tt).trans (hsc b tt)) ((shblk_apply V c t b 0 hb tt).trans (hsh b tt))

/-- After a point that accumulates (group ct of b) the running score is the one before plus that group's sum. -/
theorem acc_B (t : Fin cfg1.N) (h0 : ¬t.val % 4 = 0) (b : Fin 8) (ct : Fin 4) (hb : t.val = 4 * b.val + ct.val) (tt : Fin 16) (a : ℝ)
    (ha : acc V c (t.val - 1) (Nat.lt_of_le_of_lt (Nat.sub_le _ _) t.isLt) (ix3 (0 : Fin 1) (0 : Fin 1) tt) = ((a : ℝ) : EReal)) :
    acc V c t.val t.isLt (ix3 (0 : Fin 1) (0 : Fin 1) tt) = ((a + blockSum X G sc sh b tt ct : ℝ) : EReal) := by
  show outsAt1 V c t.val t.isLt (ix3 (0 : Fin 1) (0 : Fin 1) tt) = _
  rw [outsAt1_B V c t h0]
  refine (congrFun (out_B (F := Ideal) c (grid1.coords t) (ms1_0 t) (hs1_0 t) (ms1_1 t) (hs1_1 t) (ms1_2 t) (hs1_2 t)
    (ms1_3 t) (hs1_3 t) (ms1_4 t) (hs1_4 t) (fun h => h0 ((hcond1_0 t).mp h)) (xblk V c t) (gblk V c t) (scblk V c t) (shblk V c t)
    (acc V c (t.val - 1) (Nat.lt_of_le_of_lt (Nat.sub_le _ _) t.isLt))) (ix3 (0 : Fin 1) (0 : Fin 1) tt)).trans ?_
  exact val_step (xblk V c t) (gblk V c t) (scblk V c t) (shblk V c t) (acc V c (t.val - 1) (Nat.lt_of_le_of_lt (Nat.sub_le _ _) t.isLt)) tt
    (fun c8 r w => X b (chan ct c8) tt r w) (fun c8 r w => G b (chan ct c8, r, w)) (sc b tt) (sh b tt) a
    (fun c8 r w => (xblk_apply V c t b ct hb c8 tt r w).trans (hx b (chan ct c8) tt r w))
    (fun c8 r w => (gblk_apply V c t b ct hb c8 r w).trans (hg b (chan ct c8) r w))
    ((scblk_apply V c t b ct hb tt).trans (hsc b tt)) ((shblk_apply V c t b ct hb tt).trans (hsh b tt)) ha

/-- After the point 4·b + ct the running score of time step tt is the sum over the groups 0 … ct of b: by induction on the point. -/
theorem acc_eq : ∀ (n : ℕ) (hn : n < cfg1.N) (b : Fin 8) (ct : Fin 4), n = 4 * b.val + ct.val → ∀ tt : Fin 16,
    acc V c n hn (ix3 (0 : Fin 1) (0 : Fin 1) tt)
      = ((∑ k ∈ Finset.range (ct.val + 1), blockSumN X G sc sh b tt k : ℝ) : EReal)
  | 0, hn, b, ct, hb, tt => by
    obtain rfl : ct = 0 := Fin.ext (by show ct.val = 0; omega)
    rw [show ((0 : Fin 4).val + 1) = 1 from rfl, Finset.sum_range_one]
    exact (acc_A V c X G sc sh hx hg hsc hsh ⟨0, hn⟩ rfl b hb tt).trans
      (congrArg (fun z : ℝ => (z : EReal)) (Cert.Weighting.R1.blockSumN_of_lt X G sc sh b tt 0).symm)
  | n + 1, hn, b, ct, hb, tt => by
    by_cases h0 : (n + 1) % 4 = 0
    · obtain rfl : ct = 0 := Fin.ext (by show ct.val = 0; have := ct.isLt; omega)
      rw [show ((0 : Fin 4).val + 1) = 1 from rfl, Finset.sum_range_one]
      exact (acc_A V c X G sc sh hx hg hsc hsh ⟨n + 1, hn⟩ h0 b hb tt).trans
        (congrArg (fun z : ℝ => (z : EReal)) (Cert.Weighting.R1.blockSumN_of_lt X G sc sh b tt 0).symm)
    · have hlt := ct.isLt
      obtain ⟨k, hk⟩ : ∃ k, ct.val = k + 1 := ⟨ct.val - 1, by omega⟩
      have ih := acc_eq n (Nat.lt_of_succ_lt hn) b ⟨k, by omega⟩ (by show n = 4 * b.val + k; omega) tt
      have hN : blockSumN X G sc sh b tt (k + 1) = blockSum X G sc sh b tt ct := by
        rw [← hk]; exact Cert.Weighting.R1.blockSumN_of_lt X G sc sh b tt ct
      rw [hk, Finset.sum_range_succ, hN]
      exact acc_B V c X G sc sh hx hg hsc hsh ⟨n + 1, hn⟩ h0 b ct hb tt _ ih

/-! ## The write-backs and the output array -/

/-- The last point of each b writes back b's row of the scores. -/
theorem flushed_eq (t : Fin cfg1.N) (hf : (cfg1.win 4).flush t = true) :
    (dat1 V c).flushed 4 t = ((cfg1.win 4).blk t).view.read (Elt Ideal) (simArr X G sc sh) := by
  have h3 : t.val % 4 = 3 := (flush1_4 t).mp hf
  have hN : t.val < 32 := lt_of_lt_of_eq t.isLt N_1
  obtain ⟨-, -, -, -, -, -, -, -, -, -, -, -, -, -, -, e0, e1, e2⟩ := idx_facts t
  show (cfg1.win 4).cut (grid1.coords t) ((dat1 V c).after 4 t) = _
  rw [after1_4]
  funext y
  obtain ⟨u0, u1, tt, rfl⟩ : ∃ (u0 : Fin 1) (u1 : Fin 1) (tt : Fin 16), y = ix3 u0 u1 tt :=
    ⟨y 0, y 1, y 2, eq_ix3 (n0 := 1) (n1 := 1) (n2 := 16) y⟩
  obtain rfl : u0 = 0 := Subsingleton.elim _ _
  obtain rfl : u1 = 0 := Subsingleton.elim _ _
  have hR : ((cfg1.win 4).blk t).view.emb (ix3 (0 : Fin 1) (0 : Fin 1) tt)
      = (ix3 (⟨t.val / 4, by omega⟩ : Fin 8) (0 : Fin 1) tt : S8x1x16.Idx) := by
    funext a; apply Fin.ext
    match a with
    | ⟨0, _⟩ => show win1_4.index t (0 : Fin 3) * 1 + 1 * 0 = t.val / 4; omega
    | ⟨1, _⟩ => show win1_4.index t (1 : Fin 3) * 1 + 1 * 0 = 0; omega
    | ⟨2, _⟩ => show win1_4.index t (2 : Fin 3) * 16 + 1 * tt.val = tt.val; omega
  show outsAt1 V c t.val t.isLt (ix3 (0 : Fin 1) (0 : Fin 1) tt)
    = simArr X G sc sh (((cfg1.win 4).blk t).view.emb (ix3 (0 : Fin 1) (0 : Fin 1) tt))
  rw [hR]
  refine (acc_eq V c X G sc sh hx hg hsc hsh t.val t.isLt ⟨t.val / 4, by omega⟩ ⟨3, by omega⟩
    (by show t.val = 4 * (t.val / 4) + 3; omega) tt).trans ?_
  show ((∑ k ∈ Finset.range 4, blockSumN X G sc sh ⟨t.val / 4, by omega⟩ tt k : ℝ) : EReal) = _
  rw [Cert.Weighting.R1.sum_blocks]
  rfl

/-- THE SECOND REGION'S OUTPUT: at (b, 0, t) the sum over the frame's pixels of min (frame · scale − shift) (target map). -/
theorem r1_sim (b : Fin 8) (t : Fin 16) :
    (dat1 (F := Ideal) V c).arrAt 4 cfg1.N (ix3 b (0 : Fin 1) t)
      = ((∑ p : Cert.Weighting.Pix, min (Cert.Weighting.frame X b t p * sc b t - sh b t) (G b p) : ℝ) : EReal) :=
  congrFun ((dat1 V c).arrAt_eq_of_cover 4 (simArr X G sc sh) (flushed_eq V c X G sc sh hx hg hsc hsh) cover) (ix3 b (0 : Fin 1) t)

end AtIdeal

end Cert.KernelIdeal.KVal.R1

end
-- ==== Proof.K2Val.lean ====
import proofs.«171658_j72688026517959_1_alg».proof.Proof.Gen.KernelIdeal.Frame
import Idealize.ShloMosaic.Lib.Pipeline.Value
import Idealize.ShloMosaic.Lib.ValueIdx
import Idealize.ShloMosaic.Lib.ValueLayout

/-! # What the third kernel region leaves in its output array

The region multiplies every entry of the input `x[b, c, t, h, w]` by the weight `w[b, 0, t]` of its batch and
time: the output array after the region is, index by index, `x · w`. -/

set_option maxRecDepth 16384

noncomputable section

namespace Cert.KernelIdeal.KVal.R2

open Cert.KernelIdeal Cert.KernelIdeal.Gen Idealize.ShloMosaic Idealize.ShloMosaic.TcCoe Idealize.SL.Sem
open Idealize.ShloMosaic.Pipeline (Dat)
open Idealize.ShloMosaic.ValueIdx

/-- The body's product at an index of its block: the entry of the loaded `x` block there, times the entry of the
    loaded weight row at the index's time coordinate (the row is reshaped to `[1, 16, 1, 1]` and broadcast over the
    block's channels, rows and columns). -/
theorem product_apply (x0 : Vec Ideal S1x8x16x112x112 .f32) (x1 : Vec Ideal S1x1x16 .f32)
    (u : Fin 1) (k : Fin 8) (t : Fin 16) (h w : Fin 112) :
    k2_pay1 x0 x1 (ix5 u k t h w) = x0 (ix5 u k t h w) * x1 (ix3 (0 : Fin 1) (0 : Fin 1) t) := by
  have hu : u.val = 0 := by omega
  -- the block with its leading unit axis dropped, read at (k, t, h, w)
  have e1 : shapeCast S8x16x112x112 x0 shapeCasts_S1x8x16x112x112_S8x16x112x112 (ix4 k t h w) = x0 (ix5 u k t h w) :=
    shapeCast_apply x0 shapeCasts_S1x8x16x112x112_S8x16x112x112 (ix4 k t h w) (ix5 u k t h w) (by
      rw [Shape.rowMajor_val_five, Shape.rowMajor_val_four]
      show (((u.val * 8 + k.val) * 16 + t.val) * 112 + h.val) * 112 + w.val = ((k.val * 16 + t.val) * 112 + h.val) * 112 + w.val
      rw [hu, Nat.zero_mul, Nat.zero_add])
  -- the weight row as a vector of 16, read at t
  have e3 : shapeCast S16 (shapeCast S1x16 x1 shapeCasts_S1x1x16_S1x16) shapeCasts_S1x16_S16 (ix1 t)
      = x1 (ix3 (0 : Fin 1) (0 : Fin 1) t) := by
    refine (shapeCast_apply _ shapeCasts_S1x16_S16 (ix1 t) (ix2 (0 : Fin 1) t) (by
      rw [Shape.rowMajor_val_two, Shape.rowMajor_val_one]
      show 0 * 16 + t.val = t.val
      rw [Nat.zero_mul, Nat.zero_add])).trans ?_
    exact shapeCast_apply x1 shapeCasts_S1x1x16_S1x16 (ix2 (0 : Fin 1) t) (ix3 (0 : Fin 1) (0 : Fin 1) t) (by
      rw [Shape.rowMajor_val_three, Shape.rowMajor_val_two]
      show (0 * 1 + 0) * 16 + t.val = 0 * 16 + t.val
      rfl)
  -- the row reshaped to [1, 16, 1, 1] and broadcast over the block, read at (k, t, h, w)
  have e2 : broadcastTo S8x16x112x112 (shapeCast S1x16x1x1 (shapeCast S16 (shapeCast S1x16 x1 shapeCasts_S1x1x16_S1x16)
        shapeCasts_S1x16_S16) shapeCasts_S16_S1x16x1x1) broadcasts_S1x16x1x1_S8x16x112x112 (ix4 k t h w)
      = x1 (ix3 (0 : Fin 1) (0 : Fin 1) t) := by
    refine (broadcastTo_apply _ broadcasts_S1x16x1x1_S8x16x112x112 (ix4 k t h w)
      (ix4 (0 : Fin 1) t (0 : Fin 1) (0 : Fin 1)) (fun a => ?_)).trans ?_
    · match a with
      | ⟨0, _⟩ => rfl
      | ⟨1, _⟩ => rfl
      | ⟨2, _⟩ => rfl
      | ⟨3, _⟩ => rfl
    refine (shapeCast_apply _ shapeCasts_S16_S1x16x1x1 (ix4 (0 : Fin 1) t (0 : Fin 1) (0 : Fin 1)) (ix1 t) (by
      rw [Shape.rowMajor_val_four, Shape.rowMajor_val_one]
      show t.val = ((0 * 16 + t.val) * 1 + 0) * 1 + 0
      omega)).trans ?_
    exact e3
  unfold k2_pay1
  refine (shapeCast_apply _ shapeCasts_S8x16x112x112_S1x8x16x112x112 (ix5 u k t h w) (ix4 k t h w) (by
    rw [Shape.rowMajor_val_five, Shape.rowMajor_val_four]
    show ((k.val * 16 + t.val) * 112 + h.val) * 112 + w.val = (((u.val * 8 + k.val) * 16 + t.val) * 112 + h.val) * 112 + w.val
    rw [hu, Nat.zero_mul, Nat.zero_add])).trans ?_
  refine (mulf_apply _ _ (ix4 k t h w)).trans ?_
  exact congrArg₂ (· * ·) e1 e2

variable (V : (c : Dev nD) → (b : Ref sig .tc) → Buf (Elt Ideal) ((c : Thread nD τ).loc b))

/-- The region's input array `x`, as the region finds it: a function of the five coordinates. -/
abbrev xarr (c : Dev nD) : S8x32x16x112x112.Idx → EReal := V c (Pipeline.arrRef spec2 0)

/-- The region's weight array `w`, as the region finds it: a function of batch, a unit axis and time. -/
abbrev warr (c : Dev nD) : S8x1x16.Idx → EReal := V c (Pipeline.arrRef spec2 1)

/-- What the output array ends holding: every entry of `x` times the weight of its batch and time. -/
abbrev G (a0 : S8x32x16x112x112.Idx → EReal) (a1 : S8x1x16.Idx → EReal) : S8x32x16x112x112.Idx → EReal :=
  fun i => a0 i * a1 (ix3 (i 0) (0 : Fin 1) (i 2))

theorem zeros5 : (![0, 0, 0, 0, 0] : Fin 5 → Nat) = fun _ => 0 := funext fun a => by fin_cases a <;> rfl
theorem zeros3 : (![0, 0, 0] : Fin 3 → Nat) = fun _ => 0 := funext fun a => by fin_cases a <;> rfl

/-- The index maps over the 32 grid points: the `x` block and the output block sit at the same block index
    (batch, channel group, and zero on the three whole axes); the weight block sits at the same batch, zero elsewhere;
    the point `4·b + g` has batch `b` and channel group `g`. -/
theorem block_index_facts : ∀ t : Fin cfg2.N,
    win2_0.index t (0 : Fin 5) = win2_2.index t (0 : Fin 5)
    ∧ win2_0.index t (1 : Fin 5) = win2_2.index t (1 : Fin 5)
    ∧ win2_0.index t (2 : Fin 5) = win2_2.index t (2 : Fin 5)
    ∧ win2_0.index t (3 : Fin 5) = win2_2.index t (3 : Fin 5)
    ∧ win2_0.index t (4 : Fin 5) = win2_2.index t (4 : Fin 5)
    ∧ win2_1.index t (0 : Fin 3) = win2_2.index t (0 : Fin 5)
    ∧ win2_1.index t (1 : Fin 3) = 0
    ∧ win2_1.index t (2 : Fin 3) = 0
    ∧ win2_2.index t (0 : Fin 5) = t.val / 4
    ∧ win2_2.index t (1 : Fin 5) = t.val % 4
    ∧ win2_2.index t (2 : Fin 5) = 0
    ∧ win2_2.index t (3 : Fin 5) = 0
    ∧ win2_2.index t (4 : Fin 5) = 0 :=
  (by decide +kernel : ∀ t : Fin grid2.N, _)

/-- WHAT POINT `t` WRITES BACK is block `t` of `G` of the two input arrays as the region finds them. -/
theorem writeback_eq (c : Dev nD) (t : Fin cfg2.N) :
    (dat2 V c).flushed 2 t = ((cfg2.win 2).blk t).view.read (Elt Ideal) (G (xarr V c) (warr V c)) := by
  show (cfg2.win 2).cut (grid2.coords t) ((dat2 V c).after 2 t) = _
  rw [after2_2]
  unfold out2_2
  rw [View.canon_unit_zero zeros5]
  simp only [View.ld_unit_zero (S := S1x8x16x112x112) zeros5, View.ld_unit_zero (S := S1x1x16) zeros3]
  obtain ⟨e0, e1, e2, e3, e4, f0, f1, f2, g0, g1, g2, g3, g4⟩ := block_index_facts t
  refine funext fun (j : S1x8x16x112x112.Idx) => ?_
  obtain ⟨u, k, t', h, w, rfl⟩ : ∃ u k t' h w, j = ix5 u k t' h w := ⟨j 0, j 1, j 2, j 3, j 4, eq_ix5 j⟩
  have hu : u.val = 0 := by omega
  show k2_pay1 (iblk2 V c 0 t) (iblk2 V c 1 t) (ix5 u k t' h w)
    = G (xarr V c) (warr V c) (((cfg2.win 2).blk t).view.emb (ix5 u k t' h w))
  refine (product_apply (iblk2 V c 0 t) (iblk2 V c 1 t) u k t' h w).trans ?_
  -- each input block reads its array where the output's rectangle says
  have h0 : ((cfg2.win 0).blk t).view.emb (ix5 u k t' h w) = ((cfg2.win 2).blk t).view.emb (ix5 u k t' h w) := by
    funext a; apply Fin.ext
    match a with
    | ⟨0, _⟩ => show win2_0.index t (0 : Fin 5) * 1 + 1 * u.val = win2_2.index t (0 : Fin 5) * 1 + 1 * u.val; omega
    | ⟨1, _⟩ => show win2_0.index t (1 : Fin 5) * 8 + 1 * k.val = win2_2.index t (1 : Fin 5) * 8 + 1 * k.val; omega
    | ⟨2, _⟩ => show win2_0.index t (2 : Fin 5) * 16 + 1 * t'.val = win2_2.index t (2 : Fin 5) * 16 + 1 * t'.val; omega
    | ⟨3, _⟩ => show win2_0.index t (3 : Fin 5) * 112 + 1 * h.val = win2_2.index t (3 : Fin 5) * 112 + 1 * h.val; omega
    | ⟨4, _⟩ => show win2_0.index t (4 : Fin 5) * 112 + 1 * w.val = win2_2.index t (4 : Fin 5) * 112 + 1 * w.val; omega
  have h1 : ((cfg2.win 1).blk t).view.emb (ix3 (0 : Fin 1) (0 : Fin 1) t')
      = ix3 ((((cfg2.win 2).blk t).view.emb (ix5 u k t' h w)) 0) (0 : Fin 1) ((((cfg2.win 2).blk t).view.emb (ix5 u k t' h w)) 2) := by
    funext a; apply Fin.ext
    match a with
    | ⟨0, _⟩ => show win2_1.index t (0 : Fin 3) * 1 + 1 * 0 = win2_2.index t (0 : Fin 5) * 1 + 1 * u.val; omega
    | ⟨1, _⟩ => show win2_1.index t (1 : Fin 3) * 1 + 1 * 0 = 0; omega
    | ⟨2, _⟩ => show win2_1.index t (2 : Fin 3) * 16 + 1 * t'.val = win2_2.index t (2 : Fin 5) * 16 + 1 * t'.val; omega
  show xarr V c (((cfg2.win 0).blk t).view.emb (ix5 u k t' h w))
      * warr V c (((cfg2.win 1).blk t).view.emb (ix3 (0 : Fin 1) (0 : Fin 1) t'))
    = xarr V c (((cfg2.win 2).blk t).view.emb (ix5 u k t' h w))
      * warr V c (ix3 ((((cfg2.win 2).blk t).view.emb (ix5 u k t' h w)) 0) (0 : Fin 1) ((((cfg2.win 2).blk t).view.emb (ix5 u k t' h w)) 2))
  exact congrArg₂ (· * ·) (congrArg (xarr V c) h0) (congrArg (warr V c) h1)

/-- An index of the array is in point `t`'s block iff each coordinate is in the block's range on its axis. -/
theorem mem_block (t : Fin cfg2.N) (i : S8x32x16x112x112.Idx) :
    i ∈ ((cfg2.win 2).blk t).view.set ↔ ∀ a : Fin 5, win2_2.index t a * S1x8x16x112x112.size a ≤ (i a).val
      ∧ (i a).val < win2_2.index t a * S1x8x16x112x112.size a + S1x8x16x112x112.size a := by
  show i ∈ ((View.whole main_v84).slice (win2_2.rect t)).set ↔ _
  rw [View.set_slice_whole, Rect.mem_set_unit]
  exact Iff.rfl

/-- Every (batch, channel group) is SOME point's block index. -/
theorem block_index_onto : ∀ (q0 : Fin 8) (q1 : Fin 4), ∃ t : Fin cfg2.N, win2_2.index t = ![q0.val, q1.val, 0, 0, 0] :=
  (by decide +kernel : ∀ (q0 : Fin 8) (q1 : Fin 4), ∃ t : Fin grid2.N, win2_2.index t = ![q0.val, q1.val, 0, 0, 0])

/-- The output's blocks cover the array: the index `(b, c', t, h, w)` is in the block of batch `b` and channel
    group `c' / 8`. -/
theorem blocks_cover (i : S8x32x16x112x112.Idx) :
    ∃ t : Fin cfg2.N, (cfg2.win 2).flush t = true ∧ i ∈ ((cfg2.win 2).blk t).view.set := by
  have hi0 : (i 0).val < 8 := (i 0).isLt
  have hi1 : (i 1).val < 32 := (i 1).isLt
  have hi2 : (i 2).val < 16 := (i 2).isLt
  have hi3 : (i 3).val < 112 := (i 3).isLt
  have hi4 : (i 4).val < 112 := (i 4).isLt
  obtain ⟨t, ht⟩ := block_index_onto ⟨(i 0).val, hi0⟩ ⟨(i 1).val / 8, by omega⟩
  have q0 : win2_2.index t (0 : Fin 5) = (i 0).val := congrFun ht 0
  have q1 : win2_2.index t (1 : Fin 5) = (i 1).val / 8 := congrFun ht 1
  have q2 : win2_2.index t (2 : Fin 5) = 0 := congrFun ht 2
  have q3 : win2_2.index t (3 : Fin 5) = 0 := congrFun ht 3
  have q4 : win2_2.index t (4 : Fin 5) = 0 := congrFun ht 4
  refine ⟨t, flush2_2 t, ?_⟩
  rw [mem_block]
  intro a
  match a with
  | ⟨0, _⟩ => show win2_2.index t (0 : Fin 5) * 1 ≤ (i 0).val ∧ (i 0).val < win2_2.index t (0 : Fin 5) * 1 + 1; omega
  | ⟨1, _⟩ => show win2_2.index t (1 : Fin 5) * 8 ≤ (i 1).val ∧ (i 1).val < win2_2.index t (1 : Fin 5) * 8 + 8; omega
  | ⟨2, _⟩ => show win2_2.index t (2 : Fin 5) * 16 ≤ (i 2).val ∧ (i 2).val < win2_2.index t (2 : Fin 5) * 16 + 16; omega
  | ⟨3, _⟩ => show win2_2.index t (3 : Fin 5) * 112 ≤ (i 3).val ∧ (i 3).val < win2_2.index t (3 : Fin 5) * 112 + 112; omega
  | ⟨4, _⟩ => show win2_2.index t (4 : Fin 5) * 112 ≤ (i 4).val ∧ (i 4).val < win2_2.index t (4 : Fin 5) * 112 + 112; omega

/-- THE ARRAY after the region: `G` of the two input arrays, everywhere. -/
theorem out_eq (c : Dev nD) : (dat2 V c).arrAt 2 cfg2.N = G (xarr V c) (warr V c) :=
  (dat2 V c).arrAt_eq_of_cover 2 (G (xarr V c) (warr V c)) (fun t _ => writeback_eq V c t) blocks_cover

/-- The output array after the third region, entry by entry: the input `x` at the entry times the weight of the entry's
    batch and time. -/
theorem r2_out (c : Dev nD) (b : Fin 8) (c' : Fin 32) (t : Fin 16) (h w : Fin 112) :
    (Gen.dat2 (F := Ideal) V c).arrAt 2 cfg2.N (ix5 b c' t h w)
      = xarr V c (ix5 b c' t h w) * warr V c (ix3 b (0 : Fin 1) t) :=
  congrFun (out_eq V c) (ix5 b c' t h w)

end Cert.KernelIdeal.KVal.R2

end
-- ==== Proof.KValue.lean ====
/-
  The kernel program's value chain, read through its five segments. The first region leaves, for every frame, the sums
  the scores need and, for every batch entry, the target map; the first host stretch turns them into CC in covariance
  form and into one scale and one shift per map; the second region sums the pointwise minimum of the two normalised
  maps (SIM); the second host stretch is the tail the two programs share; the third region multiplies the input by
  the weight of its batch entry and time step. Over an input of real numbers with no constant frame and no constant
  target map, the CC and SIM arrays hold the real scores, and the result is the input times the tail function of them.
-/
import proofs.«171658_j72688026517959_1_alg».proof.Proof.KChain
import proofs.«171658_j72688026517959_1_alg».proof.Proof.KHost1
import proofs.«171658_j72688026517959_1_alg».proof.Proof.KHost1G
import proofs.«171658_j72688026517959_1_alg».proof.Proof.KHost1F
import proofs.«171658_j72688026517959_1_alg».proof.Proof.KHost2
import proofs.«171658_j72688026517959_1_alg».proof.Proof.K0Xm
import proofs.«171658_j72688026517959_1_alg».proof.Proof.K0Val
import proofs.«171658_j72688026517959_1_alg».proof.Proof.K0MinMax
import proofs.«171658_j72688026517959_1_alg».proof.Proof.K1Val
import proofs.«171658_j72688026517959_1_alg».proof.Proof.K2Val
import proofs.«171658_j72688026517959_1_alg».proof.Proof.Spec
import proofs.«171658_j72688026517959_1_alg».proof.Proof.Tail
import Idealize.ShloMosaic.Lib.StableHlo.Run
import Idealize.ShloMosaic.Lib.Pipeline.Value
import Idealize.ShloMosaic.Lib.ValueIdx

noncomputable section

namespace Cert.KernelIdeal.KVal

open Cert.KernelIdeal Cert.KernelIdeal.Gen Idealize.ShloMosaic Idealize.ShloMosaic.TcCoe Idealize.SL.Sem
open Idealize.ShloMosaic.StableHlo Idealize.ShloMosaic.ValueIdx

/-! ## The two reshapes between [8, 1, 16] and [8, 16]: the unit axis carries no position -/

/-- A [8, 1, 16] array reshaped to [8, 16], read at a batch entry and a time step. -/
theorem reshape_sim_apply (y : S8x1x16.Idx → EReal) (b : Fin 8) (t : Fin 16) :
    (shapeCast S8x16 y shapeCasts_S8x1x16_S8x16) (ix2 b t) = y (ix3 b (0 : Fin 1) t) :=
  shapeCast_apply y shapeCasts_S8x1x16_S8x16 (ix2 b t) (ix3 b (0 : Fin 1) t) (by
    rw [Shape.rowMajor_val_three, Shape.rowMajor_val_two]
    show (b.val * 1 + 0) * 16 + t.val = b.val * 16 + t.val
    omega)

namespace Chain

/-- A [8, 16] array reshaped to [8, 1, 16], read at a batch entry and a time step. -/
theorem reshape_weight_apply (y : S8x16.Idx → EReal) (b : Fin 8) (t : Fin 16) :
    (shapeCast S8x1x16 y shapeCasts_S8x16_S8x1x16) (ix3 b (0 : Fin 1) t) = y (ix2 b t) :=
  shapeCast_apply y shapeCasts_S8x16_S8x1x16 (ix3 b (0 : Fin 1) t) (ix2 b t) (by
    rw [Shape.rowMajor_val_three, Shape.rowMajor_val_two]
    show b.val * 16 + t.val = (b.val * 1 + 0) * 16 + t.val
    omega)

end Chain

namespace Chain

open Cert.Weighting

section Scores

variable (m : (ℓ : Loc nD τ sig) → Buf (Elt Ideal) ℓ) (ρ : Dev nD → PrngReg) (c : Dev nD)

/-- The input array at launch, as a function of the five coordinates. -/
abbrev xin : S8x32x16x112x112.Idx → EReal := m ((c : Thread nD τ).loc main_arg0)
/-- The CC array at the second region's exit, one number per batch entry and time step. -/
abbrev ccArr : S8x16.Idx → EReal := W3 m ρ c (Proc.devRef .tc main_v40)
/-- The SIM array at the second region's exit, with its unit axis. -/
abbrev simArr : S8x1x16.Idx → EReal := W3 m ρ c (Proc.devRef .tc main_v69)
/-- The result array at the third region's exit. -/
abbrev outArr : S8x32x16x112x112.Idx → EReal := W5 m ρ c (Proc.devRef .tc main_v84)

variable (X : Arr) (hx : ∀ b c' t h w, xin m c (ix5 b c' t h w) = ((X b c' t h w : ℝ) : EReal))
include hx

/-! ## The six arrays of the first region, at its exit, over the real numbers -/

/-- The target maps. -/
theorem w1_xm (b : Fin 8) (c' : Fin 32) (h w : Fin 112) :
    (W1 m ρ c (Proc.devRef .tc main_v0_0) : S8x32x112x112.Idx → EReal) (ix4 b c' h w)
      = ((gmap X b (c', h, w) : ℝ) : EReal) :=
  (congrFun (W1_arr m ρ c 1) _).trans (r0_xm (V0 m ρ) c X hx b c' h w)

/-- The sum of each frame. -/
theorem w1_sx (b : Fin 8) (t : Fin 16) :
    (W1 m ρ c (Proc.devRef .tc main_v0_1) : S8x1x16.Idx → EReal) (ix3 b (0 : Fin 1) t)
      = ((∑ p : Pix, frame X b t p : ℝ) : EReal) :=
  (congrFun (W1_arr m ρ c 2) _).trans (r0_sx (V0 m ρ) c X hx b t)

/-- The sum of squares of each frame. -/
theorem w1_sxx (b : Fin 8) (t : Fin 16) :
    (W1 m ρ c (Proc.devRef .tc main_v0_2) : S8x1x16.Idx → EReal) (ix3 b (0 : Fin 1) t)
      = ((∑ p : Pix, frame X b t p * frame X b t p : ℝ) : EReal) :=
  (congrFun (W1_arr m ρ c 3) _).trans (r0_sxx (V0 m ρ) c X hx b t)

/-- The sum of products of each frame with its target map. -/
theorem w1_cr (b : Fin 8) (t : Fin 16) :
    (W1 m ρ c (Proc.devRef .tc main_v0_3) : S8x1x16.Idx → EReal) (ix3 b (0 : Fin 1) t)
      = ((∑ p : Pix, frame X b t p * gmap X b p : ℝ) : EReal) :=
  (congrFun (W1_arr m ρ c 4) _).trans (r0_cr (V0 m ρ) c X hx b t)

/-- The least value of each frame. -/
theorem w1_mn (b : Fin 8) (t : Fin 16) :
    (W1 m ρ c (Proc.devRef .tc main_v0_4) : S8x1x16.Idx → EReal) (ix3 b (0 : Fin 1) t)
      = ((lo (frame X b t) : ℝ) : EReal) :=
  (congrFun (W1_arr m ρ c 5) _).trans (r0_mn (V0 m ρ) c X hx b t)

/-- The greatest value of each frame. -/
theorem w1_mx (b : Fin 8) (t : Fin 16) :
    (W1 m ρ c (Proc.devRef .tc main_v0_5) : S8x1x16.Idx → EReal) (ix3 b (0 : Fin 1) t)
      = ((hi (frame X b t) : ℝ) : EReal) :=
  (congrFun (W1_arr m ρ c 6) _).trans (r0_mx (V0 m ρ) c X hx b t)

end Scores

end Chain

open Cert.Weighting Chain

section Top

variable (m : (ℓ : Loc nD τ sig) → Buf (Elt Ideal) ℓ) (ρ : Dev nD → PrngReg) (c : Dev nD)
variable (X : Arr) (hx : ∀ b c' t h w, xin m c (ix5 b c' t h w) = ((X b c' t h w : ℝ) : EReal)) (hX : NonDeg X)
include hx hX

/-- The CC array at the second region's exit is CC in covariance form of each frame against its target map: the
    first host stretch computes it from the first region's six arrays, and the second region does not touch it. -/
theorem kval_cc (b : Fin 8) (t : Fin 16) :
    ccArr m ρ c (ix2 b t) = ((ccKer (frame X b t) (gmap X b) : ℝ) : EReal) :=
  (congrFun (W3_cc m ρ c) _).trans
    (host1_cc (W1 m ρ c) X hX (w1_xm m ρ c X hx) (w1_sx m ρ c X hx) (w1_sxx m ρ c X hx) (w1_cr m ρ c X hx) b t)

/-- The SIM array at the second region's exit is SIM of each frame against its target map, both normalised by one
    scale and one shift: the second region sums the pointwise minimum of the frame times its scale less its shift and
    of the normalised target map, the three of them made by the first host stretch. -/
theorem kval_sim (b : Fin 8) (t : Fin 16) :
    simArr m ρ c (ix3 b (0 : Fin 1) t) = ((simKer (frame X b t) (gmap X b) : ℝ) : EReal) :=
  (congrFun (W3_arr m ρ c 4) _).trans
    (R1.r1_sim (V2 m ρ) c X (fun b p => normKer (gmap X b) p) (fun b t => scale (frame X b t))
      (fun b t => shift (frame X b t))
      (fun b c' t h w => (congrFun (W2_arg m ρ c) _).trans (hx b c' t h w))
      (host1_gn (W1 m ρ c) X hX (w1_xm m ρ c X hx))
      (host1_scale (W1 m ρ c) X hX (w1_sx m ρ c X hx) (w1_mn m ρ c X hx) (w1_mx m ρ c X hx))
      (host1_shift (W1 m ρ c) X hX (w1_sx m ρ c X hx) (w1_mn m ρ c X hx) (w1_mx m ρ c X hx)) b t)

end Top

section Result

variable (m : (ℓ : Loc nD τ sig) → Buf (Elt Ideal) ℓ) (ρ : Dev nD → PrngReg) (c : Dev nD)

/-! ## The result: every entry of the input times the weight of its batch entry and time step -/

/-- The third region's result is the input times the weight array, and the weight array is the shared tail function of
    the CC array and of the SIM array as they stand at the second region's exit. -/
theorem kval_out (b : Fin 8) (c' : Fin 32) (t : Fin 16) (h w : Fin 112) :
    outArr m ρ c (ix5 b c' t h w)
      = xin m c (ix5 b c' t h w)
        * Cert.Weighting.tailW bcast_S_S8x16 reducesTo_S8x16_S8_d1 h_S_ bcast_S8_S8x1_0 bcast_S8x1_S8x16_0_1
            (ccArr m ρ c) (shapeCast S8x16 (simArr m ρ c) shapeCasts_S8x1x16_S8x16) (ix2 b t) := by
  have hx4 : R2.xarr (V4 m ρ) c = xin m c := W4_arg m ρ c
  have hw4 : R2.warr (V4 m ρ) c
      = shapeCast S8x1x16
          (Cert.Weighting.tailW bcast_S_S8x16 reducesTo_S8x16_S8_d1 h_S_ bcast_S8_S8x1_0 bcast_S8x1_S8x16_0_1
            (ccArr m ρ c) (shapeCast S8x16 (simArr m ρ c) shapeCasts_S8x1x16_S8x16))
          shapeCasts_S8x16_S8x1x16 := host2 (W3 m ρ c)
  calc outArr m ρ c (ix5 b c' t h w)
      = (dat2 (V4 m ρ) c).arrAt 2 cfg2.N (ix5 b c' t h w) := congrFun (W5_arr m ρ c 2) _
    _ = R2.xarr (V4 m ρ) c (ix5 b c' t h w) * R2.warr (V4 m ρ) c (ix3 b (0 : Fin 1) t) :=
        R2.r2_out (V4 m ρ) c b c' t h w
    _ = _ := by rw [hx4, hw4, reshape_weight_apply]

end Result

end Cert.KernelIdeal.KVal

end
-- ==== Proof.RefRunA.lean ====
/- The reference program as a line of its 118 operations, and its run as a fold.
   The program is the line of its operations one after the other; the line is cut into four consecutive stretches
   (the first two make the program's first window, the last two its second). Every weakly fair execution terminates,
   and each buffer then holds the fold of the four stretches' operations, in order, over the launch contents. -/
import proofs.«171658_j72688026517959_1_alg».proof.Proof.Gen.ReferenceIdeal
import Idealize.ShloMosaic.Lib.StableHlo.Run
import Idealize.ShloMosaic.Lib.Pipeline.Regions

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! The operations, in program order, in four consecutive stretches. -/

/-- Operations 1 … 26 of 118. -/
abbrev ops1 : List (HloOp τ sig (Elt F)) :=
  [
    nullary main_cst (constant S_ .f32 0x00000000#32),
    binary main_arg0 main_cst main_v0 ((fun x v => Host.reduceAdd x v reducesTo_S8x32x16x112x112_S8x32x112x112_d2 h_S_) : (⟨S8x32x16x112x112, .f32⟩ : BufTy).Contents (Elt F) → (⟨S_, .f32⟩ : BufTy).Contents (Elt F) → (⟨S8x32x112x112, .f32⟩ : BufTy).Contents (Elt F)),
    nullary main_cst_0 (constant S_ .f32 0x41800000#32),
    unary main_cst_0 main_v1 (broadcastInDim S8x32x112x112 ![] bcast_S_S8x32x112x112 : (⟨S_, .f32⟩ : BufTy).Contents (Elt F) → (⟨S8x32x112x112, .f32⟩ : BufTy).Contents (Elt F)),
    binary main_v0 main_v1 main_v2 (Host.divf : (⟨S8x32x112x112, .f32⟩ : BufTy).Contents (Elt F) → (⟨S8x32x112x112, .f32⟩ : BufTy).Contents (Elt F) → (⟨S8x32x112x112, .f32⟩ : BufTy).Contents (Elt F)),
    unary main_arg0 main_v3 ((transpose S8x16x32x112x112 [0, 2, 1, 3, 4] · transposes_S8x32x16x112x112_S8x16x32x112x112_0_2_1_3_4) : (⟨S8x32x16x112x112, .f32⟩ : BufTy).Contents (Elt F) → (⟨S8x16x32x112x112, .f32⟩ : BufTy).Contents (Elt F)),
    nullary main_cst_1 (constant S_ .f32 0x00000000#32),
    binary main_v3 main_cst_1 main_v4 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v4 main_v5 (broadcastInDim S8x16x1x1x1 ![0, 1] bcast_S8x16_S8x16x1x1x1_0_1 : (⟨S8x16, .f32⟩ : BufTy).Contents (Elt F) → (⟨S8x16x1x1x1, .f32⟩ : BufTy).Contents (Elt F)),
    nullary main_cst_2 (constant S_ .f32 0x48C40000#32),
    unary main_cst_2 main_v6 (broadcastInDim S8x16x1x1x1 ![] bcast_S_S8x16x1x1x1 : (⟨S_, .f32⟩ : BufTy).Contents (Elt F) → (⟨S8x16x1x1x1, .f32⟩ : BufTy).Contents (Elt F)),
    binary main_v5 main_v6 main_v7 (Host.divf : (⟨S8x16x1x1x1, .f32⟩ : BufTy).Contents (Elt F) → (⟨S8x16x1x1x1, .f32⟩ : BufTy).Contents (Elt F) → (⟨S8x16x1x1x1, .f32⟩ : BufTy).Contents (Elt F)),
    unary main_v7 main_v8 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v3 main_v8 main_v9 (subf : (⟨S8x16x32x112x112, .f32⟩ : BufTy).Contents (Elt F) → (⟨S8x16x32x112x112, .f32⟩ : BufTy).Contents (Elt F) → (⟨S8x16x32x112x112, .f32⟩ : BufTy).Contents (Elt F)),
    binary main_v9 main_v9 main_v10 (mulf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_3 (constant S_ .f32 0x00000000#32),
    binary main_v10 main_cst_3 main_v11 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v11 main_v12 (broadcastInDim S8x16x1x1x1 ![0, 1] bcast_S8x16_S8x16x1x1x1_0_1 : (⟨S8x16, .f32⟩ : BufTy).Contents (Elt F) → (⟨S8x16x1x1x1, .f32⟩ : BufTy).Contents (Elt F)),
    nullary main_cst_4 (constant S_ .f32 0x48C3FFE0#32),
    unary main_cst_4 main_v13 (broadcastInDim S8x16x1x1x1 ![] bcast_S_S8x16x1x1x1 : (⟨S_, .f32⟩ : BufTy).Contents (Elt F) → (⟨S8x16x1x1x1, .f32⟩ : BufTy).Contents (Elt F)),
    binary main_v12 main_v13 main_v14 (Host.divf : (⟨S8x16x1x1x1, .f32⟩ : BufTy).Contents (Elt F) → (⟨S8x16x1x1x1, .f32⟩ : BufTy).Contents (Elt F) → (⟨S8x16x1x1x1, .f32⟩ : BufTy).Contents (Elt F)),
    unary main_v14 main_v15 (Host.sqrt : (⟨S8x16x1x1x1, .f32⟩ : BufTy).Contents (Elt F) → (⟨S8x16x1x1x1, .f32⟩ : BufTy).Contents (Elt F)),
    unary main_v7 main_v16 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v3 main_v16 main_v17 (subf : (⟨S8x16x32x112x112, .f32⟩ : BufTy).Contents (Elt F) → (⟨S8x16x32x112x112, .f32⟩ : BufTy).Contents (Elt F) → (⟨S8x16x32x112x112, .f32⟩ : BufTy).Contents (Elt F)),
    unary main_v15 main_v18 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v17 main_v18 main_v19 (Host.divf : (⟨S8x16x32x112x112, .f32⟩ : BufTy).Contents (Elt F) → (⟨S8x16x32x112x112, .f32⟩ : BufTy).Contents (Elt F) → (⟨S8x16x32x112x112, .f32⟩ : BufTy).Contents (Elt F)) ]

/-- Operations 27 … 60 of 118. -/
abbrev ops2 : List (HloOp τ sig (Elt F)) :=
  [
    nullary main_cst_5 (constant S_ .f32 0x00000000#32),
    binary main_v2 main_cst_5 main_v20 ((fun x v => Host.reduceAdd x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v20 main_v21 (broadcastInDim S8x1x1x1 ![0] bcast_S8_S8x1x1x1_0 : (⟨S8, .f32⟩ : BufTy).Contents (Elt F) → (⟨S8x1x1x1, .f32⟩ : BufTy).Contents (Elt F)),
    nullary main_cst_6 (constant S_ .f32 0x48C40000#32),
    unary main_cst_6 main_v22 (broadcastInDim S8x1x1x1 ![] bcast_S_S8x1x1x1 : (⟨S_, .f32⟩ : BufTy).Contents (Elt F) → (⟨S8x1x1x1, .f32⟩ : BufTy).Contents (Elt F)),
    binary main_v21 main_v22 main_v23 (Host.divf : (⟨S8x1x1x1, .f32⟩ : BufTy).Contents (Elt F) → (⟨S8x1x1x1, .f32⟩ : BufTy).Contents (Elt F) → (⟨S8x1x1x1, .f32⟩ : BufTy).Contents (Elt F)),
    unary main_v23 main_v24 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v2 main_v24 main_v25 (subf : (⟨S8x32x112x112, .f32⟩ : BufTy).Contents (Elt F) → (⟨S8x32x112x112, .f32⟩ : BufTy).Contents (Elt F) → (⟨S8x32x112x112, .f32⟩ : BufTy).Contents (Elt F)),
    binary main_v25 main_v25 main_v26 (mulf : (⟨S8x32x112x112, .f32⟩ : BufTy).Contents (Elt F) → (⟨S8x32x112x112, .f32⟩ : BufTy).Contents (Elt F) → (⟨S8x32x112x112, .f32⟩ : BufTy).Contents (Elt F)),
    nullary main_cst_7 (constant S_ .f32 0x00000000#32),
    binary main_v26 main_cst_7 main_v27 ((fun x v => Host.reduceAdd x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v27 main_v28 (broadcastInDim S8x1x1x1 ![0] bcast_S8_S8x1x1x1_0 : (⟨S8, .f32⟩ : BufTy).Contents (Elt F) → (⟨S8x1x1x1, .f32⟩ : BufTy).Contents (Elt F)),
    nullary main_cst_8 (constant S_ .f32 0x48C3FFE0#32),
    unary main_cst_8 main_v29 (broadcastInDim S8x1x1x1 ![] bcast_S_S8x1x1x1 : (⟨S_, .f32⟩ : BufTy).Contents (Elt F) → (⟨S8x1x1x1, .f32⟩ : BufTy).Contents (Elt F)),
    binary main_v28 main_v29 main_v30 (Host.divf : (⟨S8x1x1x1, .f32⟩ : BufTy).Contents (Elt F) → (⟨S8x1x1x1, .f32⟩ : BufTy).Contents (Elt F) → (⟨S8x1x1x1, .f32⟩ : BufTy).Contents (Elt F)),
    unary main_v30 main_v31 (Host.sqrt : (⟨S8x1x1x1, .f32⟩ : BufTy).Contents (Elt F) → (⟨S8x1x1x1, .f32⟩ : BufTy).Contents (Elt F)),
    unary main_v23 main_v32 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v2 main_v32 main_v33 (subf : (⟨S8x32x112x112, .f32⟩ : BufTy).Contents (Elt F) → (⟨S8x32x112x112, .f32⟩ : BufTy).Contents (Elt F) → (⟨S8x32x112x112, .f32⟩ : BufTy).Contents (Elt F)),
    unary main_v31 main_v34 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v33 main_v34 main_v35 (Host.divf : (⟨S8x32x112x112, .f32⟩ : BufTy).Contents (Elt F) → (⟨S8x32x112x112, .f32⟩ : BufTy).Contents (Elt F) → (⟨S8x32x112x112, .f32⟩ : BufTy).Contents (Elt F)),
    binary main_v35 main_v35 main_v36 (mulf : (⟨S8x32x112x112, .f32⟩ : BufTy).Contents (Elt F) → (⟨S8x32x112x112, .f32⟩ : BufTy).Contents (Elt F) → (⟨S8x32x112x112, .f32⟩ : BufTy).Contents (Elt F)),
    nullary main_cst_9 (constant S_ .f32 0x00000000#32),
    binary main_v36 main_cst_9 main_v37 ((fun x v => Host.reduceAdd x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v35 main_v38 (broadcastInDim S8x1x32x112x112 ![0, 2, 3, 4] bcast_S8x32x112x112_S8x1x32x112x112_0_2_3_4 : (⟨S8x32x112x112, .f32⟩ : BufTy).Contents (Elt F) → (⟨S8x1x32x112x112, .f32⟩ : BufTy).Contents (Elt F)),
    unary main_v38 main_v39 (broadcastInDim S8x16x32x112x112 ![0, 1, 2, 3, 4] bcast_S8x1x32x112x112_S8x16x32x112x112_0_1_2_3_4 : (⟨S8x1x32x112x112, .f32⟩ : BufTy).Contents (Elt F) → (⟨S8x16x32x112x112, .f32⟩ : BufTy).Contents (Elt F)),
    binary main_v19 main_v39 main_v40 (mulf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_10 (constant S_ .f32 0x00000000#32),
    binary main_v40 main_cst_10 main_v41 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    binary main_v19 main_v19 main_v42 (mulf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_11 (constant S_ .f32 0x00000000#32),
    binary main_v42 main_cst_11 main_v43 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v37 main_v44 (broadcastInDim S8x1 ![0] bcast_S8_S8x1_0 : (⟨S8, .f32⟩ : BufTy).Contents (Elt F) → (⟨S8x1, .f32⟩ : BufTy).Contents (Elt F)),
    unary main_v44 main_v45 (broadcastInDim S8x16 ![0, 1] bcast_S8x1_S8x16_0_1 : (⟨S8x1, .f32⟩ : BufTy).Contents (Elt F) → (⟨S8x16, .f32⟩ : BufTy).Contents (Elt F)),
    binary main_v43 main_v45 main_v46 (mulf : (⟨S8x16, .f32⟩ : BufTy).Contents (Elt F) → (⟨S8x16, .f32⟩ : BufTy).Contents (Elt F) → (⟨S8x16, .f32⟩ : BufTy).Contents (Elt F)) ]

/-- Operations 61 … 78 of 118. -/
abbrev ops3 : List (HloOp τ sig (Elt F)) :=
  [
    unary main_v46 main_v47 (Host.sqrt : (⟨S8x16, .f32⟩ : BufTy).Contents (Elt F) → (⟨S8x16, .f32⟩ : BufTy).Contents (Elt F)),
    binary main_v41 main_v47 main_v48 (Host.divf : (⟨S8x16, .f32⟩ : BufTy).Contents (Elt F) → (⟨S8x16, .f32⟩ : BufTy).Contents (Elt F) → (⟨S8x16, .f32⟩ : BufTy).Contents (Elt F)),
    nullary main_cst_12 (constant S_ .f32 0x7F800000#32),
    binary main_v3 main_cst_12 main_v49 ((fun x v => Host.reduce FloatOps.minimumf x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v49 main_v50 (broadcastInDim S8x16x1x1x1 ![0, 1] bcast_S8x16_S8x16x1x1x1_0_1 : (⟨S8x16, .f32⟩ : BufTy).Contents (Elt F) → (⟨S8x16x1x1x1, .f32⟩ : BufTy).Contents (Elt F)),
    nullary main_cst_13 (constant S_ .f32 0xFF800000#32),
    binary main_v3 main_cst_13 main_v51 ((fun x v => Host.reduce FloatOps.maximumf x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v51 main_v52 (broadcastInDim S8x16x1x1x1 ![0, 1] bcast_S8x16_S8x16x1x1x1_0_1 : (⟨S8x16, .f32⟩ : BufTy).Contents (Elt F) → (⟨S8x16x1x1x1, .f32⟩ : BufTy).Contents (Elt F)),
    unary main_v50 main_v53 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v3 main_v53 main_v54 (subf : (⟨S8x16x32x112x112, .f32⟩ : BufTy).Contents (Elt F) → (⟨S8x16x32x112x112, .f32⟩ : BufTy).Contents (Elt F) → (⟨S8x16x32x112x112, .f32⟩ : BufTy).Contents (Elt F)),
    binary main_v52 main_v50 main_v55 (subf : (⟨S8x16x1x1x1, .f32⟩ : BufTy).Contents (Elt F) → (⟨S8x16x1x1x1, .f32⟩ : BufTy).Contents (Elt F) → (⟨S8x16x1x1x1, .f32⟩ : BufTy).Contents (Elt F)),
    unary main_v55 main_v56 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v54 main_v56 main_v57 (Host.divf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_14 (constant S_ .f32 0x00000000#32),
    binary main_v57 main_cst_14 main_v58 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v58 main_v59 (broadcastInDim S8x16x1x1x1 ![0, 1] bcast_S8x16_S8x16x1x1x1_0_1 : (⟨S8x16, .f32⟩ : BufTy).Contents (Elt F) → (⟨S8x16x1x1x1, .f32⟩ : BufTy).Contents (Elt F)),
    unary main_v59 main_v60 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v57 main_v60 main_v61 (Host.divf : (⟨S8x16x32x112x112, .f32⟩ : BufTy).Contents (Elt F) → (⟨S8x16x32x112x112, .f32⟩ : BufTy).Contents (Elt F) → (⟨S8x16x32x112x112, .f32⟩ : BufTy).Contents (Elt F)) ]

/-- Operations 79 … 118 of 118. -/
abbrev ops4 : List (HloOp τ sig (Elt F)) :=
  [
    nullary main_cst_15 (constant S_ .f32 0x7F800000#32),
    binary main_v2 main_cst_15 main_v62 ((fun x v => Host.reduce FloatOps.minimumf x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v62 main_v63 (broadcastInDim S8x1x1x1 ![0] bcast_S8_S8x1x1x1_0 : (⟨S8, .f32⟩ : BufTy).Contents (Elt F) → (⟨S8x1x1x1, .f32⟩ : BufTy).Contents (Elt F)),
    nullary main_cst_16 (constant S_ .f32 0xFF800000#32),
    binary main_v2 main_cst_16 main_v64 ((fun x v => Host.reduce FloatOps.maximumf x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v64 main_v65 (broadcastInDim S8x1x1x1 ![0] bcast_S8_S8x1x1x1_0 : (⟨S8, .f32⟩ : BufTy).Contents (Elt F) → (⟨S8x1x1x1, .f32⟩ : BufTy).Contents (Elt F)),
    unary main_v63 main_v66 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v2 main_v66 main_v67 (subf : (⟨S8x32x112x112, .f32⟩ : BufTy).Contents (Elt F) → (⟨S8x32x112x112, .f32⟩ : BufTy).Contents (Elt F) → (⟨S8x32x112x112, .f32⟩ : BufTy).Contents (Elt F)),
    binary main_v65 main_v63 main_v68 (subf : (⟨S8x1x1x1, .f32⟩ : BufTy).Contents (Elt F) → (⟨S8x1x1x1, .f32⟩ : BufTy).Contents (Elt F) → (⟨S8x1x1x1, .f32⟩ : BufTy).Contents (Elt F)),
    unary main_v68 main_v69 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v67 main_v69 main_v70 (Host.divf : (⟨S8x32x112x112, .f32⟩ : BufTy).Contents (Elt F) → (⟨S8x32x112x112, .f32⟩ : BufTy).Contents (Elt F) → (⟨S8x32x112x112, .f32⟩ : BufTy).Contents (Elt F)),
    nullary main_cst_17 (constant S_ .f32 0x00000000#32),
    binary main_v70 main_cst_17 main_v71 ((fun x v => Host.reduceAdd x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v71 main_v72 (broadcastInDim S8x1x1x1 ![0] bcast_S8_S8x1x1x1_0 : (⟨S8, .f32⟩ : BufTy).Contents (Elt F) → (⟨S8x1x1x1, .f32⟩ : BufTy).Contents (Elt F)),
    unary main_v72 main_v73 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v70 main_v73 main_v74 (Host.divf : (⟨S8x32x112x112, .f32⟩ : BufTy).Contents (Elt F) → (⟨S8x32x112x112, .f32⟩ : BufTy).Contents (Elt F) → (⟨S8x32x112x112, .f32⟩ : BufTy).Contents (Elt F)),
    unary main_v74 main_v75 (broadcastInDim S8x1x32x112x112 ![0, 2, 3, 4] bcast_S8x32x112x112_S8x1x32x112x112_0_2_3_4 : (⟨S8x32x112x112, .f32⟩ : BufTy).Contents (Elt F) → (⟨S8x1x32x112x112, .f32⟩ : BufTy).Contents (Elt F)),
    unary main_v75 main_v76 (broadcastInDim S8x16x32x112x112 ![0, 1, 2, 3, 4] bcast_S8x1x32x112x112_S8x16x32x112x112_0_1_2_3_4 : (⟨S8x1x32x112x112, .f32⟩ : BufTy).Contents (Elt F) → (⟨S8x16x32x112x112, .f32⟩ : BufTy).Contents (Elt F)),
    binary main_v61 main_v76 main_v77 (minimumf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_18 (constant S_ .f32 0x00000000#32),
    binary main_v77 main_cst_18 main_v78 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    nullary main_cst_19 (constant S_ .f32 0x3E99999A#32),
    unary main_cst_19 main_v79 (broadcastInDim S8x16 ![] bcast_S_S8x16 : (⟨S_, .f32⟩ : BufTy).Contents (Elt F) → (⟨S8x16, .f32⟩ : BufTy).Contents (Elt F)),
    binary main_v79 main_v48 main_v80 (mulf : (⟨S8x16, .f32⟩ : BufTy).Contents (Elt F) → (⟨S8x16, .f32⟩ : BufTy).Contents (Elt F) → (⟨S8x16, .f32⟩ : BufTy).Contents (Elt F)),
    nullary main_cst_20 (constant S_ .f32 0x3F333333#32),
    unary main_cst_20 main_v81 (broadcastInDim S8x16 ![] bcast_S_S8x16 : (⟨S_, .f32⟩ : BufTy).Contents (Elt F) → (⟨S8x16, .f32⟩ : BufTy).Contents (Elt F)),
    binary main_v81 main_v78 main_v82 (mulf : (⟨S8x16, .f32⟩ : BufTy).Contents (Elt F) → (⟨S8x16, .f32⟩ : BufTy).Contents (Elt F) → (⟨S8x16, .f32⟩ : BufTy).Contents (Elt F)),
    binary main_v80 main_v82 main_v83 (addf : (⟨S8x16, .f32⟩ : BufTy).Contents (Elt F) → (⟨S8x16, .f32⟩ : BufTy).Contents (Elt F) → (⟨S8x16, .f32⟩ : BufTy).Contents (Elt F)),
    nullary main_cst_21 (constant S_ .f32 0x3F800000#32),
    unary main_cst_21 main_v84 (broadcastInDim S8x16 ![] bcast_S_S8x16 : (⟨S_, .f32⟩ : BufTy).Contents (Elt F) → (⟨S8x16, .f32⟩ : BufTy).Contents (Elt F)),
    binary main_v84 main_v83 main_v85 (subf : (⟨S8x16, .f32⟩ : BufTy).Contents (Elt F) → (⟨S8x16, .f32⟩ : BufTy).Contents (Elt F) → (⟨S8x16, .f32⟩ : BufTy).Contents (Elt F)),
    nullary main_cst_22 (constant S_ .f32 0xFF800000#32),
    binary main_v85 main_cst_22 main_v86 ((fun x v => Host.reduce FloatOps.maximumf x v reducesTo_S8x16_S8_d1 h_S_) : (⟨S8x16, .f32⟩ : BufTy).Contents (Elt F) → (⟨S_, .f32⟩ : BufTy).Contents (Elt F) → (⟨S8, .f32⟩ : BufTy).Contents (Elt F)),
    unary main_v86 main_v87 (broadcastInDim S8x1 ![0] bcast_S8_S8x1_0 : (⟨S8, .f32⟩ : BufTy).Contents (Elt F) → (⟨S8x1, .f32⟩ : BufTy).Contents (Elt F)),
    unary main_v87 main_v88 (broadcastInDim S8x16 ![0, 1] bcast_S8x1_S8x16_0_1 : (⟨S8x1, .f32⟩ : BufTy).Contents (Elt F) → (⟨S8x16, .f32⟩ : BufTy).Contents (Elt F)),
    binary main_v85 main_v88 main_v89 (Host.divf : (⟨S8x16, .f32⟩ : BufTy).Contents (Elt F) → (⟨S8x16, .f32⟩ : BufTy).Contents (Elt F) → (⟨S8x16, .f32⟩ : BufTy).Contents (Elt F)),
    unary main_v89 main_v90 (Host.exp : (⟨S8x16, .f32⟩ : BufTy).Contents (Elt F) → (⟨S8x16, .f32⟩ : BufTy).Contents (Elt F)),
    unary main_v90 main_v91 (broadcastInDim S8x1x16x1x1 ![0, 2] bcast_S8x16_S8x1x16x1x1_0_2 : (⟨S8x16, .f32⟩ : BufTy).Contents (Elt F) → (⟨S8x1x16x1x1, .f32⟩ : BufTy).Contents (Elt F)),
    unary main_v91 main_v92 (broadcastInDim S8x32x16x112x112 ![0, 1, 2, 3, 4] bcast_S8x1x16x1x1_S8x32x16x112x112_0_1_2_3_4 : (⟨S8x1x16x1x1, .f32⟩ : BufTy).Contents (Elt F) → (⟨S8x32x16x112x112, .f32⟩ : BufTy).Contents (Elt F)),
    binary main_arg0 main_v92 main_v93 (mulf : (⟨S8x32x16x112x112, .f32⟩ : BufTy).Contents (Elt F) → (⟨S8x32x16x112x112, .f32⟩ : BufTy).Contents (Elt F) → (⟨S8x32x16x112x112, .f32⟩ : BufTy).Contents (Elt F)) ]

/-! Each window of the program is the line of its two stretches (both sides unfold to the same sequence of steps). -/

set_option maxRecDepth 8192 in
set_option maxHeartbeats 4000000 in
theorem main_part0_eq (c : Dev nD) : main_part0 (F := F) c = seq (ops1 ++ ops2) := by chain_rfl

set_option maxRecDepth 8192 in
set_option maxHeartbeats 4000000 in
theorem main_part1_eq (c : Dev nD) : main_part1 (F := F) c = seq (ops3 ++ ops4) := by chain_rfl

/-- The whole program is the line of all its operations: two lines run one after the other are their concatenation. -/
theorem main_eq (c : Dev nD) : main (F := F) c = seq ((ops1 ++ ops2) ++ (ops3 ++ ops4)) := by
  rw [seq_append, ← main_part0_eq c, ← main_part1_eq c]; rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and determines its result. -/

set_option maxRecDepth 8192 in
theorem ops1_sub : (ops1 : List (HloOp τ sig (Elt F))).Forall fun op => op.bufs ⊆ tcRefs τ sig :=
  ⟨nullary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., binary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., binary_bufs_sub .., binary_bufs_sub .., nullary_bufs_sub .., binary_bufs_sub .., unary_bufs_sub .., unary_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_sub : (ops3 : List (HloOp τ sig (Elt F))).Forall fun op => op.bufs ⊆ tcRefs τ sig :=
  ⟨unary_bufs_sub .., binary_bufs_sub .., nullary_bufs_sub .., binary_bufs_sub .., unary_bufs_sub .., nullary_bufs_sub .., binary_bufs_sub .., unary_bufs_sub .., unary_bufs_sub .., binary_bufs_sub .., binary_bufs_sub .., unary_bufs_sub .., binary_bufs_sub .., nullary_bufs_sub .., binary_bufs_sub .., unary_bufs_sub .., unary_bufs_sub .., binary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl⟩

set_option maxRecDepth 8192 in
theorem ops4_sub : (ops4 : List (HloOp τ sig (Elt F))).Forall fun op => op.bufs ⊆ tcRefs τ sig :=
  ⟨nullary_bufs_sub .., binary_bufs_sub .., unary_bufs_sub .., nullary_bufs_sub .., binary_bufs_sub .., unary_bufs_sub .., unary_bufs_sub .., binary_bufs_sub .., binary_bufs_sub .., unary_bufs_sub .., binary_bufs_sub .., nullary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., unary_bufs_sub .., unary_bufs_sub .., binary_bufs_sub .., unary_bufs_sub .., unary_bufs_sub .., unary_bufs_sub .., binary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A property of every element of two lists holds of every element of the two in a row. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem ops_sub : (((ops1 ++ ops2) ++ (ops3 ++ ops4)) : List (HloOp τ sig (Elt F))).Forall fun op => op.bufs ⊆ tcRefs τ sig :=
  forall_append (forall_append ops1_sub ops2_sub) (forall_append ops3_sub ops4_sub)

theorem ops_fresh : ∀ op ∈ (((ops1 ++ ops2) ++ (ops3 ++ ops4)) : List (HloOp τ sig (Elt F))), op.fresh = ∅ :=
  List.forall_iff_forall_mem.1 (forall_append (forall_append ops1_fresh ops2_fresh) (forall_append ops3_fresh ops4_fresh))

/-- The fold over two lines in a row is the second line's fold after the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- What the buffers hold after all four stretches: the stretches' folds, one after the other. -/
theorem after_all (V : Valuation τ sig (Elt F)) :
    after ((ops1 ++ ops2) ++ (ops3 ++ ops4)) V = after ops4 (after ops3 (after ops2 (after ops1 V))) := by
  rw [after_app, after_app, after_app]

/-- On every device, from any memory with zero counters, every weakly fair execution of the program terminates with
    each buffer at the fold of the four stretches over its launch contents. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after ops4 (after ops3 (after ops2 (after ops1 (launchContents m d)))) (Proc.devRef .tc b) :=
  (θ_run defs _ _).mono (fun _ h d b => (h d b).trans (congrFun (after_all _) _))
    (run_seq scopedRefs_eq scopedSems_eq defs main (fun _ => (ops1 ++ ops2) ++ (ops3 ++ ops4)) main_eq (fun _ => ops_sub) m ρ
      (fun _ => ops_fresh))

end Cert.ReferenceIdeal.RRun

end
-- ==== Proof.RefRunB.lean ====
/- What each stretch of the reference program leaves in the buffers that a later stretch (or the result) reads.
   Each operation writes its function's value of its operands into its own buffer and leaves every other buffer; so if
   the buffers a stretch reads hold their stage values of the argument x0 when the stretch starts, a buffer it writes
   holds ITS stage value of x0 when it ends (the stage functions are defined operation by operation, each from the
   earlier ones, exactly as the operations compose), and a buffer it does not write holds what it held. -/
import proofs.«171658_j72688026517959_1_alg».proof.Proof.RefRunA
import proofs.«171658_j72688026517959_1_alg».proof.Proof.RefRead

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! Stretch 1 (operations 1 … 26). -/

/-- No operation of stretch 1 writes this buffer. -/
theorem s1_keep_main_arg0 (W : Valuation τ sig (Elt F)) :
    after ops1 W (Proc.devRef .tc main_arg0) = W (Proc.devRef .tc main_arg0) := by
  unfold ops1
  after_results_simp

set_option maxRecDepth 8192 in
set_option maxHeartbeats 4000000 in
theorem s1_main_v2 (W : Valuation τ sig (Elt F)) (x0 : (⟨S8x32x16x112x112, .f32⟩ : BufTy).Contents (Elt F))
    (h_main_arg0 : W (Proc.devRef .tc main_arg0) = x0) :
    after ops1 W (Proc.devRef .tc main_v2) = Read.val_main_v2 (F := F) x0 := by
  unfold ops1
  after_results_simp
  rw [h_main_arg0]
  simp only [Read.val_main_v2, Read.val_main_v1, Read.val_main_cst_0, Read.val_main_v0, Read.val_main_cst]

set_option maxRecDepth 8192 in
set_option maxHeartbeats 4000000 in
theorem s1_main_v19 (W : Valuation τ sig (Elt F)) (x0 : (⟨S8x32x16x112x112, .f32⟩ : BufTy).Contents (Elt F))
    (h_main_arg0 : W (Proc.devRef .tc main_arg0) = x0) :
    after ops1 W (Proc.devRef .tc main_v19) = Read.val_main_v19 (F := F) x0 := by
  unfold ops1
  after_results_simp
  rw [h_main_arg0]
  simp only [Read.val_main_v19, Read.val_main_v18, Read.val_main_v15, Read.val_main_v14, Read.val_main_v13, Read.val_main_cst_4, Read.val_main_v12, Read.val_main_v11, Read.val_main_cst_3, Read.val_main_v10, Read.val_main_v9, Read.val_main_v8, Read.val_main_v17, Read.val_main_v16, Read.val_main_v7, Read.val_main_v6, Read.val_main_cst_2, Read.val_main_v5, Read.val_main_v4, Read.val_main_cst_1, Read.val_main_v3]

set_option maxRecDepth 8192 in
set_option maxHeartbeats 4000000 in
theorem s1_main_v3 (W : Valuation τ sig (Elt F)) (x0 : (⟨S8x32x16x112x112, .f32⟩ : BufTy).Contents (Elt F))
    (h_main_arg0 : W (Proc.devRef .tc main_arg0) = x0) :
    after ops1 W (Proc.devRef .tc main_v3) = Read.val_main_v3 (F := F) x0 := by
  unfold ops1
  after_results_simp
  rw [h_main_arg0]
  simp only [Read.val_main_v3]

/-! Stretch 2 (operations 27 … 60). -/

/-- No operation of stretch 2 writes this buffer. -/
theorem s2_keep_main_arg0 (W : Valuation τ sig (Elt F)) :
    after ops2 W (Proc.devRef .tc main_arg0) = W (Proc.devRef .tc main_arg0) := by
  unfold ops2
  after_results_simp

set_option maxRecDepth 8192 in
set_option maxHeartbeats 4000000 in
theorem s2_main_v46 (W : Valuation τ sig (Elt F)) (x0 : (⟨S8x32x16x112x112, .f32⟩ : BufTy).Contents (Elt F))
    (h_main_v19 : W (Proc.devRef .tc main_v19) = Read.val_main_v19 (F := F) x0)
    (h_main_v2 : W (Proc.devRef .tc main_v2) = Read.val_main_v2 (F := F) x0) :
    after ops2 W (Proc.devRef .tc main_v46) = Read.val_main_v46 (F := F) x0 := by
  unfold ops2
  after_results_simp
  rw [h_main_v19]
  rw [h_main_v2]
  simp only [Read.val_main_v46, Read.val_main_v45, Read.val_main_v44, Read.val_main_v37, Read.val_main_cst_9, Read.val_main_v36, Read.val_main_v35, Read.val_main_v34, Read.val_main_v31, Read.val_main_v30, Read.val_main_v29, Read.val_main_cst_8, Read.val_main_v28, Read.val_main_v27, Read.val_main_cst_7, Read.val_main_v26, Read.val_main_v25, Read.val_main_v24, Read.val_main_v33, Read.val_main_v32, Read.val_main_v23, Read.val_main_v22, Read.val_main_cst_6, Read.val_main_v21, Read.val_main_v20, Read.val_main_cst_5, Read.val_main_v43, Read.val_main_cst_11, Read.val_main_v42]

set_option maxRecDepth 8192 in
set_option maxHeartbeats 4000000 in
theorem s2_main_v41 (W : Valuation τ sig (Elt F)) (x0 : (⟨S8x32x16x112x112, .f32⟩ : BufTy).Contents (Elt F))
    (h_main_v19 : W (Proc.devRef .tc main_v19) = Read.val_main_v19 (F := F) x0)
    (h_main_v2 : W (Proc.devRef .tc main_v2) = Read.val_main_v2 (F := F) x0) :
    after ops2 W (Proc.devRef .tc main_v41) = Read.val_main_v41 (F := F) x0 := by
  unfold ops2
  after_results_simp
  rw [h_main_v19]
  rw [h_main_v2]
  simp only [Read.val_main_v41, Read.val_main_cst_10, Read.val_main_v40, Read.val_main_v39, Read.val_main_v38, Read.val_main_v35, Read.val_main_v34, Read.val_main_v31, Read.val_main_v30, Read.val_main_v29, Read.val_main_cst_8, Read.val_main_v28, Read.val_main_v27, Read.val_main_cst_7, Read.val_main_v26, Read.val_main_v25, Read.val_main_v24, Read.val_main_v33, Read.val_main_v32, Read.val_main_v23, Read.val_main_v22, Read.val_main_cst_6, Read.val_main_v21, Read.val_main_v20, Read.val_main_cst_5]

/-- No operation of stretch 2 writes this buffer. -/
theorem s2_keep_main_v3 (W : Valuation τ sig (Elt F)) :
    after ops2 W (Proc.devRef .tc main_v3) = W (Proc.devRef .tc main_v3) := by
  unfold ops2
  after_results_simp

/-- No operation of stretch 2 writes this buffer. -/
theorem s2_keep_main_v2 (W : Valuation τ sig (Elt F)) :
    after ops2 W (Proc.devRef .tc main_v2) = W (Proc.devRef .tc main_v2) := by
  unfold ops2
  after_results_simp

/-! Stretch 3 (operations 61 … 78). -/

/-- No operation of stretch 3 writes this buffer. -/
theorem s3_keep_main_arg0 (W : Valuation τ sig (Elt F)) :
    after ops3 W (Proc.devRef .tc main_arg0) = W (Proc.devRef .tc main_arg0) := by
  unfold ops3
  after_results_simp

/-- No operation of stretch 3 writes this buffer. -/
theorem s3_keep_main_v2 (W : Valuation τ sig (Elt F)) :
    after ops3 W (Proc.devRef .tc main_v2) = W (Proc.devRef .tc main_v2) := by
  unfold ops3
  after_results_simp

set_option maxRecDepth 8192 in
set_option maxHeartbeats 4000000 in
theorem s3_main_v61 (W : Valuation τ sig (Elt F)) (x0 : (⟨S8x32x16x112x112, .f32⟩ : BufTy).Contents (Elt F))
    (h_main_v3 : W (Proc.devRef .tc main_v3) = Read.val_main_v3 (F := F) x0) :
    after ops3 W (Proc.devRef .tc main_v61) = Read.val_main_v61 (F := F) x0 := by
  unfold ops3
  after_results_simp
  rw [h_main_v3]
  simp only [Read.val_main_v61, Read.val_main_v60, Read.val_main_v59, Read.val_main_v58, Read.val_main_cst_14, Read.val_main_v57, Read.val_main_v56, Read.val_main_v55, Read.val_main_v52, Read.val_main_v51, Read.val_main_cst_13, Read.val_main_v54, Read.val_main_v53, Read.val_main_v50, Read.val_main_v49, Read.val_main_cst_12]

set_option maxRecDepth 8192 in
set_option maxHeartbeats 4000000 in
theorem s3_main_v48 (W : Valuation τ sig (Elt F)) (x0 : (⟨S8x32x16x112x112, .f32⟩ : BufTy).Contents (Elt F))
    (h_main_v41 : W (Proc.devRef .tc main_v41) = Read.val_main_v41 (F := F) x0)
    (h_main_v46 : W (Proc.devRef .tc main_v46) = Read.val_main_v46 (F := F) x0) :
    after ops3 W (Proc.devRef .tc main_v48) = Read.val_main_v48 (F := F) x0 := by
  unfold ops3
  after_results_simp
  rw [h_main_v41]
  rw [h_main_v46]
  simp only [Read.val_main_v48, Read.val_main_v47]

/-! Stretch 4 (operations 79 … 118). -/

/-- No operation of stretch 4 writes this buffer. -/
theorem s4_keep_main_arg0 (W : Valuation τ sig (Elt F)) :
    after ops4 W (Proc.devRef .tc main_arg0) = W (Proc.devRef .tc main_arg0) := by
  unfold ops4
  after_results_simp

set_option maxRecDepth 8192 in
set_option maxHeartbeats 4000000 in
theorem s4_main_v93 (W : Valuation τ sig (Elt F)) (x0 : (⟨S8x32x16x112x112, .f32⟩ : BufTy).Contents (Elt F))
    (h_main_arg0 : W (Proc.devRef .tc main_arg0) = x0)
    (h_main_v48 : W (Proc.devRef .tc main_v48) = Read.val_main_v48 (F := F) x0)
    (h_main_v61 : W (Proc.devRef .tc main_v61) = Read.val_main_v61 (F := F) x0)
    (h_main_v2 : W (Proc.devRef .tc main_v2) = Read.val_main_v2 (F := F) x0) :
    after ops4 W (Proc.devRef .tc main_v93) = Read.val_main_v93 (F := F) x0 := by
  unfold ops4
  after_results_simp
  rw [h_main_arg0]
  rw [h_main_v48]
  rw [h_main_v61]
  rw [h_main_v2]
  simp only [Read.val_main_v93, Read.val_main_v92, Read.val_main_v91, Read.val_main_v90, Read.val_main_v89, Read.val_main_v88, Read.val_main_v87, Read.val_main_v86, Read.val_main_cst_22, Read.val_main_v85, Read.val_main_v83, Read.val_main_v82, Read.val_main_v78, Read.val_main_cst_18, Read.val_main_v77, Read.val_main_v76, Read.val_main_v75, Read.val_main_v74, Read.val_main_v73, Read.val_main_v72, Read.val_main_v71, Read.val_main_cst_17, Read.val_main_v70, Read.val_main_v69, Read.val_main_v68, Read.val_main_v65, Read.val_main_v64, Read.val_main_cst_16, Read.val_main_v67, Read.val_main_v66, Read.val_main_v63, Read.val_main_v62, Read.val_main_cst_15, Read.val_main_v81, Read.val_main_cst_20, Read.val_main_v80, Read.val_main_v79, Read.val_main_cst_19, Read.val_main_v84, Read.val_main_cst_21]

end Cert.ReferenceIdeal.RRun

end
-- ==== Proof.RefRun.lean ====
/- The reference program's run, read at the stage functions: every weakly fair execution terminates with the result
   buffer at the last stage's value of the argument's launch contents, the argument unchanged. The four stretches are
   taken one after the other: after each, every buffer a later stretch reads holds its stage value of the argument. -/
import proofs.«171658_j72688026517959_1_alg».proof.Proof.RefRunB

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

theorem value (V : Valuation τ sig (Elt F)) :
    after ops4 (after ops3 (after ops2 (after ops1 V))) (Proc.devRef .tc main_v93) = Read.val_main_v93 (F := F) (V (Proc.devRef .tc main_arg0))
    ∧ after ops4 (after ops3 (after ops2 (after ops1 V))) (Proc.devRef .tc main_arg0) = V (Proc.devRef .tc main_arg0) := by
  -- what stretch 1 leaves
  have e1_arg0 : after ops1 V (Proc.devRef .tc main_arg0) = (V (Proc.devRef .tc main_arg0)) := s1_keep_main_arg0 _
  have e1_v2 := s1_main_v2 V (V (Proc.devRef .tc main_arg0)) rfl
  have e1_v19 := s1_main_v19 V (V (Proc.devRef .tc main_arg0)) rfl
  have e1_v3 := s1_main_v3 V (V (Proc.devRef .tc main_arg0)) rfl
  -- what stretch 2 leaves
  have e2_arg0 := (s2_keep_main_arg0 (after ops1 V)).trans e1_arg0
  have e2_v46 := s2_main_v46 (after ops1 V) (V (Proc.devRef .tc main_arg0)) e1_v19 e1_v2
  have e2_v41 := s2_main_v41 (after ops1 V) (V (Proc.devRef .tc main_arg0)) e1_v19 e1_v2
  have e2_v3 := (s2_keep_main_v3 (after ops1 V)).trans e1_v3
  have e2_v2 := (s2_keep_main_v2 (after ops1 V)).trans e1_v2
  -- what stretch 3 leaves
  have e3_arg0 := (s3_keep_main_arg0 (after ops2 (after ops1 V))).trans e2_arg0
  have e3_v2 := (s3_keep_main_v2 (after ops2 (after ops1 V))).trans e2_v2
  have e3_v61 := s3_main_v61 (after ops2 (after ops1 V)) (V (Proc.devRef .tc main_arg0)) e2_v3
  have e3_v48 := s3_main_v48 (after ops2 (after ops1 V)) (V (Proc.devRef .tc main_arg0)) e2_v41 e2_v46
  -- what stretch 4 leaves
  have e4_arg0 := (s4_keep_main_arg0 (after ops3 (after ops2 (after ops1 V)))).trans e3_arg0
  have e4_v93 := s4_main_v93 (after ops3 (after ops2 (after ops1 V))) (V (Proc.devRef .tc main_arg0)) e3_arg0 e3_v48 e3_v61 e3_v2
  exact ⟨e4_v93, e4_arg0⟩

/-- On every device, for any float values, from any memory with zero counters: every weakly fair execution of the
    program terminates with the result buffer at the last stage's value of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93) = Cert.ReferenceIdeal.Read.val_main_v93 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v93).trans (value (launchContents m c)).1,
      (h c main_arg0).trans (value (launchContents m c)).2⟩)
    (run_after m ρ)

end Cert.ReferenceIdeal.RRun

end
-- ==== Proof.RefBase.lean ====
/-
  The reference's two base arrays, over the real numbers: the input with the time axis moved before the channel axis,
  and the target map of each batch entry, the mean of its sixteen frames.
-/
import proofs.«171658_j72688026517959_1_alg».proof.Proof.RefRead
import proofs.«171658_j72688026517959_1_alg».proof.Proof.Spec
import proofs.«171658_j72688026517959_1_alg».proof.Proof.LibFibre

noncomputable section

namespace Cert.ReferenceIdeal.RVal

open Cert.ReferenceIdeal Cert.ReferenceIdeal.Gen Idealize.ShloMosaic Idealize.ShloMosaic.ValueIdx Cert.Weighting

/-- The transposed array holds the input's entries, time before channel. -/
theorem xt_val (x : FVec Ideal S8x32x16x112x112 .f32) (X : Cert.Weighting.Arr)
    (hx : ∀ b c t h w, x (ix5 b c t h w) = ((X b c t h w : ℝ) : EReal))
    (b : Fin 8) (t : Fin 16) (c : Fin 32) (h w : Fin 112) :
    Read.val_main_v3 (F := Ideal) x (ix5 b t c h w) = ((X b c t h w : ℝ) : EReal) := by
  rw [Read.val_main_v3_apply]
  have hi : Read.idx_main_v3 (ix5 b t c h w) = ix5 b c t h w :=
    funext fun a => Fin.ext (by
      match a with
      | ⟨0, _⟩ => rfl
      | ⟨1, _⟩ => rfl
      | ⟨2, _⟩ => rfl
      | ⟨3, _⟩ => rfl
      | ⟨4, _⟩ => rfl)
  rw [hi, hx]

/-- The target map: the sum of the sixteen frames of a batch entry over 16. -/
theorem xm_val (x : FVec Ideal S8x32x16x112x112 .f32) (X : Cert.Weighting.Arr)
    (hx : ∀ b c t h w, x (ix5 b c t h w) = ((X b c t h w : ℝ) : EReal))
    (b : Fin 8) (c : Fin 32) (h w : Fin 112) :
    Read.val_main_v2 (F := Ideal) x (ix4 b c h w) = ((Cert.Weighting.gmap X b (c, h, w) : ℝ) : EReal) := by
  rw [Read.val_main_v2_apply, Read.val_main_v0_apply, Read.val_main_v1_apply, Read.val_main_cst_0_apply,
    Read.val_main_cst_apply]
  have hs : ∀ k : Fin 16, x (Read.idx_main_v0 (ix4 b c h w) k) = ((X b c k h w : ℝ) : EReal) := fun k => by
    have hi : Read.idx_main_v0 (ix4 b c h w) k = ix5 b c k h w :=
      funext fun a => Fin.ext (by
        match a with
        | ⟨0, _⟩ => rfl
        | ⟨1, _⟩ => rfl
        | ⟨2, _⟩ => rfl
        | ⟨3, _⟩ => rfl
        | ⟨4, _⟩ => rfl)
    rw [hi, hx]
  rw [Finset.sum_congr rfl fun k _ => hs k, ← Cert.Weighting.Fibre.coe_sum, Ideal.hostDivf_def, Ideal.ofBits_def,
    Ideal.ofBits_def, Ideal.ofBits_zero_f32, zero_add, Cert.Weighting.Fibre.ofBits_16,
    Cert.Weighting.Fibre.div_coe _ _ (by norm_num)]
  rfl

end Cert.ReferenceIdeal.RVal

end
-- ==== Proof.RefCC.lean ====
/-
  The reference's CC score, over the real numbers. Each frame and each target map is standardised (centred by its mean,
  divided by its unbiased standard deviation), and the score of a frame against its target map is the inner product of
  the two standardised maps over the root of the product of their sums of squares. Every array of the computation holds
  real numbers: a divisor is the frame's size, the size less one, a standard deviation (non-zero because no map is
  constant) or the root of a product of two positive sums of squares, and each radicand is non-negative.
-/
import proofs.«171658_j72688026517959_1_alg».proof.Proof.RefBase
import proofs.«171658_j72688026517959_1_alg».proof.Proof.SpecLaws
import proofs.«171658_j72688026517959_1_alg».proof.Proof.LibFibre

noncomputable section

namespace Cert.ReferenceIdeal.RVal

open Cert.ReferenceIdeal Cert.ReferenceIdeal.Gen Idealize.ShloMosaic Idealize.ShloMosaic.ValueIdx Cert.Weighting
open Finset

/-- Two indices with equal coordinates are equal, axis by axis (rank 1, 2, 4, 5). -/
local macro "idx_eq1" : tactic =>
  `(tactic| exact funext fun a => Fin.ext (by match a with | ⟨0, _⟩ => rfl))
local macro "idx_eq2" : tactic =>
  `(tactic| exact funext fun a => Fin.ext (by match a with | ⟨0, _⟩ => rfl | ⟨1, _⟩ => rfl))
local macro "idx_eq4" : tactic =>
  `(tactic| exact funext fun a => Fin.ext (by match a with | ⟨0, _⟩ => rfl | ⟨1, _⟩ => rfl | ⟨2, _⟩ => rfl | ⟨3, _⟩ => rfl))
local macro "idx_eq5" : tactic =>
  `(tactic| exact funext fun a => Fin.ext (by
      match a with | ⟨0, _⟩ => rfl | ⟨1, _⟩ => rfl | ⟨2, _⟩ => rfl | ⟨3, _⟩ => rfl | ⟨4, _⟩ => rfl))

/-- The f32 word of the frame's size. -/
theorem ofBits_N : Ideal.ofBits .f32 0x48C40000#32 = ((N : ℝ) : EReal) := Fibre.ofBits_401408
/-- The f32 word of the frame's size less one. -/
theorem ofBits_N1 : Ideal.ofBits .f32 0x48C3FFE0#32 = ((N1 : ℝ) : EReal) := Fibre.ofBits_401407

section Stages

variable (x : FVec Ideal S8x32x16x112x112 .f32) (X : Cert.Weighting.Arr)
  (hx : ∀ b c t h w, x (ix5 b c t h w) = ((X b c t h w : ℝ) : EReal))
include hx

/-! ## The frames: mean, centred map, standard deviation, standardised map -/

/-- The transposed array at a pixel of a frame. -/
theorem xt_frame (b : Fin 8) (t : Fin 16) (c : Fin 32) (h w : Fin 112) :
    Read.val_main_v3 (F := Ideal) x (ix5 b t c h w) = ((frame X b t (c, h, w) : ℝ) : EReal) :=
  xt_val x X hx b t c h w

/-- The sum of a frame. -/
theorem v4_val (b : Fin 8) (t : Fin 16) :
    Read.val_main_v4 (F := Ideal) x (ix2 b t) = ((∑ p, frame X b t p : ℝ) : EReal) :=
  Fibre.reduceAdd_frames reducesTo_S8x16x32x112x112_S8x16_d2_3_4 h_S_ (Read.val_main_v3 (F := Ideal) x)
    (Read.val_main_cst_1 (F := Ideal)) (fun b t p => frame X b t p)
    (fun b t p => xt_val x X hx b t p.1 p.2.1 p.2.2) Ideal.ofBits_zero_f32 b t

/-- The mean of a frame, kept with three unit axes. -/
theorem v7_val (b : Fin 8) (t : Fin 16) :
    Read.val_main_v7 (F := Ideal) x (ix5 b t (0 : Fin 1) (0 : Fin 1) (0 : Fin 1))
      = ((mean (frame X b t) : ℝ) : EReal) := by
  have hi : Read.idx_main_v5 (ix5 b t (0 : Fin 1) (0 : Fin 1) (0 : Fin 1)) = ix2 b t := by idx_eq2
  unfold mean
  rw [Read.val_main_v7_apply, Read.val_main_v5_apply, Read.val_main_v6_apply, Read.val_main_cst_2_apply, hi,
    v4_val x X hx b t, Ideal.hostDivf_def, Ideal.ofBits_def, ofBits_N, Fibre.div_coe _ _ N_ne]

/-- The mean of a frame, at every pixel. -/
theorem v8_val (b : Fin 8) (t : Fin 16) (c : Fin 32) (h w : Fin 112) :
    Read.val_main_v8 (F := Ideal) x (ix5 b t c h w) = ((mean (frame X b t) : ℝ) : EReal) := by
  have hi : Read.idx_main_v8 (ix5 b t c h w) = ix5 b t (0 : Fin 1) (0 : Fin 1) (0 : Fin 1) := by idx_eq5
  rw [Read.val_main_v8_apply, hi, v7_val x X hx b t]

/-- The centred frame. -/
theorem v9_val (b : Fin 8) (t : Fin 16) (c : Fin 32) (h w : Fin 112) :
    Read.val_main_v9 (F := Ideal) x (ix5 b t c h w)
      = ((frame X b t (c, h, w) - mean (frame X b t) : ℝ) : EReal) := by
  rw [Read.val_main_v9_apply, xt_frame x X hx, v8_val x X hx, Ideal.subf_def, ← EReal.coe_sub]

/-- The centred frame, squared. -/
theorem v10_val (b : Fin 8) (t : Fin 16) (c : Fin 32) (h w : Fin 112) :
    Read.val_main_v10 (F := Ideal) x (ix5 b t c h w)
      = (((frame X b t (c, h, w) - mean (frame X b t)) * (frame X b t (c, h, w) - mean (frame X b t)) : ℝ) : EReal) := by
  rw [Read.val_main_v10_apply, v9_val x X hx, Ideal.mulf_def, ← EReal.coe_mul]

/-- The centred sum of squares of a frame. -/
theorem v11_val (b : Fin 8) (t : Fin 16) :
    Read.val_main_v11 (F := Ideal) x (ix2 b t)
      = ((∑ p, (frame X b t p - mean (frame X b t)) * (frame X b t p - mean (frame X b t)) : ℝ) : EReal) :=
  Fibre.reduceAdd_frames reducesTo_S8x16x32x112x112_S8x16_d2_3_4 h_S_ (Read.val_main_v10 (F := Ideal) x)
    (Read.val_main_cst_3 (F := Ideal))
    (fun b t p => (frame X b t p - mean (frame X b t)) * (frame X b t p - mean (frame X b t)))
    (fun b t p => v10_val x X hx b t p.1 p.2.1 p.2.2) Ideal.ofBits_zero_f32 b t

/-- The unbiased standard deviation of a frame, kept with three unit axes. -/
theorem v15_val (b : Fin 8) (t : Fin 16) :
    Read.val_main_v15 (F := Ideal) x (ix5 b t (0 : Fin 1) (0 : Fin 1) (0 : Fin 1))
      = ((stdRef (frame X b t) : ℝ) : EReal) := by
  have hi : Read.idx_main_v12 (ix5 b t (0 : Fin 1) (0 : Fin 1) (0 : Fin 1)) = ix2 b t := by idx_eq2
  unfold stdRef
  rw [Read.val_main_v15_apply, Read.val_main_v14_apply, Read.val_main_v12_apply, Read.val_main_v13_apply,
    Read.val_main_cst_4_apply, hi, v11_val x X hx b t, Ideal.hostDivf_def, Ideal.ofBits_def, ofBits_N1,
    Fibre.div_coe _ _ N1_ne, Ideal.hostUnary_sqrt_def, Fibre.sqrt_coe _ (var_ref_nonneg card_pix (frame X b t))]

/-- The mean of a frame, at every pixel (second copy). -/
theorem v16_val (b : Fin 8) (t : Fin 16) (c : Fin 32) (h w : Fin 112) :
    Read.val_main_v16 (F := Ideal) x (ix5 b t c h w) = ((mean (frame X b t) : ℝ) : EReal) := by
  have hi : Read.idx_main_v16 (ix5 b t c h w) = ix5 b t (0 : Fin 1) (0 : Fin 1) (0 : Fin 1) := by idx_eq5
  rw [Read.val_main_v16_apply, hi, v7_val x X hx b t]

/-- The centred frame (second copy). -/
theorem v17_val (b : Fin 8) (t : Fin 16) (c : Fin 32) (h w : Fin 112) :
    Read.val_main_v17 (F := Ideal) x (ix5 b t c h w)
      = ((frame X b t (c, h, w) - mean (frame X b t) : ℝ) : EReal) := by
  rw [Read.val_main_v17_apply, xt_frame x X hx, v16_val x X hx, Ideal.subf_def, ← EReal.coe_sub]

/-- The standard deviation of a frame, at every pixel. -/
theorem v18_val (b : Fin 8) (t : Fin 16) (c : Fin 32) (h w : Fin 112) :
    Read.val_main_v18 (F := Ideal) x (ix5 b t c h w) = ((stdRef (frame X b t) : ℝ) : EReal) := by
  have hi : Read.idx_main_v18 (ix5 b t c h w) = ix5 b t (0 : Fin 1) (0 : Fin 1) (0 : Fin 1) := by idx_eq5
  rw [Read.val_main_v18_apply, hi, v15_val x X hx b t]

/-- The standardised frame: a frame that is not constant has a non-zero standard deviation. -/
theorem v19_val (hX : NonDeg X) (b : Fin 8) (t : Fin 16) (c : Fin 32) (h w : Fin 112) :
    Read.val_main_v19 (F := Ideal) x (ix5 b t c h w) = ((zRef (frame X b t) (c, h, w) : ℝ) : EReal) := by
  unfold zRef
  rw [Read.val_main_v19_apply, v17_val x X hx, v18_val x X hx, Ideal.hostDivf_def,
    Fibre.div_coe _ _ (stdRef_ne card_pix (hX.1 b t))]

/-! ## The target maps: the same four stages, one map per batch entry -/

/-- The sum of a target map. -/
theorem v20_val (b : Fin 8) :
    Read.val_main_v20 (F := Ideal) x (ix1 b) = ((∑ p, gmap X b p : ℝ) : EReal) :=
  Fibre.reduceAdd_maps reducesTo_S8x32x112x112_S8_d1_2_3 h_S_ (Read.val_main_v2 (F := Ideal) x)
    (Read.val_main_cst_5 (F := Ideal)) (fun b p => gmap X b p)
    (fun b p => xm_val x X hx b p.1 p.2.1 p.2.2) Ideal.ofBits_zero_f32 b

/-- The mean of a target map, kept with three unit axes. -/
theorem v23_val (b : Fin 8) :
    Read.val_main_v23 (F := Ideal) x (ix4 b (0 : Fin 1) (0 : Fin 1) (0 : Fin 1))
      = ((mean (gmap X b) : ℝ) : EReal) := by
  have hi : Read.idx_main_v21 (ix4 b (0 : Fin 1) (0 : Fin 1) (0 : Fin 1)) = ix1 b := by idx_eq1
  unfold mean
  rw [Read.val_main_v23_apply, Read.val_main_v21_apply, Read.val_main_v22_apply, Read.val_main_cst_6_apply, hi,
    v20_val x X hx b, Ideal.hostDivf_def, Ideal.ofBits_def, ofBits_N, Fibre.div_coe _ _ N_ne]

/-- The mean of a target map, at every pixel. -/
theorem v24_val (b : Fin 8) (c : Fin 32) (h w : Fin 112) :
    Read.val_main_v24 (F := Ideal) x (ix4 b c h w) = ((mean (gmap X b) : ℝ) : EReal) := by
  have hi : Read.idx_main_v24 (ix4 b c h w) = ix4 b (0 : Fin 1) (0 : Fin 1) (0 : Fin 1) := by idx_eq4
  rw [Read.val_main_v24_apply, hi, v23_val x X hx b]

/-- The centred target map. -/
theorem v25_val (b : Fin 8) (c : Fin 32) (h w : Fin 112) :
    Read.val_main_v25 (F := Ideal) x (ix4 b c h w) = ((gmap X b (c, h, w) - mean (gmap X b) : ℝ) : EReal) := by
  rw [Read.val_main_v25_apply, xm_val x X hx, v24_val x X hx, Ideal.subf_def, ← EReal.coe_sub]

/-- The centred target map, squared. -/
theorem v26_val (b : Fin 8) (c : Fin 32) (h w : Fin 112) :
    Read.val_main_v26 (F := Ideal) x (ix4 b c h w)
      = (((gmap X b (c, h, w) - mean (gmap X b)) * (gmap X b (c, h, w) - mean (gmap X b)) : ℝ) : EReal) := by
  rw [Read.val_main_v26_apply, v25_val x X hx, Ideal.mulf_def, ← EReal.coe_mul]

/-- The centred sum of squares of a target map. -/
theorem v27_val (b : Fin 8) :
    Read.val_main_v27 (F := Ideal) x (ix1 b)
      = ((∑ p, (gmap X b p - mean (gmap X b)) * (gmap X b p - mean (gmap X b)) : ℝ) : EReal) :=
  Fibre.reduceAdd_maps reducesTo_S8x32x112x112_S8_d1_2_3 h_S_ (Read.val_main_v26 (F := Ideal) x)
    (Read.val_main_cst_7 (F := Ideal))
    (fun b p => (gmap X b p - mean (gmap X b)) * (gmap X b p - mean (gmap X b)))
    (fun b p => v26_val x X hx b p.1 p.2.1 p.2.2) Ideal.ofBits_zero_f32 b

/-- The unbiased standard deviation of a target map, kept with three unit axes. -/
theorem v31_val (b : Fin 8) :
    Read.val_main_v31 (F := Ideal) x (ix4 b (0 : Fin 1) (0 : Fin 1) (0 : Fin 1))
      = ((stdRef (gmap X b) : ℝ) : EReal) := by
  have hi : Read.idx_main_v28 (ix4 b (0 : Fin 1) (0 : Fin 1) (0 : Fin 1)) = ix1 b := by idx_eq1
  unfold stdRef
  rw [Read.val_main_v31_apply, Read.val_main_v30_apply, Read.val_main_v28_apply, Read.val_main_v29_apply,
    Read.val_main_cst_8_apply, hi, v27_val x X hx b, Ideal.hostDivf_def, Ideal.ofBits_def, ofBits_N1,
    Fibre.div_coe _ _ N1_ne, Ideal.hostUnary_sqrt_def, Fibre.sqrt_coe _ (var_ref_nonneg card_pix (gmap X b))]

/-- The mean of a target map, at every pixel (second copy). -/
theorem v32_val (b : Fin 8) (c : Fin 32) (h w : Fin 112) :
    Read.val_main_v32 (F := Ideal) x (ix4 b c h w) = ((mean (gmap X b) : ℝ) : EReal) := by
  have hi : Read.idx_main_v32 (ix4 b c h w) = ix4 b (0 : Fin 1) (0 : Fin 1) (0 : Fin 1) := by idx_eq4
  rw [Read.val_main_v32_apply, hi, v23_val x X hx b]

/-- The centred target map (second copy). -/
theorem v33_val (b : Fin 8) (c : Fin 32) (h w : Fin 112) :
    Read.val_main_v33 (F := Ideal) x (ix4 b c h w) = ((gmap X b (c, h, w) - mean (gmap X b) : ℝ) : EReal) := by
  rw [Read.val_main_v33_apply, xm_val x X hx, v32_val x X hx, Ideal.subf_def, ← EReal.coe_sub]

/-- The standard deviation of a target map, at every pixel. -/
theorem v34_val (b : Fin 8) (c : Fin 32) (h w : Fin 112) :
    Read.val_main_v34 (F := Ideal) x (ix4 b c h w) = ((stdRef (gmap X b) : ℝ) : EReal) := by
  have hi : Read.idx_main_v34 (ix4 b c h w) = ix4 b (0 : Fin 1) (0 : Fin 1) (0 : Fin 1) := by idx_eq4
  rw [Read.val_main_v34_apply, hi, v31_val x X hx b]

/-- The standardised target map: a map that is not constant has a non-zero standard deviation. -/
theorem v35_val (hX : NonDeg X) (b : Fin 8) (c : Fin 32) (h w : Fin 112) :
    Read.val_main_v35 (F := Ideal) x (ix4 b c h w) = ((zRef (gmap X b) (c, h, w) : ℝ) : EReal) := by
  unfold zRef
  rw [Read.val_main_v35_apply, v33_val x X hx, v34_val x X hx, Ideal.hostDivf_def,
    Fibre.div_coe _ _ (stdRef_ne card_pix (hX.2 b))]

/-! ## The three inner products of the standardised maps -/

/-- The standardised target map, squared. -/
theorem v36_val (hX : NonDeg X) (b : Fin 8) (c : Fin 32) (h w : Fin 112) :
    Read.val_main_v36 (F := Ideal) x (ix4 b c h w)
      = ((zRef (gmap X b) (c, h, w) * zRef (gmap X b) (c, h, w) : ℝ) : EReal) := by
  rw [Read.val_main_v36_apply, v35_val x X hx hX, Ideal.mulf_def, ← EReal.coe_mul]

/-- The sum of squares of the standardised target map. -/
theorem v37_val (hX : NonDeg X) (b : Fin 8) :
    Read.val_main_v37 (F := Ideal) x (ix1 b) = ((∑ p, zRef (gmap X b) p * zRef (gmap X b) p : ℝ) : EReal) :=
  Fibre.reduceAdd_maps reducesTo_S8x32x112x112_S8_d1_2_3 h_S_ (Read.val_main_v36 (F := Ideal) x)
    (Read.val_main_cst_9 (F := Ideal)) (fun b p => zRef (gmap X b) p * zRef (gmap X b) p)
    (fun b p => v36_val x X hx hX b p.1 p.2.1 p.2.2) Ideal.ofBits_zero_f32 b

/-- The standardised target map, read beside every frame of its batch entry. -/
theorem v39_val (hX : NonDeg X) (b : Fin 8) (t : Fin 16) (c : Fin 32) (h w : Fin 112) :
    Read.val_main_v39 (F := Ideal) x (ix5 b t c h w) = ((zRef (gmap X b) (c, h, w) : ℝ) : EReal) := by
  have hi : Read.idx_main_v39 (ix5 b t c h w) = ix5 b (0 : Fin 1) c h w := by idx_eq5
  have hj : Read.idx_main_v38 (ix5 b (0 : Fin 1) c h w) = ix4 b c h w := by idx_eq4
  rw [Read.val_main_v39_apply, hi, Read.val_main_v38_apply, hj, v35_val x X hx hX]

/-- The product of the two standardised maps. -/
theorem v40_val (hX : NonDeg X) (b : Fin 8) (t : Fin 16) (c : Fin 32) (h w : Fin 112) :
    Read.val_main_v40 (F := Ideal) x (ix5 b t c h w)
      = ((zRef (frame X b t) (c, h, w) * zRef (gmap X b) (c, h, w) : ℝ) : EReal) := by
  rw [Read.val_main_v40_apply, v19_val x X hx hX, v39_val x X hx hX, Ideal.mulf_def, ← EReal.coe_mul]

/-- The inner product of the two standardised maps. -/
theorem v41_val (hX : NonDeg X) (b : Fin 8) (t : Fin 16) :
    Read.val_main_v41 (F := Ideal) x (ix2 b t)
      = ((∑ p, zRef (frame X b t) p * zRef (gmap X b) p : ℝ) : EReal) :=
  Fibre.reduceAdd_frames reducesTo_S8x16x32x112x112_S8x16_d2_3_4 h_S_ (Read.val_main_v40 (F := Ideal) x)
    (Read.val_main_cst_10 (F := Ideal)) (fun b t p => zRef (frame X b t) p * zRef (gmap X b) p)
    (fun b t p => v40_val x X hx hX b t p.1 p.2.1 p.2.2) Ideal.ofBits_zero_f32 b t

/-- The standardised frame, squared. -/
theorem v42_val (hX : NonDeg X) (b : Fin 8) (t : Fin 16) (c : Fin 32) (h w : Fin 112) :
    Read.val_main_v42 (F := Ideal) x (ix5 b t c h w)
      = ((zRef (frame X b t) (c, h, w) * zRef (frame X b t) (c, h, w) : ℝ) : EReal) := by
  rw [Read.val_main_v42_apply, v19_val x X hx hX, Ideal.mulf_def, ← EReal.coe_mul]

/-- The sum of squares of the standardised frame. -/
theorem v43_val (hX : NonDeg X) (b : Fin 8) (t : Fin 16) :
    Read.val_main_v43 (F := Ideal) x (ix2 b t)
      = ((∑ p, zRef (frame X b t) p * zRef (frame X b t) p : ℝ) : EReal) :=
  Fibre.reduceAdd_frames reducesTo_S8x16x32x112x112_S8x16_d2_3_4 h_S_ (Read.val_main_v42 (F := Ideal) x)
    (Read.val_main_cst_11 (F := Ideal)) (fun b t p => zRef (frame X b t) p * zRef (frame X b t) p)
    (fun b t p => v42_val x X hx hX b t p.1 p.2.1 p.2.2) Ideal.ofBits_zero_f32 b t

/-- The sum of squares of the standardised target map, read beside every frame of its batch entry. -/
theorem v45_val (hX : NonDeg X) (b : Fin 8) (t : Fin 16) :
    Read.val_main_v45 (F := Ideal) x (ix2 b t) = ((∑ p, zRef (gmap X b) p * zRef (gmap X b) p : ℝ) : EReal) := by
  have hi : Read.idx_main_v45 (ix2 b t) = ix2 b (0 : Fin 1) := by idx_eq2
  have hj : Read.idx_main_v44 (ix2 b (0 : Fin 1)) = ix1 b := by idx_eq1
  rw [Read.val_main_v45_apply, hi, Read.val_main_v44_apply, hj, v37_val x X hx hX]

/-! ## CC: the inner product over the root of the product of the two sums of squares -/

/-- The reference's CC score of a frame against its target map. -/
theorem cc_val (hX : Cert.Weighting.NonDeg X) (b : Fin 8) (t : Fin 16) :
    Read.val_main_v48 (F := Ideal) x (ix2 b t)
      = ((Cert.Weighting.ccRef (Cert.Weighting.frame X b t) (Cert.Weighting.gmap X b) : ℝ) : EReal) := by
  unfold ccRef
  rw [Read.val_main_v48_apply, Read.val_main_v47_apply, Read.val_main_v46_apply, v41_val x X hx hX,
    v43_val x X hx hX, v45_val x X hx hX, Ideal.mulf_def, ← EReal.coe_mul, Ideal.hostUnary_sqrt_def,
    Fibre.sqrt_coe _ (ccRef_radicand_nonneg card_pix (frame X b t) (gmap X b)), Ideal.hostDivf_def,
    Fibre.div_coe _ _ (ccRef_den_ne card_pix (hX.1 b t) (hX.2 b))]

end Stages

end Cert.ReferenceIdeal.RVal

end
-- ==== Proof.RefSim.lean ====
/-
  The reference's SIM score, read as real numbers.

  A frame f (one per batch entry and time step) and a target map g (one per batch entry) are each brought to [0, 1] by
  their least and greatest value, then divided by the sum of the result; the score is the sum over the pixels of the
  pointwise minimum of the two normalised maps. No map is constant, so both divisors, greatest − least and the sum of
  the [0, 1] map, are non-zero real numbers, and every stage holds real numbers.
-/
import proofs.«171658_j72688026517959_1_alg».proof.Proof.RefRead
import proofs.«171658_j72688026517959_1_alg».proof.Proof.Spec
import proofs.«171658_j72688026517959_1_alg».proof.Proof.SpecLaws
import proofs.«171658_j72688026517959_1_alg».proof.Proof.LibFibre

noncomputable section

namespace Cert.ReferenceIdeal.RVal

open Cert.ReferenceIdeal Cert.ReferenceIdeal.Gen Cert.ReferenceIdeal.Read Idealize.ShloMosaic
  Idealize.ShloMosaic.ValueIdx Finset

/-- The reals sit in the extended reals in order, so the minimum of two reals is the minimum there. -/
theorem coe_min (a b : ℝ) : ((min a b : ℝ) : EReal) = min (a : EReal) (b : EReal) :=
  EReal.coe_strictMono.monotone.map_min

/-! ## The frames: [8, 16, 32, 112, 112], one map per batch entry and time step -/

section Frames

variable (x : FVec Ideal S8x32x16x112x112 .f32) (X : Weighting.Arr)
  (hxt : ∀ b t c h w, val_main_v3 (F := Ideal) x (ix5 b t c h w) = ((X b c t h w : ℝ) : EReal))
include hxt

/-- The least value of a frame. -/
theorem v49_val (b : Fin 8) (t : Fin 16) :
    val_main_v49 (F := Ideal) x (ix2 b t) = ((Weighting.lo (Weighting.frame X b t) : ℝ) : EReal) := by
  unfold val_main_v49
  exact Weighting.Fibre.reduceMin_frames reducesTo_S8x16x32x112x112_S8x16_d2_3_4 h_S_ (val_main_v3 (F := Ideal) x)
    (val_main_cst_12 (F := Ideal)) (fun b t p => Weighting.frame X b t p) (fun b t p => hxt b t p.1 p.2.1 p.2.2)
    Weighting.Fibre.ofBits_inf b t

/-- The greatest value of a frame. -/
theorem v51_val (b : Fin 8) (t : Fin 16) :
    val_main_v51 (F := Ideal) x (ix2 b t) = ((Weighting.hi (Weighting.frame X b t) : ℝ) : EReal) := by
  unfold val_main_v51
  exact Weighting.Fibre.reduceMax_frames reducesTo_S8x16x32x112x112_S8x16_d2_3_4 h_S_ (val_main_v3 (F := Ideal) x)
    (val_main_cst_13 (F := Ideal)) (fun b t p => Weighting.frame X b t p) (fun b t p => hxt b t p.1 p.2.1 p.2.2)
    Weighting.Fibre.ofBits_neg_inf b t

/-- A frame brought to [0, 1]: (f − least) / (greatest − least), the divisor a non-zero real. -/
theorem v57_val (b : Fin 8) (t : Fin 16) (hf : Weighting.NonConst (Weighting.frame X b t)) (c : Fin 32)
    (h w : Fin 112) :
    val_main_v57 (F := Ideal) x (ix5 b t c h w)
      = ((Weighting.unit01 (Weighting.frame X b t) (c, h, w) : ℝ) : EReal) := by
  have e53 : idx_main_v50 (idx_main_v53 (ix5 b t c h w)) = ix2 b t := by
    funext a; match a with | ⟨0, _⟩ => rfl | ⟨1, _⟩ => rfl
  have e56 : idx_main_v50 (idx_main_v56 (ix5 b t c h w)) = ix2 b t := by
    funext a; match a with | ⟨0, _⟩ => rfl | ⟨1, _⟩ => rfl
  have e56' : idx_main_v52 (idx_main_v56 (ix5 b t c h w)) = ix2 b t := by
    funext a; match a with | ⟨0, _⟩ => rfl | ⟨1, _⟩ => rfl
  have h53 : val_main_v53 (F := Ideal) x (ix5 b t c h w)
      = ((Weighting.lo (Weighting.frame X b t) : ℝ) : EReal) :=
    by rw [val_main_v53_apply, val_main_v50_apply, e53, v49_val x X hxt]
  have h56 : val_main_v56 (F := Ideal) x (ix5 b t c h w)
      = ((Weighting.hi (Weighting.frame X b t) - Weighting.lo (Weighting.frame X b t) : ℝ) : EReal) := by
    rw [val_main_v56_apply, val_main_v55_apply, val_main_v52_apply, val_main_v50_apply, e56, e56',
      v51_val x X hxt, v49_val x X hxt, Ideal.subf_def, ← EReal.coe_sub]
  rw [val_main_v57_apply, val_main_v54_apply, h53, h56, hxt, Ideal.subf_def, Ideal.hostDivf_def, ← EReal.coe_sub,
    Weighting.Fibre.div_coe _ _ (Weighting.hi_sub_lo_ne Weighting.card_pix hf)]
  rfl

variable (hF : ∀ b t, Weighting.NonConst (Weighting.frame X b t))
include hF

/-- The sum of the [0, 1] frame over its pixels. -/
theorem v58_val (b : Fin 8) (t : Fin 16) :
    val_main_v58 (F := Ideal) x (ix2 b t)
      = ((∑ p, Weighting.unit01 (Weighting.frame X b t) p : ℝ) : EReal) := by
  unfold val_main_v58
  exact Weighting.Fibre.reduceAdd_frames reducesTo_S8x16x32x112x112_S8x16_d2_3_4 h_S_ (val_main_v57 (F := Ideal) x)
    (val_main_cst_14 (F := Ideal)) (fun b t p => Weighting.unit01 (Weighting.frame X b t) p)
    (fun b t p => v57_val x X hxt b t (hF b t) p.1 p.2.1 p.2.2) Ideal.ofBits_zero_f32 b t

/-- A frame normalised to sum 1: the [0, 1] frame over its sum, a non-zero real. -/
theorem v61_val (b : Fin 8) (t : Fin 16) (c : Fin 32) (h w : Fin 112) :
    val_main_v61 (F := Ideal) x (ix5 b t c h w)
      = ((Weighting.normRef (Weighting.frame X b t) (c, h, w) : ℝ) : EReal) := by
  have e60 : idx_main_v59 (idx_main_v60 (ix5 b t c h w)) = ix2 b t := by
    funext a; match a with | ⟨0, _⟩ => rfl | ⟨1, _⟩ => rfl
  have h60 : val_main_v60 (F := Ideal) x (ix5 b t c h w)
      = ((∑ p, Weighting.unit01 (Weighting.frame X b t) p : ℝ) : EReal) :=
    by rw [val_main_v60_apply, val_main_v59_apply, e60, v58_val x X hxt hF]
  rw [val_main_v61_apply, h60, v57_val x X hxt b t (hF b t), Ideal.hostDivf_def,
    Weighting.Fibre.div_coe _ _ (Weighting.sum_unit01_ne Weighting.card_pix (hF b t))]
  rfl

end Frames

/-! ## The target maps: [8, 32, 112, 112], one map per batch entry -/

section Maps

variable (x : FVec Ideal S8x32x16x112x112 .f32) (X : Weighting.Arr)
  (hxm : ∀ b c h w, val_main_v2 (F := Ideal) x (ix4 b c h w) = ((Weighting.gmap X b (c, h, w) : ℝ) : EReal))
include hxm

/-- The least value of a target map. -/
theorem v62_val (b : Fin 8) :
    val_main_v62 (F := Ideal) x (ix1 b) = ((Weighting.lo (Weighting.gmap X b) : ℝ) : EReal) := by
  unfold val_main_v62
  exact Weighting.Fibre.reduceMin_maps reducesTo_S8x32x112x112_S8_d1_2_3 h_S_ (val_main_v2 (F := Ideal) x)
    (val_main_cst_15 (F := Ideal)) (fun b p => Weighting.gmap X b p) (fun b p => hxm b p.1 p.2.1 p.2.2)
    Weighting.Fibre.ofBits_inf b

/-- The greatest value of a target map. -/
theorem v64_val (b : Fin 8) :
    val_main_v64 (F := Ideal) x (ix1 b) = ((Weighting.hi (Weighting.gmap X b) : ℝ) : EReal) := by
  unfold val_main_v64
  exact Weighting.Fibre.reduceMax_maps reducesTo_S8x32x112x112_S8_d1_2_3 h_S_ (val_main_v2 (F := Ideal) x)
    (val_main_cst_16 (F := Ideal)) (fun b p => Weighting.gmap X b p) (fun b p => hxm b p.1 p.2.1 p.2.2)
    Weighting.Fibre.ofBits_neg_inf b

/-- A target map brought to [0, 1]. -/
theorem v70_val (b : Fin 8) (hg : Weighting.NonConst (Weighting.gmap X b)) (c : Fin 32) (h w : Fin 112) :
    val_main_v70 (F := Ideal) x (ix4 b c h w)
      = ((Weighting.unit01 (Weighting.gmap X b) (c, h, w) : ℝ) : EReal) := by
  have e66 : idx_main_v63 (idx_main_v66 (ix4 b c h w)) = ix1 b := by
    funext a; match a with | ⟨0, _⟩ => rfl
  have e69 : idx_main_v63 (idx_main_v69 (ix4 b c h w)) = ix1 b := by
    funext a; match a with | ⟨0, _⟩ => rfl
  have e69' : idx_main_v65 (idx_main_v69 (ix4 b c h w)) = ix1 b := by
    funext a; match a with | ⟨0, _⟩ => rfl
  have h66 : val_main_v66 (F := Ideal) x (ix4 b c h w) = ((Weighting.lo (Weighting.gmap X b) : ℝ) : EReal) :=
    by rw [val_main_v66_apply, val_main_v63_apply, e66, v62_val x X hxm]
  have h69 : val_main_v69 (F := Ideal) x (ix4 b c h w)
      = ((Weighting.hi (Weighting.gmap X b) - Weighting.lo (Weighting.gmap X b) : ℝ) : EReal) := by
    rw [val_main_v69_apply, val_main_v68_apply, val_main_v65_apply, val_main_v63_apply, e69, e69',
      v64_val x X hxm, v62_val x X hxm, Ideal.subf_def, ← EReal.coe_sub]
  rw [val_main_v70_apply, val_main_v67_apply, h66, h69, hxm, Ideal.subf_def, Ideal.hostDivf_def, ← EReal.coe_sub,
    Weighting.Fibre.div_coe _ _ (Weighting.hi_sub_lo_ne Weighting.card_pix hg)]
  rfl

variable (hG : ∀ b, Weighting.NonConst (Weighting.gmap X b))
include hG

/-- The sum of the [0, 1] target map over its pixels. -/
theorem v71_val (b : Fin 8) :
    val_main_v71 (F := Ideal) x (ix1 b) = ((∑ p, Weighting.unit01 (Weighting.gmap X b) p : ℝ) : EReal) := by
  unfold val_main_v71
  exact Weighting.Fibre.reduceAdd_maps reducesTo_S8x32x112x112_S8_d1_2_3 h_S_ (val_main_v70 (F := Ideal) x)
    (val_main_cst_17 (F := Ideal)) (fun b p => Weighting.unit01 (Weighting.gmap X b) p)
    (fun b p => v70_val x X hxm b (hG b) p.1 p.2.1 p.2.2) Ideal.ofBits_zero_f32 b

/-- A target map normalised to sum 1. -/
theorem v74_val (b : Fin 8) (c : Fin 32) (h w : Fin 112) :
    val_main_v74 (F := Ideal) x (ix4 b c h w)
      = ((Weighting.normRef (Weighting.gmap X b) (c, h, w) : ℝ) : EReal) := by
  have e73 : idx_main_v72 (idx_main_v73 (ix4 b c h w)) = ix1 b := by
    funext a; match a with | ⟨0, _⟩ => rfl
  have h73 : val_main_v73 (F := Ideal) x (ix4 b c h w)
      = ((∑ p, Weighting.unit01 (Weighting.gmap X b) p : ℝ) : EReal) :=
    by rw [val_main_v73_apply, val_main_v72_apply, e73, v71_val x X hxm hG]
  rw [val_main_v74_apply, h73, v70_val x X hxm b (hG b), Ideal.hostDivf_def,
    Weighting.Fibre.div_coe _ _ (Weighting.sum_unit01_ne Weighting.card_pix (hG b))]
  rfl

/-- The normalised target map of a batch entry, repeated for each of its time steps. -/
theorem v76_val (b : Fin 8) (t : Fin 16) (c : Fin 32) (h w : Fin 112) :
    val_main_v76 (F := Ideal) x (ix5 b t c h w)
      = ((Weighting.normRef (Weighting.gmap X b) (c, h, w) : ℝ) : EReal) := by
  have e76 : idx_main_v75 (idx_main_v76 (ix5 b t c h w)) = ix4 b c h w := by
    funext a; match a with | ⟨0, _⟩ => rfl | ⟨1, _⟩ => rfl | ⟨2, _⟩ => rfl | ⟨3, _⟩ => rfl
  rw [val_main_v76_apply, val_main_v75_apply, e76, v74_val x X hxm hG]

end Maps

/-! ## The score -/

/-- The pointwise minimum of the normalised frame and the normalised target map. -/
theorem v77_val (x : FVec Ideal S8x32x16x112x112 .f32) (X : Weighting.Arr) (hX : Weighting.NonDeg X)
    (hxt : ∀ b t c h w, val_main_v3 (F := Ideal) x (ix5 b t c h w) = ((X b c t h w : ℝ) : EReal))
    (hxm : ∀ b c h w, val_main_v2 (F := Ideal) x (ix4 b c h w) = ((Weighting.gmap X b (c, h, w) : ℝ) : EReal))
    (b : Fin 8) (t : Fin 16) (c : Fin 32) (h w : Fin 112) :
    val_main_v77 (F := Ideal) x (ix5 b t c h w)
      = ((min (Weighting.normRef (Weighting.frame X b t) (c, h, w))
            (Weighting.normRef (Weighting.gmap X b) (c, h, w)) : ℝ) : EReal) := by
  rw [val_main_v77_apply, v61_val x X hxt hX.1, v76_val x X hxm hX.2, Ideal.minimumf_def, ← coe_min]

/-- SIM of a frame against the target map of its batch entry: the sum over the pixels of the pointwise minimum of the
    two normalised maps. -/
theorem sim_val (x : FVec Ideal S8x32x16x112x112 .f32) (X : Weighting.Arr) (hX : Weighting.NonDeg X)
    (hxt : ∀ b t c h w, val_main_v3 (F := Ideal) x (ix5 b t c h w) = ((X b c t h w : ℝ) : EReal))
    (hxm : ∀ b c h w, val_main_v2 (F := Ideal) x (ix4 b c h w) = ((Weighting.gmap X b (c, h, w) : ℝ) : EReal))
    (b : Fin 8) (t : Fin 16) :
    val_main_v78 (F := Ideal) x (ix2 b t)
      = ((Weighting.simRef (Weighting.frame X b t) (Weighting.gmap X b) : ℝ) : EReal) := by
  unfold val_main_v78
  exact Weighting.Fibre.reduceAdd_frames reducesTo_S8x16x32x112x112_S8x16_d2_3_4 h_S_ (val_main_v77 (F := Ideal) x)
    (val_main_cst_18 (F := Ideal))
    (fun b t p => min (Weighting.normRef (Weighting.frame X b t) p) (Weighting.normRef (Weighting.gmap X b) p))
    (fun b t p => v77_val x X hX hxt hxm b t p.1 p.2.1 p.2.2) Ideal.ofBits_zero_f32 b t

end Cert.ReferenceIdeal.RVal

end
-- ==== Proof.RefTail.lean ====
/-
  The reference's last stretch. From its two score arrays (CC and SIM, one number per batch entry and time step) the
  reference computes the weight by the very operations the shared tail function is made of, so its weight array IS
  that function of its two score arrays. The result is the input times the weight of its batch entry and time step,
  the weight being the same for every channel, row and column.
-/
import proofs.«171658_j72688026517959_1_alg».proof.Proof.RefRead
import proofs.«171658_j72688026517959_1_alg».proof.Proof.Tail
import Idealize.ShloMosaic.Lib.ValueIdx

noncomputable section

namespace Cert.ReferenceIdeal.RVal

open Cert.ReferenceIdeal Cert.ReferenceIdeal.Gen Cert.ReferenceIdeal.Read Idealize.ShloMosaic
  Idealize.ShloMosaic.ValueIdx

/-- The reference's weight array is the tail function of its CC and SIM arrays. -/
theorem v90_eq (x : FVec Ideal S8x32x16x112x112 .f32) :
    val_main_v90 (F := Ideal) x
      = Weighting.tailW bcast_S_S8x16 reducesTo_S8x16_S8_d1 h_S_ bcast_S8_S8x1_0 bcast_S8x1_S8x16_0_1
          (val_main_v48 (F := Ideal) x) (val_main_v78 (F := Ideal) x) := by
  unfold val_main_v90 val_main_v89 val_main_v88 val_main_v87 val_main_v86 val_main_v85 val_main_v84 val_main_v83
    val_main_v82 val_main_v81 val_main_v80 val_main_v79 val_main_cst_19 val_main_cst_20 val_main_cst_21
    val_main_cst_22 Weighting.tailW
  generalize val_main_v48 (F := Ideal) x = cc
  generalize val_main_v78 (F := Ideal) x = sim
  rfl

/-- The result at (b, c, t, h, w) is the input there times the weight of (b, t). -/
theorem result_val (x : FVec Ideal S8x32x16x112x112 .f32) (b : Fin 8) (c : Fin 32) (t : Fin 16) (h w : Fin 112) :
    val_main_v93 (F := Ideal) x (ix5 b c t h w)
      = x (ix5 b c t h w)
          * Weighting.tailW bcast_S_S8x16 reducesTo_S8x16_S8_d1 h_S_ bcast_S8_S8x1_0 bcast_S8x1_S8x16_0_1
              (val_main_v48 (F := Ideal) x) (val_main_v78 (F := Ideal) x) (ix2 b t) := by
  have e : idx_main_v91 (idx_main_v92 (ix5 b c t h w)) = ix2 b t := by
    funext a; match a with | ⟨0, _⟩ => rfl | ⟨1, _⟩ => rfl
  have hw : val_main_v92 (F := Ideal) x (ix5 b c t h w)
      = Weighting.tailW bcast_S_S8x16 reducesTo_S8x16_S8_d1 h_S_ bcast_S8_S8x1_0 bcast_S8x1_S8x16_0_1
          (val_main_v48 (F := Ideal) x) (val_main_v78 (F := Ideal) x) (ix2 b t) :=
    by rw [val_main_v92_apply, val_main_v91_apply, e, v90_eq]
  exact (val_main_v93_apply (F := Ideal) x _).trans (congrArg (fun y => x (ix5 b c t h w) * y) hw)

end Cert.ReferenceIdeal.RVal

end
-- ==== Proof.PreDecode.lean ====
/-
  The precondition read back. The predicate says three things of the input x[b, c, t, h, w]: every entry has absolute
  value below +∞; for every (b, t) the least value of the frame (c, h, w) ↦ x[b, c, t, h, w] is below its greatest; and
  for every b the least value of the target map (the mean of the 16 frames of b) is below its greatest. Each is an
  "all" over an array of comparisons, and the three are joined by "and".

  From the first, every entry is neither +∞ nor -∞, so it is a real number: the real array X is the entrywise real part.
  Then the frames and the target maps of x are the frames and the target maps of X, their least and greatest values are
  the real ones, and a real map whose least value is below its greatest takes two different values: no frame and no
  target map of X is constant.
-/
import proofs.«171658_j72688026517959_1_alg».proof.Pre_finite_inputs
import proofs.«171658_j72688026517959_1_alg».proof.Proof.Spec
import proofs.«171658_j72688026517959_1_alg».proof.Proof.SpecLaws
import proofs.«171658_j72688026517959_1_alg».proof.Proof.LibFibre
import Idealize.ShloMosaic.Lib.ReduceAll
import Idealize.ShloMosaic.Lib.ValueIdx
import Idealize.ShloMosaic.Lib.IdealHost
import Idealize.ShloMosaic.PureOps.Ideal.Laws
import Idealize.ShloMosaic.Lib.Pipeline.Value

noncomputable section

namespace Cert.Weighting.Pre

open Idealize.ShloMosaic Idealize.ShloMosaic.ValueIdx Cert.Pre_finite_inputs Cert.Pre_finite_inputs.Facts Finset

/-- The one index of a rank-0 array: any two indices are equal. -/
instance : Subsingleton S_.Idx := ⟨fun a b => funext fun d => d.elim0⟩

/-- An ordered "less than" on the extended reals that came out true says the order holds. -/
theorem lt_of_cmp_olt {a b : EReal} (h : Ideal.cmp .olt a b = 1#1) : a < b := by
  by_contra hn
  simp [Ideal.cmp, hn] at h

/-- An extended real whose absolute value max a (-a) is below +∞ is neither +∞ nor -∞: it is a real number. -/
theorem real_of_abs_lt_top (a : EReal) (h : Ideal.cmp .olt (max a (-a)) ⊤ = 1#1) : a = ((a.toReal : ℝ) : EReal) := by
  have hlt : max a (-a) < ⊤ := lt_of_cmp_olt h
  have h1 : a ≠ ⊤ := by rintro rfl; simp at hlt
  have h2 : a ≠ ⊥ := by rintro rfl; simp at hlt
  exact (EReal.coe_toReal h1 h2).symm

section
variable [Facts]

/-- The array with time moved before channel, read at (b, t, c, h, w), is the input at (b, c, t, h, w). -/
theorem tr_apply (x : FVec Ideal S8x32x16x112x112 .f32) (b : Fin 8) (t : Fin 16) (c : Fin 32) (i j : Fin 112) :
    transpose S8x16x32x112x112 [0, 2, 1, 3, 4] x transposes_S8x32x16x112x112_S8x16x32x112x112_0_2_1_3_4 (ix5 b t c i j)
      = x (ix5 b c t i j) :=
  transpose_apply [0, 2, 1, 3, 4] x _ (ix5 b t c i j) (ix5 b c t i j) (fun a => match a with
    | ⟨0, _⟩ => rfl | ⟨1, _⟩ => rfl | ⟨2, _⟩ => rfl | ⟨3, _⟩ => rfl | ⟨4, _⟩ => rfl)

/-- The sum over time divided by 16, read at (b, c, h, w), is the target map of b at the pixel (c, h, w). -/
theorem gm_apply (x : FVec Ideal S8x32x16x112x112 .f32) (X : Arr)
    (hX : ∀ b c t h w, x (ix5 b c t h w) = ((X b c t h w : ℝ) : EReal)) (b : Fin 8) (c : Fin 32) (i j : Fin 112) :
    Host.divf (Host.reduceAdd x (constant S_ .f32 0x00000000#32) reducesTo_S8x32x16x112x112_S8x32x112x112_d2 h_S_)
        (broadcastInDim S8x32x112x112 ![] bcast_S_S8x32x112x112 (constant S_ .f32 0x41800000#32)) (ix4 b c i j)
      = ((gmap X b (c, i, j) : ℝ) : EReal) := by
  have hs : Ideal.hostReduceAdd reducesTo_S8x32x16x112x112_S8x32x112x112_d2 x 0 (ix4 b c i j)
      = ((∑ t, X b c t i j : ℝ) : EReal) := by
    rw [Ideal.hostReduceAdd_single reducesTo_S8x32x16x112x112_S8x32x112x112_d2 (by decide), zero_add, Fibre.coe_sum]
    refine Finset.sum_congr rfl fun k _ => ?_
    refine (congrArg x (funext fun a => Fin.ext ?_)).trans (hX b c k i j)
    match a with | ⟨0, _⟩ => rfl | ⟨1, _⟩ => rfl | ⟨2, _⟩ => rfl | ⟨3, _⟩ => rfl | ⟨4, _⟩ => rfl
  rw [hostDivf_apply, hostReduceAdd_apply, broadcastInDim_scalar_apply, constant_apply, constant_apply, Fibre.ofBits_16,
    Ideal.ofBits_zero_f32, hs, Fibre.div_coe _ _ (by norm_num)]
  rfl

end

/-- The printed precondition, read back: every entry of the input is a real number, no frame is constant and no target
    map is constant. The three conjuncts are "|x| < +∞ everywhere", "min < max of every frame" and "min < max of every
    target map"; the first gives the real array, the other two compare the least and the greatest value of a map, and a
    map whose least value is below its greatest takes two different values. -/
theorem decode [Cert.Pre_finite_inputs.Facts] (x : FVec Ideal Cert.Pre_finite_inputs.S8x32x16x112x112 .f32)
    (h : Cert.Pre_finite_inputs.fn (F := Ideal) x = fun _ => 1#1) :
    ∃ X : Cert.Weighting.Arr, (∀ b c t h w, x (ValueIdx.ix5 b c t h w) = ((X b c t h w : ℝ) : EReal)) ∧ Cert.Weighting.NonDeg X := by
  have h0 := congrFun h ix0
  dsimp only [fn, fn_part1, andi] at h0
  obtain ⟨h12, hC⟩ := IntOp.andi_eq_one.1 h0
  obtain ⟨hA, hB⟩ := IntOp.andi_eq_one.1 h12
  have eA := Host.reduce_andi_all _ _ _ _ _ hA
  have eB := Host.reduce_andi_all _ _ _ _ _ hB
  have eC := Host.reduce_andi_all _ _ _ _ _ hC
  clear h0 h12 hA hB hC
  -- every entry is a real number
  have hX : ∀ b c t i j, x (ix5 b c t i j) = (((x (ix5 b c t i j)).toReal : ℝ) : EReal) := fun b c t i j =>
    real_of_abs_lt_top _ (by
      have e := eA (ix5 b c t i j)
      rw [cmpf_apply, broadcastInDim_scalar_apply, constant_apply, Fibre.ofBits_inf] at e
      exact e)
  refine ⟨fun b c t i j => (x (ix5 b c t i j)).toReal, hX, fun b t => ?_, fun b => ?_⟩
  · -- the least value of the frame (b, t) is below its greatest
    refine nonConst_of_lo_lt_hi card_pix ?_
    have e := eB (ix2 b t)
    have hy : ∀ b t (p : Fibre.Px),
        transpose S8x16x32x112x112 [0, 2, 1, 3, 4] x transposes_S8x32x16x112x112_S8x16x32x112x112_0_2_1_3_4
            (ix5 b t p.1 p.2.1 p.2.2)
          = ((frame (fun b c t i j => (x (ix5 b c t i j)).toReal) b t p : ℝ) : EReal) := fun b t p => by
      rw [tr_apply]; exact hX _ _ _ _ _
    rw [cmpf_apply,
      Fibre.reduceMin_frames reducesTo_S8x16x32x112x112_S8x16_d2_3_4 h_S_ _ _ _ hy (by rw [constant_apply]; exact Fibre.ofBits_inf) b t,
      Fibre.reduceMax_frames reducesTo_S8x16x32x112x112_S8x16_d2_3_4 h_S_ _ _ _ hy (by rw [constant_apply]; exact Fibre.ofBits_neg_inf) b t]
      at e
    exact EReal.coe_lt_coe_iff.1 (lt_of_cmp_olt e)
  · -- the least value of the target map of b is below its greatest
    refine nonConst_of_lo_lt_hi card_pix ?_
    have e := eC (ix1 b)
    have hy : ∀ b (p : Fibre.Px),
        Host.divf (Host.reduceAdd x (constant S_ .f32 0x00000000#32) reducesTo_S8x32x16x112x112_S8x32x112x112_d2 h_S_)
            (broadcastInDim S8x32x112x112 ![] bcast_S_S8x32x112x112 (constant S_ .f32 0x41800000#32)) (ix4 b p.1 p.2.1 p.2.2)
          = ((gmap (fun b c t i j => (x (ix5 b c t i j)).toReal) b p : ℝ) : EReal) := fun b p =>
      gm_apply x _ hX b p.1 p.2.1 p.2.2
    rw [cmpf_apply,
      Fibre.reduceMin_maps reducesTo_S8x32x112x112_S8_d1_2_3 h_S_ _ _ _ hy (by rw [constant_apply]; exact Fibre.ofBits_inf) b,
      Fibre.reduceMax_maps reducesTo_S8x32x112x112_S8_d1_2_3 h_S_ _ _ _ hy (by rw [constant_apply]; exact Fibre.ofBits_neg_inf) b]
      at e
    exact EReal.coe_lt_coe_iff.1 (lt_of_cmp_olt e)

end Cert.Weighting.Pre

end
-- ==== Proof.Algebraic.lean ====
/-
  The five claims. The two programs return x · w[b, t] with the same weight function of the two score arrays
  (CC and SIM), so the result arrays agree as soon as the score arrays do; and they do wherever no frame and no
  target map is constant: there the kernel's covariance form of CC is the reference's normalised inner product of the
  standardised maps, and the kernel's one-scale-one-shift normalisation is the reference's two divisions.
-/
import proofs.«171658_j72688026517959_1_alg».proof.Defs
import proofs.«171658_j72688026517959_1_alg».proof.Proof.Gen.Kernel
import proofs.«171658_j72688026517959_1_alg».proof.Proof.Gen.Kernel.Frame
import proofs.«171658_j72688026517959_1_alg».proof.Proof.Gen.KernelIdeal
import proofs.«171658_j72688026517959_1_alg».proof.Proof.Gen.KernelIdeal.Frame
import proofs.«171658_j72688026517959_1_alg».proof.Proof.Gen.ReferenceIdeal
import proofs.«171658_j72688026517959_1_alg».proof.Proof.Gen.Pre_finite_inputs
import proofs.«171658_j72688026517959_1_alg».proof.Proof.KLaunch
import proofs.«171658_j72688026517959_1_alg».proof.Proof.KValue
import proofs.«171658_j72688026517959_1_alg».proof.Proof.RefRun
import proofs.«171658_j72688026517959_1_alg».proof.Proof.RefBase
import proofs.«171658_j72688026517959_1_alg».proof.Proof.RefCC
import proofs.«171658_j72688026517959_1_alg».proof.Proof.RefSim
import proofs.«171658_j72688026517959_1_alg».proof.Proof.RefTail
import proofs.«171658_j72688026517959_1_alg».proof.Proof.PreDecode
import proofs.«171658_j72688026517959_1_alg».proof.Proof.SpecLaws

noncomputable section

namespace Cert.Proof.Claims

open Idealize.ShloMosaic Idealize.ShloMosaic.TcCoe Idealize.ShloMosaic.ValueIdx Idealize.SL.Sem Cert.Weighting

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RRun.run (F := Ideal) m ρ)

theorem preserves : Cert.preserves_Kernel_KernelIdeal := trivial

/-- Under the precondition the reference's last stage of the argument array is what the kernel program's third
    region leaves in the result array: index by index both are x · w[b, t], and the two score arrays under the
    weight function agree entry by entry (CC by the covariance identity, SIM by the normalisation identity). -/
theorem value_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.Read.val_main_v93 (F := Ideal)
        (m ((c.tc : Thread Cert.KernelIdeal.nD Cert.KernelIdeal.τ).loc Cert.KernelIdeal.main_arg0))
      = Cert.KernelIdeal.Gen.W5 m ρ c (Proc.devRef .tc Cert.KernelIdeal.main_v84) := by
  obtain ⟨X, hx, hX⟩ := Cert.Weighting.Pre.decode _ (hpre c)
  funext i
  obtain ⟨b, c', t, h, w, rfl⟩ : ∃ b c' t h w, i = ix5 b c' t h w := ⟨i 0, i 1, i 2, i 3, i 4, eq_ix5 i⟩
  refine (Cert.ReferenceIdeal.RVal.result_val _ b c' t h w).trans ?_
  refine Eq.trans ?_ (Cert.KernelIdeal.KVal.kval_out m ρ c b c' t h w).symm
  have hcc : Cert.ReferenceIdeal.Read.val_main_v48 (F := Ideal)
        (m ((c.tc : Thread Cert.KernelIdeal.nD Cert.KernelIdeal.τ).loc Cert.KernelIdeal.main_arg0))
      = Cert.KernelIdeal.Gen.W3 m ρ c (Proc.devRef .tc Cert.KernelIdeal.main_v40) := by
    funext j
    obtain ⟨b', t', rfl⟩ : ∃ b' t', j = ix2 b' t' := ⟨j 0, j 1, eq_ix2 j⟩
    rw [Cert.ReferenceIdeal.RVal.cc_val _ X hx hX b' t']
    refine Eq.trans ?_ (Cert.KernelIdeal.KVal.kval_cc m ρ c X hx hX b' t').symm
    rw [ccKer_eq_ccRef card_pix (hX.1 b' t') (hX.2 b')]
  have hsim : Cert.ReferenceIdeal.Read.val_main_v78 (F := Ideal)
        (m ((c.tc : Thread Cert.KernelIdeal.nD Cert.KernelIdeal.τ).loc Cert.KernelIdeal.main_arg0))
      = shapeCast Cert.KernelIdeal.S8x16 (Cert.KernelIdeal.Gen.W3 m ρ c (Proc.devRef .tc Cert.KernelIdeal.main_v69))
          Cert.KernelIdeal.Gen.shapeCasts_S8x1x16_S8x16 := by
    funext j
    obtain ⟨b', t', rfl⟩ : ∃ b' t', j = ix2 b' t' := ⟨j 0, j 1, eq_ix2 j⟩
    rw [Cert.ReferenceIdeal.RVal.sim_val _ X hX (Cert.ReferenceIdeal.RVal.xt_val _ X hx) (Cert.ReferenceIdeal.RVal.xm_val _ X hx) b' t']
    refine Eq.trans ?_ (Cert.KernelIdeal.KVal.reshape_sim_apply _ b' t').symm
    refine Eq.trans ?_ (Cert.KernelIdeal.KVal.kval_sim m ρ c X hx hX b' t').symm
    rw [simKer_eq_simRef card_pix (hX.1 b' t') (hX.2 b')]
  rw [hcc, hsim]

theorem algebraic : Cert.algebraic_KernelIdeal_ReferenceIdeal := by
  intro m ρ m' ρ' hpre hagree
  refine ⟨fun c => Cert.KernelIdeal.Gen.W5 m ρ c (Proc.devRef .tc Cert.KernelIdeal.main_v84),
    Cert.KernelIdeal.GenRun.run (F := Ideal) m ρ, ?_⟩
  refine (θ_run Cert.ReferenceIdeal.defs _ _).mono (fun _ h c => ⟨(h c).1.trans ?_, (h c).2⟩)
    (Cert.ReferenceIdeal.RRun.run (F := Ideal) m' ρ')
  rw [hagree c]
  exact value_eq m ρ hpre c

end Cert.Proof.Claims

end
-- ==== Proof.lean ====
/-
  The certificate of the CC / SIM saliency reweighting: x[b, c, t, h, w] · w[b, t] with
  w = exp (s / max over t of s), s = 1 − (0.3 · CC + 0.7 · SIM), where CC and SIM compare the frame (c, h, w) ↦ x[b, c, t, h, w]
  with the mean of the 16 frames of b.

  The kernel program computes per-frame sums, extremes and the cross term with the target map in a first pass over
  x, turns them into CC (covariance form) and into one scale and one shift per map on the host, sums the pointwise
  minimum of the normalised maps in a second pass, and multiplies in a third. The reference standardises and
  normalises the maps themselves. At the extended reals the two agree wherever every input is finite, no frame is
  constant and no target map is constant — the precondition: on a constant map the reference itself divides zero by
  zero. There every intermediate value is a real number and every divisor a non-zero one, and the agreement is the
  variance, covariance and normalisation identities of Proof/SpecLaws.lean, read off the two programs stage by stage
  (the modules under Proof/) and joined in Proof/Algebraic.lean. The idealization rewrote nothing, so `preserves` is
  trivial.
-/
import proofs.«171658_j72688026517959_1_alg».proof.Defs
import proofs.«171658_j72688026517959_1_alg».proof.Proof.Gen.Kernel
import proofs.«171658_j72688026517959_1_alg».proof.Proof.Gen.KernelIdeal
import proofs.«171658_j72688026517959_1_alg».proof.Proof.Gen.ReferenceIdeal
import proofs.«171658_j72688026517959_1_alg».proof.Proof.Gen.Pre_finite_inputs
import proofs.«171658_j72688026517959_1_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
